-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v27)) (v2 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_v27) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_v84) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x2x128 : Shape := ⟨3, ![256, 2, 128]⟩
abbrev S256 : Shape := ⟨1, ![256]⟩
abbrev S4096x128 : Shape := ⟨2, ![4096, 128]⟩
abbrev S4096 : Shape := ⟨1, ![4096]⟩
abbrev S_ : Shape := ⟨0, ![]⟩

class Facts : Prop where
  bcast_S_S256x2x128 : S_.BroadcastsInDim S256x2x128 (![] : Fin 0 → Fin S256x2x128.rank)
  reducesTo_S256x2x128_S_d0_1_2 : S256x2x128.ReducesTo [0, 1, 2] S_
  h_S_ : 0 < S_.numel
  bcast_S_S4096x128 : S_.BroadcastsInDim S4096x128 (![] : Fin 0 → Fin S4096x128.rank)
  reducesTo_S4096x128_S_d0_1 : S4096x128.ReducesTo [0, 1] S_

variable [Facts]

def fn {F : FTy → Type} [FloatOps F] (main_arg0 : FVec F S256x2x128 .f32) (main_arg1 : IVec S256 32) (main_arg2 : FVec F S4096x128 .f32) (main_arg3 : FVec F S4096x128 .f32) (main_arg4 : IVec S4096 32) : IVec S_ 1 :=
  let main_v0 : FVec F S256x2x128 .f32 := Host.absf main_arg0
  let main_cst : FVec F S_ .f32 := constant S_ .f32 0x7F800000#32
  let main_v1 : FVec F S256x2x128 .f32 := broadcastInDim S256x2x128 ![] bcast_S_S256x2x128 main_cst
  let main_v2 : IVec S256x2x128 1 := cmpf .olt main_v0 main_v1
  let main_c : IVec S_ 1 := constantI S_ 1 1#1
  let main_v3 : IVec S_ 1 := (fun x v => Host.reduce IntOp.andi x v reducesTo_S256x2x128_S_d0_1_2 h_S_) main_v2 main_c
  let main_v4 : FVec F S4096x128 .f32 := Host.absf main_arg2
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S4096x128 .f32 := Host.absf main_arg3
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  main_v13
-- ==== Kernel.lean ====
abbrev S256x2x128 : Shape := ⟨3, ![256, 2, 128]⟩
abbrev S256 : Shape := ⟨1, ![256]⟩
abbrev S4096x128 : Shape := ⟨2, ![4096, 128]⟩
abbrev S4096 : Shape := ⟨1, ![4096]⟩
abbrev S512x128 : Shape := ⟨2, ![512, 128]⟩
abbrev S256x128 : Shape := ⟨2, ![256, 128]⟩
abbrev S_ : Shape := ⟨0, ![]⟩
abbrev S1 : Shape := ⟨1, ![1]⟩
abbrev S4352 : Shape := ⟨1, ![4352]⟩
abbrev S8704 : Shape := ⟨1, ![8704]⟩
abbrev S4352x128 : Shape := ⟨2, ![4352, 128]⟩
abbrev S8704x128 : Shape := ⟨2, ![8704, 128]⟩
abbrev S4352x1 : Shape := ⟨2, ![4352, 1]⟩
abbrev S1x8704 : Shape := ⟨2, ![1, 8704]⟩
abbrev S2176x128 : Shape := ⟨2, ![2176, 128]⟩
abbrev S256x1 : Shape := ⟨2, ![256, 1]⟩
abbrev S1x2176 : Shape := ⟨2, ![1, 2176]⟩
abbrev S128x2176 : Shape := ⟨2, ![128, 2176]⟩
abbrev S256x2176 : Shape := ⟨2, ![256, 2176]⟩

abbrev nBuf : Space → Nat
  | .hbm => 41
  | .vmem => 32
  | .smem => 0
  | _ => 0

abbrev bufTy : (tb : Table) → Fin (tcTables nBuf tb) → BufTy
  | .hbm, ⟨0, _⟩ => ⟨S256x2x128, .f32⟩
  | .hbm, ⟨1, _⟩ => ⟨S256, .i32⟩
  | .hbm, ⟨2, _⟩ => ⟨S4096x128, .f32⟩
  | .hbm, ⟨3, _⟩ => ⟨S4096x128, .f32⟩
  | .hbm, ⟨4, _⟩ => ⟨S4096, .i32⟩
  | .hbm, ⟨5, _⟩ => ⟨S512x128, .f32⟩
  | .hbm, ⟨6, _⟩ => ⟨S256x128, .f32⟩
  | .hbm, ⟨7, _⟩ => ⟨S256x128, .f32⟩
  | .hbm, ⟨8, _⟩ => ⟨S_, .i32⟩
  | .hbm, ⟨9, _⟩ => ⟨S1, .i32⟩
  | .hbm, ⟨10, _⟩ => ⟨S4096x128, .f32⟩
  | .hbm, ⟨11, _⟩ => ⟨S_, .i32⟩
  | .hbm, ⟨12, _⟩ => ⟨S1, .i32⟩
  | .hbm, ⟨13, _⟩ => ⟨S4096x128, .f32⟩
  | .hbm, ⟨14, _⟩ => ⟨S_, .i32⟩
  | .hbm, ⟨15, _⟩ => ⟨S1, .i32⟩
  | .hbm, ⟨16, _⟩ => ⟨S4096, .i32⟩
  | .hbm, ⟨17, _⟩ => ⟨S4352, .i32⟩
  | .hbm, ⟨18, _⟩ => ⟨S8704, .i32⟩
  | .hbm, ⟨19, _⟩ => ⟨S4352x128, .f32⟩
  | .hbm, ⟨20, _⟩ => ⟨S4352x128, .f32⟩
  | .hbm, ⟨21, _⟩ => ⟨S8704x128, .f32⟩
  | .hbm, ⟨22, _⟩ => ⟨S4352x128, .f32⟩
  | .hbm, ⟨23, _⟩ => ⟨S4352, .i32⟩
  | .hbm, ⟨24, _⟩ => ⟨S4352x128, .bf16⟩
  | .hbm, ⟨25, _⟩ => ⟨S8704x128, .bf16⟩
  | .hbm, ⟨26, _⟩ => ⟨S4352x1, .i32⟩
  | .hbm, ⟨27, _⟩ => ⟨S1x8704, .i32⟩
  | .hbm, ⟨28, _⟩ => ⟨S4352x1, .f32⟩
  | .hbm, ⟨29, _⟩ => ⟨S4352x1, .f32⟩
  | .hbm, ⟨30, _⟩ => ⟨S4352x1, .f32⟩
  | .hbm, ⟨31, _⟩ => ⟨S4352x1, .f32⟩
  | .hbm, ⟨32, _⟩ => ⟨S4352x1, .f32⟩
  | .hbm, ⟨33, _⟩ => ⟨S4352, .f32⟩
  | .hbm, ⟨34, _⟩ => ⟨S_, .f32⟩
  | .hbm, ⟨35, _⟩ => ⟨S4352, .f32⟩
  | .hbm, ⟨36, _⟩ => ⟨S4352, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S256x128, .bf16⟩
  | .local _ .vmem, ⟨1, _⟩ => ⟨S256x128, .bf16⟩
  | .local _ .vmem, ⟨2, _⟩ => ⟨S2176x128, .bf16⟩
  | .local _ .vmem, ⟨3, _⟩ => ⟨S2176x128, .bf16⟩
  | .local _ .vmem, ⟨4, _⟩ => ⟨S256x1, .i32⟩
  | .local _ .vmem, ⟨5, _⟩ => ⟨S256x1, .i32⟩
  | .local _ .vmem, ⟨6, _⟩ => ⟨S1x2176, .i32⟩
  | .local _ .vmem, ⟨7, _⟩ => ⟨S1x2176, .i32⟩
  | .local _ .vmem, ⟨8, _⟩ => ⟨S256x1, .f32⟩
  | .local _ .vmem, ⟨9, _⟩ => ⟨S256x1, .f32⟩
  | .local _ .vmem, ⟨10, _⟩ => ⟨S256x1, .f32⟩
  | .local _ .vmem, ⟨11, _⟩ => ⟨S256x1, .f32⟩
  | .local _ .vmem, ⟨12, _⟩ => ⟨S256x1, .f32⟩
  | .local _ .vmem, ⟨13, _⟩ => ⟨S256x1, .f32⟩
  | .local _ .vmem, ⟨14, _⟩ => ⟨S256x128, .bf16⟩
  | .local _ .vmem, ⟨15, _⟩ => ⟨S256x128, .bf16⟩
  | .local _ .vmem, ⟨16, _⟩ => ⟨S2176x128, .bf16⟩
  | .local _ .vmem, ⟨17, _⟩ => ⟨S2176x128, .bf16⟩
  | .local _ .vmem, ⟨18, _⟩ => ⟨S256x1, .i32⟩
  | .local _ .vmem, ⟨19, _⟩ => ⟨S256x1, .i32⟩
  | .local _ .vmem, ⟨20, _⟩ => ⟨S1x2176, .i32⟩
  | .local _ .vmem, ⟨21, _⟩ => ⟨S1x2176, .i32⟩
  | .local _ .vmem, ⟨22, _⟩ => ⟨S256x1, .f32⟩
  | .local _ .vmem, ⟨23, _⟩ => ⟨S256x1, .f32⟩
  | .local _ .vmem, ⟨24, _⟩ => ⟨S256x1, .f32⟩
  | .local _ .vmem, ⟨25, _⟩ => ⟨S256x1, .f32⟩
  | .local _ .vmem, ⟨26, _⟩ => ⟨S256x1, .f32⟩
  | .local _ .vmem, ⟨27, _⟩ => ⟨S256x1, .f32⟩
  | .local _ .vmem, ⟨28, _⟩ => ⟨S256x1, .f32⟩
  | .local _ .vmem, ⟨29, _⟩ => ⟨S256x1, .f32⟩
  | .local _ .vmem, ⟨30, _⟩ => ⟨S256x1, .f32⟩
  | .local _ .vmem, ⟨31, _⟩ => ⟨S256x1, .f32⟩
  | _, _ => ⟨S256x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20_0 : Ref sig .tc := ⟨.hbm, 28, rfl⟩
abbrev main_v20_1 : Ref sig .tc := ⟨.hbm, 29, rfl⟩
abbrev main_v21_0 : Ref sig .tc := ⟨.hbm, 30, rfl⟩
abbrev main_v21_1 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc1_scratch0 : Ref sig .tc := ⟨.vmem, 30, rfl⟩
abbrev cc1_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27

abbrev nD : Nat := 1
abbrev τ : Topo := Topo.v7x

variable {F : FTy → Type} [FloatOps F]

abbrev grid0 : Pipeline.Grid := ⟨2, ![17, 4], ![false, false]⟩

def k0_cond2 (i : grid0.Coords) : BitVec 1 :=
  let arg1 : BitVec 32 := BitVec.ofNat 32 (i 1).val
  let c3_i32 : BitVec 32 := 3#32
  let v43 : BitVec 1 := Scalar.cmpi .eq arg1 c3_i32
  let v44 : BitVec 32 := Scalar.extui v43
  let c0_i32_23 : BitVec 32 := 0#32
  let v45 : BitVec 1 := Scalar.cmpi .ne v44 c0_i32_23
  v45

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2176x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2176 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![17, 4], ![false, false]⟩

def k1_cond2 (i : grid1.Coords) : BitVec 1 :=
  let arg1 : BitVec 32 := BitVec.ofNat 32 (i 1).val
  let c3_i32 : BitVec 32 := 3#32
  let v65 : BitVec 1 := Scalar.cmpi .eq arg1 c3_i32
  let v66 : BitVec 32 := Scalar.extui v65
  let c0_i32_28 : BitVec 32 := 0#32
  let v67 : BitVec 1 := Scalar.cmpi .ne v66 c0_i32_28
  v67

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2176x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x2176 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S256x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S256x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S256x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S256x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  shapeCasts_S256x2x128_S512x128 : S256x2x128.ShapeCasts S512x128
  slices_S512x128_S256x128_0_0 : S512x128.Slices ![0, 0] S256x128
  slices_S512x128_S256x128_256_0 : S512x128.Slices ![256, 0] S256x128
  bcast_S_S1 : S_.BroadcastsInDim S1 (![] : Fin 0 → Fin S1.rank)
  concatenates_S4096_S256_S4352_d0 : Shape.Concatenates [S4096, S256] S4352 0
  concatenates_S4352_S4352_S8704_d0 : Shape.Concatenates [S4352, S4352] S8704 0
  concatenates_S4096x128_S256x128_S4352x128_d0 : Shape.Concatenates [S4096x128, S256x128] S4352x128 0
  concatenates_S4352x128_S4352x128_S8704x128_d0 : Shape.Concatenates [S4352x128, S4352x128] S8704x128 0
  slices_S8704x128_S4352x128_3841_0 : S8704x128.Slices ![3841, 0] S4352x128
  slices_S8704_S4352_3841 : S8704.Slices ![3841] S4352
  bitsLt_bf16_f32 : FTy.bits .bf16 < FTy.bits .f32
  shapeCasts_S4352_S4352x1 : S4352.ShapeCasts S4352x1
  shapeCasts_S8704_S1x8704 : S8704.ShapeCasts S1x8704
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2176x128_S2176x128_0_0 : ∀ a, (![0, 0] : Fin 2 → Nat) a + S2176x128.size a ≤ S2176x128.size a
  h_S2176x128 : 0 < S2176x128.numel
  shapeCasts_S2176x128_S2176x128 : S2176x128.ShapeCasts S2176x128
  transposes_S2176x128_p1_0_S128x2176 : S2176x128.Transposes [1, 0] S128x2176
  inb_S1x2176_S1x2176_0_0 : ∀ a, (![0, 0] : Fin 2 → Nat) a + S1x2176.size a ≤ S1x2176.size a
  h_S1x2176 : 0 < S1x2176.numel
  shapeCasts_S1x2176_S1x2176 : S1x2176.ShapeCasts S1x2176
  broadcasts_S256x1_S256x2176 : S256x1.Broadcasts S256x2176
  broadcasts_S1x2176_S256x2176 : S1x2176.Broadcasts S256x2176
  reduces_S256x2176_S256 : S256x2176.Reduces [1] S256
  shapeCasts_S256_S256x1 : S256.ShapeCasts S256x1
  iota_S256x2176_d0_w32 : S256x2176.Iotas .tc 32 [0]
  iota_S256x2176_d1_w32 : S256x2176.Iotas .tc 32 [1]
  shapeCasts_S4352x1_S4352 : S4352x1.ShapeCasts S4352
  bcast_S_S4352 : S_.BroadcastsInDim S4352 (![] : Fin 0 → Fin S4352.rank)
  reducesTo_S4352_S_d0 : S4352.ReducesTo [0] S_
  h_S_ : 0 < S_.numel
  scatter_S4096x128_S1_S256x128_01_n_0_0_wf : ScatterDims.WF S4096x128 S1 S256x128 [0, 1] [] [0] 0
  scatter_S4096_S1_S256_0_n_0_0_wf : ScatterDims.WF S4096 S1 S256 [0] [] [0] 0
  dot_S256x128_S128x2176_S256x2176_1_0_0_1_n_n_wf : DotDims.WF S256x128 S128x2176 S256x2176 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S4352x128.size a
  hwx0_0 : ∀ i : grid0.Coords, EltTy.bits .bf16 = 32 ∨ (Rect.block (s := S4352x128) S256x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2176x128.size a ≤ S8704x128.size a
  hwx0_1 : ∀ i : grid0.Coords, EltTy.bits .bf16 = 32 ∨ (Rect.block (s := S8704x128) S2176x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S4352x1.size a
  hwx0_2 : ∀ i : grid0.Coords, EltTy.bits .i32 = 32 ∨ (Rect.block (s := S4352x1) S256x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2176.size a ≤ S1x8704.size a
  hwx0_3 : ∀ i : grid0.Coords, EltTy.bits .i32 = 32 ∨ (Rect.block (s := S1x8704) S1x2176.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S4352x1.size a
  hwx0_4 : ∀ i : grid0.Coords, EltTy.bits .f32 = 32 ∨ (Rect.block (s := S4352x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S4352x1.size a
  hwx0_5 : ∀ i : grid0.Coords, EltTy.bits .f32 = 32 ∨ (Rect.block (s := S4352x1) S256x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x128.size a ≤ S4352x128.size a
  hwx1_0 : ∀ i : grid1.Coords, EltTy.bits .bf16 = 32 ∨ (Rect.block (s := S4352x128) S256x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2176x128.size a ≤ S8704x128.size a
  hwx1_1 : ∀ i : grid1.Coords, EltTy.bits .bf16 = 32 ∨ (Rect.block (s := S8704x128) S2176x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S4352x1.size a
  hwx1_2 : ∀ i : grid1.Coords, EltTy.bits .i32 = 32 ∨ (Rect.block (s := S4352x1) S256x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2176.size a ≤ S1x8704.size a
  hwx1_3 : ∀ i : grid1.Coords, EltTy.bits .i32 = 32 ∨ (Rect.block (s := S1x8704) S1x2176.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x1.size a ≤ S4352x1.size a
  hwx1_4 : ∀ i : grid1.Coords, EltTy.bits .f32 = 32 ∨ (Rect.block (s := S4352x1) S256x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x1.size a ≤ S4352x1.size a
  hwx1_5 : ∀ i : grid1.Coords, EltTy.bits .f32 = 32 ∨ (Rect.block (s := S4352x1) S256x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x1.size a ≤ S4352x1.size a
  hwx1_6 : ∀ i : grid1.Coords, EltTy.bits .f32 = 32 ∨ (Rect.block (s := S4352x1) S256x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S256x1.size a ≤ S4352x1.size a
  hwx1_7 : ∀ i : grid1.Coords, EltTy.bits .f32 = 32 ∨ (Rect.block (s := S4352x1) S256x1.size (cc1_transform_7 i) (hinb1_7 i)).WholeWords (EltTy.packing .f32)

variable [Facts₀]

def scatter_S4096x128_S1_S256x128_01_n_0_0 : ScatterDims S4096x128 S1 S256x128 where
  updateWindowDims := [0, 1]
  insertedWindowDims := []
  scatterDimsToOperandDims := [0]
  indexVectorDim := 0
  wf := scatter_S4096x128_S1_S256x128_01_n_0_0_wf
def scatter_S4096_S1_S256_0_n_0_0 : ScatterDims S4096 S1 S256 where
  updateWindowDims := [0]
  insertedWindowDims := []
  scatterDimsToOperandDims := [0]
  indexVectorDim := 0
  wf := scatter_S4096_S1_S256_0_n_0_0_wf
def dot_S256x128_S128x2176_S256x2176_1_0_0_1_n_n : DotDims S256x128 S128x2176 S256x2176 where
  lhsContracting := [1]
  rhsContracting := [0]
  lhsNonContracting := [0]
  rhsNonContracting := [1]
  lhsBatch := []
  rhsBatch := []
  wf := dot_S256x128_S128x2176_S256x2176_1_0_0_1_n_n_wf

abbrev win0_0 : Pipeline.Window sig grid0 :=
  Pipeline.Window.ofSpec (Memref.whole main_v16) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S2176x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x2176.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20_0) S256x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v20_1) S256x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v16) S256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S2176x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S256x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x2176.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v20_0) S256x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v20_1) S256x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v21_0) S256x1.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v21_1) S256x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun i => !(k1_cond2 i == 1#1) | 7 => fun i => !(k1_cond2 i == 1#1) | ⟨_ + 8, h⟩ => absurd h (Nat.not_lt.2 (Nat.le_add_left _ _))

class Facts : Prop extends Facts₀ where

variable [Facts]
-- ==== ReferenceIdeal.lean ====
abbrev S256x2x128 : Shape := ⟨3, ![256, 2, 128]⟩
abbrev S256 : Shape := ⟨1, ![256]⟩
abbrev S4096x128 : Shape := ⟨2, ![4096, 128]⟩
abbrev S4096 : Shape := ⟨1, ![4096]⟩
abbrev S512x128 : Shape := ⟨2, ![512, 128]⟩
abbrev S256x128 : Shape := ⟨2, ![256, 128]⟩
abbrev S_ : Shape := ⟨0, ![]⟩
abbrev S1 : Shape := ⟨1, ![1]⟩
abbrev S4352 : Shape := ⟨1, ![4352]⟩
abbrev S4352x1 : Shape := ⟨2, ![4352, 1]⟩
abbrev S1x4352 : Shape := ⟨2, ![1, 4352]⟩
abbrev S4352x4352 : Shape := ⟨2, ![4352, 4352]⟩
abbrev S4352x128 : Shape := ⟨2, ![4352, 128]⟩
abbrev S8704x128 : Shape := ⟨2, ![8704, 128]⟩
abbrev S128x8704 : Shape := ⟨2, ![128, 8704]⟩
abbrev S8704x8704 : Shape := ⟨2, ![8704, 8704]⟩
abbrev S8704 : Shape := ⟨1, ![8704]⟩
abbrev S8704x1 : Shape := ⟨2, ![8704, 1]⟩
abbrev S1x4352x1x4352 : Shape := ⟨4, ![1, 4352, 1, 4352]⟩
abbrev S2x4352x2x4352 : Shape := ⟨4, ![2, 4352, 2, 4352]⟩
abbrev S3840 : Shape := ⟨1, ![3840]⟩
abbrev S512 : Shape := ⟨1, ![512]⟩
abbrev S2x4352 : Shape := ⟨2, ![2, 4352]⟩
abbrev S8704x2 : Shape := ⟨2, ![8704, 2]⟩
abbrev S4863x8704 : Shape := ⟨2, ![4863, 8704]⟩
abbrev S4352x8704 : Shape := ⟨2, ![4352, 8704]⟩
abbrev S0x8704 : Shape := ⟨2, ![0, 8704]⟩

abbrev nBuf : Space → Nat
  | .hbm => 110
  | .vmem => 0
  | .smem => 0
  | _ => 0

abbrev bufTy : (tb : Table) → Fin (tcTables nBuf tb) → BufTy
  | .hbm, ⟨0, _⟩ => ⟨S256x2x128, .f32⟩
  | .hbm, ⟨1, _⟩ => ⟨S256, .i32⟩
  | .hbm, ⟨2, _⟩ => ⟨S4096x128, .f32⟩
  | .hbm, ⟨3, _⟩ => ⟨S4096x128, .f32⟩
  | .hbm, ⟨4, _⟩ => ⟨S4096, .i32⟩
  | .hbm, ⟨5, _⟩ => ⟨S512x128, .f32⟩
  | .hbm, ⟨6, _⟩ => ⟨S256x128, .f32⟩
  | .hbm, ⟨7, _⟩ => ⟨S256x128, .f32⟩
  | .hbm, ⟨8, _⟩ => ⟨S_, .i32⟩
  | .hbm, ⟨9, _⟩ => ⟨S1, .i32⟩
  | .hbm, ⟨10, _⟩ => ⟨S4096x128, .f32⟩
  | .hbm, ⟨11, _⟩ => ⟨S_, .i32⟩
  | .hbm, ⟨12, _⟩ => ⟨S1, .i32⟩
  | .hbm, ⟨13, _⟩ => ⟨S4096x128, .f32⟩
  | .hbm, ⟨14, _⟩ => ⟨S_, .i32⟩
  | .hbm, ⟨15, _⟩ => ⟨S1, .i32⟩
  | .hbm, ⟨16, _⟩ => ⟨S4096, .i32⟩
  | .hbm, ⟨17, _⟩ => ⟨S4352, .i32⟩
  | .hbm, ⟨18, _⟩ => ⟨S4352x1, .i32⟩
  | .hbm, ⟨19, _⟩ => ⟨S1x4352, .i32⟩
  | .hbm, ⟨20, _⟩ => ⟨S4352x4352, .i32⟩
  | .hbm, ⟨21, _⟩ => ⟨S4352x4352, .i32⟩
  | .hbm, ⟨22, _⟩ => ⟨S4352x4352, .i1⟩
  | .hbm, ⟨23, _⟩ => ⟨S4352x4352, .f32⟩
  | .hbm, ⟨24, _⟩ => ⟨S4352x128, .f32⟩
  | .hbm, ⟨25, _⟩ => ⟨S4352x128, .f32⟩
  | .hbm, ⟨26, _⟩ => ⟨S8704x128, .f32⟩
  | .hbm, ⟨27, _⟩ => ⟨S128x8704, .f32⟩
  | .hbm, ⟨28, _⟩ => ⟨S8704x8704, .f32⟩
  | .hbm, ⟨29, _⟩ => ⟨S_, .f32⟩
  | .hbm, ⟨30, _⟩ => ⟨S8704x8704, .f32⟩
  | .hbm, ⟨31, _⟩ => ⟨S8704x8704, .f32⟩
  | .hbm, ⟨32, _⟩ => ⟨S_, .f32⟩
  | .hbm, ⟨33, _⟩ => ⟨S8704, .f32⟩
  | .hbm, ⟨34, _⟩ => ⟨S8704x1, .f32⟩
  | .hbm, ⟨35, _⟩ => ⟨S8704x8704, .f32⟩
  | .hbm, ⟨36, _⟩ => ⟨S8704x8704, .f32⟩
  | .hbm, ⟨37, _⟩ => ⟨S1x4352x1x4352, .f32⟩
  | .hbm, ⟨38, _⟩ => ⟨S2x4352x2x4352, .f32⟩
  | .hbm, ⟨39, _⟩ => ⟨S8704x8704, .f32⟩
  | .hbm, ⟨40, _⟩ => ⟨S_, .f32⟩
  | .hbm, ⟨41, _⟩ => ⟨S3840, .f32⟩
  | .hbm, ⟨42, _⟩ => ⟨S_, .f32⟩
  | .hbm, ⟨43, _⟩ => ⟨S512, .f32⟩
  | .hbm, ⟨44, _⟩ => ⟨S4352, .f32⟩
  | .hbm, ⟨45, _⟩ => ⟨S1x4352, .f32⟩
  | .hbm, ⟨46, _⟩ => ⟨S2x4352, .f32⟩
  | .hbm, ⟨47, _⟩ => ⟨S8704, .f32⟩
  | .hbm, ⟨48, _⟩ => ⟨S8704, .i32⟩
  | .hbm, ⟨49, _⟩ => ⟨S_, .f32⟩
  | .hbm, ⟨50, _⟩ => ⟨S8704x8704, .f32⟩
  | .hbm, ⟨51, _⟩ => ⟨S_, .i32⟩
  | .hbm, ⟨52, _⟩ => ⟨S8704, .i32⟩
  | .hbm, ⟨53, _⟩ => ⟨S8704, .i1⟩
  | .hbm, ⟨54, _⟩ => ⟨S_, .i32⟩
  | .hbm, ⟨55, _⟩ => ⟨S8704, .i32⟩
  | .hbm, ⟨56, _⟩ => ⟨S8704, .i32⟩
  | .hbm, ⟨57, _⟩ => ⟨S8704, .i32⟩
  | .hbm, ⟨58, _⟩ => ⟨S_, .i32⟩
  | .hbm, ⟨59, _⟩ => ⟨S8704, .i32⟩
  | .hbm, ⟨60, _⟩ => ⟨S8704, .i1⟩
  | .hbm, ⟨61, _⟩ => ⟨S_, .i32⟩
  | .hbm, ⟨62, _⟩ => ⟨S8704, .i32⟩
  | .hbm, ⟨63, _⟩ => ⟨S8704, .i32⟩
  | .hbm, ⟨64, _⟩ => ⟨S8704, .i32⟩
  | .hbm, ⟨65, _⟩ => ⟨S8704x1, .i32⟩
  | .hbm, ⟨66, _⟩ => ⟨S8704x1, .i32⟩
  | .hbm, ⟨67, _⟩ => ⟨S8704x2, .i32⟩
  | .hbm, ⟨68, _⟩ => ⟨S8704x8704, .f32⟩
  | .hbm, ⟨69, _⟩ => ⟨S_, .f32⟩
  | .hbm, ⟨70, _⟩ => ⟨S8704x8704, .f32⟩
  | .hbm, ⟨71, _⟩ => ⟨S8704x8704, .f32⟩
  | .hbm, ⟨72, _⟩ => ⟨S8704x8704, .f32⟩
  | .hbm, ⟨73, _⟩ => ⟨S8704x8704, .f32⟩
  | .hbm, ⟨74, _⟩ => ⟨S4863x8704, .f32⟩
  | .hbm, ⟨75, _⟩ => ⟨S4352x8704, .f32⟩
  | .hbm, ⟨76, _⟩ => ⟨S0x8704, .f32⟩
  | .hbm, ⟨77, _⟩ => ⟨S4352x8704, .f32⟩
  | .hbm, ⟨78, _⟩ => ⟨S4863x8704, .f32⟩
  | .hbm, ⟨79, _⟩ => ⟨S4352x8704, .f32⟩
  | .hbm, ⟨80, _⟩ => ⟨S0x8704, .f32⟩
  | .hbm, ⟨81, _⟩ => ⟨S4352x8704, .f32⟩
  | .hbm, ⟨82, _⟩ => ⟨S4863x8704, .f32⟩
  | .hbm, ⟨83, _⟩ => ⟨S4352x8704, .f32⟩
  | .hbm, ⟨84, _⟩ => ⟨S0x8704, .f32⟩
  | .hbm, ⟨85, _⟩ => ⟨S4352x8704, .f32⟩
  | .hbm, ⟨86, _⟩ => ⟨S4352x8704, .f32⟩
  | .hbm, ⟨87, _⟩ => ⟨S4352x8704, .f32⟩
  | .hbm, ⟨88, _⟩ => ⟨S_, .f32⟩
  | .hbm, ⟨89, _⟩ => ⟨S4352, .f32⟩
  | .hbm, ⟨90, _⟩ => ⟨S4352x1, .f32⟩
  | .hbm, ⟨91, _⟩ => ⟨S4352x1, .f32⟩
  | .hbm, ⟨92, _⟩ => ⟨S4352x8704, .f32⟩
  | .hbm, ⟨93, _⟩ => ⟨S4352x8704, .f32⟩
  | .hbm, ⟨94, _⟩ => ⟨S_, .f32⟩
  | .hbm, ⟨95, _⟩ => ⟨S4352x8704, .f32⟩
  | .hbm, ⟨96, _⟩ => ⟨S4352x8704, .f32⟩
  | .hbm, ⟨97, _⟩ => ⟨S4352x8704, .f32⟩
  | .hbm, ⟨98, _⟩ => ⟨S_, .f32⟩
  | .hbm, ⟨99, _⟩ => ⟨S4352, .f32⟩
  | .hbm, ⟨100, _⟩ => ⟨S_, .f32⟩
  | .hbm, ⟨101, _⟩ => ⟨S4352, .f32⟩
  | .hbm, ⟨102, _⟩ => ⟨S4352, .f32⟩
  | .hbm, ⟨103, _⟩ => ⟨S_, .f32⟩
  | .hbm, ⟨104, _⟩ => ⟨S4352, .f32⟩
  | .hbm, ⟨105, _⟩ => ⟨S4352, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | _, _ => ⟨S256x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_c_6 : Ref sig .tc := ⟨.hbm, 51, rfl⟩
abbrev main_v38 : Ref sig .tc := ⟨.hbm, 52, rfl⟩
abbrev main_v39 : Ref sig .tc := ⟨.hbm, 53, rfl⟩
abbrev main_c_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c_8 : Ref sig .tc := ⟨.hbm, 58, rfl⟩
abbrev main_v43 : Ref sig .tc := ⟨.hbm, 59, rfl⟩
abbrev main_v44 : Ref sig .tc := ⟨.hbm, 60, rfl⟩
abbrev main_c_9 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_10 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_11 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_cst_12 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_13 : Ref sig .tc := ⟨.hbm, 98, rfl⟩
abbrev main_v78 : Ref sig .tc := ⟨.hbm, 99, rfl⟩
abbrev main_cst_14 : Ref sig .tc := ⟨.hbm, 100, rfl⟩
abbrev main_v79 : Ref sig .tc := ⟨.hbm, 101, rfl⟩
abbrev main_v80 : Ref sig .tc := ⟨.hbm, 102, rfl⟩
abbrev main_cst_15 : Ref sig .tc := ⟨.hbm, 103, rfl⟩
abbrev main_v81 : Ref sig .tc := ⟨.hbm, 104, rfl⟩
abbrev main_v82 : Ref sig .tc := ⟨.hbm, 105, rfl⟩
abbrev main_cst_16 : Ref sig .tc := ⟨.hbm, 106, rfl⟩
abbrev main_v83 : Ref sig .tc := ⟨.hbm, 107, rfl⟩
abbrev main_cst_17 : Ref sig .tc := ⟨.hbm, 108, rfl⟩
abbrev main_v84 : Ref sig .tc := ⟨.hbm, 109, rfl⟩

abbrev nD : Nat := 1
abbrev τ : Topo := Topo.v7x

variable {F : FTy → Type} [FloatOps F]

class Facts₀ : Prop where
  shapeCasts_S256x2x128_S512x128 : S256x2x128.ShapeCasts S512x128
  slices_S512x128_S256x128_0_0 : S512x128.Slices ![0, 0] S256x128
  slices_S512x128_S256x128_256_0 : S512x128.Slices ![256, 0] S256x128
  bcast_S_S1 : S_.BroadcastsInDim S1 (![] : Fin 0 → Fin S1.rank)
  concatenates_S4096_S256_S4352_d0 : Shape.Concatenates [S4096, S256] S4352 0
  bcast_S4352_S4352x1_0 : S4352.BroadcastsInDim S4352x1 (![0] : Fin 1 → Fin S4352x1.rank)
  bcast_S4352_S1x4352_1 : S4352.BroadcastsInDim S1x4352 (![1] : Fin 1 → Fin S1x4352.rank)
  bcast_S4352x1_S4352x4352_0_1 : S4352x1.BroadcastsInDim S4352x4352 (![0, 1] : Fin 2 → Fin S4352x4352.rank)
  bcast_S1x4352_S4352x4352_0_1 : S1x4352.BroadcastsInDim S4352x4352 (![0, 1] : Fin 2 → Fin S4352x4352.rank)
  concatenates_S4096x128_S256x128_S4352x128_d0 : Shape.Concatenates [S4096x128, S256x128] S4352x128 0
  concatenates_S4352x128_S4352x128_S8704x128_d0 : Shape.Concatenates [S4352x128, S4352x128] S8704x128 0
  transposes_S8704x128_S128x8704_1_0 : S8704x128.Transposes [1, 0] S128x8704
  bcast_S_S8704x8704 : S_.BroadcastsInDim S8704x8704 (![] : Fin 0 → Fin S8704x8704.rank)
  reducesTo_S8704x8704_S8704_d1 : S8704x8704.ReducesTo [1] S8704
  h_S_ : 0 < S_.numel
  bcast_S8704_S8704x1_0 : S8704.BroadcastsInDim S8704x1 (![0] : Fin 1 → Fin S8704x1.rank)
  bcast_S8704x1_S8704x8704_0_1 : S8704x1.BroadcastsInDim S8704x8704 (![0, 1] : Fin 2 → Fin S8704x8704.rank)
  shapeCasts_S4352x4352_S1x4352x1x4352 : S4352x4352.ShapeCasts S1x4352x1x4352
  bcast_S1x4352x1x4352_S2x4352x2x4352_0_1_2_3 : S1x4352x1x4352.BroadcastsInDim S2x4352x2x4352 (![0, 1, 2, 3] : Fin 4 → Fin S2x4352x2x4352.rank)
  shapeCasts_S2x4352x2x4352_S8704x8704 : S2x4352x2x4352.ShapeCasts S8704x8704
  bcast_S_S3840 : S_.BroadcastsInDim S3840 (![] : Fin 0 → Fin S3840.rank)
  bcast_S_S512 : S_.BroadcastsInDim S512 (![] : Fin 0 → Fin S512.rank)
  concatenates_S3840_S512_S4352_d0 : Shape.Concatenates [S3840, S512] S4352 0
  shapeCasts_S4352_S1x4352 : S4352.ShapeCasts S1x4352
  bcast_S1x4352_S2x4352_0_1 : S1x4352.BroadcastsInDim S2x4352 (![0, 1] : Fin 2 → Fin S2x4352.rank)
  shapeCasts_S2x4352_S8704 : S2x4352.ShapeCasts S8704
  bcast_S_S8704 : S_.BroadcastsInDim S8704 (![] : Fin 0 → Fin S8704.rank)
  concatenates_S8704x1_S8704x1_S8704x2_d1 : Shape.Concatenates [S8704x1, S8704x1] S8704x2 1
  slices_S8704x8704_S4863x8704_3841_0 : S8704x8704.Slices ![3841, 0] S4863x8704
  slices_S4863x8704_S4352x8704_0_0 : S4863x8704.Slices ![0, 0] S4352x8704
  slices_S4863x8704_S0x8704_4863_0 : S4863x8704.Slices ![4863, 0] S0x8704
  concatenates_S4352x8704_S0x8704_S4352x8704_d0 : Shape.Concatenates [S4352x8704, S0x8704] S4352x8704 0
  reducesTo_S4352x8704_S4352_d1 : S4352x8704.ReducesTo [1] S4352
  bcast_S4352x1_S4352x8704_0_1 : S4352x1.BroadcastsInDim S4352x8704 (![0, 1] : Fin 2 → Fin S4352x8704.rank)
  bcast_S_S4352x8704 : S_.BroadcastsInDim S4352x8704 (![] : Fin 0 → Fin S4352x8704.rank)
  bcast_S_S4352 : S_.BroadcastsInDim S4352 (![] : Fin 0 → Fin S4352.rank)
  reducesTo_S4352_S_d0 : S4352.ReducesTo [0] S_
  scatter_S4096x128_S1_S256x128_01_n_0_0_wf : ScatterDims.WF S4096x128 S1 S256x128 [0, 1] [] [0] 0
  scatter_S4096_S1_S256_0_n_0_0_wf : ScatterDims.WF S4096 S1 S256 [0] [] [0] 0
  dot_S8704x128_S128x8704_S8704x8704_1_0_0_1_n_n_wf : DotDims.WF S8704x128 S128x8704 S8704x8704 [1] [0] [0] [1] [] []
  scatter_S8704x8704_S8704x2_S8704_n_01_01_1_wf : ScatterDims.WF S8704x8704 S8704x2 S8704 [] [0, 1] [0, 1] 1

variable [Facts₀]

def scatter_S4096x128_S1_S256x128_01_n_0_0 : ScatterDims S4096x128 S1 S256x128 where
  updateWindowDims := [0, 1]
  insertedWindowDims := []
  scatterDimsToOperandDims := [0]
  indexVectorDim := 0
  wf := scatter_S4096x128_S1_S256x128_01_n_0_0_wf
def scatter_S4096_S1_S256_0_n_0_0 : ScatterDims S4096 S1 S256 where
  updateWindowDims := [0]
  insertedWindowDims := []
  scatterDimsToOperandDims := [0]
  indexVectorDim := 0
  wf := scatter_S4096_S1_S256_0_n_0_0_wf
def dot_S8704x128_S128x8704_S8704x8704_1_0_0_1_n_n : DotDims S8704x128 S128x8704 S8704x8704 where
  lhsContracting := [1]
  rhsContracting := [0]
  lhsNonContracting := [0]
  rhsNonContracting := [1]
  lhsBatch := []
  rhsBatch := []
  wf := dot_S8704x128_S128x8704_S8704x8704_1_0_0_1_n_n_wf
def scatter_S8704x8704_S8704x2_S8704_n_01_01_1 : ScatterDims S8704x8704 S8704x2 S8704 where
  updateWindowDims := []
  insertedWindowDims := [0, 1]
  scatterDimsToOperandDims := [0, 1]
  indexVectorDim := 1
  wf := scatter_S8704x8704_S8704x2_S8704_n_01_01_1_wf

class Facts : Prop extends Facts₀ where

variable [Facts]
-- ==== Proof.Kernel.Lse.Shared.lean ====
import proofs.«123850_j8598524526701_1_alg».proof.Proof.Gen.Kernel.Launch
import proofs.«123850_j8598524526701_1_alg».proof.Proof.Gen.Kernel.Skeleton
import proofs.«123850_j8598524526701_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Lse

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What each input's staging buffer holds when the body starts

Windows 0 and 2 follow the row block only, so they are fetched at the first column block of a row block and kept
for the other three; windows 1 and 3 follow the column block and are fetched at every point. Either way the
buffer holds the point's block. -/

/-- Input window 0 (the row block's features): when the body starts at any point, fetched there or not, its current staging
    buffer holds the point's block — for any proof data whose array 0 is the entry contents and whose body leaves
    the block where it found it. A point that does not fetch has the same block index as the one before, the
    window is never idle and its blocks are never cut, so the library's fetched-or-kept law applies. -/
theorem before_0_of {c : Dev nD} (dt : Dat τ (Elt F) Unit ℕ (UR sig nD τ) ℕ cfg0 c)
    (hA : dt.A 0 = V c (Pipeline.arrRef spec0 0)) (hafter : ∀ t, dt.after 0 t = iblk V c 0 t)
    (t : Fin cfg0.N) (d) : dt.before 0 t d = iblk V c 0 t := by
  have hkeep : ∀ s, (cfg0.win 0).cut (cfg0.grid.coords s) (dt.after 0 s) = dt.blockOf 0 s := fun s => by
    rw [hafter]; unfold Dat.blockOf iblk; rw [hA]; try rfl
  have hfetched : dt.fetched 0 t d = iblk V c 0 t := by
    unfold Dat.fetched Dat.blockOf iblk; rw [hA]; try rfl
  exact (dt.before_in_eq_fetched 0 rfl (fun _ => rfl) (fun _ _ _ => rfl) hkeep t d).trans hfetched

/-- Input window 1 (the column block's features): when the body starts at any point, fetched there or not, its current staging
    buffer holds the point's block — for any proof data whose array 1 is the entry contents and whose body leaves
    the block where it found it. A point that does not fetch has the same block index as the one before, the
    window is never idle and its blocks are never cut, so the library's fetched-or-kept law applies. -/
theorem before_1_of {c : Dev nD} (dt : Dat τ (Elt F) Unit ℕ (UR sig nD τ) ℕ cfg0 c)
    (hA : dt.A 1 = V c (Pipeline.arrRef spec0 1)) (hafter : ∀ t, dt.after 1 t = iblk V c 1 t)
    (t : Fin cfg0.N) (d) : dt.before 1 t d = iblk V c 1 t := by
  have hkeep : ∀ s, (cfg0.win 1).cut (cfg0.grid.coords s) (dt.after 1 s) = dt.blockOf 1 s := fun s => by
    rw [hafter]; unfold Dat.blockOf iblk; rw [hA]; try rfl
  have hfetched : dt.fetched 1 t d = iblk V c 1 t := by
    unfold Dat.fetched Dat.blockOf iblk; rw [hA]; try rfl
  exact (dt.before_in_eq_fetched 1 rfl (fun _ => rfl) (fun _ _ _ => rfl) hkeep t d).trans hfetched

/-- Input window 2 (the row block's labels): when the body starts at any point, fetched there or not, its current staging
    buffer holds the point's block — for any proof data whose array 2 is the entry contents and whose body leaves
    the block where it found it. A point that does not fetch has the same block index as the one before, the
    window is never idle and its blocks are never cut, so the library's fetched-or-kept law applies. -/
theorem before_2_of {c : Dev nD} (dt : Dat τ (Elt F) Unit ℕ (UR sig nD τ) ℕ cfg0 c)
    (hA : dt.A 2 = V c (Pipeline.arrRef spec0 2)) (hafter : ∀ t, dt.after 2 t = iblk V c 2 t)
    (t : Fin cfg0.N) (d) : dt.before 2 t d = iblk V c 2 t := by
  have hkeep : ∀ s, (cfg0.win 2).cut (cfg0.grid.coords s) (dt.after 2 s) = dt.blockOf 2 s := fun s => by
    rw [hafter]; unfold Dat.blockOf iblk; rw [hA]; try rfl
  have hfetched : dt.fetched 2 t d = iblk V c 2 t := by
    unfold Dat.fetched Dat.blockOf iblk; rw [hA]; try rfl
  exact (dt.before_in_eq_fetched 2 rfl (fun _ => rfl) (fun _ _ _ => rfl) hkeep t d).trans hfetched

/-- Input window 3 (the column block's labels): when the body starts at any point, fetched there or not, its current staging
    buffer holds the point's block — for any proof data whose array 3 is the entry contents and whose body leaves
    the block where it found it. A point that does not fetch has the same block index as the one before, the
    window is never idle and its blocks are never cut, so the library's fetched-or-kept law applies. -/
theorem before_3_of {c : Dev nD} (dt : Dat τ (Elt F) Unit ℕ (UR sig nD τ) ℕ cfg0 c)
    (hA : dt.A 3 = V c (Pipeline.arrRef spec0 3)) (hafter : ∀ t, dt.after 3 t = iblk V c 3 t)
    (t : Fin cfg0.N) (d) : dt.before 3 t d = iblk V c 3 t := by
  have hkeep : ∀ s, (cfg0.win 3).cut (cfg0.grid.coords s) (dt.after 3 s) = dt.blockOf 3 s := fun s => by
    rw [hafter]; unfold Dat.blockOf iblk; rw [hA]; try rfl
  have hfetched : dt.fetched 3 t d = iblk V c 3 t := by
    unfold Dat.fetched Dat.blockOf iblk; rw [hA]; try rfl
  exact (dt.before_in_eq_fetched 3 rfl (fun _ => rfl) (fun _ _ _ => rfl) hkeep t d).trans hfetched

/-! ## The two conditionals, on the column coordinate only -/

/-- The first conditional's test, the scalar chain written out: the column coordinate is 0. Under it both running
    quantities are reset. -/
abbrev atFirstCol (i : grid0.Coords) : Prop :=
  (Scalar.cmpi .ne (Scalar.extui (Scalar.cmpi .eq (BitVec.ofNat 32 (i 1).val) 0#32)) 0#32) = 1#1
/-- Over the 17 x 4 grid, point `t = 4 * row + column`: it holds exactly where `t ≡ 0 (mod 4)`. -/
theorem atFirstCol_iff : ∀ t : Fin cfg0.N, atFirstCol (grid0.coords t) ↔ t.val % 4 = 0 :=
  (by decide +kernel : ∀ t : Fin grid0.N, atFirstCol (grid0.coords t) ↔ t.val % 4 = 0)

/-- The last conditional's test: the column coordinate is 3. Under it the two outputs are stored. -/
abbrev atLastCol (i : grid0.Coords) : Prop := k0_cond2 i = 1#1
/-- It holds exactly where `t ≡ 3 (mod 4)`. -/
theorem atLastCol_iff : ∀ t : Fin cfg0.N, atLastCol (grid0.coords t) ↔ t.val % 4 = 3 :=
  (by decide +kernel : ∀ t : Fin grid0.N, atLastCol (grid0.coords t) ↔ t.val % 4 = 3)

/-! ## Where the windows are idle

The four inputs are live everywhere. The two outputs are stored only at the last column block: elsewhere the
configuration calls them idle and the pipeline does not write them back, so the body hands their buffers back as
it found them. -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel

/-- At a reset point (first column block) the row-maximum output is idle … -/
theorem idle_max_first : ∀ t : Fin cfg0.N, atFirstCol (grid0.coords t) → ¬atLastCol (grid0.coords t) → cfg0.idle 4 (grid0.coords t) = true := by decide +kernel
/-- … and not written back. -/
theorem noFlush_max_first : ∀ t : Fin cfg0.N, atFirstCol (grid0.coords t) → ¬atLastCol (grid0.coords t) → (cfg0.win 4).flush t = false := by decide +kernel
/-- The same for the log-sum output. -/
theorem idle_logsum_first : ∀ t : Fin cfg0.N, atFirstCol (grid0.coords t) → ¬atLastCol (grid0.coords t) → cfg0.idle 5 (grid0.coords t) = true := by decide +kernel
theorem noFlush_logsum_first : ∀ t : Fin cfg0.N, atFirstCol (grid0.coords t) → ¬atLastCol (grid0.coords t) → (cfg0.win 5).flush t = false := by decide +kernel

/-- At a middle point (column blocks 1 and 2) the row-maximum output is idle and not written back. -/
theorem idle_max_mid : ∀ t : Fin cfg0.N, ¬atFirstCol (grid0.coords t) → ¬atLastCol (grid0.coords t) → cfg0.idle 4 (grid0.coords t) = true := by decide +kernel
theorem noFlush_max_mid : ∀ t : Fin cfg0.N, ¬atFirstCol (grid0.coords t) → ¬atLastCol (grid0.coords t) → (cfg0.win 4).flush t = false := by decide +kernel
/-- The same for the log-sum output. -/
theorem idle_logsum_mid : ∀ t : Fin cfg0.N, ¬atFirstCol (grid0.coords t) → ¬atLastCol (grid0.coords t) → cfg0.idle 5 (grid0.coords t) = true := by decide +kernel
theorem noFlush_logsum_mid : ∀ t : Fin cfg0.N, ¬atFirstCol (grid0.coords t) → ¬atLastCol (grid0.coords t) → (cfg0.win 5).flush t = false := by decide +kernel

/-- At a storing point (last column block) both outputs are live. -/
theorem live_max_last : ∀ t : Fin cfg0.N, ¬atFirstCol (grid0.coords t) → atLastCol (grid0.coords t) → cfg0.idle 4 (grid0.coords t) = false := by decide +kernel
theorem live_logsum_last : ∀ t : Fin cfg0.N, ¬atFirstCol (grid0.coords t) → atLastCol (grid0.coords t) → cfg0.idle 5 (grid0.coords t) = false := by decide +kernel

/-! ## The memrefs the body is called with -/

/-- Window 0's current staging memref at point `t`, and that it is a whole buffer. -/
abbrev stg_0 (t : Fin cfg0.N) : Memref sig .tc .vmem S256x128 .bf16 := win0_0.stage (cfg0.slots t 0)
abbrev stgWhole_0 (t : Fin cfg0.N) : (stg_0 t).IsWhole := hstage0_0 ((cfg0.slots t 0).cast nbuf0_0)
/-- Window 1's current staging memref at point `t`, and that it is a whole buffer. -/
abbrev stg_1 (t : Fin cfg0.N) : Memref sig .tc .vmem S2176x128 .bf16 := win0_1.stage (cfg0.slots t 1)
abbrev stgWhole_1 (t : Fin cfg0.N) : (stg_1 t).IsWhole := hstage0_1 ((cfg0.slots t 1).cast nbuf0_1)
/-- Window 2's current staging memref at point `t`, and that it is a whole buffer. -/
abbrev stg_2 (t : Fin cfg0.N) : Memref sig .tc .vmem S256x1 .i32 := win0_2.stage (cfg0.slots t 2)
abbrev stgWhole_2 (t : Fin cfg0.N) : (stg_2 t).IsWhole := hstage0_2 ((cfg0.slots t 2).cast nbuf0_2)
/-- Window 3's current staging memref at point `t`, and that it is a whole buffer. -/
abbrev stg_3 (t : Fin cfg0.N) : Memref sig .tc .vmem S1x2176 .i32 := win0_3.stage (cfg0.slots t 3)
abbrev stgWhole_3 (t : Fin cfg0.N) : (stg_3 t).IsWhole := hstage0_3 ((cfg0.slots t 3).cast nbuf0_3)
/-- Window 4's current staging memref at point `t`, and that it is a whole buffer. -/
abbrev stg_4 (t : Fin cfg0.N) : Memref sig .tc .vmem S256x1 .f32 := win0_4.stage (cfg0.slots t 4)
abbrev stgWhole_4 (t : Fin cfg0.N) : (stg_4 t).IsWhole := hstage0_4 ((cfg0.slots t 4).cast nbuf0_4)
/-- Window 5's current staging memref at point `t`, and that it is a whole buffer. -/
abbrev stg_5 (t : Fin cfg0.N) : Memref sig .tc .vmem S256x1 .f32 := win0_5.stage (cfg0.slots t 5)
abbrev stgWhole_5 (t : Fin cfg0.N) : (stg_5 t).IsWhole := hstage0_5 ((cfg0.slots t 5).cast nbuf0_5)

/-- The running row maximum lives in the kernel's first scratch buffer, whole. -/
abbrev maxRef : Memref sig .tc .vmem S256x1 .f32 := Memref.whole cc0_scratch0
/-- The running rescaled exponential sum lives in its second scratch buffer, whole. -/
abbrev sumRef : Memref sig .tc .vmem S256x1 .f32 := Memref.whole cc0_scratch1
/-- The views through which what the two scratches hold is stated. -/
abbrev maxView : View sig .tc .vmem S256x1 .f32 := maxRef.view
abbrev sumView : View sig .tc .vmem S256x1 .f32 := sumRef.view
/-- One staging buffer of each output, through which its contents are stated (reading pieces back over a cover
    does not depend on which buffer). -/
abbrev outMaxView : View sig .tc .vmem S256x1 .f32 := (Memref.whole cc0_stg4_0 : Memref sig .tc .vmem S256x1 .f32).view
abbrev outLogView : View sig .tc .vmem S256x1 .f32 := (Memref.whole cc0_stg5_0 : Memref sig .tc .vmem S256x1 .f32).view

/-! ## The region invariant's class form, the twenty scoped buffers spelt out -/

/-- The eighteen scoped buffers that are not this kernel's — the other region's sixteen staging buffers and two
    scratches — each whole at some contents. This kernel never touches them. -/
def othersHeld (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg5_1), ((c : Thread nD τ).loc cc1_stg5_1) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg6_1), ((c : Thread nD τ).loc cc1_stg6_1) ↦{fullShare} f)
    ∗ (∃ f : Buf (Elt F) ((c : Thread nD τ).loc cc1_stg7_0), ((c : Thread nD τ).loc cc1_stg7_0) ↦{fullShare} f)
    ∗ (∃ f : Buf (Elt F) ((c : Thread nD τ).loc cc1_stg7_1), ((c : Thread nD τ).loc cc1_stg7_1) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc1_scratch1), ((c : Thread nD τ).loc cc1_scratch1) ↦{fullShare} f))

/-- What the launch hands the region: this kernel's two scratches as memrefs owned at some contents, the other
    eighteen scoped buffers at some contents, and the generator register at some state. -/
theorem PhiA_eq (c : Dev nD) :
    (Pipeline.ΦA spec0 c : sProp 𝕄)
      = iprop(iprop((∃ d, owns (c : Thread nD τ) maxRef fullShare d) ∗ (∃ d, owns (c : Thread nD τ) sumRef fullShare d) ∗ othersHeld c)
          ∗ (∃ r, prngReg c r)) := by
  unfold Pipeline.ΦA othersHeld; rw [scopedRest0_eq]; simp only [maxRef, sumRef, owns_whole]; try rfl

end Cert.Kernel.Lse

end
-- ==== Proof.Kernel.Lse.RunFirst.lean ====
import proofs.«123850_j8598524526701_1_alg».proof.Proof.Kernel.Lse.Shared

set_option maxRecDepth 16384

noncomputable section

namespace Cert.Kernel.Lse

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- THE RESET CASE (column block 0: the first conditional taken, the last not). On whole memrefs — the four inputs at
    their blocks, the two outputs at whatever they hold (`k4`, `k5`: not touched, handed back as found), the two
    scratches at anything (both are overwritten before they are read) — the body runs to the continuation with the
    inputs and outputs as they were and each scratch with its pieces written. The pieces are found by the run:
    the reset, then this block's maximum and rescaled sum over it. -/
noncomputable def run_first (c : Dev nD) (i : grid0.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole)
    (hfirst : atFirstCol i) (hlast : ¬atLastCol i) (x0 : Vec F S256x128 .bf16) (x1 : Vec F S2176x128 .bf16) (x2 : Vec F S256x1 .i32) (x3 : Vec F S1x2176 .i32) :
    Σ' (Lmax : List (View.Piece (Elt F) S256x1 .f32)) (Llog : List (View.Piece (Elt F) S256x1 .f32)) (Lrmax : List (View.Piece (Elt F) S256x1 .f32)), { Lrsum : List (View.Piece (Elt F) S256x1 .f32) //
      ∀ (k4 k5 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare k4 ∗ owns (c : Thread nD τ) arg7 fullShare k5
            ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare k4 ∗ owns (c : Thread nD τ) arg7 fullShare k5
                ∗ (∃ f, arg8.view.loc (c : Thread nD τ) ↦[arg8.view.set]{fullShare} arg8.view.writes (Elt F) f Lrmax) ∗ (∃ f, arg9.view.loc (c : Thread nD τ) ↦[arg9.view.set]{fullShare} arg9.view.writes (Elt F) f Lrsum)) -∗ K ⟨⟩))
          ⊢ wp frame (wpE (defs₀ (F := F)) Variants.none c none) E (cc0__lse_kernel i arg2 harg2 arg3 harg3 arg4 harg4 arg5 harg5 arg6 harg6 arg7 harg7 arg8 harg8 arg9 harg9) K } := by
  refine ⟨[], [], ?_, ?_, fun k4 k5 E K => ?run⟩
  case run =>
    simp only [cc0__lse_kernel_eq_skeleton]; unfold cc0__lse_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dm, %fm, -, HM⟩, ⟨%ds, %fs, -, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HM]; · iexists _; iexact HM
    iexists _; iexact HS

end Cert.Kernel.Lse

end
-- ==== Proof.Kernel.Lse.RunMid.lean ====
import proofs.«123850_j8598524526701_1_alg».proof.Proof.Kernel.Lse.RunFirst

set_option maxRecDepth 16384

noncomputable section

namespace Cert.Kernel.Lse

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- THE MIDDLE CASE (column blocks 1 and 2: neither conditional taken). On whole memrefs — the four inputs at their
    blocks, the two outputs at whatever they hold (`k4`, `k5`: not touched), the two scratches at what the point
    before left (`xs0` the running maximum, `xs1` the running sum) — the body runs to the continuation with the inputs
    and outputs as they were and each scratch with its pieces written: the maximum joined with this block's, the sum
    rescaled to the new maximum and this block's masked exponentials added. -/
noncomputable def run_mid (c : Dev nD) (i : grid0.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole)
    (hfirst : ¬atFirstCol i) (hlast : ¬atLastCol i) (x0 : Vec F S256x128 .bf16) (x1 : Vec F S2176x128 .bf16) (x2 : Vec F S256x1 .i32) (x3 : Vec F S1x2176 .i32) (xs0 : Vec F S256x1 .f32) (xs1 : Vec F S256x1 .f32) :
    Σ' (Lmax : List (View.Piece (Elt F) S256x1 .f32)) (Llog : List (View.Piece (Elt F) S256x1 .f32)) (Lrmax : List (View.Piece (Elt F) S256x1 .f32)), { Lrsum : List (View.Piece (Elt F) S256x1 .f32) //
      ∀ (k4 k5 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare k4 ∗ owns (c : Thread nD τ) arg7 fullShare k5
            ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare k4 ∗ owns (c : Thread nD τ) arg7 fullShare k5
                ∗ (∃ f, arg8.view.loc (c : Thread nD τ) ↦[arg8.view.set]{fullShare} arg8.view.writes (Elt F) f Lrmax) ∗ (∃ f, arg9.view.loc (c : Thread nD τ) ↦[arg9.view.set]{fullShare} arg9.view.writes (Elt F) f Lrsum)) -∗ K ⟨⟩))
          ⊢ wp frame (wpE (defs₀ (F := F)) Variants.none c none) E (cc0__lse_kernel i arg2 harg2 arg3 harg3 arg4 harg4 arg5 harg5 arg6 harg6 arg7 harg7 arg8 harg8 arg9 harg9) K } := by
  refine ⟨[], [], ?_, ?_, fun k4 k5 E K => ?run⟩
  case run =>
    simp only [cc0__lse_kernel_eq_skeleton]; unfold cc0__lse_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fm, %hfm, HM⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    obtain rfl := harg8.eq_unread hfm; obtain rfl := harg9.eq_unread hfs
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HM]; · iexists _; iexact HM
    iexists _; iexact HS

end Cert.Kernel.Lse

end
-- ==== Proof.Kernel.Lse.RunLast.lean ====
import proofs.«123850_j8598524526701_1_alg».proof.Proof.Kernel.Lse.RunMid

set_option maxRecDepth 16384

noncomputable section

namespace Cert.Kernel.Lse

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- THE STORING CASE (column block 3: the first conditional not taken, the last taken). On whole memrefs — the four
    inputs at their blocks, the two outputs at anything (each is read once and then overwritten whole), the two
    scratches at what the point before left (`xs0` the running maximum, `xs1` the running sum) — the body runs to the
    continuation with the inputs as they were and the outputs and scratches with their pieces written: the scratches
    updated by this block, then the maximum copied out and the logarithm of the sum stored. -/
noncomputable def run_last (c : Dev nD) (i : grid0.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole)
    (hfirst : ¬atFirstCol i) (hlast : atLastCol i) (x0 : Vec F S256x128 .bf16) (x1 : Vec F S2176x128 .bf16) (x2 : Vec F S256x1 .i32) (x3 : Vec F S1x2176 .i32) (xs0 : Vec F S256x1 .f32) (xs1 : Vec F S256x1 .f32) :
    Σ' (Lmax : List (View.Piece (Elt F) S256x1 .f32)) (Llog : List (View.Piece (Elt F) S256x1 .f32)) (Lrmax : List (View.Piece (Elt F) S256x1 .f32)), { Lrsum : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f Lmax) ∗ (∃ f, arg7.view.loc (c : Thread nD τ) ↦[arg7.view.set]{fullShare} arg7.view.writes (Elt F) f Llog)
                ∗ (∃ f, arg8.view.loc (c : Thread nD τ) ↦[arg8.view.set]{fullShare} arg8.view.writes (Elt F) f Lrmax) ∗ (∃ f, arg9.view.loc (c : Thread nD τ) ↦[arg9.view.set]{fullShare} arg9.view.writes (Elt F) f Lrsum)) -∗ K ⟨⟩))
          ⊢ wp frame (wpE (defs₀ (F := F)) Variants.none c none) E (cc0__lse_kernel i arg2 harg2 arg3 harg3 arg4 harg4 arg5 harg5 arg6 harg6 arg7 harg7 arg8 harg8 arg9 harg9) K } := by
  refine ⟨?_, ?_, ?_, ?_, fun E K => ?run⟩
  case run =>
    simp only [cc0__lse_kernel_eq_skeleton]; unfold cc0__lse_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fm, %hfm, HM⟩, ⟨%fs, %hfs, HS⟩, Hk⟩
    obtain rfl := harg2.eq_unread hf0; obtain rfl := harg3.eq_unread hf1; obtain rfl := harg4.eq_unread hf2; obtain rfl := harg5.eq_unread hf3
    obtain rfl := harg8.eq_unread hfm; obtain rfl := harg9.eq_unread hfs
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HM]; · iexists _; iexact HM
    iexists _; iexact HS

end Cert.Kernel.Lse

end
-- ==== Proof.Kernel.Lse.Data.lean ====
import proofs.«123850_j8598524526701_1_alg».proof.Proof.Kernel.Lse.RunLast

set_option maxRecDepth 16384

noncomputable section

namespace Cert.Kernel.Lse

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The closed forms, as facts about the two conditions at a point -/

/-- A point at the first column block is not at the last. -/
theorem notLast_of_first (t : Fin cfg0.N) (h0 : t.val % 4 = 0) : ¬atLastCol (grid0.coords t) :=
  fun h => by have := (atLastCol_iff t).mp h; omega
/-- A point at the last column block is not at the first. -/
theorem notFirst_of_last (t : Fin cfg0.N) (h3 : t.val % 4 = 3) : ¬atFirstCol (grid0.coords t) :=
  fun h => by have := (atFirstCol_iff t).mp h; omega
theorem notFirst_of (t : Fin cfg0.N) (h0 : ¬t.val % 4 = 0) : ¬atFirstCol (grid0.coords t) :=
  fun h => h0 ((atFirstCol_iff t).mp h)
theorem notLast_of (t : Fin cfg0.N) (h3 : ¬t.val % 4 = 3) : ¬atLastCol (grid0.coords t) :=
  fun h => h3 ((atLastCol_iff t).mp h)

/-! ## What each case leaves in the two scratches and the two outputs

Each buffer's contents after the body are its pieces read back over arbitrary contents: where the pieces cover the
buffer (the covers below, checked by evaluating the pieces' rectangles) that does not depend on what it held. -/

/-- In the reset case the pieces stored into the running-maximum scratch tile it, so they cover it. -/
theorem cover_rmax_first (c : Dev nD) (i : grid0.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole)
    (hfirst : atFirstCol i) (hlast : ¬atLastCol i) (x0 : Vec F S256x128 .bf16) (x1 : Vec F S2176x128 .bf16) (x2 : Vec F S256x1 .i32) (x3 : Vec F S1x2176 .i32) (y : S256x1.Idx) :
    ∃ pc ∈ (run_first c i arg2 harg2 arg3 harg3 arg4 harg4 arg5 harg5 arg6 harg6 arg7 harg7 arg8 harg8 arg9 harg9 hfirst hlast x0 x1 x2 x3).2.2.1, y ∈ pc.1.set :=
  View.cover_of_tiledL (run_first c i arg2 harg2 arg3 harg3 arg4 harg4 arg5 harg5 arg6 harg6 arg7 harg7 arg8 harg8 arg9 harg9 hfirst hlast x0 x1 x2 x3).2.2.1 S256x1.size (by sl_kernel_rfl) y

/-- In the reset case the pieces stored into the running-sum scratch tile it, so they cover it. -/
theorem cover_rsum_first (c : Dev nD) (i : grid0.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole)
    (hfirst : atFirstCol i) (hlast : ¬atLastCol i) (x0 : Vec F S256x128 .bf16) (x1 : Vec F S2176x128 .bf16) (x2 : Vec F S256x1 .i32) (x3 : Vec F S1x2176 .i32) (y : S256x1.Idx) :
    ∃ pc ∈ (run_first c i arg2 harg2 arg3 harg3 arg4 harg4 arg5 harg5 arg6 harg6 arg7 harg7 arg8 harg8 arg9 harg9 hfirst hlast x0 x1 x2 x3).2.2.2.1, y ∈ pc.1.set :=
  View.cover_of_tiledL (run_first c i arg2 harg2 arg3 harg3 arg4 harg4 arg5 harg5 arg6 harg6 arg7 harg7 arg8 harg8 arg9 harg9 hfirst hlast x0 x1 x2 x3).2.2.2.1 S256x1.size (by sl_kernel_rfl) y

/-- The reset case stores nothing into the row-maximum output: no pieces. A placeholder that nothing reads — at these
    points the window is idle, not written back, and not read at the next point. -/
def outMaxFirst (c : Dev nD) (i : grid0.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole)
    (hfirst : atFirstCol i) (hlast : ¬atLastCol i) (x0 : Vec F S256x128 .bf16) (x1 : Vec F S2176x128 .bf16) (x2 : Vec F S256x1 .i32) (x3 : Vec F S1x2176 .i32) : Vec F S256x1 .f32 :=
  outMaxView.read (Elt F) (outMaxView.writes (Elt F) outMaxView.junk (run_first c i arg2 harg2 arg3 harg3 arg4 harg4 arg5 harg5 arg6 harg6 arg7 harg7 arg8 harg8 arg9 harg9 hfirst hlast x0 x1 x2 x3).1)

/-- Likewise for the log-sum output. -/
def outLogFirst (c : Dev nD) (i : grid0.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole)
    (hfirst : atFirstCol i) (hlast : ¬atLastCol i) (x0 : Vec F S256x128 .bf16) (x1 : Vec F S2176x128 .bf16) (x2 : Vec F S256x1 .i32) (x3 : Vec F S1x2176 .i32) : Vec F S256x1 .f32 :=
  outLogView.read (Elt F) (outLogView.writes (Elt F) outLogView.junk (run_first c i arg2 harg2 arg3 harg3 arg4 harg4 arg5 harg5 arg6 harg6 arg7 harg7 arg8 harg8 arg9 harg9 hfirst hlast x0 x1 x2 x3).2.1)

/-- The running row maximum after the reset case: this block's, over the reset value. -/
def runMaxFirst (c : Dev nD) (i : grid0.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole)
    (hfirst : atFirstCol i) (hlast : ¬atLastCol i) (x0 : Vec F S256x128 .bf16) (x1 : Vec F S2176x128 .bf16) (x2 : Vec F S256x1 .i32) (x3 : Vec F S1x2176 .i32) : Vec F S256x1 .f32 :=
  maxView.read (Elt F) (maxView.writes (Elt F) maxView.junk (run_first c i arg2 harg2 arg3 harg3 arg4 harg4 arg5 harg5 arg6 harg6 arg7 harg7 arg8 harg8 arg9 harg9 hfirst hlast x0 x1 x2 x3).2.2.1)

/-- The running rescaled exponential sum after the reset case. -/
def runSumFirst (c : Dev nD) (i : grid0.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole)
    (hfirst : atFirstCol i) (hlast : ¬atLastCol i) (x0 : Vec F S256x128 .bf16) (x1 : Vec F S2176x128 .bf16) (x2 : Vec F S256x1 .i32) (x3 : Vec F S1x2176 .i32) : Vec F S256x1 .f32 :=
  sumView.read (Elt F) (sumView.writes (Elt F) sumView.junk (run_first c i arg2 harg2 arg3 harg3 arg4 harg4 arg5 harg5 arg6 harg6 arg7 harg7 arg8 harg8 arg9 harg9 hfirst hlast x0 x1 x2 x3).2.2.2.1)

/-- In the middle case the pieces stored into the running-maximum scratch tile it, so they cover it. -/
theorem cover_rmax_mid (c : Dev nD) (i : grid0.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole)
    (hfirst : ¬atFirstCol i) (hlast : ¬atLastCol i) (x0 : Vec F S256x128 .bf16) (x1 : Vec F S2176x128 .bf16) (x2 : Vec F S256x1 .i32) (x3 : Vec F S1x2176 .i32) (xs0 : Vec F S256x1 .f32) (xs1 : Vec F S256x1 .f32) (y : S256x1.Idx) :
    ∃ pc ∈ (run_mid c i arg2 harg2 arg3 harg3 arg4 harg4 arg5 harg5 arg6 harg6 arg7 harg7 arg8 harg8 arg9 harg9 hfirst hlast x0 x1 x2 x3 xs0 xs1).2.2.1, y ∈ pc.1.set :=
  View.cover_of_tiledL (run_mid c i arg2 harg2 arg3 harg3 arg4 harg4 arg5 harg5 arg6 harg6 arg7 harg7 arg8 harg8 arg9 harg9 hfirst hlast x0 x1 x2 x3 xs0 xs1).2.2.1 S256x1.size (by sl_kernel_rfl) y

/-- In the middle case the pieces stored into the running-sum scratch tile it, so they cover it. -/
theorem cover_rsum_mid (c : Dev nD) (i : grid0.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole)
    (hfirst : ¬atFirstCol i) (hlast : ¬atLastCol i) (x0 : Vec F S256x128 .bf16) (x1 : Vec F S2176x128 .bf16) (x2 : Vec F S256x1 .i32) (x3 : Vec F S1x2176 .i32) (xs0 : Vec F S256x1 .f32) (xs1 : Vec F S256x1 .f32) (y : S256x1.Idx) :
    ∃ pc ∈ (run_mid c i arg2 harg2 arg3 harg3 arg4 harg4 arg5 harg5 arg6 harg6 arg7 harg7 arg8 harg8 arg9 harg9 hfirst hlast x0 x1 x2 x3 xs0 xs1).2.2.2.1, y ∈ pc.1.set :=
  View.cover_of_tiledL (run_mid c i arg2 harg2 arg3 harg3 arg4 harg4 arg5 harg5 arg6 harg6 arg7 harg7 arg8 harg8 arg9 harg9 hfirst hlast x0 x1 x2 x3 xs0 xs1).2.2.2.1 S256x1.size (by sl_kernel_rfl) y

/-- The middle case stores nothing into the row-maximum output: no pieces. A placeholder that nothing reads — at these
    points the window is idle, not written back, and not read at the next point. -/
def outMaxMid (c : Dev nD) (i : grid0.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole)
    (hfirst : ¬atFirstCol i) (hlast : ¬atLastCol i) (x0 : Vec F S256x128 .bf16) (x1 : Vec F S2176x128 .bf16) (x2 : Vec F S256x1 .i32) (x3 : Vec F S1x2176 .i32) (xs0 : Vec F S256x1 .f32) (xs1 : Vec F S256x1 .f32) : Vec F S256x1 .f32 :=
  outMaxView.read (Elt F) (outMaxView.writes (Elt F) outMaxView.junk (run_mid c i arg2 harg2 arg3 harg3 arg4 harg4 arg5 harg5 arg6 harg6 arg7 harg7 arg8 harg8 arg9 harg9 hfirst hlast x0 x1 x2 x3 xs0 xs1).1)

/-- Likewise for the log-sum output. -/
def outLogMid (c : Dev nD) (i : grid0.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole)
    (hfirst : ¬atFirstCol i) (hlast : ¬atLastCol i) (x0 : Vec F S256x128 .bf16) (x1 : Vec F S2176x128 .bf16) (x2 : Vec F S256x1 .i32) (x3 : Vec F S1x2176 .i32) (xs0 : Vec F S256x1 .f32) (xs1 : Vec F S256x1 .f32) : Vec F S256x1 .f32 :=
  outLogView.read (Elt F) (outLogView.writes (Elt F) outLogView.junk (run_mid c i arg2 harg2 arg3 harg3 arg4 harg4 arg5 harg5 arg6 harg6 arg7 harg7 arg8 harg8 arg9 harg9 hfirst hlast x0 x1 x2 x3 xs0 xs1).2.1)

/-- The running row maximum after the middle case: the carried one joined with this block's. -/
def runMaxMid (c : Dev nD) (i : grid0.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole)
    (hfirst : ¬atFirstCol i) (hlast : ¬atLastCol i) (x0 : Vec F S256x128 .bf16) (x1 : Vec F S2176x128 .bf16) (x2 : Vec F S256x1 .i32) (x3 : Vec F S1x2176 .i32) (xs0 : Vec F S256x1 .f32) (xs1 : Vec F S256x1 .f32) : Vec F S256x1 .f32 :=
  maxView.read (Elt F) (maxView.writes (Elt F) maxView.junk (run_mid c i arg2 harg2 arg3 harg3 arg4 harg4 arg5 harg5 arg6 harg6 arg7 harg7 arg8 harg8 arg9 harg9 hfirst hlast x0 x1 x2 x3 xs0 xs1).2.2.1)

/-- The running rescaled exponential sum after the middle case. -/
def runSumMid (c : Dev nD) (i : grid0.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole)
    (hfirst : ¬atFirstCol i) (hlast : ¬atLastCol i) (x0 : Vec F S256x128 .bf16) (x1 : Vec F S2176x128 .bf16) (x2 : Vec F S256x1 .i32) (x3 : Vec F S1x2176 .i32) (xs0 : Vec F S256x1 .f32) (xs1 : Vec F S256x1 .f32) : Vec F S256x1 .f32 :=
  sumView.read (Elt F) (sumView.writes (Elt F) sumView.junk (run_mid c i arg2 harg2 arg3 harg3 arg4 harg4 arg5 harg5 arg6 harg6 arg7 harg7 arg8 harg8 arg9 harg9 hfirst hlast x0 x1 x2 x3 xs0 xs1).2.2.2.1)

/-- In the storing case the pieces stored into the row-maximum output tile it, so they cover it. -/
theorem cover_max_last (c : Dev nD) (i : grid0.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole)
    (hfirst : ¬atFirstCol i) (hlast : atLastCol i) (x0 : Vec F S256x128 .bf16) (x1 : Vec F S2176x128 .bf16) (x2 : Vec F S256x1 .i32) (x3 : Vec F S1x2176 .i32) (xs0 : Vec F S256x1 .f32) (xs1 : Vec F S256x1 .f32) (y : S256x1.Idx) :
    ∃ pc ∈ (run_last c i arg2 harg2 arg3 harg3 arg4 harg4 arg5 harg5 arg6 harg6 arg7 harg7 arg8 harg8 arg9 harg9 hfirst hlast x0 x1 x2 x3 xs0 xs1).1, y ∈ pc.1.set :=
  View.cover_of_tiledL (run_last c i arg2 harg2 arg3 harg3 arg4 harg4 arg5 harg5 arg6 harg6 arg7 harg7 arg8 harg8 arg9 harg9 hfirst hlast x0 x1 x2 x3 xs0 xs1).1 S256x1.size (by sl_kernel_rfl) y

/-- In the storing case the pieces stored into the log-sum output tile it, so they cover it. -/
theorem cover_log_last (c : Dev nD) (i : grid0.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole)
    (hfirst : ¬atFirstCol i) (hlast : atLastCol i) (x0 : Vec F S256x128 .bf16) (x1 : Vec F S2176x128 .bf16) (x2 : Vec F S256x1 .i32) (x3 : Vec F S1x2176 .i32) (xs0 : Vec F S256x1 .f32) (xs1 : Vec F S256x1 .f32) (y : S256x1.Idx) :
    ∃ pc ∈ (run_last c i arg2 harg2 arg3 harg3 arg4 harg4 arg5 harg5 arg6 harg6 arg7 harg7 arg8 harg8 arg9 harg9 hfirst hlast x0 x1 x2 x3 xs0 xs1).2.1, y ∈ pc.1.set :=
  View.cover_of_tiledL (run_last c i arg2 harg2 arg3 harg3 arg4 harg4 arg5 harg5 arg6 harg6 arg7 harg7 arg8 harg8 arg9 harg9 hfirst hlast x0 x1 x2 x3 xs0 xs1).2.1 S256x1.size (by sl_kernel_rfl) y

/-- In the storing case the pieces stored into the running-maximum scratch tile it, so they cover it. -/
theorem cover_rmax_last (c : Dev nD) (i : grid0.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole)
    (hfirst : ¬atFirstCol i) (hlast : atLastCol i) (x0 : Vec F S256x128 .bf16) (x1 : Vec F S2176x128 .bf16) (x2 : Vec F S256x1 .i32) (x3 : Vec F S1x2176 .i32) (xs0 : Vec F S256x1 .f32) (xs1 : Vec F S256x1 .f32) (y : S256x1.Idx) :
    ∃ pc ∈ (run_last c i arg2 harg2 arg3 harg3 arg4 harg4 arg5 harg5 arg6 harg6 arg7 harg7 arg8 harg8 arg9 harg9 hfirst hlast x0 x1 x2 x3 xs0 xs1).2.2.1, y ∈ pc.1.set :=
  View.cover_of_tiledL (run_last c i arg2 harg2 arg3 harg3 arg4 harg4 arg5 harg5 arg6 harg6 arg7 harg7 arg8 harg8 arg9 harg9 hfirst hlast x0 x1 x2 x3 xs0 xs1).2.2.1 S256x1.size (by sl_kernel_rfl) y

/-- In the storing case the pieces stored into the running-sum scratch tile it, so they cover it. -/
theorem cover_rsum_last (c : Dev nD) (i : grid0.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole)
    (hfirst : ¬atFirstCol i) (hlast : atLastCol i) (x0 : Vec F S256x128 .bf16) (x1 : Vec F S2176x128 .bf16) (x2 : Vec F S256x1 .i32) (x3 : Vec F S1x2176 .i32) (xs0 : Vec F S256x1 .f32) (xs1 : Vec F S256x1 .f32) (y : S256x1.Idx) :
    ∃ pc ∈ (run_last c i arg2 harg2 arg3 harg3 arg4 harg4 arg5 harg5 arg6 harg6 arg7 harg7 arg8 harg8 arg9 harg9 hfirst hlast x0 x1 x2 x3 xs0 xs1).2.2.2.1, y ∈ pc.1.set :=
  View.cover_of_tiledL (run_last c i arg2 harg2 arg3 harg3 arg4 harg4 arg5 harg5 arg6 harg6 arg7 harg7 arg8 harg8 arg9 harg9 hfirst hlast x0 x1 x2 x3 xs0 xs1).2.2.2.1 S256x1.size (by sl_kernel_rfl) y

/-- What the storing case leaves in the row-maximum output's staging buffer: the running maximum after this block. -/
def outMaxLast (c : Dev nD) (i : grid0.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole)
    (hfirst : ¬atFirstCol i) (hlast : atLastCol i) (x0 : Vec F S256x128 .bf16) (x1 : Vec F S2176x128 .bf16) (x2 : Vec F S256x1 .i32) (x3 : Vec F S1x2176 .i32) (xs0 : Vec F S256x1 .f32) (xs1 : Vec F S256x1 .f32) : Vec F S256x1 .f32 :=
  outMaxView.read (Elt F) (outMaxView.writes (Elt F) outMaxView.junk (run_last c i arg2 harg2 arg3 harg3 arg4 harg4 arg5 harg5 arg6 harg6 arg7 harg7 arg8 harg8 arg9 harg9 hfirst hlast x0 x1 x2 x3 xs0 xs1).1)

/-- What the storing case leaves in the log-sum output's staging buffer: the logarithm of the running sum after this block. -/
def outLogLast (c : Dev nD) (i : grid0.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole)
    (hfirst : ¬atFirstCol i) (hlast : atLastCol i) (x0 : Vec F S256x128 .bf16) (x1 : Vec F S2176x128 .bf16) (x2 : Vec F S256x1 .i32) (x3 : Vec F S1x2176 .i32) (xs0 : Vec F S256x1 .f32) (xs1 : Vec F S256x1 .f32) : Vec F S256x1 .f32 :=
  outLogView.read (Elt F) (outLogView.writes (Elt F) outLogView.junk (run_last c i arg2 harg2 arg3 harg3 arg4 harg4 arg5 harg5 arg6 harg6 arg7 harg7 arg8 harg8 arg9 harg9 hfirst hlast x0 x1 x2 x3 xs0 xs1).2.1)

/-- The running row maximum after the storing case: the carried one joined with this block's. -/
def runMaxLast (c : Dev nD) (i : grid0.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole)
    (hfirst : ¬atFirstCol i) (hlast : atLastCol i) (x0 : Vec F S256x128 .bf16) (x1 : Vec F S2176x128 .bf16) (x2 : Vec F S256x1 .i32) (x3 : Vec F S1x2176 .i32) (xs0 : Vec F S256x1 .f32) (xs1 : Vec F S256x1 .f32) : Vec F S256x1 .f32 :=
  maxView.read (Elt F) (maxView.writes (Elt F) maxView.junk (run_last c i arg2 harg2 arg3 harg3 arg4 harg4 arg5 harg5 arg6 harg6 arg7 harg7 arg8 harg8 arg9 harg9 hfirst hlast x0 x1 x2 x3 xs0 xs1).2.2.1)

/-- The running rescaled exponential sum after the storing case. -/
def runSumLast (c : Dev nD) (i : grid0.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole)
    (hfirst : ¬atFirstCol i) (hlast : atLastCol i) (x0 : Vec F S256x128 .bf16) (x1 : Vec F S2176x128 .bf16) (x2 : Vec F S256x1 .i32) (x3 : Vec F S1x2176 .i32) (xs0 : Vec F S256x1 .f32) (xs1 : Vec F S256x1 .f32) : Vec F S256x1 .f32 :=
  sumView.read (Elt F) (sumView.writes (Elt F) sumView.junk (run_last c i arg2 harg2 arg3 harg3 arg4 harg4 arg5 harg5 arg6 harg6 arg7 harg7 arg8 harg8 arg9 harg9 hfirst hlast x0 x1 x2 x3 xs0 xs1).2.2.2.1)

/-! ## What the outputs and the scratches hold after each point -/

/-- after point n: ((output window 4's staging buffer, output window 5's), (first scratch, second scratch)) -/
def outsAt (c : Dev nD) : (n : ℕ) → n < cfg0.N → (Vec F S256x1 .f32 × Vec F S256x1 .f32) × (Vec F S256x1 .f32 × Vec F S256x1 .f32)
  | 0, hn =>
      ((outMaxFirst c (grid0.coords ⟨0, hn⟩) (stg_0 ⟨0, hn⟩) (stgWhole_0 ⟨0, hn⟩) (stg_1 ⟨0, hn⟩) (stgWhole_1 ⟨0, hn⟩) (stg_2 ⟨0, hn⟩) (stgWhole_2 ⟨0, hn⟩) (stg_3 ⟨0, hn⟩) (stgWhole_3 ⟨0, hn⟩) (stg_4 ⟨0, hn⟩) (stgWhole_4 ⟨0, hn⟩) (stg_5 ⟨0, hn⟩) (stgWhole_5 ⟨0, hn⟩) maxRef (Memref.isWhole_whole _) sumRef (Memref.isWhole_whole _) ((atFirstCol_iff ⟨0, hn⟩).mpr (Nat.zero_mod 4)) (notLast_of_first ⟨0, hn⟩ (Nat.zero_mod 4)) (iblk V c 0 ⟨0, hn⟩) (iblk V c 1 ⟨0, hn⟩) (iblk V c 2 ⟨0, hn⟩) (iblk V c 3 ⟨0, hn⟩), outLogFirst c (grid0.coords ⟨0, hn⟩) (stg_0 ⟨0, hn⟩) (stgWhole_0 ⟨0, hn⟩) (stg_1 ⟨0, hn⟩) (stgWhole_1 ⟨0, hn⟩) (stg_2 ⟨0, hn⟩) (stgWhole_2 ⟨0, hn⟩) (stg_3 ⟨0, hn⟩) (stgWhole_3 ⟨0, hn⟩) (stg_4 ⟨0, hn⟩) (stgWhole_4 ⟨0, hn⟩) (stg_5 ⟨0, hn⟩) (stgWhole_5 ⟨0, hn⟩) maxRef (Memref.isWhole_whole _) sumRef (Memref.isWhole_whole _) ((atFirstCol_iff ⟨0, hn⟩).mpr (Nat.zero_mod 4)) (notLast_of_first ⟨0, hn⟩ (Nat.zero_mod 4)) (iblk V c 0 ⟨0, hn⟩) (iblk V c 1 ⟨0, hn⟩) (iblk V c 2 ⟨0, hn⟩) (iblk V c 3 ⟨0, hn⟩)),
       (runMaxFirst c (grid0.coords ⟨0, hn⟩) (stg_0 ⟨0, hn⟩) (stgWhole_0 ⟨0, hn⟩) (stg_1 ⟨0, hn⟩) (stgWhole_1 ⟨0, hn⟩) (stg_2 ⟨0, hn⟩) (stgWhole_2 ⟨0, hn⟩) (stg_3 ⟨0, hn⟩) (stgWhole_3 ⟨0, hn⟩) (stg_4 ⟨0, hn⟩) (stgWhole_4 ⟨0, hn⟩) (stg_5 ⟨0, hn⟩) (stgWhole_5 ⟨0, hn⟩) maxRef (Memref.isWhole_whole _) sumRef (Memref.isWhole_whole _) ((atFirstCol_iff ⟨0, hn⟩).mpr (Nat.zero_mod 4)) (notLast_of_first ⟨0, hn⟩ (Nat.zero_mod 4)) (iblk V c 0 ⟨0, hn⟩) (iblk V c 1 ⟨0, hn⟩) (iblk V c 2 ⟨0, hn⟩) (iblk V c 3 ⟨0, hn⟩), runSumFirst c (grid0.coords ⟨0, hn⟩) (stg_0 ⟨0, hn⟩) (stgWhole_0 ⟨0, hn⟩) (stg_1 ⟨0, hn⟩) (stgWhole_1 ⟨0, hn⟩) (stg_2 ⟨0, hn⟩) (stgWhole_2 ⟨0, hn⟩) (stg_3 ⟨0, hn⟩) (stgWhole_3 ⟨0, hn⟩) (stg_4 ⟨0, hn⟩) (stgWhole_4 ⟨0, hn⟩) (stg_5 ⟨0, hn⟩) (stgWhole_5 ⟨0, hn⟩) maxRef (Memref.isWhole_whole _) sumRef (Memref.isWhole_whole _) ((atFirstCol_iff ⟨0, hn⟩).mpr (Nat.zero_mod 4)) (notLast_of_first ⟨0, hn⟩ (Nat.zero_mod 4)) (iblk V c 0 ⟨0, hn⟩) (iblk V c 1 ⟨0, hn⟩) (iblk V c 2 ⟨0, hn⟩) (iblk V c 3 ⟨0, hn⟩)))
  | n + 1, hn =>
    if h0 : (n + 1) % 4 = 0 then
      ((outMaxFirst c (grid0.coords ⟨n + 1, hn⟩) (stg_0 ⟨n + 1, hn⟩) (stgWhole_0 ⟨n + 1, hn⟩) (stg_1 ⟨n + 1, hn⟩) (stgWhole_1 ⟨n + 1, hn⟩) (stg_2 ⟨n + 1, hn⟩) (stgWhole_2 ⟨n + 1, hn⟩) (stg_3 ⟨n + 1, hn⟩) (stgWhole_3 ⟨n + 1, hn⟩) (stg_4 ⟨n + 1, hn⟩) (stgWhole_4 ⟨n + 1, hn⟩) (stg_5 ⟨n + 1, hn⟩) (stgWhole_5 ⟨n + 1, hn⟩) maxRef (Memref.isWhole_whole _) sumRef (Memref.isWhole_whole _) ((atFirstCol_iff ⟨n + 1, hn⟩).mpr h0) (notLast_of_first ⟨n + 1, hn⟩ h0) (iblk V c 0 ⟨n + 1, hn⟩) (iblk V c 1 ⟨n + 1, hn⟩) (iblk V c 2 ⟨n + 1, hn⟩) (iblk V c 3 ⟨n + 1, hn⟩), outLogFirst c (grid0.coords ⟨n + 1, hn⟩) (stg_0 ⟨n + 1, hn⟩) (stgWhole_0 ⟨n + 1, hn⟩) (stg_1 ⟨n + 1, hn⟩) (stgWhole_1 ⟨n + 1, hn⟩) (stg_2 ⟨n + 1, hn⟩) (stgWhole_2 ⟨n + 1, hn⟩) (stg_3 ⟨n + 1, hn⟩) (stgWhole_3 ⟨n + 1, hn⟩) (stg_4 ⟨n + 1, hn⟩) (stgWhole_4 ⟨n + 1, hn⟩) (stg_5 ⟨n + 1, hn⟩) (stgWhole_5 ⟨n + 1, hn⟩) maxRef (Memref.isWhole_whole _) sumRef (Memref.isWhole_whole _) ((atFirstCol_iff ⟨n + 1, hn⟩).mpr h0) (notLast_of_first ⟨n + 1, hn⟩ h0) (iblk V c 0 ⟨n + 1, hn⟩) (iblk V c 1 ⟨n + 1, hn⟩) (iblk V c 2 ⟨n + 1, hn⟩) (iblk V c 3 ⟨n + 1, hn⟩)),
       (runMaxFirst c (grid0.coords ⟨n + 1, hn⟩) (stg_0 ⟨n + 1, hn⟩) (stgWhole_0 ⟨n + 1, hn⟩) (stg_1 ⟨n + 1, hn⟩) (stgWhole_1 ⟨n + 1, hn⟩) (stg_2 ⟨n + 1, hn⟩) (stgWhole_2 ⟨n + 1, hn⟩) (stg_3 ⟨n + 1, hn⟩) (stgWhole_3 ⟨n + 1, hn⟩) (stg_4 ⟨n + 1, hn⟩) (stgWhole_4 ⟨n + 1, hn⟩) (stg_5 ⟨n + 1, hn⟩) (stgWhole_5 ⟨n + 1, hn⟩) maxRef (Memref.isWhole_whole _) sumRef (Memref.isWhole_whole _) ((atFirstCol_iff ⟨n + 1, hn⟩).mpr h0) (notLast_of_first ⟨n + 1, hn⟩ h0) (iblk V c 0 ⟨n + 1, hn⟩) (iblk V c 1 ⟨n + 1, hn⟩) (iblk V c 2 ⟨n + 1, hn⟩) (iblk V c 3 ⟨n + 1, hn⟩), runSumFirst c (grid0.coords ⟨n + 1, hn⟩) (stg_0 ⟨n + 1, hn⟩) (stgWhole_0 ⟨n + 1, hn⟩) (stg_1 ⟨n + 1, hn⟩) (stgWhole_1 ⟨n + 1, hn⟩) (stg_2 ⟨n + 1, hn⟩) (stgWhole_2 ⟨n + 1, hn⟩) (stg_3 ⟨n + 1, hn⟩) (stgWhole_3 ⟨n + 1, hn⟩) (stg_4 ⟨n + 1, hn⟩) (stgWhole_4 ⟨n + 1, hn⟩) (stg_5 ⟨n + 1, hn⟩) (stgWhole_5 ⟨n + 1, hn⟩) maxRef (Memref.isWhole_whole _) sumRef (Memref.isWhole_whole _) ((atFirstCol_iff ⟨n + 1, hn⟩).mpr h0) (notLast_of_first ⟨n + 1, hn⟩ h0) (iblk V c 0 ⟨n + 1, hn⟩) (iblk V c 1 ⟨n + 1, hn⟩) (iblk V c 2 ⟨n + 1, hn⟩) (iblk V c 3 ⟨n + 1, hn⟩)))
    else if h3 : (n + 1) % 4 = 3 then
      ((outMaxLast c (grid0.coords ⟨n + 1, hn⟩) (stg_0 ⟨n + 1, hn⟩) (stgWhole_0 ⟨n + 1, hn⟩) (stg_1 ⟨n + 1, hn⟩) (stgWhole_1 ⟨n + 1, hn⟩) (stg_2 ⟨n + 1, hn⟩) (stgWhole_2 ⟨n + 1, hn⟩) (stg_3 ⟨n + 1, hn⟩) (stgWhole_3 ⟨n + 1, hn⟩) (stg_4 ⟨n + 1, hn⟩) (stgWhole_4 ⟨n + 1, hn⟩) (stg_5 ⟨n + 1, hn⟩) (stgWhole_5 ⟨n + 1, hn⟩) maxRef (Memref.isWhole_whole _) sumRef (Memref.isWhole_whole _) (notFirst_of_last ⟨n + 1, hn⟩ h3) ((atLastCol_iff ⟨n + 1, hn⟩).mpr h3) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.1 (outsAt c n (Nat.lt_of_succ_lt hn)).2.2, outLogLast c (grid0.coords ⟨n + 1, hn⟩) (stg_0 ⟨n + 1, hn⟩) (stgWhole_0 ⟨n + 1, hn⟩) (stg_1 ⟨n + 1, hn⟩) (stgWhole_1 ⟨n + 1, hn⟩) (stg_2 ⟨n + 1, hn⟩) (stgWhole_2 ⟨n + 1, hn⟩) (stg_3 ⟨n + 1, hn⟩) (stgWhole_3 ⟨n + 1, hn⟩) (stg_4 ⟨n + 1, hn⟩) (stgWhole_4 ⟨n + 1, hn⟩) (stg_5 ⟨n + 1, hn⟩) (stgWhole_5 ⟨n + 1, hn⟩) maxRef (Memref.isWhole_whole _) sumRef (Memref.isWhole_whole _) (notFirst_of_last ⟨n + 1, hn⟩ h3) ((atLastCol_iff ⟨n + 1, hn⟩).mpr h3) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.1 (outsAt c n (Nat.lt_of_succ_lt hn)).2.2),
       (runMaxLast c (grid0.coords ⟨n + 1, hn⟩) (stg_0 ⟨n + 1, hn⟩) (stgWhole_0 ⟨n + 1, hn⟩) (stg_1 ⟨n + 1, hn⟩) (stgWhole_1 ⟨n + 1, hn⟩) (stg_2 ⟨n + 1, hn⟩) (stgWhole_2 ⟨n + 1, hn⟩) (stg_3 ⟨n + 1, hn⟩) (stgWhole_3 ⟨n + 1, hn⟩) (stg_4 ⟨n + 1, hn⟩) (stgWhole_4 ⟨n + 1, hn⟩) (stg_5 ⟨n + 1, hn⟩) (stgWhole_5 ⟨n + 1, hn⟩) maxRef (Memref.isWhole_whole _) sumRef (Memref.isWhole_whole _) (notFirst_of_last ⟨n + 1, hn⟩ h3) ((atLastCol_iff ⟨n + 1, hn⟩).mpr h3) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.1 (outsAt c n (Nat.lt_of_succ_lt hn)).2.2, runSumLast c (grid0.coords ⟨n + 1, hn⟩) (stg_0 ⟨n + 1, hn⟩) (stgWhole_0 ⟨n + 1, hn⟩) (stg_1 ⟨n + 1, hn⟩) (stgWhole_1 ⟨n + 1, hn⟩) (stg_2 ⟨n + 1, hn⟩) (stgWhole_2 ⟨n + 1, hn⟩) (stg_3 ⟨n + 1, hn⟩) (stgWhole_3 ⟨n + 1, hn⟩) (stg_4 ⟨n + 1, hn⟩) (stgWhole_4 ⟨n + 1, hn⟩) (stg_5 ⟨n + 1, hn⟩) (stgWhole_5 ⟨n + 1, hn⟩) maxRef (Memref.isWhole_whole _) sumRef (Memref.isWhole_whole _) (notFirst_of_last ⟨n + 1, hn⟩ h3) ((atLastCol_iff ⟨n + 1, hn⟩).mpr h3) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.1 (outsAt c n (Nat.lt_of_succ_lt hn)).2.2))
    else
      ((outMaxMid c (grid0.coords ⟨n + 1, hn⟩) (stg_0 ⟨n + 1, hn⟩) (stgWhole_0 ⟨n + 1, hn⟩) (stg_1 ⟨n + 1, hn⟩) (stgWhole_1 ⟨n + 1, hn⟩) (stg_2 ⟨n + 1, hn⟩) (stgWhole_2 ⟨n + 1, hn⟩) (stg_3 ⟨n + 1, hn⟩) (stgWhole_3 ⟨n + 1, hn⟩) (stg_4 ⟨n + 1, hn⟩) (stgWhole_4 ⟨n + 1, hn⟩) (stg_5 ⟨n + 1, hn⟩) (stgWhole_5 ⟨n + 1, hn⟩) maxRef (Memref.isWhole_whole _) sumRef (Memref.isWhole_whole _) (notFirst_of ⟨n + 1, hn⟩ h0) (notLast_of ⟨n + 1, hn⟩ h3) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.1 (outsAt c n (Nat.lt_of_succ_lt hn)).2.2, outLogMid c (grid0.coords ⟨n + 1, hn⟩) (stg_0 ⟨n + 1, hn⟩) (stgWhole_0 ⟨n + 1, hn⟩) (stg_1 ⟨n + 1, hn⟩) (stgWhole_1 ⟨n + 1, hn⟩) (stg_2 ⟨n + 1, hn⟩) (stgWhole_2 ⟨n + 1, hn⟩) (stg_3 ⟨n + 1, hn⟩) (stgWhole_3 ⟨n + 1, hn⟩) (stg_4 ⟨n + 1, hn⟩) (stgWhole_4 ⟨n + 1, hn⟩) (stg_5 ⟨n + 1, hn⟩) (stgWhole_5 ⟨n + 1, hn⟩) maxRef (Memref.isWhole_whole _) sumRef (Memref.isWhole_whole _) (notFirst_of ⟨n + 1, hn⟩ h0) (notLast_of ⟨n + 1, hn⟩ h3) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.1 (outsAt c n (Nat.lt_of_succ_lt hn)).2.2),
       (runMaxMid c (grid0.coords ⟨n + 1, hn⟩) (stg_0 ⟨n + 1, hn⟩) (stgWhole_0 ⟨n + 1, hn⟩) (stg_1 ⟨n + 1, hn⟩) (stgWhole_1 ⟨n + 1, hn⟩) (stg_2 ⟨n + 1, hn⟩) (stgWhole_2 ⟨n + 1, hn⟩) (stg_3 ⟨n + 1, hn⟩) (stgWhole_3 ⟨n + 1, hn⟩) (stg_4 ⟨n + 1, hn⟩) (stgWhole_4 ⟨n + 1, hn⟩) (stg_5 ⟨n + 1, hn⟩) (stgWhole_5 ⟨n + 1, hn⟩) maxRef (Memref.isWhole_whole _) sumRef (Memref.isWhole_whole _) (notFirst_of ⟨n + 1, hn⟩ h0) (notLast_of ⟨n + 1, hn⟩ h3) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.1 (outsAt c n (Nat.lt_of_succ_lt hn)).2.2, runSumMid c (grid0.coords ⟨n + 1, hn⟩) (stg_0 ⟨n + 1, hn⟩) (stgWhole_0 ⟨n + 1, hn⟩) (stg_1 ⟨n + 1, hn⟩) (stgWhole_1 ⟨n + 1, hn⟩) (stg_2 ⟨n + 1, hn⟩) (stgWhole_2 ⟨n + 1, hn⟩) (stg_3 ⟨n + 1, hn⟩) (stgWhole_3 ⟨n + 1, hn⟩) (stg_4 ⟨n + 1, hn⟩) (stgWhole_4 ⟨n + 1, hn⟩) (stg_5 ⟨n + 1, hn⟩) (stgWhole_5 ⟨n + 1, hn⟩) maxRef (Memref.isWhole_whole _) sumRef (Memref.isWhole_whole _) (notFirst_of ⟨n + 1, hn⟩ h0) (notLast_of ⟨n + 1, hn⟩ h3) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.1 (outsAt c n (Nat.lt_of_succ_lt hn)).2.2))

/-- At a point of the first column block: the reset case's contents, from the point's input blocks only. -/
theorem outsAt_first (c : Dev nD) (t : Fin cfg0.N) (h0 : t.val % 4 = 0) :
    outsAt V c t.val t.isLt =
      ((outMaxFirst c (grid0.coords t) (stg_0 t) (stgWhole_0 t) (stg_1 t) (stgWhole_1 t) (stg_2 t) (stgWhole_2 t) (stg_3 t) (stgWhole_3 t) (stg_4 t) (stgWhole_4 t) (stg_5 t) (stgWhole_5 t) maxRef (Memref.isWhole_whole _) sumRef (Memref.isWhole_whole _) ((atFirstCol_iff t).mpr h0) (notLast_of_first t h0) (iblk V c 0 t) (iblk V c 1 t) (iblk V c 2 t) (iblk V c 3 t), outLogFirst c (grid0.coords t) (stg_0 t) (stgWhole_0 t) (stg_1 t) (stgWhole_1 t) (stg_2 t) (stgWhole_2 t) (stg_3 t) (stgWhole_3 t) (stg_4 t) (stgWhole_4 t) (stg_5 t) (stgWhole_5 t) maxRef (Memref.isWhole_whole _) sumRef (Memref.isWhole_whole _) ((atFirstCol_iff t).mpr h0) (notLast_of_first t h0) (iblk V c 0 t) (iblk V c 1 t) (iblk V c 2 t) (iblk V c 3 t)),
       (runMaxFirst c (grid0.coords t) (stg_0 t) (stgWhole_0 t) (stg_1 t) (stgWhole_1 t) (stg_2 t) (stgWhole_2 t) (stg_3 t) (stgWhole_3 t) (stg_4 t) (stgWhole_4 t) (stg_5 t) (stgWhole_5 t) maxRef (Memref.isWhole_whole _) sumRef (Memref.isWhole_whole _) ((atFirstCol_iff t).mpr h0) (notLast_of_first t h0) (iblk V c 0 t) (iblk V c 1 t) (iblk V c 2 t) (iblk V c 3 t), runSumFirst c (grid0.coords t) (stg_0 t) (stgWhole_0 t) (stg_1 t) (stgWhole_1 t) (stg_2 t) (stgWhole_2 t) (stg_3 t) (stgWhole_3 t) (stg_4 t) (stgWhole_4 t) (stg_5 t) (stgWhole_5 t) maxRef (Memref.isWhole_whole _) sumRef (Memref.isWhole_whole _) ((atFirstCol_iff t).mpr h0) (notLast_of_first t h0) (iblk V c 0 t) (iblk V c 1 t) (iblk V c 2 t) (iblk V c 3 t))) := by
  obtain ⟨n, hn⟩ := t
  cases n with
  | zero => exact rfl
  | succ n => exact (dif_pos h0).trans rfl

/-- At a point of column block 1 or 2: the middle case's contents, over the scratches the point before left. -/
theorem outsAt_mid (c : Dev nD) (t : Fin cfg0.N) (h0 : ¬t.val % 4 = 0) (h3 : ¬t.val % 4 = 3) :
    outsAt V c t.val t.isLt =
      ((outMaxMid c (grid0.coords t) (stg_0 t) (stgWhole_0 t) (stg_1 t) (stgWhole_1 t) (stg_2 t) (stgWhole_2 t) (stg_3 t) (stgWhole_3 t) (stg_4 t) (stgWhole_4 t) (stg_5 t) (stgWhole_5 t) maxRef (Memref.isWhole_whole _) sumRef (Memref.isWhole_whole _) (notFirst_of t h0) (notLast_of t h3) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2, outLogMid c (grid0.coords t) (stg_0 t) (stgWhole_0 t) (stg_1 t) (stgWhole_1 t) (stg_2 t) (stgWhole_2 t) (stg_3 t) (stgWhole_3 t) (stg_4 t) (stgWhole_4 t) (stg_5 t) (stgWhole_5 t) maxRef (Memref.isWhole_whole _) sumRef (Memref.isWhole_whole _) (notFirst_of t h0) (notLast_of t h3) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2),
       (runMaxMid c (grid0.coords t) (stg_0 t) (stgWhole_0 t) (stg_1 t) (stgWhole_1 t) (stg_2 t) (stgWhole_2 t) (stg_3 t) (stgWhole_3 t) (stg_4 t) (stgWhole_4 t) (stg_5 t) (stgWhole_5 t) maxRef (Memref.isWhole_whole _) sumRef (Memref.isWhole_whole _) (notFirst_of t h0) (notLast_of t h3) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2, runSumMid c (grid0.coords t) (stg_0 t) (stgWhole_0 t) (stg_1 t) (stgWhole_1 t) (stg_2 t) (stgWhole_2 t) (stg_3 t) (stgWhole_3 t) (stg_4 t) (stgWhole_4 t) (stg_5 t) (stgWhole_5 t) maxRef (Memref.isWhole_whole _) sumRef (Memref.isWhole_whole _) (notFirst_of t h0) (notLast_of t h3) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2)) := by
  obtain ⟨n, hn⟩ := t
  cases n with
  | zero => exact absurd (Nat.zero_mod 4) h0
  | succ n => exact (dif_neg h0).trans ((dif_neg h3).trans rfl)

/-- At a point of the last column block: the storing case's contents, over the scratches the point before left. -/
theorem outsAt_last (c : Dev nD) (t : Fin cfg0.N) (h3 : t.val % 4 = 3) :
    outsAt V c t.val t.isLt =
      ((outMaxLast c (grid0.coords t) (stg_0 t) (stgWhole_0 t) (stg_1 t) (stgWhole_1 t) (stg_2 t) (stgWhole_2 t) (stg_3 t) (stgWhole_3 t) (stg_4 t) (stgWhole_4 t) (stg_5 t) (stgWhole_5 t) maxRef (Memref.isWhole_whole _) sumRef (Memref.isWhole_whole _) (notFirst_of_last t h3) ((atLastCol_iff t).mpr h3) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2, outLogLast c (grid0.coords t) (stg_0 t) (stgWhole_0 t) (stg_1 t) (stgWhole_1 t) (stg_2 t) (stgWhole_2 t) (stg_3 t) (stgWhole_3 t) (stg_4 t) (stgWhole_4 t) (stg_5 t) (stgWhole_5 t) maxRef (Memref.isWhole_whole _) sumRef (Memref.isWhole_whole _) (notFirst_of_last t h3) ((atLastCol_iff t).mpr h3) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2),
       (runMaxLast c (grid0.coords t) (stg_0 t) (stgWhole_0 t) (stg_1 t) (stgWhole_1 t) (stg_2 t) (stgWhole_2 t) (stg_3 t) (stgWhole_3 t) (stg_4 t) (stgWhole_4 t) (stg_5 t) (stgWhole_5 t) maxRef (Memref.isWhole_whole _) sumRef (Memref.isWhole_whole _) (notFirst_of_last t h3) ((atLastCol_iff t).mpr h3) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2, runSumLast c (grid0.coords t) (stg_0 t) (stgWhole_0 t) (stg_1 t) (stgWhole_1 t) (stg_2 t) (stgWhole_2 t) (stg_3 t) (stgWhole_3 t) (stg_4 t) (stgWhole_4 t) (stg_5 t) (stgWhole_5 t) maxRef (Memref.isWhole_whole _) sumRef (Memref.isWhole_whole _) (notFirst_of_last t h3) ((atLastCol_iff t).mpr h3) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2)) := by
  obtain ⟨n, hn⟩ := t
  cases n with
  | zero => exact absurd (show (0 : ℕ) % 4 = 3 from h3) (by decide)
  | succ n =>
    have h3' : (n + 1) % 4 = 3 := h3
    have h0 : ¬(n + 1) % 4 = 0 := fun h => by omega
    exact (dif_neg h0).trans ((dif_pos h3').trans rfl)

/-! ## The region invariant -/

/-- Before position `n`. Before the first point: what the launch hands the region. Afterwards: this kernel's two
    scratches at what the point before left in them (the running maximum and the running sum), the other eighteen
    scoped buffers at some contents, the generator register at some state. -/
def PhiS (c : Dev nD) : (n : ℕ) → n ≤ cfg0.N → sProp 𝕄
  | 0, _ => Pipeline.ΦA spec0 c
  | n + 1, hn =>
    iprop(iprop(owns (c : Thread nD τ) maxRef fullShare (outsAt V c n hn).2.1 ∗ owns (c : Thread nD τ) sumRef fullShare (outsAt V c n hn).2.2 ∗ othersHeld c)
      ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn =
      iprop(iprop(owns (c : Thread nD τ) maxRef fullShare (outsAt V c n hn).2.1 ∗ owns (c : Thread nD τ) sumRef fullShare (outsAt V c n hn).2.2 ∗ othersHeld c)
        ∗ (∃ r, prngReg c r)) := rfl

theorem PhiS_pos (c : Dev nD) (n : ℕ) (h : n ≤ cfg0.N) (hz : n ≠ 0) :
    PhiS V c n h =
      iprop(iprop(owns (c : Thread nD τ) maxRef fullShare (outsAt V c (n - 1) (by omega)).2.1 ∗ owns (c : Thread nD τ) sumRef fullShare (outsAt V c (n - 1) (by omega)).2.2 ∗ othersHeld c)
        ∗ (∃ r, prngReg c r)) := by
  cases n with
  | zero => exact absurd rfl hz
  | succ n => rfl

/-! ## The pipeline's proof data -/

/-- The arrays as the region finds them; after the body at a point each input's buffer at its block, the two outputs'
    at the matching components of `outsAt`; the invariant above; full shares; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1.1
    | ⟨5, _⟩ => (outsAt V c t.val t.isLt).1.2
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem q_eq (c : Dev nD) (w : Fin cfg0.W) : (dat V c).q w = fullShare := by
  dsimp only [dat]
theorem owed_eq (c : Dev nD) (t : Fin (cfg0.N + 1)) : (dat V c).owed t = 0 := by
  dsimp only [dat]
/-- The bound on the pairs the core's waits have recorded is left at the structure's default, everything: the body
    takes on no new units. -/
theorem recorded_eq (c : Dev nD) (t : Fin (cfg0.N + 1)) : (dat V c).recorded t = Set.univ := by
  dsimp only [dat]

/-- The invariant at a point's start, restated at the point's position. -/
theorem Phi_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_max (c : Dev nD) (t : Fin cfg0.N) : (dat V c).after 4 t = (outsAt V c t.val t.isLt).1.1 := by dsimp only [dat]
theorem after_logsum (c : Dev nD) (t : Fin cfg0.N) : (dat V c).after 5 t = (outsAt V c t.val t.isLt).1.2 := by dsimp only [dat]

/-- Each input's current staging buffer holds its block when the body starts, at every point. -/
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d

end Cert.Kernel.Lse

end
-- ==== Proof.Kernel.Lse.Body.lean ====
import proofs.«123850_j8598524526701_1_alg».proof.Proof.Kernel.Lse.Data

set_option maxRecDepth 16384

noncomputable section

namespace Cert.Kernel.Lse

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body obligation, at a generic point -/

/-- What the body is called with at point `t`: the invariant, what the core owes, and each window's current staging
    buffer at what it then holds. -/
def bodyPre (c : Dev nD) (t : Fin cfg0.N) : sProp 𝕄 :=
  iprop((dat V c).Φ t.castSucc ∗ (dat V c).owesAt () t.castSucc
    ∗ (∃ d, owns (c : Thread nD τ) (stg_0 t) fullShare ((dat V c).before 0 t d))
    ∗ (∃ d, owns (c : Thread nD τ) (stg_1 t) fullShare ((dat V c).before 1 t d))
    ∗ (∃ d, owns (c : Thread nD τ) (stg_2 t) fullShare ((dat V c).before 2 t d))
    ∗ (∃ d, owns (c : Thread nD τ) (stg_3 t) fullShare ((dat V c).before 3 t d))
    ∗ (∃ d, owns (c : Thread nD τ) (stg_4 t) fullShare ((dat V c).before 4 t d))
    ∗ (∃ d, owns (c : Thread nD τ) (stg_5 t) fullShare ((dat V c).before 5 t d)))

/-- What it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4800000 in
/-- The body at any point. The inputs' buffers hold their blocks; the point's position mod 4 says which of the three
    cases it is in, and that case's run applies. The invariant hands the body the two scratches at what the point before
    left (at anything before the first point: the reset case reads neither before overwriting it) and takes them back at
    this point's contents, by the covers; the other eighteen scoped buffers and the generator register pass through
    untouched; the core owes nothing throughout. Where the outputs are idle their buffers go back as they came; at the
    storing points they go back at the pieces read over their covers. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).owesAt () t.succ = (dat V c).owesAt () t.castSucc from rfl]
  rw [show (dat V c).Φ t.succ = PhiS V c (t.val + 1) t.isLt from rfl, PhiS_succ]
  have hN : t.val < 68 := lt_of_lt_of_eq t.isLt (show cfg0.N = 68 from N_0)
  by_cases h0 : t.val % 4 = 0
  · -- the reset case
    have hF : atFirstCol (grid0.coords t) := (atFirstCol_iff t).mpr h0
    have hL : ¬atLastCol (grid0.coords t) := notLast_of_first t h0
    rw [show (dat V c).leavesExact 0 t = owns (c : Thread nD τ) (stg_0 t) fullShare ((dat V c).after 0 t) from by
      unfold Dat.leavesExact; rw [live_0 t], after_0]
    rw [show (dat V c).leavesExact 1 t = owns (c : Thread nD τ) (stg_1 t) fullShare ((dat V c).after 1 t) from by
      unfold Dat.leavesExact; rw [live_1 t], after_1]
    rw [show (dat V c).leavesExact 2 t = owns (c : Thread nD τ) (stg_2 t) fullShare ((dat V c).after 2 t) from by
      unfold Dat.leavesExact; rw [live_2 t], after_2]
    rw [show (dat V c).leavesExact 3 t = owns (c : Thread nD τ) (stg_3 t) fullShare ((dat V c).after 3 t) from by
      unfold Dat.leavesExact; rw [live_3 t], after_3]
    rw [Dat.leavesExact_idle (dat V c) 4 t (idle_max_first t hF hL) (noFlush_max_first t hF hL)]
    rw [Dat.leavesExact_idle (dat V c) 5 t (idle_logsum_first t hF hL) (noFlush_logsum_first t hF hL)]
    rw [outsAt_first V c t h0]
    dsimp only
    unfold runMaxFirst runSumFirst
    by_cases hz : t.val = 0
    · rw [Phi_castSucc V c t, PhiS_zero V c _ _ hz, PhiA_eq]
      iintro ⟨⟨⟨HM, HS, Hoth⟩, Hg⟩, Ho, ⟨%d0, H0⟩, ⟨%d1, H1⟩, ⟨%d2, H2⟩, ⟨%d3, H3⟩, ⟨%d4, H4⟩, ⟨%d5, H5⟩⟩
      iapply ((run_first c (grid0.coords t) _ _ _ _ _ _ _ _ _ _ _ _ _ _ _ _ hF hL (iblk V c 0 t) (iblk V c 1 t) (iblk V c 2 t) (iblk V c 3 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HM]; · iexact HM
      isplitl [HS]; · iexact HS
      iintro ⟨H0, H1, H2, H3, H4, H5, ⟨%em, HM⟩, ⟨%es, HS⟩⟩
      isplitl [HM HS Hoth Hg]
      · isplitl [HM HS Hoth]
        · isplitl [HM]
          · unfold owns; iexists _; isplitr
            swap; · iexact HM
            ipureintro; exact View.read_writes_of_cover _ _ _ _ _ (cover_rmax_first _ _ _ _ _ _ _ _ _ _ _ _ _ _ _ _ _ _ _ _ _ _ _ _)
          isplitl [HS]
          · unfold owns; iexists _; isplitr
            swap; · iexact HS
            ipureintro; exact View.read_writes_of_cover _ _ _ _ _ (cover_rsum_first _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [Phi_castSucc V c t, PhiS_pos V c _ _ hz]
      iintro ⟨⟨⟨HM, HS, Hoth⟩, Hg⟩, Ho, ⟨%d0, H0⟩, ⟨%d1, H1⟩, ⟨%d2, H2⟩, ⟨%d3, H3⟩, ⟨%d4, H4⟩, ⟨%d5, H5⟩⟩
      iapply ((run_first c (grid0.coords t) _ _ _ _ _ _ _ _ _ _ _ _ _ _ _ _ hF hL (iblk V c 0 t) (iblk V c 1 t) (iblk V c 2 t) (iblk V c 3 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HM]; · iexists _; iexact HM
      isplitl [HS]; · iexists _; iexact HS
      iintro ⟨H0, H1, H2, H3, H4, H5, ⟨%em, HM⟩, ⟨%es, HS⟩⟩
      isplitl [HM HS Hoth Hg]
      · isplitl [HM HS Hoth]
        · isplitl [HM]
          · unfold owns; iexists _; isplitr
            swap; · iexact HM
            ipureintro; exact View.read_writes_of_cover _ _ _ _ _ (cover_rmax_first _ _ _ _ _ _ _ _ _ _ _ _ _ _ _ _ _ _ _ _ _ _ _ _)
          isplitl [HS]
          · unfold owns; iexists _; isplitr
            swap; · iexact HS
            ipureintro; exact View.read_writes_of_cover _ _ _ _ _ (cover_rsum_first _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun h => h0 (by rw [h])
    have hF : ¬atFirstCol (grid0.coords t) := notFirst_of t h0
    by_cases h3 : t.val % 4 = 3
    · -- the storing case
      have hL : atLastCol (grid0.coords t) := (atLastCol_iff t).mpr h3
      rw [show (dat V c).leavesExact 0 t = owns (c : Thread nD τ) (stg_0 t) fullShare ((dat V c).after 0 t) from by
        unfold Dat.leavesExact; rw [live_0 t], after_0]
      rw [show (dat V c).leavesExact 1 t = owns (c : Thread nD τ) (stg_1 t) fullShare ((dat V c).after 1 t) from by
        unfold Dat.leavesExact; rw [live_1 t], after_1]
      rw [show (dat V c).leavesExact 2 t = owns (c : Thread nD τ) (stg_2 t) fullShare ((dat V c).after 2 t) from by
        unfold Dat.leavesExact; rw [live_2 t], after_2]
      rw [show (dat V c).leavesExact 3 t = owns (c : Thread nD τ) (stg_3 t) fullShare ((dat V c).after 3 t) from by
        unfold Dat.leavesExact; rw [live_3 t], after_3]
      rw [show (dat V c).leavesExact 4 t = owns (c : Thread nD τ) (stg_4 t) fullShare ((dat V c).after 4 t) from by
        unfold Dat.leavesExact; rw [live_max_last t hF hL], after_max]
      rw [show (dat V c).leavesExact 5 t = owns (c : Thread nD τ) (stg_5 t) fullShare ((dat V c).after 5 t) from by
        unfold Dat.leavesExact; rw [live_logsum_last t hF hL], after_logsum]
      rw [outsAt_last V c t h3]
      dsimp only
      unfold outMaxLast outLogLast runMaxLast runSumLast
      rw [Phi_castSucc V c t, PhiS_pos V c _ _ hz]
      iintro ⟨⟨⟨HM, HS, Hoth⟩, Hg⟩, Ho, ⟨%d0, H0⟩, ⟨%d1, H1⟩, ⟨%d2, H2⟩, ⟨%d3, H3⟩, ⟨%d4, H4⟩, ⟨%d5, H5⟩⟩
      iapply ((run_last c (grid0.coords t) _ _ _ _ _ _ _ _ _ _ _ _ _ _ _ _ hF hL (iblk V c 0 t) (iblk V c 1 t) (iblk V c 2 t) (iblk V c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HM]; · iexact HM
      isplitl [HS]; · iexact HS
      iintro ⟨H0, H1, H2, H3, ⟨%e4, H4⟩, ⟨%e5, H5⟩, ⟨%em, HM⟩, ⟨%es, HS⟩⟩
      isplitl [HM HS Hoth Hg]
      · isplitl [HM HS Hoth]
        · isplitl [HM]
          · unfold owns; iexists _; isplitr
            swap; · iexact HM
            ipureintro; exact View.read_writes_of_cover _ _ _ _ _ (cover_rmax_last _ _ _ _ _ _ _ _ _ _ _ _ _ _ _ _ _ _ _ _ _ _ _ _ _ _)
          isplitl [HS]
          · unfold owns; iexists _; isplitr
            swap; · iexact HS
            ipureintro; exact View.read_writes_of_cover _ _ _ _ _ (cover_rsum_last _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover_max_last _ _ _ _ _ _ _ _ _ _ _ _ _ _ _ _ _ _ _ _ _ _ _ _ _ _)
      unfold owns; iexists _; isplitr
      swap; · iexact H5
      ipureintro; exact View.read_writes_of_cover _ _ _ _ _ (cover_log_last _ _ _ _ _ _ _ _ _ _ _ _ _ _ _ _ _ _ _ _ _ _ _ _ _ _)
    · -- the middle case
      have hL : ¬atLastCol (grid0.coords t) := notLast_of t h3
      rw [show (dat V c).leavesExact 0 t = owns (c : Thread nD τ) (stg_0 t) fullShare ((dat V c).after 0 t) from by
        unfold Dat.leavesExact; rw [live_0 t], after_0]
      rw [show (dat V c).leavesExact 1 t = owns (c : Thread nD τ) (stg_1 t) fullShare ((dat V c).after 1 t) from by
        unfold Dat.leavesExact; rw [live_1 t], after_1]
      rw [show (dat V c).leavesExact 2 t = owns (c : Thread nD τ) (stg_2 t) fullShare ((dat V c).after 2 t) from by
        unfold Dat.leavesExact; rw [live_2 t], after_2]
      rw [show (dat V c).leavesExact 3 t = owns (c : Thread nD τ) (stg_3 t) fullShare ((dat V c).after 3 t) from by
        unfold Dat.leavesExact; rw [live_3 t], after_3]
      rw [Dat.leavesExact_idle (dat V c) 4 t (idle_max_mid t hF hL) (noFlush_max_mid t hF hL)]
      rw [Dat.leavesExact_idle (dat V c) 5 t (idle_logsum_mid t hF hL) (noFlush_logsum_mid t hF hL)]
      rw [outsAt_mid V c t h0 h3]
      dsimp only
      unfold runMaxMid runSumMid
      rw [Phi_castSucc V c t, PhiS_pos V c _ _ hz]
      iintro ⟨⟨⟨HM, HS, Hoth⟩, Hg⟩, Ho, ⟨%d0, H0⟩, ⟨%d1, H1⟩, ⟨%d2, H2⟩, ⟨%d3, H3⟩, ⟨%d4, H4⟩, ⟨%d5, H5⟩⟩
      iapply ((run_mid c (grid0.coords t) _ _ _ _ _ _ _ _ _ _ _ _ _ _ _ _ hF hL (iblk V c 0 t) (iblk V c 1 t) (iblk V c 2 t) (iblk V c 3 t) _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HM]; · iexact HM
      isplitl [HS]; · iexact HS
      iintro ⟨H0, H1, H2, H3, H4, H5, ⟨%em, HM⟩, ⟨%es, HS⟩⟩
      isplitl [HM HS Hoth Hg]
      · isplitl [HM HS Hoth]
        · isplitl [HM]
          · unfold owns; iexists _; isplitr
            swap; · iexact HM
            ipureintro; exact View.read_writes_of_cover _ _ _ _ _ (cover_rmax_mid _ _ _ _ _ _ _ _ _ _ _ _ _ _ _ _ _ _ _ _ _ _ _ _ _ _)
          isplitl [HS]
          · unfold owns; iexists _; isplitr
            swap; · iexact HS
            ipureintro; exact View.read_writes_of_cover _ _ _ _ _ (cover_rsum_mid _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point: the six windows conjoined one by one. -/
theorem body_obligation (c : Dev nD) : BodyObligation (dat V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point the invariant gives the launch's form back: what the two scratches hold is forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HM, HS, Hoth⟩, Hg⟩
  isplitl [HM HS Hoth]
  · isplitl [HM]; · iexists _; iexact HM
    isplitl [HS]; · iexists _; iexact HS
    iexact Hoth
  iexact Hg

/-- In particular after the last point. -/
theorem hout (c : Dev nD) : (dat V c).Φ (Fin.last cfg0.N) ⊢ Pipeline.ΦA spec0 c :=
  Phi_out V c _ (by rw [Fin.val_last]; have : cfg0.N = 68 := N_0; omega)

end Cert.Kernel.Lse

end
-- ==== Proof.Kernel.Loss.Shared.lean ====
import proofs.«123850_j8598524526701_1_alg».proof.Proof.Gen.Kernel.Launch
import proofs.«123850_j8598524526701_1_alg».proof.Proof.Gen.Kernel.Skeleton
import proofs.«123850_j8598524526701_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Loss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off the window's array as the launch finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The inputs' staging buffers hold their blocks

An input window is never idle and its blocks are uncut, so whether or not the pipeline fetched it at a point
(the windows whose index map ignores the column coordinate are fetched only at the first column of a row block),
its current staging buffer holds the block of that point: unfetched, the block index has not moved. Stated for any
proof data whose array is the entry contents and whose body leaves the block in place. -/

theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's two conditionals, on the column coordinate only -/

/-- The first conditional's test: the column coordinate is 0 (the scalar chain of the body, substituted). -/
abbrev atFirstCol (i : grid1.Coords) : Prop := (Scalar.cmpi .ne (Scalar.extui (Scalar.cmpi .eq (BitVec.ofNat 32 (i 1).val) 0#32)) 0#32) = 1#1
/-- It holds exactly at the points t = 4 i + 0. -/
theorem atFirstCol_iff : ∀ t : Fin cfg1.N, atFirstCol (grid1.coords t) ↔ t.val % 4 = 0 :=
  (by decide +kernel : ∀ t : Fin grid1.N, atFirstCol (grid1.coords t) ↔ t.val % 4 = 0)

/-- The last conditional's test: the column coordinate is 3. -/
abbrev atLastCol (i : grid1.Coords) : Prop := k1_cond2 i = 1#1
/-- It holds exactly at the points t = 4 i + 3. -/
theorem atLastCol_iff : ∀ t : Fin cfg1.N, atLastCol (grid1.coords t) ↔ t.val % 4 = 3 :=
  (by decide +kernel : ∀ t : Fin grid1.N, atLastCol (grid1.coords t) ↔ t.val % 4 = 3)

/-! ## Where the windows are idle -/
/-- Input window 0 is live at every point. -/
theorem live0 : ∀ t : Fin cfg1.N, cfg1.idle 0 (grid1.coords t) = false := by decide +kernel
/-- Input window 1 is live at every point. -/
theorem live1 : ∀ t : Fin cfg1.N, cfg1.idle 1 (grid1.coords t) = false := by decide +kernel
/-- Input window 2 is live at every point. -/
theorem live2 : ∀ t : Fin cfg1.N, cfg1.idle 2 (grid1.coords t) = false := by decide +kernel
/-- Input window 3 is live at every point. -/
theorem live3 : ∀ t : Fin cfg1.N, cfg1.idle 3 (grid1.coords t) = false := by decide +kernel
/-- Input window 4 is live at every point. -/
theorem live4 : ∀ t : Fin cfg1.N, cfg1.idle 4 (grid1.coords t) = false := by decide +kernel
/-- Input window 5 is live at every point. -/
theorem live5 : ∀ t : Fin cfg1.N, cfg1.idle 5 (grid1.coords t) = false := by decide +kernel
/-- At a first-column point output window 6 is idle (nothing is stored into it) -/
theorem numer_idle_first : ∀ t : Fin cfg1.N, atFirstCol (grid1.coords t) → ¬atLastCol (grid1.coords t) → cfg1.idle 6 (grid1.coords t) = true := by decide +kernel
/-- and its block is not written back there. -/
theorem numer_noFlush_first : ∀ t : Fin cfg1.N, atFirstCol (grid1.coords t) → ¬atLastCol (grid1.coords t) → (cfg1.win 6).flush t = false := by decide +kernel
/-- At a middle-column point output window 6 is idle -/
theorem numer_idle_mid : ∀ t : Fin cfg1.N, ¬atFirstCol (grid1.coords t) → ¬atLastCol (grid1.coords t) → cfg1.idle 6 (grid1.coords t) = true := by decide +kernel
/-- and not written back. -/
theorem numer_noFlush_mid : ∀ t : Fin cfg1.N, ¬atFirstCol (grid1.coords t) → ¬atLastCol (grid1.coords t) → (cfg1.win 6).flush t = false := by decide +kernel
/-- At a last-column point output window 6 is live: the row sum is stored into it. -/
theorem numer_live_last : ∀ t : Fin cfg1.N, ¬atFirstCol (grid1.coords t) → atLastCol (grid1.coords t) → cfg1.idle 6 (grid1.coords t) = false := by decide +kernel
/-- At a first-column point output window 7 is idle (nothing is stored into it) -/
theorem count_idle_first : ∀ t : Fin cfg1.N, atFirstCol (grid1.coords t) → ¬atLastCol (grid1.coords t) → cfg1.idle 7 (grid1.coords t) = true := by decide +kernel
/-- and its block is not written back there. -/
theorem count_noFlush_first : ∀ t : Fin cfg1.N, atFirstCol (grid1.coords t) → ¬atLastCol (grid1.coords t) → (cfg1.win 7).flush t = false := by decide +kernel
/-- At a middle-column point output window 7 is idle -/
theorem count_idle_mid : ∀ t : Fin cfg1.N, ¬atFirstCol (grid1.coords t) → ¬atLastCol (grid1.coords t) → cfg1.idle 7 (grid1.coords t) = true := by decide +kernel
/-- and not written back. -/
theorem count_noFlush_mid : ∀ t : Fin cfg1.N, ¬atFirstCol (grid1.coords t) → ¬atLastCol (grid1.coords t) → (cfg1.win 7).flush t = false := by decide +kernel
/-- At a last-column point output window 7 is live: the row sum is stored into it. -/
theorem count_live_last : ∀ t : Fin cfg1.N, ¬atFirstCol (grid1.coords t) → atLastCol (grid1.coords t) → cfg1.idle 7 (grid1.coords t) = false := by decide +kernel

/-! ## The memrefs the body is called with -/

/-- One staging buffer of each output window, through whose view its contents are stated (reading written pieces
    back does not depend on which buffer's view is used). -/
abbrev VO6 : View sig .tc .vmem S256x1 .f32 := (Memref.whole cc1_stg6_0 : Memref sig .tc .vmem S256x1 .f32).view
abbrev VO7 : View sig .tc .vmem S256x1 .f32 := (Memref.whole cc1_stg7_0 : Memref sig .tc .vmem S256x1 .f32).view
/-- Each window's current staging memref at point `t`, and that it is a whole buffer. -/
abbrev ms0 (t : Fin cfg1.N) : Memref sig .tc .vmem S256x128 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S2176x128 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S256x1 .i32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x2176 .i32 := win1_3.stage (cfg1.slots t 3)
abbrev hs3 (t : Fin cfg1.N) : (ms3 t).IsWhole := hstage1_3 ((cfg1.slots t 3).cast nbuf1_3)
abbrev ms4 (t : Fin cfg1.N) : Memref sig .tc .vmem S256x1 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S256x1 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S256x1 .f32 := win1_6.stage (cfg1.slots t 6)
abbrev hs6 (t : Fin cfg1.N) : (ms6 t).IsWhole := hstage1_6 ((cfg1.slots t 6).cast nbuf1_6)
abbrev ms7 (t : Fin cfg1.N) : Memref sig .tc .vmem S256x1 .f32 := win1_7.stage (cfg1.slots t 7)
abbrev hs7 (t : Fin cfg1.N) : (ms7 t).IsWhole := hstage1_7 ((cfg1.slots t 7).cast nbuf1_7)
/-- The two scratch operands: whole scoped buffers of this kernel, passed beside the windows. The first carries the
    running masked row sum (the numerator), the second the running count of unmasked columns. -/
abbrev scM0 : Memref sig .tc .vmem S256x1 .f32 := Memref.whole cc1_scratch0
abbrev scM1 : Memref sig .tc .vmem S256x1 .f32 := Memref.whole cc1_scratch1
/-- Their views: what each holds between points is stated through them. -/
abbrev VS0 : View sig .tc .vmem S256x1 .f32 := scM0.view
abbrev VS1 : View sig .tc .vmem S256x1 .f32 := scM1.view

/-! ## The launch's invariant, buffer by buffer -/

/-- A whole scoped buffer of the core held at some contents. -/
abbrev heldAny (c : Dev nD) (b : Ref sig .tc) : sProp 𝕄 :=
  iprop(∃ f : Buf (Elt F) ((c : Thread nD τ).loc b), ((c : Thread nD τ).loc b) ↦{fullShare} f)

/-- What the launch hands the body besides the windows: the sixteen scoped buffers that are no staging buffer of this
    launch — the other launch's twelve staging buffers and its two scratches at some contents, then this kernel's two
    scratches as memrefs owned at some contents — and the generator register at some state. -/
theorem PhiA_eq (c : Dev nD) :
    (Pipeline.ΦA spec1 c : sProp 𝕄)
      = iprop(iprop(heldAny c cc0_stg0_0 ∗ heldAny c cc0_stg0_1 ∗ heldAny c cc0_stg1_0 ∗ heldAny c cc0_stg1_1 ∗ heldAny c cc0_stg2_0 ∗ heldAny c cc0_stg2_1 ∗ heldAny c cc0_stg3_0 ∗ heldAny c cc0_stg3_1 ∗ heldAny c cc0_stg4_0 ∗ heldAny c cc0_stg4_1 ∗ heldAny c cc0_stg5_0 ∗ heldAny c cc0_stg5_1 ∗ heldAny c cc0_scratch0 ∗ heldAny c cc0_scratch1 ∗ (∃ d, owns (c : Thread nD τ) scM0 fullShare d) ∗ (∃ d, owns (c : Thread nD τ) scM1 fullShare d)) ∗ (∃ r, prngReg c r)) := by
  unfold Pipeline.ΦA; rw [scopedRest1_eq]; simp only [heldAny, scM0, scM1, owns_whole]; try rfl

end Cert.Kernel.Loss

end
-- ==== Proof.Kernel.Loss.RunFirst.lean ====
import proofs.«123850_j8598524526701_1_alg».proof.Proof.Kernel.Loss.Shared

set_option maxRecDepth 16384

noncomputable section

namespace Cert.Kernel.Loss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue walks it past the default budget)
set_option maxHeartbeats 4000000 in
/-- The body at a first-column point (the reset is taken, the output store is not). On whole memrefs — the six inputs' at
    their contents, the two outputs' at contents handed back untouched (nothing is stored into them), the two scratches
    at anything — it runs to the continuation holding the inputs and outputs as they were and each scratch with the
    pieces written into it: first the reset to zero, then this column block's masked row sum (resp. mask count) added
    to what was just read back. The piece lists are what the run finds. -/
noncomputable def runFirst (c : Dev nD) (i : grid1.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : atFirstCol i) (hc1 : ¬atLastCol i)
    (x0 : Vec F S256x128 .bf16) (x1 : Vec F S2176x128 .bf16) (x2 : Vec F S256x1 .i32) (x3 : Vec F S1x2176 .i32) (x4 : Vec F S256x1 .f32) (x5 : Vec F S256x1 .f32) :
    Σ' (L6 : List (View.Piece (Elt F) S256x1 .f32)) (L7 : List (View.Piece (Elt F) S256x1 .f32)) (LS0 : List (View.Piece (Elt F) S256x1 .f32)), { LS1 : List (View.Piece (Elt F) S256x1 .f32) //
      ∀ (xi6 xi7 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__main_kernel i arg2 harg2 arg3 harg3 arg4 harg4 arg5 harg5 arg6 harg6 arg7 harg7 arg8 harg8 arg9 harg9 arg10 harg10 arg11 harg11) K } := by
  refine ⟨[], [], ?_, ?_, fun xi6 xi7 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.Kernel.Loss

end
-- ==== Proof.Kernel.Loss.RunMid.lean ====
import proofs.«123850_j8598524526701_1_alg».proof.Proof.Kernel.Loss.RunFirst

set_option maxRecDepth 16384

noncomputable section

namespace Cert.Kernel.Loss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue walks it past the default budget)
set_option maxHeartbeats 4000000 in
/-- The body at a middle-column point (neither conditional is taken). On whole memrefs — the six inputs' at their
    contents, the two outputs' handed back untouched, the two scratches at what the point before left — it runs to the
    continuation holding the inputs and outputs as they were and each scratch with one piece written: its previous
    contents plus this column block's masked row sum (resp. mask count). -/
noncomputable def runMid (c : Dev nD) (i : grid1.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬atFirstCol i) (hc1 : ¬atLastCol i)
    (x0 : Vec F S256x128 .bf16) (x1 : Vec F S2176x128 .bf16) (x2 : Vec F S256x1 .i32) (x3 : Vec F S1x2176 .i32) (x4 : Vec F S256x1 .f32) (x5 : Vec F S256x1 .f32) (xs0 : Vec F S256x1 .f32) (xs1 : Vec F S256x1 .f32) :
    Σ' (L6 : List (View.Piece (Elt F) S256x1 .f32)) (L7 : List (View.Piece (Elt F) S256x1 .f32)) (LS0 : List (View.Piece (Elt F) S256x1 .f32)), { LS1 : List (View.Piece (Elt F) S256x1 .f32) //
      ∀ (xi6 xi7 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__main_kernel i arg2 harg2 arg3 harg3 arg4 harg4 arg5 harg5 arg6 harg6 arg7 harg7 arg8 harg8 arg9 harg9 arg10 harg10 arg11 harg11) K } := by
  refine ⟨[], [], ?_, ?_, fun xi6 xi7 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.Kernel.Loss

end
-- ==== Proof.Kernel.Loss.RunLast.lean ====
import proofs.«123850_j8598524526701_1_alg».proof.Proof.Kernel.Loss.RunMid

set_option maxRecDepth 16384

noncomputable section

namespace Cert.Kernel.Loss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue walks it past the default budget)
set_option maxHeartbeats 4000000 in
/-- The body at a last-column point (no reset; the output store is taken). On whole memrefs — the six inputs' at their
    contents, the two outputs' at anything, the two scratches at what the point before left — it runs to the
    continuation holding the inputs as they were, each scratch with its accumulated piece written, and each output
    with one piece written: the scratch's final contents, read back after the accumulation. -/
noncomputable def runLast (c : Dev nD) (i : grid1.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬atFirstCol i) (hc1 : atLastCol i)
    (x0 : Vec F S256x128 .bf16) (x1 : Vec F S2176x128 .bf16) (x2 : Vec F S256x1 .i32) (x3 : Vec F S1x2176 .i32) (x4 : Vec F S256x1 .f32) (x5 : Vec F S256x1 .f32) (xs0 : Vec F S256x1 .f32) (xs1 : Vec F S256x1 .f32) :
    Σ' (L6 : List (View.Piece (Elt F) S256x1 .f32)) (L7 : List (View.Piece (Elt F) S256x1 .f32)) (LS0 : List (View.Piece (Elt F) S256x1 .f32)), { LS1 : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__main_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexists _; iexact HS0
    iexists _; iexact HS1

end Cert.Kernel.Loss

end
-- ==== Proof.Kernel.Loss.Data.lean ====
import proofs.«123850_j8598524526701_1_alg».proof.Proof.Kernel.Loss.RunLast

set_option maxRecDepth 16384

noncomputable section

namespace Cert.Kernel.Loss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each control case leaves in the scratches and the outputs

Each is the list of pieces the case's run found, read back over arbitrary prior contents: the lists cover the buffer, so
the prior contents do not matter. -/

/-! ### At a first-column point -/

/-- The pieces written into the first scratch at a first-column point cover it (they tile the 256 x 1 column). -/
theorem scoverFirst0 (c : Dev nD) (i : grid1.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : atFirstCol i) (hc1 : ¬atLastCol i)
    (x0 : Vec F S256x128 .bf16) (x1 : Vec F S2176x128 .bf16) (x2 : Vec F S256x1 .i32) (x3 : Vec F S1x2176 .i32) (x4 : Vec F S256x1 .f32) (x5 : Vec F S256x1 .f32) (y : S256x1.Idx) :
    ∃ pc ∈ (runFirst c i arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (runFirst c i arg2 harg2 arg3 harg3 arg4 harg4 arg5 harg5 arg6 harg6 arg7 harg7 arg8 harg8 arg9 harg9 arg10 harg10 arg11 harg11 hc0 hc1 x0 x1 x2 x3 x4 x5).2.2.1 S256x1.size (by sl_kernel_rfl) y

/-- The running masked row sum the first scratch holds after a first-column point: its pieces read back. -/
def scrNumerFirst (c : Dev nD) (i : grid1.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : atFirstCol i) (hc1 : ¬atLastCol i)
    (x0 : Vec F S256x128 .bf16) (x1 : Vec F S2176x128 .bf16) (x2 : Vec F S256x1 .i32) (x3 : Vec F S1x2176 .i32) (x4 : Vec F S256x1 .f32) (x5 : Vec F S256x1 .f32) : Vec F S256x1 .f32 :=
  VS0.read (Elt F) (VS0.writes (Elt F) VS0.junk (runFirst c i arg2 harg2 arg3 harg3 arg4 harg4 arg5 harg5 arg6 harg6 arg7 harg7 arg8 harg8 arg9 harg9 arg10 harg10 arg11 harg11 hc0 hc1 x0 x1 x2 x3 x4 x5).2.2.1)

/-- The pieces written into the second scratch at a first-column point cover it. -/
theorem scoverFirst1 (c : Dev nD) (i : grid1.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : atFirstCol i) (hc1 : ¬atLastCol i)
    (x0 : Vec F S256x128 .bf16) (x1 : Vec F S2176x128 .bf16) (x2 : Vec F S256x1 .i32) (x3 : Vec F S1x2176 .i32) (x4 : Vec F S256x1 .f32) (x5 : Vec F S256x1 .f32) (y : S256x1.Idx) :
    ∃ pc ∈ (runFirst c i arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL (runFirst c i arg2 harg2 arg3 harg3 arg4 harg4 arg5 harg5 arg6 harg6 arg7 harg7 arg8 harg8 arg9 harg9 arg10 harg10 arg11 harg11 hc0 hc1 x0 x1 x2 x3 x4 x5).2.2.2.1 S256x1.size (by sl_kernel_rfl) y

/-- The running mask count the second scratch holds after a first-column point: its pieces read back. -/
def scrCountFirst (c : Dev nD) (i : grid1.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : atFirstCol i) (hc1 : ¬atLastCol i)
    (x0 : Vec F S256x128 .bf16) (x1 : Vec F S2176x128 .bf16) (x2 : Vec F S256x1 .i32) (x3 : Vec F S1x2176 .i32) (x4 : Vec F S256x1 .f32) (x5 : Vec F S256x1 .f32) : Vec F S256x1 .f32 :=
  VS1.read (Elt F) (VS1.writes (Elt F) VS1.junk (runFirst c i arg2 harg2 arg3 harg3 arg4 harg4 arg5 harg5 arg6 harg6 arg7 harg7 arg8 harg8 arg9 harg9 arg10 harg10 arg11 harg11 hc0 hc1 x0 x1 x2 x3 x4 x5).2.2.2.1)

/-- Output window 6's staging buffer after a first-column point — nothing is stored (the window is idle there and not written back): no pieces, a placeholder nothing consults. -/
def outNumerFirst (c : Dev nD) (i : grid1.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : atFirstCol i) (hc1 : ¬atLastCol i)
    (x0 : Vec F S256x128 .bf16) (x1 : Vec F S2176x128 .bf16) (x2 : Vec F S256x1 .i32) (x3 : Vec F S1x2176 .i32) (x4 : Vec F S256x1 .f32) (x5 : Vec F S256x1 .f32) : Vec F S256x1 .f32 :=
  VO6.read (Elt F) (VO6.writes (Elt F) VO6.junk (runFirst c i arg2 harg2 arg3 harg3 arg4 harg4 arg5 harg5 arg6 harg6 arg7 harg7 arg8 harg8 arg9 harg9 arg10 harg10 arg11 harg11 hc0 hc1 x0 x1 x2 x3 x4 x5).1)

/-- Output window 7's staging buffer after a first-column point — nothing is stored: a placeholder nothing consults. -/
def outCountFirst (c : Dev nD) (i : grid1.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : atFirstCol i) (hc1 : ¬atLastCol i)
    (x0 : Vec F S256x128 .bf16) (x1 : Vec F S2176x128 .bf16) (x2 : Vec F S256x1 .i32) (x3 : Vec F S1x2176 .i32) (x4 : Vec F S256x1 .f32) (x5 : Vec F S256x1 .f32) : Vec F S256x1 .f32 :=
  VO7.read (Elt F) (VO7.writes (Elt F) VO7.junk (runFirst c i arg2 harg2 arg3 harg3 arg4 harg4 arg5 harg5 arg6 harg6 arg7 harg7 arg8 harg8 arg9 harg9 arg10 harg10 arg11 harg11 hc0 hc1 x0 x1 x2 x3 x4 x5).2.1)

/-! ### At a middle-column point -/

/-- The pieces written into the first scratch at a middle-column point cover it (they tile the 256 x 1 column). -/
theorem scoverMid0 (c : Dev nD) (i : grid1.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬atFirstCol i) (hc1 : ¬atLastCol i)
    (x0 : Vec F S256x128 .bf16) (x1 : Vec F S2176x128 .bf16) (x2 : Vec F S256x1 .i32) (x3 : Vec F S1x2176 .i32) (x4 : Vec F S256x1 .f32) (x5 : Vec F S256x1 .f32) (xs0 : Vec F S256x1 .f32) (xs1 : Vec F S256x1 .f32) (y : S256x1.Idx) :
    ∃ pc ∈ (runMid c i arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (runMid c i arg2 harg2 arg3 harg3 arg4 harg4 arg5 harg5 arg6 harg6 arg7 harg7 arg8 harg8 arg9 harg9 arg10 harg10 arg11 harg11 hc0 hc1 x0 x1 x2 x3 x4 x5 xs0 xs1).2.2.1 S256x1.size (by sl_kernel_rfl) y

/-- The running masked row sum the first scratch holds after a middle-column point: its pieces read back. -/
def scrNumerMid (c : Dev nD) (i : grid1.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬atFirstCol i) (hc1 : ¬atLastCol i)
    (x0 : Vec F S256x128 .bf16) (x1 : Vec F S2176x128 .bf16) (x2 : Vec F S256x1 .i32) (x3 : Vec F S1x2176 .i32) (x4 : Vec F S256x1 .f32) (x5 : Vec F S256x1 .f32) (xs0 : Vec F S256x1 .f32) (xs1 : Vec F S256x1 .f32) : Vec F S256x1 .f32 :=
  VS0.read (Elt F) (VS0.writes (Elt F) VS0.junk (runMid c i arg2 harg2 arg3 harg3 arg4 harg4 arg5 harg5 arg6 harg6 arg7 harg7 arg8 harg8 arg9 harg9 arg10 harg10 arg11 harg11 hc0 hc1 x0 x1 x2 x3 x4 x5 xs0 xs1).2.2.1)

/-- The pieces written into the second scratch at a middle-column point cover it. -/
theorem scoverMid1 (c : Dev nD) (i : grid1.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬atFirstCol i) (hc1 : ¬atLastCol i)
    (x0 : Vec F S256x128 .bf16) (x1 : Vec F S2176x128 .bf16) (x2 : Vec F S256x1 .i32) (x3 : Vec F S1x2176 .i32) (x4 : Vec F S256x1 .f32) (x5 : Vec F S256x1 .f32) (xs0 : Vec F S256x1 .f32) (xs1 : Vec F S256x1 .f32) (y : S256x1.Idx) :
    ∃ pc ∈ (runMid c i arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (runMid c i arg2 harg2 arg3 harg3 arg4 harg4 arg5 harg5 arg6 harg6 arg7 harg7 arg8 harg8 arg9 harg9 arg10 harg10 arg11 harg11 hc0 hc1 x0 x1 x2 x3 x4 x5 xs0 xs1).2.2.2.1 S256x1.size (by sl_kernel_rfl) y

/-- The running mask count the second scratch holds after a middle-column point: its pieces read back. -/
def scrCountMid (c : Dev nD) (i : grid1.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬atFirstCol i) (hc1 : ¬atLastCol i)
    (x0 : Vec F S256x128 .bf16) (x1 : Vec F S2176x128 .bf16) (x2 : Vec F S256x1 .i32) (x3 : Vec F S1x2176 .i32) (x4 : Vec F S256x1 .f32) (x5 : Vec F S256x1 .f32) (xs0 : Vec F S256x1 .f32) (xs1 : Vec F S256x1 .f32) : Vec F S256x1 .f32 :=
  VS1.read (Elt F) (VS1.writes (Elt F) VS1.junk (runMid c i arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- Output window 6's staging buffer after a middle-column point — nothing is stored (the window is idle there and not written back): no pieces, a placeholder nothing consults. -/
def outNumerMid (c : Dev nD) (i : grid1.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬atFirstCol i) (hc1 : ¬atLastCol i)
    (x0 : Vec F S256x128 .bf16) (x1 : Vec F S2176x128 .bf16) (x2 : Vec F S256x1 .i32) (x3 : Vec F S1x2176 .i32) (x4 : Vec F S256x1 .f32) (x5 : Vec F S256x1 .f32) (xs0 : Vec F S256x1 .f32) (xs1 : Vec F S256x1 .f32) : Vec F S256x1 .f32 :=
  VO6.read (Elt F) (VO6.writes (Elt F) VO6.junk (runMid c i arg2 harg2 arg3 harg3 arg4 harg4 arg5 harg5 arg6 harg6 arg7 harg7 arg8 harg8 arg9 harg9 arg10 harg10 arg11 harg11 hc0 hc1 x0 x1 x2 x3 x4 x5 xs0 xs1).1)

/-- Output window 7's staging buffer after a middle-column point — nothing is stored: a placeholder nothing consults. -/
def outCountMid (c : Dev nD) (i : grid1.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬atFirstCol i) (hc1 : ¬atLastCol i)
    (x0 : Vec F S256x128 .bf16) (x1 : Vec F S2176x128 .bf16) (x2 : Vec F S256x1 .i32) (x3 : Vec F S1x2176 .i32) (x4 : Vec F S256x1 .f32) (x5 : Vec F S256x1 .f32) (xs0 : Vec F S256x1 .f32) (xs1 : Vec F S256x1 .f32) : Vec F S256x1 .f32 :=
  VO7.read (Elt F) (VO7.writes (Elt F) VO7.junk (runMid c i arg2 harg2 arg3 harg3 arg4 harg4 arg5 harg5 arg6 harg6 arg7 harg7 arg8 harg8 arg9 harg9 arg10 harg10 arg11 harg11 hc0 hc1 x0 x1 x2 x3 x4 x5 xs0 xs1).2.1)

/-! ### At a last-column point -/

/-- The pieces written into the first scratch at a last-column point cover it (they tile the 256 x 1 column). -/
theorem scoverLast0 (c : Dev nD) (i : grid1.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬atFirstCol i) (hc1 : atLastCol i)
    (x0 : Vec F S256x128 .bf16) (x1 : Vec F S2176x128 .bf16) (x2 : Vec F S256x1 .i32) (x3 : Vec F S1x2176 .i32) (x4 : Vec F S256x1 .f32) (x5 : Vec F S256x1 .f32) (xs0 : Vec F S256x1 .f32) (xs1 : Vec F S256x1 .f32) (y : S256x1.Idx) :
    ∃ pc ∈ (runLast c i arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (runLast c i arg2 harg2 arg3 harg3 arg4 harg4 arg5 harg5 arg6 harg6 arg7 harg7 arg8 harg8 arg9 harg9 arg10 harg10 arg11 harg11 hc0 hc1 x0 x1 x2 x3 x4 x5 xs0 xs1).2.2.1 S256x1.size (by sl_kernel_rfl) y

/-- The running masked row sum the first scratch holds after a last-column point: its pieces read back. -/
def scrNumerLast (c : Dev nD) (i : grid1.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬atFirstCol i) (hc1 : atLastCol i)
    (x0 : Vec F S256x128 .bf16) (x1 : Vec F S2176x128 .bf16) (x2 : Vec F S256x1 .i32) (x3 : Vec F S1x2176 .i32) (x4 : Vec F S256x1 .f32) (x5 : Vec F S256x1 .f32) (xs0 : Vec F S256x1 .f32) (xs1 : Vec F S256x1 .f32) : Vec F S256x1 .f32 :=
  VS0.read (Elt F) (VS0.writes (Elt F) VS0.junk (runLast c i arg2 harg2 arg3 harg3 arg4 harg4 arg5 harg5 arg6 harg6 arg7 harg7 arg8 harg8 arg9 harg9 arg10 harg10 arg11 harg11 hc0 hc1 x0 x1 x2 x3 x4 x5 xs0 xs1).2.2.1)

/-- The pieces written into the second scratch at a last-column point cover it. -/
theorem scoverLast1 (c : Dev nD) (i : grid1.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬atFirstCol i) (hc1 : atLastCol i)
    (x0 : Vec F S256x128 .bf16) (x1 : Vec F S2176x128 .bf16) (x2 : Vec F S256x1 .i32) (x3 : Vec F S1x2176 .i32) (x4 : Vec F S256x1 .f32) (x5 : Vec F S256x1 .f32) (xs0 : Vec F S256x1 .f32) (xs1 : Vec F S256x1 .f32) (y : S256x1.Idx) :
    ∃ pc ∈ (runLast c i arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (runLast c i arg2 harg2 arg3 harg3 arg4 harg4 arg5 harg5 arg6 harg6 arg7 harg7 arg8 harg8 arg9 harg9 arg10 harg10 arg11 harg11 hc0 hc1 x0 x1 x2 x3 x4 x5 xs0 xs1).2.2.2.1 S256x1.size (by sl_kernel_rfl) y

/-- The running mask count the second scratch holds after a last-column point: its pieces read back. -/
def scrCountLast (c : Dev nD) (i : grid1.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬atFirstCol i) (hc1 : atLastCol i)
    (x0 : Vec F S256x128 .bf16) (x1 : Vec F S2176x128 .bf16) (x2 : Vec F S256x1 .i32) (x3 : Vec F S1x2176 .i32) (x4 : Vec F S256x1 .f32) (x5 : Vec F S256x1 .f32) (xs0 : Vec F S256x1 .f32) (xs1 : Vec F S256x1 .f32) : Vec F S256x1 .f32 :=
  VS1.read (Elt F) (VS1.writes (Elt F) VS1.junk (runLast c i arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- The piece stored into output window 6 at a last-column point covers its block. -/
theorem coverLast6 (c : Dev nD) (i : grid1.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬atFirstCol i) (hc1 : atLastCol i)
    (x0 : Vec F S256x128 .bf16) (x1 : Vec F S2176x128 .bf16) (x2 : Vec F S256x1 .i32) (x3 : Vec F S1x2176 .i32) (x4 : Vec F S256x1 .f32) (x5 : Vec F S256x1 .f32) (xs0 : Vec F S256x1 .f32) (xs1 : Vec F S256x1 .f32) (y : S256x1.Idx) :
    ∃ pc ∈ (runLast c i arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (runLast c i arg2 harg2 arg3 harg3 arg4 harg4 arg5 harg5 arg6 harg6 arg7 harg7 arg8 harg8 arg9 harg9 arg10 harg10 arg11 harg11 hc0 hc1 x0 x1 x2 x3 x4 x5 xs0 xs1).1 S256x1.size (by sl_kernel_rfl) y

/-- The piece stored into output window 7 at a last-column point covers its block. -/
theorem coverLast7 (c : Dev nD) (i : grid1.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬atFirstCol i) (hc1 : atLastCol i)
    (x0 : Vec F S256x128 .bf16) (x1 : Vec F S2176x128 .bf16) (x2 : Vec F S256x1 .i32) (x3 : Vec F S1x2176 .i32) (x4 : Vec F S256x1 .f32) (x5 : Vec F S256x1 .f32) (xs0 : Vec F S256x1 .f32) (xs1 : Vec F S256x1 .f32) (y : S256x1.Idx) :
    ∃ pc ∈ (runLast c i arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (runLast c i arg2 harg2 arg3 harg3 arg4 harg4 arg5 harg5 arg6 harg6 arg7 harg7 arg8 harg8 arg9 harg9 arg10 harg10 arg11 harg11 hc0 hc1 x0 x1 x2 x3 x4 x5 xs0 xs1).2.1 S256x1.size (by sl_kernel_rfl) y

/-- Output window 6's staging buffer after a last-column point — what the store leaves in it: the row block's masked row sum. -/
def outNumerLast (c : Dev nD) (i : grid1.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬atFirstCol i) (hc1 : atLastCol i)
    (x0 : Vec F S256x128 .bf16) (x1 : Vec F S2176x128 .bf16) (x2 : Vec F S256x1 .i32) (x3 : Vec F S1x2176 .i32) (x4 : Vec F S256x1 .f32) (x5 : Vec F S256x1 .f32) (xs0 : Vec F S256x1 .f32) (xs1 : Vec F S256x1 .f32) : Vec F S256x1 .f32 :=
  VO6.read (Elt F) (VO6.writes (Elt F) VO6.junk (runLast c i arg2 harg2 arg3 harg3 arg4 harg4 arg5 harg5 arg6 harg6 arg7 harg7 arg8 harg8 arg9 harg9 arg10 harg10 arg11 harg11 hc0 hc1 x0 x1 x2 x3 x4 x5 xs0 xs1).1)

/-- Output window 7's staging buffer after a last-column point — what the store leaves in it: the row block's mask count. -/
def outCountLast (c : Dev nD) (i : grid1.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬atFirstCol i) (hc1 : atLastCol i)
    (x0 : Vec F S256x128 .bf16) (x1 : Vec F S2176x128 .bf16) (x2 : Vec F S256x1 .i32) (x3 : Vec F S1x2176 .i32) (x4 : Vec F S256x1 .f32) (x5 : Vec F S256x1 .f32) (xs0 : Vec F S256x1 .f32) (xs1 : Vec F S256x1 .f32) : Vec F S256x1 .f32 :=
  VO7.read (Elt F) (VO7.writes (Elt F) VO7.junk (runLast c i arg2 harg2 arg3 harg3 arg4 harg4 arg5 harg5 arg6 harg6 arg7 harg7 arg8 harg8 arg9 harg9 arg10 harg10 arg11 harg11 hc0 hc1 x0 x1 x2 x3 x4 x5 xs0 xs1).2.1)

/-! ## What the outputs and the scratches hold after each point -/

/-- after point n: ((output window 6's staging buffer, output window 7's), (first scratch, second scratch)) -/
def outsAt (c : Dev nD) : (n : ℕ) → n < cfg1.N → (Vec F S256x1 .f32 × Vec F S256x1 .f32) × (Vec F S256x1 .f32 × Vec F S256x1 .f32)
  | 0, hn => ((outNumerFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) scM0 (Memref.isWhole_whole _) scM1 (Memref.isWhole_whole _) ((atFirstCol_iff ⟨0, hn⟩).mpr (Nat.zero_mod _)) (fun h => (fun h => by (try dsimp only at h); omega) ((atLastCol_iff ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩), outCountFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) scM0 (Memref.isWhole_whole _) scM1 (Memref.isWhole_whole _) ((atFirstCol_iff ⟨0, hn⟩).mpr (Nat.zero_mod _)) (fun h => (fun h => by (try dsimp only at h); omega) ((atLastCol_iff ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩)), (scrNumerFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) scM0 (Memref.isWhole_whole _) scM1 (Memref.isWhole_whole _) ((atFirstCol_iff ⟨0, hn⟩).mpr (Nat.zero_mod _)) (fun h => (fun h => by (try dsimp only at h); omega) ((atLastCol_iff ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩), scrCountFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) scM0 (Memref.isWhole_whole _) scM1 (Memref.isWhole_whole _) ((atFirstCol_iff ⟨0, hn⟩).mpr (Nat.zero_mod _)) (fun h => (fun h => by (try dsimp only at h); omega) ((atLastCol_iff ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩)))
  | n + 1, hn =>
    if h0 : (n + 1) % 4 = 0 then
      if h3 : (n + 1) % 4 = 3 then
        False.elim (by omega)
      else
        ((outNumerFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scM0 (Memref.isWhole_whole _) scM1 (Memref.isWhole_whole _) ((atFirstCol_iff ⟨n + 1, hn⟩).mpr h0) (fun h => h3 ((atLastCol_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩), outCountFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scM0 (Memref.isWhole_whole _) scM1 (Memref.isWhole_whole _) ((atFirstCol_iff ⟨n + 1, hn⟩).mpr h0) (fun h => h3 ((atLastCol_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩)), (scrNumerFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scM0 (Memref.isWhole_whole _) scM1 (Memref.isWhole_whole _) ((atFirstCol_iff ⟨n + 1, hn⟩).mpr h0) (fun h => h3 ((atLastCol_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩), scrCountFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scM0 (Memref.isWhole_whole _) scM1 (Memref.isWhole_whole _) ((atFirstCol_iff ⟨n + 1, hn⟩).mpr h0) (fun h => h3 ((atLastCol_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩)))
    else
      if h3 : (n + 1) % 4 = 3 then
        ((outNumerLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scM0 (Memref.isWhole_whole _) scM1 (Memref.isWhole_whole _) (fun h => h0 ((atFirstCol_iff ⟨n + 1, hn⟩).mp h)) ((atLastCol_iff ⟨n + 1, hn⟩).mpr h3) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt c n (Nat.lt_of_succ_lt hn)).2.1 (outsAt c n (Nat.lt_of_succ_lt hn)).2.2, outCountLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scM0 (Memref.isWhole_whole _) scM1 (Memref.isWhole_whole _) (fun h => h0 ((atFirstCol_iff ⟨n + 1, hn⟩).mp h)) ((atLastCol_iff ⟨n + 1, hn⟩).mpr h3) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt c n (Nat.lt_of_succ_lt hn)).2.1 (outsAt c n (Nat.lt_of_succ_lt hn)).2.2), (scrNumerLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scM0 (Memref.isWhole_whole _) scM1 (Memref.isWhole_whole _) (fun h => h0 ((atFirstCol_iff ⟨n + 1, hn⟩).mp h)) ((atLastCol_iff ⟨n + 1, hn⟩).mpr h3) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt c n (Nat.lt_of_succ_lt hn)).2.1 (outsAt c n (Nat.lt_of_succ_lt hn)).2.2, scrCountLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scM0 (Memref.isWhole_whole _) scM1 (Memref.isWhole_whole _) (fun h => h0 ((atFirstCol_iff ⟨n + 1, hn⟩).mp h)) ((atLastCol_iff ⟨n + 1, hn⟩).mpr h3) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt c n (Nat.lt_of_succ_lt hn)).2.1 (outsAt c n (Nat.lt_of_succ_lt hn)).2.2))
      else
        ((outNumerMid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scM0 (Memref.isWhole_whole _) scM1 (Memref.isWhole_whole _) (fun h => h0 ((atFirstCol_iff ⟨n + 1, hn⟩).mp h)) (fun h => h3 ((atLastCol_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt c n (Nat.lt_of_succ_lt hn)).2.1 (outsAt c n (Nat.lt_of_succ_lt hn)).2.2, outCountMid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scM0 (Memref.isWhole_whole _) scM1 (Memref.isWhole_whole _) (fun h => h0 ((atFirstCol_iff ⟨n + 1, hn⟩).mp h)) (fun h => h3 ((atLastCol_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt c n (Nat.lt_of_succ_lt hn)).2.1 (outsAt c n (Nat.lt_of_succ_lt hn)).2.2), (scrNumerMid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scM0 (Memref.isWhole_whole _) scM1 (Memref.isWhole_whole _) (fun h => h0 ((atFirstCol_iff ⟨n + 1, hn⟩).mp h)) (fun h => h3 ((atLastCol_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt c n (Nat.lt_of_succ_lt hn)).2.1 (outsAt c n (Nat.lt_of_succ_lt hn)).2.2, scrCountMid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scM0 (Memref.isWhole_whole _) scM1 (Memref.isWhole_whole _) (fun h => h0 ((atFirstCol_iff ⟨n + 1, hn⟩).mp h)) (fun h => h3 ((atLastCol_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt c n (Nat.lt_of_succ_lt hn)).2.1 (outsAt c n (Nat.lt_of_succ_lt hn)).2.2))

/-- At a first-column point: the reset case's contents, from the point's input blocks only. -/
theorem outsAt_first (c : Dev nD) (t : Fin cfg1.N) (h0 : t.val % 4 = 0) :
    outsAt V c t.val t.isLt = ((outNumerFirst c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) ((atFirstCol_iff t).mpr h0) (fun h => (by omega : ¬t.val % 4 = 3) ((atLastCol_iff t).mp h)) (iblk V c 0 t) (iblk V c 1 t) (iblk V c 2 t) (iblk V c 3 t) (iblk V c 4 t) (iblk V c 5 t), outCountFirst c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) ((atFirstCol_iff t).mpr h0) (fun h => (by omega : ¬t.val % 4 = 3) ((atLastCol_iff t).mp h)) (iblk V c 0 t) (iblk V c 1 t) (iblk V c 2 t) (iblk V c 3 t) (iblk V c 4 t) (iblk V c 5 t)), (scrNumerFirst c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) ((atFirstCol_iff t).mpr h0) (fun h => (by omega : ¬t.val % 4 = 3) ((atLastCol_iff t).mp h)) (iblk V c 0 t) (iblk V c 1 t) (iblk V c 2 t) (iblk V c 3 t) (iblk V c 4 t) (iblk V c 5 t), scrCountFirst c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) ((atFirstCol_iff t).mpr h0) (fun h => (by omega : ¬t.val % 4 = 3) ((atLastCol_iff t).mp h)) (iblk V c 0 t) (iblk V c 1 t) (iblk V c 2 t) (iblk V c 3 t) (iblk V c 4 t) (iblk V c 5 t))) := by
  obtain ⟨n, hn⟩ := t
  cases n with
  | zero => exact rfl
  | succ n =>
    have h0' : (n + 1) % 4 = 0 := h0
    exact (dif_pos h0').trans ((dif_neg (by omega)).trans rfl)

/-- At a middle-column point: that case's contents, over the scratch pair the point before left. -/
theorem outsAt_mid (c : Dev nD) (t : Fin cfg1.N) (h0 : ¬t.val % 4 = 0) (h3 : ¬t.val % 4 = 3) :
    outsAt V c t.val t.isLt = ((outNumerMid c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) (fun h => h0 ((atFirstCol_iff t).mp h)) (fun h => h3 ((atLastCol_iff t).mp h)) (iblk V c 0 t) (iblk V c 1 t) (iblk V c 2 t) (iblk V c 3 t) (iblk V c 4 t) (iblk V c 5 t) (outsAt V c (t.val - 1) (Nat.lt_of_le_of_lt (Nat.sub_le _ _) t.isLt)).2.1 (outsAt V c (t.val - 1) (Nat.lt_of_le_of_lt (Nat.sub_le _ _) t.isLt)).2.2, outCountMid c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) (fun h => h0 ((atFirstCol_iff t).mp h)) (fun h => h3 ((atLastCol_iff t).mp h)) (iblk V c 0 t) (iblk V c 1 t) (iblk V c 2 t) (iblk V c 3 t) (iblk V c 4 t) (iblk V c 5 t) (outsAt V c (t.val - 1) (Nat.lt_of_le_of_lt (Nat.sub_le _ _) t.isLt)).2.1 (outsAt V c (t.val - 1) (Nat.lt_of_le_of_lt (Nat.sub_le _ _) t.isLt)).2.2), (scrNumerMid c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) (fun h => h0 ((atFirstCol_iff t).mp h)) (fun h => h3 ((atLastCol_iff t).mp h)) (iblk V c 0 t) (iblk V c 1 t) (iblk V c 2 t) (iblk V c 3 t) (iblk V c 4 t) (iblk V c 5 t) (outsAt V c (t.val - 1) (Nat.lt_of_le_of_lt (Nat.sub_le _ _) t.isLt)).2.1 (outsAt V c (t.val - 1) (Nat.lt_of_le_of_lt (Nat.sub_le _ _) t.isLt)).2.2, scrCountMid c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) (fun h => h0 ((atFirstCol_iff t).mp h)) (fun h => h3 ((atLastCol_iff t).mp h)) (iblk V c 0 t) (iblk V c 1 t) (iblk V c 2 t) (iblk V c 3 t) (iblk V c 4 t) (iblk V c 5 t) (outsAt V c (t.val - 1) (Nat.lt_of_le_of_lt (Nat.sub_le _ _) t.isLt)).2.1 (outsAt V c (t.val - 1) (Nat.lt_of_le_of_lt (Nat.sub_le _ _) t.isLt)).2.2)) := by
  obtain ⟨n, hn⟩ := t
  cases n with
  | zero => exact (by exfalso; (try dsimp only at h0); exact absurd (Nat.zero_mod _) h0)
  | succ n => exact (dif_neg h0).trans ((dif_neg h3).trans rfl)

/-- At a last-column point: that case's contents, over the scratch pair the point before left. -/
theorem outsAt_last (c : Dev nD) (t : Fin cfg1.N) (h3 : t.val % 4 = 3) :
    outsAt V c t.val t.isLt = ((outNumerLast c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) (fun h => (by omega : ¬t.val % 4 = 0) ((atFirstCol_iff t).mp h)) ((atLastCol_iff t).mpr h3) (iblk V c 0 t) (iblk V c 1 t) (iblk V c 2 t) (iblk V c 3 t) (iblk V c 4 t) (iblk V c 5 t) (outsAt V c (t.val - 1) (Nat.lt_of_le_of_lt (Nat.sub_le _ _) t.isLt)).2.1 (outsAt V c (t.val - 1) (Nat.lt_of_le_of_lt (Nat.sub_le _ _) t.isLt)).2.2, outCountLast c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) (fun h => (by omega : ¬t.val % 4 = 0) ((atFirstCol_iff t).mp h)) ((atLastCol_iff t).mpr h3) (iblk V c 0 t) (iblk V c 1 t) (iblk V c 2 t) (iblk V c 3 t) (iblk V c 4 t) (iblk V c 5 t) (outsAt V c (t.val - 1) (Nat.lt_of_le_of_lt (Nat.sub_le _ _) t.isLt)).2.1 (outsAt V c (t.val - 1) (Nat.lt_of_le_of_lt (Nat.sub_le _ _) t.isLt)).2.2), (scrNumerLast c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) (fun h => (by omega : ¬t.val % 4 = 0) ((atFirstCol_iff t).mp h)) ((atLastCol_iff t).mpr h3) (iblk V c 0 t) (iblk V c 1 t) (iblk V c 2 t) (iblk V c 3 t) (iblk V c 4 t) (iblk V c 5 t) (outsAt V c (t.val - 1) (Nat.lt_of_le_of_lt (Nat.sub_le _ _) t.isLt)).2.1 (outsAt V c (t.val - 1) (Nat.lt_of_le_of_lt (Nat.sub_le _ _) t.isLt)).2.2, scrCountLast c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) (fun h => (by omega : ¬t.val % 4 = 0) ((atFirstCol_iff t).mp h)) ((atLastCol_iff t).mpr h3) (iblk V c 0 t) (iblk V c 1 t) (iblk V c 2 t) (iblk V c 3 t) (iblk V c 4 t) (iblk V c 5 t) (outsAt V c (t.val - 1) (Nat.lt_of_le_of_lt (Nat.sub_le _ _) t.isLt)).2.1 (outsAt V c (t.val - 1) (Nat.lt_of_le_of_lt (Nat.sub_le _ _) t.isLt)).2.2)) := by
  obtain ⟨n, hn⟩ := t
  cases n with
  | zero => exact (by exfalso; (try dsimp only at h3); omega)
  | succ n =>
    have h3' : (n + 1) % 4 = 3 := h3
    exact (dif_neg (by omega)).trans ((dif_pos h3').trans rfl)

/-! ## The invariant between points -/

/-- Before the first point: what the launch hands over (every scoped buffer at some contents). Before any later point:
    the other launch's fourteen buffers still at some contents, this kernel's two scratches at what the point before
    left in them (the running row sum and the running count), and the generator register at some state. -/
def PhiS (c : Dev nD) : (n : ℕ) → n ≤ cfg1.N → sProp 𝕄
  | 0, _ => Pipeline.ΦA spec1 c
  | n + 1, hn => iprop(iprop(heldAny c cc0_stg0_0 ∗ heldAny c cc0_stg0_1 ∗ heldAny c cc0_stg1_0 ∗ heldAny c cc0_stg1_1 ∗ heldAny c cc0_stg2_0 ∗ heldAny c cc0_stg2_1 ∗ heldAny c cc0_stg3_0 ∗ heldAny c cc0_stg3_1 ∗ heldAny c cc0_stg4_0 ∗ heldAny c cc0_stg4_1 ∗ heldAny c cc0_stg5_0 ∗ heldAny c cc0_stg5_1 ∗ heldAny c cc0_scratch0 ∗ heldAny c cc0_scratch1 ∗ owns (c : Thread nD τ) scM0 fullShare (outsAt V c n hn).2.1 ∗ owns (c : Thread nD τ) scM1 fullShare (outsAt V c n hn).2.2) ∗ (∃ r, prngReg c r))

theorem PhiS_zero (c : Dev nD) (n : ℕ) (h : n ≤ cfg1.N) (hz : n = 0) : PhiS V c n h = Pipeline.ΦA spec1 c := by
  subst hz; rfl

/-- After point `n`: the scratches at that point's contents. -/
theorem PhiS_succ (c : Dev nD) (n : ℕ) (hn : n < cfg1.N) :
    PhiS V c (n + 1) hn = iprop(iprop(heldAny c cc0_stg0_0 ∗ heldAny c cc0_stg0_1 ∗ heldAny c cc0_stg1_0 ∗ heldAny c cc0_stg1_1 ∗ heldAny c cc0_stg2_0 ∗ heldAny c cc0_stg2_1 ∗ heldAny c cc0_stg3_0 ∗ heldAny c cc0_stg3_1 ∗ heldAny c cc0_stg4_0 ∗ heldAny c cc0_stg4_1 ∗ heldAny c cc0_stg5_0 ∗ heldAny c cc0_stg5_1 ∗ heldAny c cc0_scratch0 ∗ heldAny c cc0_scratch1 ∗ owns (c : Thread nD τ) scM0 fullShare (outsAt V c n hn).2.1 ∗ owns (c : Thread nD τ) scM1 fullShare (outsAt V c n hn).2.2) ∗ (∃ r, prngReg c r)) := rfl

/-- Before a point that is not the first: the scratches at what the point before left. -/
theorem PhiS_pos (c : Dev nD) (n : ℕ) (h : n ≤ cfg1.N) (hz : n ≠ 0) :
    PhiS V c n h = iprop(iprop(heldAny c cc0_stg0_0 ∗ heldAny c cc0_stg0_1 ∗ heldAny c cc0_stg1_0 ∗ heldAny c cc0_stg1_1 ∗ heldAny c cc0_stg2_0 ∗ heldAny c cc0_stg2_1 ∗ heldAny c cc0_stg3_0 ∗ heldAny c cc0_stg3_1 ∗ heldAny c cc0_stg4_0 ∗ heldAny c cc0_stg4_1 ∗ heldAny c cc0_stg5_0 ∗ heldAny c cc0_stg5_1 ∗ heldAny c cc0_scratch0 ∗ heldAny c cc0_scratch1 ∗ owns (c : Thread nD τ) scM0 fullShare (outsAt V c (n - 1) (by omega)).2.1 ∗ owns (c : Thread nD τ) scM1 fullShare (outsAt V c (n - 1) (by omega)).2.2) ∗ (∃ r, prngReg c r)) := by
  cases n with
  | zero => exact absurd rfl hz
  | succ n => rfl

/-! ## The proof data -/

/-- The arrays as the launch finds them; after the body at a point each input's buffer at its block, each output's at
    its component of `outsAt`; the invariant `PhiS`; full shares; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt V c t.val t.isLt).1.1
    | ⟨7, _⟩ => (outsAt V c t.val t.isLt).1.2
  Φ t := PhiS V c t.val (Nat.le_of_lt_succ t.isLt)
  q _ := fullShare
  owed _ := 0

/-- The proof data's arrays are the entry contents. -/
theorem A_eq (c : Dev nD) (w : Fin cfg1.W) : (dat V c).A w = V c (Pipeline.arrRef spec1 w) := by
  dsimp only [dat]

/-- Every window is held at the full share, -/
theorem q_eq (c : Dev nD) (w : Fin cfg1.W) : (dat V c).q w = fullShare := by
  dsimp only [dat]

/-- and the core owes nothing at any point. -/
theorem owed_eq (c : Dev nD) (t : Fin (cfg1.N + 1)) : (dat V c).owed t = 0 := by
  dsimp only [dat]

/-- No bound is put on the pairs the core's waits have recorded. -/
theorem recorded_eq (c : Dev nD) (t : Fin (cfg1.N + 1)) : (dat V c).recorded t = Set.univ := by
  dsimp only [dat]

/-- The invariant at a point's start, restated at the point's position. -/
theorem PhiS_castSucc (c : Dev nD) (t : Fin cfg1.N) :
    (dat V c).Φ t.castSucc = PhiS V c t.val (Nat.le_of_lt t.isLt) := by
  dsimp only [dat]; simp only [Fin.coe_castSucc]

/-- What the body leaves, window by window. -/
theorem after_in0 (c : Dev nD) (t : Fin cfg1.N) : (dat V c).after 0 t = iblk V c 0 t := by dsimp only [dat]
theorem after_in1 (c : Dev nD) (t : Fin cfg1.N) : (dat V c).after 1 t = iblk V c 1 t := by dsimp only [dat]
theorem after_in2 (c : Dev nD) (t : Fin cfg1.N) : (dat V c).after 2 t = iblk V c 2 t := by dsimp only [dat]
theorem after_in3 (c : Dev nD) (t : Fin cfg1.N) : (dat V c).after 3 t = iblk V c 3 t := by dsimp only [dat]
theorem after_in4 (c : Dev nD) (t : Fin cfg1.N) : (dat V c).after 4 t = iblk V c 4 t := by dsimp only [dat]
theorem after_in5 (c : Dev nD) (t : Fin cfg1.N) : (dat V c).after 5 t = iblk V c 5 t := by dsimp only [dat]
theorem after_numer (c : Dev nD) (t : Fin cfg1.N) : (dat V c).after 6 t = (outsAt V c t.val t.isLt).1.1 := by dsimp only [dat]
theorem after_count (c : Dev nD) (t : Fin cfg1.N) : (dat V c).after 7 t = (outsAt V c t.val t.isLt).1.2 := by dsimp only [dat]

/-- Each input's current staging buffer holds its block at every point, fetched there or not. -/
theorem before_in0 (c : Dev nD) (t : Fin cfg1.N) (d) : (dat V c).before 0 t d = iblk V c 0 t :=
  before0_of V (dat V c) (A_eq V c 0) (after_in0 V c) t d
theorem before_in1 (c : Dev nD) (t : Fin cfg1.N) (d) : (dat V c).before 1 t d = iblk V c 1 t :=
  before1_of V (dat V c) (A_eq V c 1) (after_in1 V c) t d
theorem before_in2 (c : Dev nD) (t : Fin cfg1.N) (d) : (dat V c).before 2 t d = iblk V c 2 t :=
  before2_of V (dat V c) (A_eq V c 2) (after_in2 V c) t d
theorem before_in3 (c : Dev nD) (t : Fin cfg1.N) (d) : (dat V c).before 3 t d = iblk V c 3 t :=
  before3_of V (dat V c) (A_eq V c 3) (after_in3 V c) t d
theorem before_in4 (c : Dev nD) (t : Fin cfg1.N) (d) : (dat V c).before 4 t d = iblk V c 4 t :=
  before4_of V (dat V c) (A_eq V c 4) (after_in4 V c) t d
theorem before_in5 (c : Dev nD) (t : Fin cfg1.N) (d) : (dat V c).before 5 t d = iblk V c 5 t :=
  before5_of V (dat V c) (A_eq V c 5) (after_in5 V c) t d

end Cert.Kernel.Loss

end
-- ==== Proof.Kernel.Loss.Body.lean ====
import proofs.«123850_j8598524526701_1_alg».proof.Proof.Kernel.Loss.Data

set_option maxRecDepth 16384

noncomputable section

namespace Cert.Kernel.Loss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body obligation at a generic point -/

/-- What the body is called with at point `t`: the invariant, what the core owes, and every window's current staging
    buffer at what it then holds. -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d)))

/-- What it returns: the invariant at the next point, the same debt, and every buffer at what the body leaves. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 8000000 in
/-- The body at any point. The six inputs' buffers hold their blocks and are live, so each is left at its block. The
    column coordinate decides the case: at a first column both scratches are reset whatever they held (at the very
    first point the launch's invariant hands them at some contents; later the named contents of the row block before
    are forgotten) and the outputs, idle and not written back, are handed back as found; at a middle column the
    scratches arrive at what the point before left and are taken back at this point's sums, the outputs again
    untouched; at a last column the outputs are live and receive the scratches' final contents. The other launch's
    fourteen scoped buffers and the generator register pass through untouched, and the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_in0, before_in1, before_in2, before_in3, before_in4, before_in5]
  rw [show (dat V c).owesAt () t.succ = (dat V c).owesAt () t.castSucc from rfl]
  rw [show (dat V c).Φ t.succ = PhiS V c (t.val + 1) t.isLt from rfl, PhiS_succ]
  have hN : t.val < 68 := lt_of_lt_of_eq t.isLt (show cfg1.N = 68 from N_1)
  rw [show (dat V c).leavesExact 0 t = owns (c : Thread nD τ) (ms0 t) fullShare ((dat V c).after 0 t) from by
    unfold Dat.leavesExact; rw [live0 t], after_in0]
  rw [show (dat V c).leavesExact 1 t = owns (c : Thread nD τ) (ms1 t) fullShare ((dat V c).after 1 t) from by
    unfold Dat.leavesExact; rw [live1 t], after_in1]
  rw [show (dat V c).leavesExact 2 t = owns (c : Thread nD τ) (ms2 t) fullShare ((dat V c).after 2 t) from by
    unfold Dat.leavesExact; rw [live2 t], after_in2]
  rw [show (dat V c).leavesExact 3 t = owns (c : Thread nD τ) (ms3 t) fullShare ((dat V c).after 3 t) from by
    unfold Dat.leavesExact; rw [live3 t], after_in3]
  rw [show (dat V c).leavesExact 4 t = owns (c : Thread nD τ) (ms4 t) fullShare ((dat V c).after 4 t) from by
    unfold Dat.leavesExact; rw [live4 t], after_in4]
  rw [show (dat V c).leavesExact 5 t = owns (c : Thread nD τ) (ms5 t) fullShare ((dat V c).after 5 t) from by
    unfold Dat.leavesExact; rw [live5 t], after_in5]
  by_cases h0 : t.val % 4 = 0
  · have hc0 : atFirstCol (grid1.coords t) := (atFirstCol_iff t).mpr h0
    have hc1 : ¬atLastCol (grid1.coords t) := fun h => (by omega : ¬t.val % 4 = 3) ((atLastCol_iff t).mp h)
    rw [Dat.leavesExact_idle (dat V c) 6 t (numer_idle_first t hc0 hc1) (numer_noFlush_first t hc0 hc1)]
    rw [Dat.leavesExact_idle (dat V c) 7 t (count_idle_first t hc0 hc1) (count_noFlush_first t hc0 hc1)]
    rw [outsAt_first V c t h0]
    unfold scrNumerFirst scrCountFirst; (try dsimp only)
    by_cases hz : t.val = 0
    · rw [PhiS_castSucc V c t, PhiS_zero V c _ _ hz, PhiA_eq]
      iintro ⟨⟨⟨G1, G2, G3, G4, G5, G6, G7, G8, G9, G10, G11, G12, G13, G14, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runFirst c (grid1.coords t) _ _ _ _ _ _ _ _ _ _ _ _ _ _ _ _ _ _ _ _ hc0 hc1 (iblk V c 0 t) (iblk V c 1 t) (iblk V c 2 t) (iblk V c 3 t) (iblk V c 4 t) (iblk V c 5 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [G1 G2 G3 G4 G5 G6 G7 G8 G9 G10 G11 G12 G13 G14 HS0 HS1 Hg]
      · isplitl [G1 G2 G3 G4 G5 G6 G7 G8 G9 G10 G11 G12 G13 G14 HS0 HS1]
        · isplitl [G1]; · iexact G1
          isplitl [G2]; · iexact G2
          isplitl [G3]; · iexact G3
          isplitl [G4]; · iexact G4
          isplitl [G5]; · iexact G5
          isplitl [G6]; · iexact G6
          isplitl [G7]; · iexact G7
          isplitl [G8]; · iexact G8
          isplitl [G9]; · iexact G9
          isplitl [G10]; · iexact G10
          isplitl [G11]; · iexact G11
          isplitl [G12]; · iexact G12
          isplitl [G13]; · iexact G13
          isplitl [G14]; · iexact G14
          isplitl [HS0]
          · unfold owns; iexists _; isplitr
            swap; · iexact HS0
            ipureintro; exact View.read_writes_of_cover _ _ _ _ _ (scoverFirst0 c _ _ _ _ _ _ _ _ _ _ _ _ _ _ _ _ _ _ _ _ _ _ _ _ _ _ _ _ _)
          unfold owns; iexists _; isplitr
          swap; · iexact HS1
          ipureintro; exact View.read_writes_of_cover _ _ _ _ _ (scoverFirst1 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

    · rw [PhiS_castSucc V c t, PhiS_pos V c _ _ hz]
      iintro ⟨⟨⟨G1, G2, G3, G4, G5, G6, G7, G8, G9, G10, G11, G12, G13, G14, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runFirst c (grid1.coords t) _ _ _ _ _ _ _ _ _ _ _ _ _ _ _ _ _ _ _ _ hc0 hc1 (iblk V c 0 t) (iblk V c 1 t) (iblk V c 2 t) (iblk V c 3 t) (iblk V c 4 t) (iblk V c 5 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      iintro ⟨H0, H1, H2, H3, H4, H5, H6, H7, ⟨%es0, HS0⟩, ⟨%es1, HS1⟩⟩
      isplitl [G1 G2 G3 G4 G5 G6 G7 G8 G9 G10 G11 G12 G13 G14 HS0 HS1 Hg]
      · isplitl [G1 G2 G3 G4 G5 G6 G7 G8 G9 G10 G11 G12 G13 G14 HS0 HS1]
        · isplitl [G1]; · iexact G1
          isplitl [G2]; · iexact G2
          isplitl [G3]; · iexact G3
          isplitl [G4]; · iexact G4
          isplitl [G5]; · iexact G5
          isplitl [G6]; · iexact G6
          isplitl [G7]; · iexact G7
          isplitl [G8]; · iexact G8
          isplitl [G9]; · iexact G9
          isplitl [G10]; · iexact G10
          isplitl [G11]; · iexact G11
          isplitl [G12]; · iexact G12
          isplitl [G13]; · iexact G13
          isplitl [G14]; · iexact G14
          isplitl [HS0]
          · unfold owns; iexists _; isplitr
            swap; · iexact HS0
            ipureintro; exact View.read_writes_of_cover _ _ _ _ _ (scoverFirst0 c _ _ _ _ _ _ _ _ _ _ _ _ _ _ _ _ _ _ _ _ _ _ _ _ _ _ _ _ _)
          unfold owns; iexists _; isplitr
          swap; · iexact HS1
          ipureintro; exact View.read_writes_of_cover _ _ _ _ _ (scoverFirst1 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

  · by_cases h3 : t.val % 4 = 3
    · have hc0 : ¬atFirstCol (grid1.coords t) := fun h => h0 ((atFirstCol_iff t).mp h)
      have hc1 : atLastCol (grid1.coords t) := (atLastCol_iff t).mpr h3
      have hz : t.val ≠ 0 := by omega
      rw [show (dat V c).leavesExact 6 t = owns (c : Thread nD τ) (ms6 t) fullShare ((dat V c).after 6 t) from by
        unfold Dat.leavesExact; rw [numer_live_last t hc0 hc1], after_numer]
      rw [show (dat V c).leavesExact 7 t = owns (c : Thread nD τ) (ms7 t) fullShare ((dat V c).after 7 t) from by
        unfold Dat.leavesExact; rw [count_live_last t hc0 hc1], after_count]
      rw [outsAt_last V c t h3]
      unfold outNumerLast outCountLast scrNumerLast scrCountLast; (try dsimp only)
      rw [PhiS_castSucc V c t, PhiS_pos V c _ _ hz]
      iintro ⟨⟨⟨G1, G2, G3, G4, G5, G6, G7, G8, G9, G10, G11, G12, G13, G14, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runLast c (grid1.coords t) _ _ _ _ _ _ _ _ _ _ _ _ _ _ _ _ _ _ _ _ hc0 hc1 (iblk V c 0 t) (iblk V c 1 t) (iblk V c 2 t) (iblk V c 3 t) (iblk V c 4 t) (iblk V c 5 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, ⟨%e6, H6⟩, ⟨%e7, H7⟩, ⟨%es0, HS0⟩, ⟨%es1, HS1⟩⟩
      isplitl [G1 G2 G3 G4 G5 G6 G7 G8 G9 G10 G11 G12 G13 G14 HS0 HS1 Hg]
      · isplitl [G1 G2 G3 G4 G5 G6 G7 G8 G9 G10 G11 G12 G13 G14 HS0 HS1]
        · isplitl [G1]; · iexact G1
          isplitl [G2]; · iexact G2
          isplitl [G3]; · iexact G3
          isplitl [G4]; · iexact G4
          isplitl [G5]; · iexact G5
          isplitl [G6]; · iexact G6
          isplitl [G7]; · iexact G7
          isplitl [G8]; · iexact G8
          isplitl [G9]; · iexact G9
          isplitl [G10]; · iexact G10
          isplitl [G11]; · iexact G11
          isplitl [G12]; · iexact G12
          isplitl [G13]; · iexact G13
          isplitl [G14]; · iexact G14
          isplitl [HS0]
          · unfold owns; iexists _; isplitr
            swap; · iexact HS0
            ipureintro; exact View.read_writes_of_cover _ _ _ _ _ (scoverLast0 c _ _ _ _ _ _ _ _ _ _ _ _ _ _ _ _ _ _ _ _ _ _ _ _ _ _ _ _ _ _ _)
          unfold owns; iexists _; isplitr
          swap; · iexact HS1
          ipureintro; exact View.read_writes_of_cover _ _ _ _ _ (scoverLast1 c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverLast6 c _ _ _ _ _ _ _ _ _ _ _ _ _ _ _ _ _ _ _ _ _ _ _ _ _ _ _ _ _ _ _)
      unfold owns; iexists _; isplitr
      swap; · iexact H7
      ipureintro; exact View.read_writes_of_cover _ _ _ _ _ (coverLast7 c _ _ _ _ _ _ _ _ _ _ _ _ _ _ _ _ _ _ _ _ _ _ _ _ _ _ _ _ _ _ _)

    · have hc0 : ¬atFirstCol (grid1.coords t) := fun h => h0 ((atFirstCol_iff t).mp h)
      have hc1 : ¬atLastCol (grid1.coords t) := fun h => h3 ((atLastCol_iff t).mp h)
      have hz : t.val ≠ 0 := by omega
      rw [Dat.leavesExact_idle (dat V c) 6 t (numer_idle_mid t hc0 hc1) (numer_noFlush_mid t hc0 hc1)]
      rw [Dat.leavesExact_idle (dat V c) 7 t (count_idle_mid t hc0 hc1) (count_noFlush_mid t hc0 hc1)]
      rw [outsAt_mid V c t h0 h3]
      unfold scrNumerMid scrCountMid; (try dsimp only)
      rw [PhiS_castSucc V c t, PhiS_pos V c _ _ hz]
      iintro ⟨⟨⟨G1, G2, G3, G4, G5, G6, G7, G8, G9, G10, G11, G12, G13, G14, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runMid c (grid1.coords t) _ _ _ _ _ _ _ _ _ _ _ _ _ _ _ _ _ _ _ _ hc0 hc1 (iblk V c 0 t) (iblk V c 1 t) (iblk V c 2 t) (iblk V c 3 t) (iblk V c 4 t) (iblk V c 5 t) _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [G1 G2 G3 G4 G5 G6 G7 G8 G9 G10 G11 G12 G13 G14 HS0 HS1 Hg]
      · isplitl [G1 G2 G3 G4 G5 G6 G7 G8 G9 G10 G11 G12 G13 G14 HS0 HS1]
        · isplitl [G1]; · iexact G1
          isplitl [G2]; · iexact G2
          isplitl [G3]; · iexact G3
          isplitl [G4]; · iexact G4
          isplitl [G5]; · iexact G5
          isplitl [G6]; · iexact G6
          isplitl [G7]; · iexact G7
          isplitl [G8]; · iexact G8
          isplitl [G9]; · iexact G9
          isplitl [G10]; · iexact G10
          isplitl [G11]; · iexact G11
          isplitl [G12]; · iexact G12
          isplitl [G13]; · iexact G13
          isplitl [G14]; · iexact G14
          isplitl [HS0]
          · unfold owns; iexists _; isplitr
            swap; · iexact HS0
            ipureintro; exact View.read_writes_of_cover _ _ _ _ _ (scoverMid0 c _ _ _ _ _ _ _ _ _ _ _ _ _ _ _ _ _ _ _ _ _ _ _ _ _ _ _ _ _ _ _)
          unfold owns; iexists _; isplitr
          swap; · iexact HS1
          ipureintro; exact View.read_writes_of_cover _ _ _ _ _ (scoverMid1 c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation (c : Dev nD) : BodyObligation (dat V c) (defs₀ (F := F)) Variants.none () Set.univ := fun t => by
  rw [bigSep_W1, bigSep_W1]
  exact sound_body V c t

/-- What the launch hands over is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives the launch's back: the scratches' named contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨G1, G2, G3, G4, G5, G6, G7, G8, G9, G10, G11, G12, G13, G14, HS0, HS1⟩, Hg⟩
  isplitl [G1 G2 G3 G4 G5 G6 G7 G8 G9 G10 G11 G12 G13 G14 HS0 HS1]
  · isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    isplitl [G13]; · iexact G13
    isplitl [G14]; · iexact G14
    isplitl [HS0]; · iexists _; iexact HS0
    iexists _; iexact HS1
  iexact Hg

/-- The same after the last point. -/
theorem hout (c : Dev nD) : (dat V c).Φ (Fin.last cfg1.N) ⊢ Pipeline.ΦA spec1 c :=
  Phi_out V c _ (by rw [Fin.val_last]; have : cfg1.N = 68 := N_1; omega)

end Cert.Kernel.Loss

end
-- ==== Proof.Kernel.Whole.lean ====
import proofs.«123850_j8598524526701_1_alg».proof.Proof.Kernel.Lse.Body
import proofs.«123850_j8598524526701_1_alg».proof.Proof.Kernel.Loss.Body
import proofs.«123850_j8598524526701_1_alg».proof.Proof.Gen.Kernel.Regions
import Idealize.ShloMosaic.Lib.Pipeline.RegionsLoop
import Idealize.ShloMosaic.Lib.Pipeline.FrameSuffix
import Idealize.ShloMosaic.Lib.Pipeline.FrameBody
import Idealize.ShloMosaic.Lib.Tactic

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Dat Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the two regions and after them

Each region changes only its windows' arrays: an input array is left as found, an output array ends at what the
region's write-backs leave, and every buffer that is no array of the region is untouched. -/

/-- What the first region finds in the buffers its core can name: the launch contents after the first host stretch. -/
abbrev E1 : (c : Dev nD) → (b : Ref sig .tc) → Buf (Elt F) ((c : Thread nD τ).loc b) := fun c b => Gen.V1 m c (Proc.devRef .tc b)

/-- After the first region: its six arrays at what its write-backs leave, every other buffer as the region found it. -/
def W2 (c : Dev nD) : Valuation τ sig (Elt F) := Pipeline.withArrays spec0 c (Gen.V1 m c) fun w => (Lse.dat (E1 m) c).arrAt w cfg0.N

theorem W2_arr (c : Dev nD) (w : Fin cfg0.W) : W2 m c (Proc.devRef .tc (Pipeline.arrRef spec0 w)) = (Lse.dat (E1 m) c).arrAt w cfg0.N := by
  unfold W2; exact Pipeline.withArrays_arr spec0 launch0.win.arr_inj c _ _ w

theorem W2_of_ne (c : Dev nD) (b : Ref sig .tc) (hb : ∀ w, Pipeline.arrRef spec0 w ≠ b) : W2 m c (Proc.devRef .tc b) = Gen.V1 m c (Proc.devRef .tc b) := by
  unfold W2; exact Pipeline.withArrays_of_ne spec0 c _ _ b hb

/-- An input array of the first region holds afterwards what it held before: no write-back touches it. -/
theorem W2_in (c : Dev nD) (w : Fin cfg0.W) (hw : (cfg0.win w).isOut = false) :
    W2 m c (Proc.devRef .tc (Pipeline.arrRef spec0 w)) = Gen.V1 m c (Proc.devRef .tc (Pipeline.arrRef spec0 w)) :=
  (W2_arr m c w).trans (((Lse.dat (E1 m) c).arrAt_in w hw _).trans (Lse.A_eq (E1 m) c w))

/-- What the second region finds: the first region's exit contents. -/
abbrev E2 : (c : Dev nD) → (b : Ref sig .tc) → Buf (Elt F) ((c : Thread nD τ).loc b) := fun c b => W2 m c (Proc.devRef .tc b)

/-- After the second region: its eight arrays at what its write-backs leave, every other buffer as the region found it. -/
def W3 (c : Dev nD) : Valuation τ sig (Elt F) := Pipeline.withArrays spec1 c (W2 m c) fun w => (Loss.dat (E2 m) c).arrAt w cfg1.N

theorem W3_arr (c : Dev nD) (w : Fin cfg1.W) : W3 m c (Proc.devRef .tc (Pipeline.arrRef spec1 w)) = (Loss.dat (E2 m) c).arrAt w cfg1.N := by
  unfold W3; exact Pipeline.withArrays_arr spec1 launch1.win.arr_inj c _ _ w

theorem W3_of_ne (c : Dev nD) (b : Ref sig .tc) (hb : ∀ w, Pipeline.arrRef spec1 w ≠ b) : W3 m c (Proc.devRef .tc b) = W2 m c (Proc.devRef .tc b) := by
  unfold W3; exact Pipeline.withArrays_of_ne spec1 c _ _ b hb

/-- An input array of the second region holds afterwards what it held before. -/
theorem W3_in (c : Dev nD) (w : Fin cfg1.W) (hw : (cfg1.win w).isOut = false) :
    W3 m c (Proc.devRef .tc (Pipeline.arrRef spec1 w)) = W2 m c (Proc.devRef .tc (Pipeline.arrRef spec1 w)) :=
  (W3_arr m c w).trans (((Loss.dat (E2 m) c).arrAt_in w hw _).trans (Loss.A_eq (E2 m) c w))

/-- The second region's entry contents at an input array of the first region are the first region's entry contents:
    the first region leaves its inputs as it found them. (At the numerals 0 to 3 the reference is also the second
    region's window of the same number.) -/
theorem E2_in (c : Dev nD) (w : Fin cfg0.W) (hw : (cfg0.win w).isOut = false) : E2 m c (Pipeline.arrRef spec0 w) = E1 m c (Pipeline.arrRef spec0 w) :=
  W2_in m c w hw

/-- The contents the regions leave in the buffers they may change, read off the two valuations above: after the
    first region (item 2 of the run) the first, after the second the second. -/
def outs : Gen.Outs (F := F) := fun J r c => if J = 2 then W2 m c (Proc.devRef .tc r) else W3 m c (Proc.devRef .tc r)

theorem outs_two (r : Ref sig .tc) (c : Dev nD) : outs m 2 r c = W2 m c (Proc.devRef .tc r) := if_pos rfl
theorem outs_three (r : Ref sig .tc) (c : Dev nD) : outs m 3 r c = W3 m c (Proc.devRef .tc r) := if_neg (by decide)

/-- Which windows of the first region are outputs, and that no input's array is an output's. -/
theorem outWin0 : ∀ w : Fin 6, (cfg0.win w).isOut = true → w = 4 ∨ w = 5 := by decide
theorem inArr0 : ∀ w : Fin 6, (cfg0.win w).isOut = false → Pipeline.arrRef spec0 w ∉ ([main_v20_0, main_v20_1] : List (Ref sig .tc)) := by decide
theorem outWin1 : ∀ w : Fin 8, (cfg1.win w).isOut = true → w = 6 ∨ w = 7 := by decide
theorem inArr1 : ∀ w : Fin 8, (cfg1.win w).isOut = false → Pipeline.arrRef spec1 w ∉ ([main_v21_0, main_v21_1] : List (Ref sig .tc)) := by decide

/-- The valuation the host side writes over the unknowns, at these contents, is the first region's exit valuation:
    on the two output arrays both read the write-backs' result, on an input array both read the entry contents,
    and elsewhere neither differs from the entry valuation. -/
theorem V2_eq (c : Dev nD) : Gen.V2 m (outs m) c = W2 m c := by
  funext b
  by_cases h : ∃ w, Proc.devRef .tc (Pipeline.arrRef spec0 w) = b
  · obtain ⟨w, rfl⟩ := h
    cases hw : (cfg0.win w).isOut
    · exact (Gen.V2_of m (outs m) c _ (inArr0 w hw)).trans (W2_in m c w hw).symm
    · rcases outWin0 w hw with rfl | rfl
      · show Function.update (Function.update (Gen.V1 m c) (Proc.devRef .tc main_v20_0) (outs m 2 main_v20_0 c))
            (Proc.devRef .tc main_v20_1) (outs m 2 main_v20_1 c) (Proc.devRef .tc main_v20_0) = _
        rw [Function.update_of_ne (StableHlo.devRef_ne_of_ne (by decide)), Function.update_self]
        exact outs_two m main_v20_0 c
      · show Function.update (Function.update (Gen.V1 m c) (Proc.devRef .tc main_v20_0) (outs m 2 main_v20_0 c))
            (Proc.devRef .tc main_v20_1) (outs m 2 main_v20_1 c) (Proc.devRef .tc main_v20_1) = _
        rw [Function.update_self]
        exact outs_two m main_v20_1 c
  · have h0 : b ≠ Proc.devRef .tc main_v20_0 := fun e => h ⟨4, e.symm⟩
    have h1 : b ≠ Proc.devRef .tc main_v20_1 := fun e => h ⟨5, e.symm⟩
    rw [show Gen.V2 m (outs m) c b = Gen.V1 m c b from (Function.update_of_ne h1 _ _).trans (Function.update_of_ne h0 _ _)]
    unfold W2 Pipeline.withArrays
    rw [dif_neg h]

/-- The same after the second region. -/
theorem V3_eq (c : Dev nD) : Gen.V3 m (outs m) c = W3 m c := by
  funext b
  by_cases h : ∃ w, Proc.devRef .tc (Pipeline.arrRef spec1 w) = b
  · obtain ⟨w, rfl⟩ := h
    cases hw : (cfg1.win w).isOut
    · exact ((Gen.V3_of m (outs m) c _ (inArr1 w hw)).trans (congrFun (V2_eq m c) _)).trans (W3_in m c w hw).symm
    · rcases outWin1 w hw with rfl | rfl
      · show Function.update (Function.update (Gen.V2 m (outs m) c) (Proc.devRef .tc main_v21_0) (outs m 3 main_v21_0 c))
            (Proc.devRef .tc main_v21_1) (outs m 3 main_v21_1 c) (Proc.devRef .tc main_v21_0) = _
        rw [Function.update_of_ne (StableHlo.devRef_ne_of_ne (by decide)), Function.update_self]
        exact outs_three m main_v21_0 c
      · show Function.update (Function.update (Gen.V2 m (outs m) c) (Proc.devRef .tc main_v21_0) (outs m 3 main_v21_0 c))
            (Proc.devRef .tc main_v21_1) (outs m 3 main_v21_1 c) (Proc.devRef .tc main_v21_1) = _
        rw [Function.update_self]
        exact outs_three m main_v21_1 c
  · have h0 : b ≠ Proc.devRef .tc main_v21_0 := fun e => h ⟨6, e.symm⟩
    have h1 : b ≠ Proc.devRef .tc main_v21_1 := fun e => h ⟨7, e.symm⟩
    rw [show Gen.V3 m (outs m) c b = Gen.V2 m (outs m) c b from (Function.update_of_ne h1 _ _).trans (Function.update_of_ne h0 _ _),
      V2_eq]
    unfold W3 Pipeline.withArrays
    rw [dif_neg h]

/-! ## Each region's exit contents, in the form the arrays' rejoining takes -/

theorem hF0 (c : Dev nD) (w : Fin cfg0.W) : (Lse.dat (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- The second region's exit contents at the references its core can name. -/
abbrev E3 : (c : Dev nD) → (b : Ref sig .tc) → Buf (Elt F) ((c : Thread nD τ).loc b) := fun c b => W3 m c (Proc.devRef .tc b)

theorem hF1 (c : Dev nD) (w : Fin cfg1.W) : (Loss.dat (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-! ## The proof data family, the levels, and what rides beside the buffers -/

/-- Each pipeline's proof data at its region's entry contents. -/
def pdats : (p : Fin 2) → (c : Dev nD) → Dat τ (Elt F) Unit ℕ (UR sig nD τ) ℕ (cfgs p) c
  | ⟨0, _⟩ => fun c => Lse.dat (E1 m) c
  | ⟨1, _⟩ => fun c => Loss.dat (E2 m) c

/-- No core owes another anything: no level is assigned. -/
abbrev L : GSem nD τ sig → Finset Unit := fun _ => ∅
abbrev lv : GSem nD τ sig → Unit → ℕ := fun _ _ => 0

/-- Beside the buffers through every item of the run: the core's generator register at some state (a region's
    invariant takes it in and gives it back) and the core owing nothing. -/
abbrev R (c : Dev nD) : sProp 𝕄 := iprop((∃ r, prngReg c r) ∗ ∃ W, owes (c : Thread nD τ) (0 : CellTallies nD τ sig Unit) W)

/-- The same at every item. -/
abbrev E : Fin 3 → Dev nD → sProp 𝕄 := fun _ c => R c

/-- A core owing nothing, whatever pairs its waits have recorded, is what a pipeline's loop holds at a point where
    the proof data owe nothing and bound the recorded pairs by nothing. -/
theorem owesAt_of_owes {cfg : Cfg sig Λ₀} {c : Dev nD} (dt : Dat τ (Elt F) Unit ℕ (UR sig nD τ) ℕ cfg c) (t : Fin (cfg.N + 1))
    (hO : dt.owed t = 0) (hR : dt.recorded t = Set.univ) :
    (iprop(∃ W, owes (c : Thread nD τ) (0 : CellTallies nD τ sig Unit) W) : sProp 𝕄) ⊢ dt.owesAt () t := by
  unfold Pipeline.Dat.owesAt Pipeline.owesWithin Pipeline.Dat.bound
  rw [hO, hR]
  iintro ⟨%W, HO⟩; iexists W; isplitr; · ipureintro; exact fun _ _ => Or.inl trivial
  iexact HO

/-- and back. -/
theorem owes_of_owesAt {cfg : Cfg sig Λ₀} {c : Dev nD} (dt : Dat τ (Elt F) Unit ℕ (UR sig nD τ) ℕ cfg c) (t : Fin (cfg.N + 1))
    (hO : dt.owed t = 0) :
    dt.owesAt () t ⊢ (iprop(∃ W, owes (c : Thread nD τ) (0 : CellTallies nD τ sig Unit) W) : sProp 𝕄) := by
  unfold Pipeline.Dat.owesAt Pipeline.owesWithin
  rw [hO]
  iintro ⟨%W, -, HO⟩; iexists W; iexact HO

/-! ## The regions as segments -/

set_option backward.isDefEq.respectTransparency.types false in
/-- THE FIRST REGION over the thread state: entered from every unscoped buffer at the contents after the first host
    stretch, left at `W2`. Its arrays are split out of the unscoped buffers and put back at the exit contents; the
    generator register goes into the invariant and comes out; nothing is owed; the kernel has no semaphore of its own. -/
def reg0 : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (Lse.body_obligation (E1 m) c).loose
  hwaits := Pipeline.hwaits_of_owed_zero _ _ _ _ L lv 0 fun c t => Lse.owed_eq (E1 m) c t
  pre c := iprop(StableHlo.held (c : Thread nD τ) (Pipeline.ucRefs τ sig) (Gen.V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun w => Lse.q_eq (E1 m) c w) (E1 m c) fun w => Lse.A_eq (E1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_owes (Lse.dat (E1 m) c) 0 (Lse.owed_eq (E1 m) c 0) (Lse.recorded_eq (E1 m) c 0)); iexact HO
    isplitl [Hp]; · iexact Hp
    iexact Hrest
  hin c := by
    refine BIBase.Entails.trans ?_ (Lse.hin (E1 m) c)
    unfold Pipeline.ΦA
    iintro ⟨Hp, -, Hr⟩
    isplitl [Hr]; · iexact Hr
    iexact Hp
  hout c := by
    rw [Pipeline.ownSems0_none]
    refine BIBase.Entails.trans (Lse.hout (E1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => Lse.q_eq (E1 m) c w)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_of_owesAt (Lse.dat (E1 m) c) (Fin.last _) (Lse.owed_eq (E1 m) c _)); iexact HO

set_option backward.isDefEq.respectTransparency.types false in
/-- THE SECOND REGION over the thread state: entered from every unscoped buffer at `W2`, left at `W3`; otherwise as
    the first. -/
def reg1 : RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (Loss.body_obligation (E2 m) c).loose
  hwaits := Pipeline.hwaits_of_owed_zero _ _ _ _ L lv 1 fun c t => Loss.owed_eq (E2 m) c t
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun w => Loss.q_eq (E2 m) c w) (E2 m c) fun w => Loss.A_eq (E2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_owes (Loss.dat (E2 m) c) 0 (Loss.owed_eq (E2 m) c 0) (Loss.recorded_eq (E2 m) c 0)); iexact HO
    isplitl [Hp]; · iexact Hp
    iexact Hrest
  hin c := by
    refine BIBase.Entails.trans ?_ (Loss.hin (E2 m) c)
    unfold Pipeline.ΦA
    iintro ⟨Hp, -, Hr⟩
    isplitl [Hr]; · iexact Hr
    iexact Hp
  hout c := by
    rw [Pipeline.ownSems0_none]
    refine BIBase.Entails.trans (Loss.hout (E2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => Loss.q_eq (E2 m) c w)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_of_owesAt (Loss.dat (E2 m) c) (Fin.last _) (Loss.owed_eq (E2 m) c _)); iexact HO

/-! ## The thread states chain -/

theorem hpost0 (c : Dev nD) : (reg0 m).post c ⊢ iprop(StableHlo.held (c : Thread nD τ) (Pipeline.ucRefs τ sig) (Gen.V2 m (outs m) c) ∗ E 1 c) := by
  rw [V2_eq]; exact .rfl
theorem hpre1 (c : Dev nD) : iprop(StableHlo.held (c : Thread nD τ) (Pipeline.ucRefs τ sig) (Gen.V2 m (outs m) c) ∗ E 1 c) ⊢ (reg1 m).pre c := by
  rw [V2_eq]; exact .rfl
theorem hpost1 (c : Dev nD) : (reg1 m).post c ⊢ iprop(StableHlo.held (c : Thread nD τ) (Pipeline.ucRefs τ sig) (Gen.V3 m (outs m) c) ∗ E 2 c) := by
  rw [V3_eq]; exact .rfl
/-- The rider ends owing nothing: drop the register. -/
theorem hE2 (c : Dev nD) : (E 2 c : sProp 𝕄) ⊢ iprop(∃ W, owes (c : Thread nD τ) (0 : CellTallies nD τ sig Unit) W) := by
  iintro ⟨-, HO⟩; iexact HO

/-! ## The launch -/

/-- The launch's element of the user algebra: the pipelines' cells and their tokens, nothing else. -/
abbrev u₀ : UR sig nD τ := initOf (Pipeline.cells cfgs cellOf_inj) (Pipeline.launchToks cfgs cellOf_inj)

/-- Owning it is owning the pipelines' share; no core gets a ghost resource of its own. -/
theorem hu₀ : (ownU u₀ : sProp 𝕄) ⊢ |={Set.univ}=> iprop(BI.own (emb₁ (initOf (Pipeline.cells cfgs cellOf_inj) (Pipeline.launchToks cfgs cellOf_inj)))
    ∗ bigSep Finset.univ fun _ : Dev nD => (BI.emp : sProp 𝕄)) := by
  iintro Hu; imodintro
  isplitl [Hu]
  · iapply (show (ownU u₀ : sProp 𝕄) ⊢ BI.own (emb₁ u₀) from .rfl)
    iexact Hu
  iapply (show (BI.emp : sProp 𝕄) ⊢ bigSep Finset.univ (fun _ : Dev nD => (BI.emp : sProp 𝕄)) from by rw [BI.bigSep_emp_const])
  iempintro

/-- THE LAUNCH'S FIRST STATE beside the buffers, per core: of what the launch deals a core, its generator register at
    the launch state and its owing nothing (recorded pairs: none) make the rider; the rest is dropped. -/
theorem rider_init (c : Dev nD) :
    (iprop(iprop(unscopedSems0 c ∗ owes (c : Thread nD τ) ((0 : Dev nD → CellTallies nD τ sig Unit) c) ∅
        ∗ Pipeline.launchCred (0 : Dev nD → CellTallies nD τ sig Unit) c ∗ prngReg c (ρ c) ∗ BI.emp) ∗ levAts L lv) : sProp 𝕄)
      ⊢ |={Set.univ}=> E 0 c := by
  iintro ⟨⟨-, HO, -, Hp, -⟩, -⟩
  imodintro
  isplitl [Hp]; · iexists _; iexact Hp
  iexists ∅; iexact HO

/-- The same with the buffers: every unscoped buffer at its launch contents beside the rider, on every core at once. -/
theorem first_state :
    (iprop((bigSep Finset.univ fun c : Dev nD => iprop(unscopedBufs c (fun b => m ((c.tc : Thread nD τ).loc b)) ∗ unscopedSems0 c
        ∗ owes (c.tc : Thread nD τ) ((0 : Dev nD → CellTallies nD τ sig Unit) c) ∅ ∗ Pipeline.launchCred (0 : Dev nD → CellTallies nD τ sig Unit) c
        ∗ prngReg c (ρ c) ∗ BI.emp)) ∗ levAts L lv) : sProp 𝕄)
      ⊢ |={Set.univ}=> bigSep Finset.univ fun c : Dev nD => iprop(StableHlo.held (c : Thread nD τ) (Pipeline.ucRefs τ sig) (Gen.V0 m c) ∗ E 0 c) := by
  refine Pipeline.initEach L lv fun c => ?_
  rw [show unscopedBufs c (fun b => m ((c : Thread nD τ).loc b)) = StableHlo.held (c : Thread nD τ) (Pipeline.ucRefs τ sig) (Gen.V0 m c)
    from Pipeline.unscopedBufs_held c (Gen.V0 m c)]
  iintro ⟨⟨Hh, Hrest⟩, Hla⟩
  imod (rider_init ρ c) $$ [Hrest Hla] with HR
  · isplitl [Hrest]; · iexact Hrest
    iexact Hla
  imodintro
  isplitl [Hh]; · iexact Hh
  iexact HR

/-! ## The two statements of the run -/

set_option backward.isDefEq.respectTransparency.types false in
/-- THE FRAME, at any `F`: from any memory with zero counters every weakly fair execution of the program on the
    TensorCores terminates, and every final memory holds each of the five argument arrays as launched. The host side
    (the program as its four items, the two host stretches, the chaining, the arguments read back) is the conditional
    frame's; supplied here are the two regions' records at the exit contents above, the rider, and the launch. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Gen.frame_cond m emb₁ () Variants.none L lv (fun _ _ => rfl) ρ (outs m) (pdats m) 0 (fun _ => iprop(emp)) u₀ hu₀ E
    (Pipeline.initEach L lv (rider_init ρ)) hE2
    (reg0 m) (fun _ => .rfl) (hpost0 m) (reg1 m) (hpre1 m) (hpost1 m)

set_option backward.isDefEq.respectTransparency.types false in
/-- THE RUN WITH EVERY UNSCOPED BUFFER NAMED: the same launch over the same four items, the post reading the whole
    last valuation — every unscoped buffer of every core ends at the contents after the last host stretch. -/
theorem run_all : θ_run defs (onTc (τ := τ) (main (F := F))) ⟨m, fun _ => 0, ρ⟩ (fun r => ∀ c : Dev nD,
      ∀ b ∈ Pipeline.ucRefs τ sig, r.2.mem ((c : Thread nD τ).1, b) = Gen.V4 m (outs m) c b) := by
  refine Pipeline.θ_run_regions_kit_dev (pcfgs (F := F)) adm (pdats m) () cellOf_inj emb₁ defs₀ Variants.none L lv m ρ main
    (Gen.segs m (outs m) Variants.none L lv E () (pdats m) (reg0 m) (reg1 m))
    (fun c Q => by
      rewrite [main_chain c, Seg.run_eq_chain,
        show (Gen.segs m (outs m) Variants.none L lv E () (pdats m) (reg0 m) (reg1 m) c).map Seg.prog = [
          StableHlo.seq hostOps0,
          Prog.lift (.customCall (Pipeline.entry 0) ()),
          Prog.lift (.customCall (Pipeline.entry 1) ()),
          StableHlo.seq hostOps2 ] from rfl]
      exact .rfl)
    (fun c => by simp only [Gen.segs, Seg.pipes_host, Seg.pipes_region, Seg.pipes_nil]; decide) 0 (fun _ _ => rfl)
    (fun _ => iprop(emp)) u₀ hu₀
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V4 m (outs m) c))
    (hch := fun c => ⟨.rfl, .rfl, (hpost0 m c).trans (hpre1 m c), hpost1 m c, sep_mono .rfl (hE2 c)⟩)
    (hinit := first_state m ρ)
    (QY := fun c s => ∀ b ∈ Pipeline.ucRefs τ sig, s.mem ((c : Thread nD τ).1, b) = Gen.V4 m (outs m) c b)
    (hfin := fun c s' => by
      iintro ⟨Hh, HSI⟩
      unfold StableHlo.held
      imodintro
      iapply (pointsTo_read_all (Pipeline.ucRefs τ sig) (fun b => ((c : Thread nD τ).1, b)) (Gen.V4 m (outs m) c) s')
      isplitl [Hh] <;> iassumption)
    (hQ := fun _ h => h)

end Cert.Kernel.Whole

end
-- ==== Proof.KernelIdeal.Lse.Shared.lean ====
import proofs.«123850_j8598524526701_1_alg».proof.Proof.Gen.KernelIdeal.Launch
import proofs.«123850_j8598524526701_1_alg».proof.Proof.Gen.KernelIdeal.Skeleton
import proofs.«123850_j8598524526701_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Lse

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What each input's staging buffer holds when the body starts

Windows 0 and 2 follow the row block only, so they are fetched at the first column block of a row block and kept
for the other three; windows 1 and 3 follow the column block and are fetched at every point. Either way the
buffer holds the point's block. -/

/-- Input window 0 (the row block's features): when the body starts at any point, fetched there or not, its current staging
    buffer holds the point's block — for any proof data whose array 0 is the entry contents and whose body leaves
    the block where it found it. A point that does not fetch has the same block index as the one before, the
    window is never idle and its blocks are never cut, so the library's fetched-or-kept law applies. -/
theorem before_0_of {c : Dev nD} (dt : Dat τ (Elt F) Unit ℕ (UR sig nD τ) ℕ cfg0 c)
    (hA : dt.A 0 = V c (Pipeline.arrRef spec0 0)) (hafter : ∀ t, dt.after 0 t = iblk V c 0 t)
    (t : Fin cfg0.N) (d) : dt.before 0 t d = iblk V c 0 t := by
  have hkeep : ∀ s, (cfg0.win 0).cut (cfg0.grid.coords s) (dt.after 0 s) = dt.blockOf 0 s := fun s => by
    rw [hafter]; unfold Dat.blockOf iblk; rw [hA]; try rfl
  have hfetched : dt.fetched 0 t d = iblk V c 0 t := by
    unfold Dat.fetched Dat.blockOf iblk; rw [hA]; try rfl
  exact (dt.before_in_eq_fetched 0 rfl (fun _ => rfl) (fun _ _ _ => rfl) hkeep t d).trans hfetched

/-- Input window 1 (the column block's features): when the body starts at any point, fetched there or not, its current staging
    buffer holds the point's block — for any proof data whose array 1 is the entry contents and whose body leaves
    the block where it found it. A point that does not fetch has the same block index as the one before, the
    window is never idle and its blocks are never cut, so the library's fetched-or-kept law applies. -/
theorem before_1_of {c : Dev nD} (dt : Dat τ (Elt F) Unit ℕ (UR sig nD τ) ℕ cfg0 c)
    (hA : dt.A 1 = V c (Pipeline.arrRef spec0 1)) (hafter : ∀ t, dt.after 1 t = iblk V c 1 t)
    (t : Fin cfg0.N) (d) : dt.before 1 t d = iblk V c 1 t := by
  have hkeep : ∀ s, (cfg0.win 1).cut (cfg0.grid.coords s) (dt.after 1 s) = dt.blockOf 1 s := fun s => by
    rw [hafter]; unfold Dat.blockOf iblk; rw [hA]; try rfl
  have hfetched : dt.fetched 1 t d = iblk V c 1 t := by
    unfold Dat.fetched Dat.blockOf iblk; rw [hA]; try rfl
  exact (dt.before_in_eq_fetched 1 rfl (fun _ => rfl) (fun _ _ _ => rfl) hkeep t d).trans hfetched

/-- Input window 2 (the row block's labels): when the body starts at any point, fetched there or not, its current staging
    buffer holds the point's block — for any proof data whose array 2 is the entry contents and whose body leaves
    the block where it found it. A point that does not fetch has the same block index as the one before, the
    window is never idle and its blocks are never cut, so the library's fetched-or-kept law applies. -/
theorem before_2_of {c : Dev nD} (dt : Dat τ (Elt F) Unit ℕ (UR sig nD τ) ℕ cfg0 c)
    (hA : dt.A 2 = V c (Pipeline.arrRef spec0 2)) (hafter : ∀ t, dt.after 2 t = iblk V c 2 t)
    (t : Fin cfg0.N) (d) : dt.before 2 t d = iblk V c 2 t := by
  have hkeep : ∀ s, (cfg0.win 2).cut (cfg0.grid.coords s) (dt.after 2 s) = dt.blockOf 2 s := fun s => by
    rw [hafter]; unfold Dat.blockOf iblk; rw [hA]; try rfl
  have hfetched : dt.fetched 2 t d = iblk V c 2 t := by
    unfold Dat.fetched Dat.blockOf iblk; rw [hA]; try rfl
  exact (dt.before_in_eq_fetched 2 rfl (fun _ => rfl) (fun _ _ _ => rfl) hkeep t d).trans hfetched

/-- Input window 3 (the column block's labels): when the body starts at any point, fetched there or not, its current staging
    buffer holds the point's block — for any proof data whose array 3 is the entry contents and whose body leaves
    the block where it found it. A point that does not fetch has the same block index as the one before, the
    window is never idle and its blocks are never cut, so the library's fetched-or-kept law applies. -/
theorem before_3_of {c : Dev nD} (dt : Dat τ (Elt F) Unit ℕ (UR sig nD τ) ℕ cfg0 c)
    (hA : dt.A 3 = V c (Pipeline.arrRef spec0 3)) (hafter : ∀ t, dt.after 3 t = iblk V c 3 t)
    (t : Fin cfg0.N) (d) : dt.before 3 t d = iblk V c 3 t := by
  have hkeep : ∀ s, (cfg0.win 3).cut (cfg0.grid.coords s) (dt.after 3 s) = dt.blockOf 3 s := fun s => by
    rw [hafter]; unfold Dat.blockOf iblk; rw [hA]; try rfl
  have hfetched : dt.fetched 3 t d = iblk V c 3 t := by
    unfold Dat.fetched Dat.blockOf iblk; rw [hA]; try rfl
  exact (dt.before_in_eq_fetched 3 rfl (fun _ => rfl) (fun _ _ _ => rfl) hkeep t d).trans hfetched

/-! ## The two conditionals, on the column coordinate only -/

/-- The first conditional's test, the scalar chain written out: the column coordinate is 0. Under it both running
    quantities are reset. -/
abbrev atFirstCol (i : grid0.Coords) : Prop :=
  (Scalar.cmpi .ne (Scalar.extui (Scalar.cmpi .eq (BitVec.ofNat 32 (i 1).val) 0#32)) 0#32) = 1#1
/-- Over the 17 x 4 grid, point `t = 4 * row + column`: it holds exactly where `t ≡ 0 (mod 4)`. -/
theorem atFirstCol_iff : ∀ t : Fin cfg0.N, atFirstCol (grid0.coords t) ↔ t.val % 4 = 0 :=
  (by decide +kernel : ∀ t : Fin grid0.N, atFirstCol (grid0.coords t) ↔ t.val % 4 = 0)

/-- The last conditional's test: the column coordinate is 3. Under it the two outputs are stored. -/
abbrev atLastCol (i : grid0.Coords) : Prop := k0_cond2 i = 1#1
/-- It holds exactly where `t ≡ 3 (mod 4)`. -/
theorem atLastCol_iff : ∀ t : Fin cfg0.N, atLastCol (grid0.coords t) ↔ t.val % 4 = 3 :=
  (by decide +kernel : ∀ t : Fin grid0.N, atLastCol (grid0.coords t) ↔ t.val % 4 = 3)

/-! ## Where the windows are idle

The four inputs are live everywhere. The two outputs are stored only at the last column block: elsewhere the
configuration calls them idle and the pipeline does not write them back, so the body hands their buffers back as
it found them. -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel

/-- At a reset point (first column block) the row-maximum output is idle … -/
theorem idle_max_first : ∀ t : Fin cfg0.N, atFirstCol (grid0.coords t) → ¬atLastCol (grid0.coords t) → cfg0.idle 4 (grid0.coords t) = true := by decide +kernel
/-- … and not written back. -/
theorem noFlush_max_first : ∀ t : Fin cfg0.N, atFirstCol (grid0.coords t) → ¬atLastCol (grid0.coords t) → (cfg0.win 4).flush t = false := by decide +kernel
/-- The same for the log-sum output. -/
theorem idle_logsum_first : ∀ t : Fin cfg0.N, atFirstCol (grid0.coords t) → ¬atLastCol (grid0.coords t) → cfg0.idle 5 (grid0.coords t) = true := by decide +kernel
theorem noFlush_logsum_first : ∀ t : Fin cfg0.N, atFirstCol (grid0.coords t) → ¬atLastCol (grid0.coords t) → (cfg0.win 5).flush t = false := by decide +kernel

/-- At a middle point (column blocks 1 and 2) the row-maximum output is idle and not written back. -/
theorem idle_max_mid : ∀ t : Fin cfg0.N, ¬atFirstCol (grid0.coords t) → ¬atLastCol (grid0.coords t) → cfg0.idle 4 (grid0.coords t) = true := by decide +kernel
theorem noFlush_max_mid : ∀ t : Fin cfg0.N, ¬atFirstCol (grid0.coords t) → ¬atLastCol (grid0.coords t) → (cfg0.win 4).flush t = false := by decide +kernel
/-- The same for the log-sum output. -/
theorem idle_logsum_mid : ∀ t : Fin cfg0.N, ¬atFirstCol (grid0.coords t) → ¬atLastCol (grid0.coords t) → cfg0.idle 5 (grid0.coords t) = true := by decide +kernel
theorem noFlush_logsum_mid : ∀ t : Fin cfg0.N, ¬atFirstCol (grid0.coords t) → ¬atLastCol (grid0.coords t) → (cfg0.win 5).flush t = false := by decide +kernel

/-- At a storing point (last column block) both outputs are live. -/
theorem live_max_last : ∀ t : Fin cfg0.N, ¬atFirstCol (grid0.coords t) → atLastCol (grid0.coords t) → cfg0.idle 4 (grid0.coords t) = false := by decide +kernel
theorem live_logsum_last : ∀ t : Fin cfg0.N, ¬atFirstCol (grid0.coords t) → atLastCol (grid0.coords t) → cfg0.idle 5 (grid0.coords t) = false := by decide +kernel

/-! ## The memrefs the body is called with -/

/-- Window 0's current staging memref at point `t`, and that it is a whole buffer. -/
abbrev stg_0 (t : Fin cfg0.N) : Memref sig .tc .vmem S256x128 .bf16 := win0_0.stage (cfg0.slots t 0)
abbrev stgWhole_0 (t : Fin cfg0.N) : (stg_0 t).IsWhole := hstage0_0 ((cfg0.slots t 0).cast nbuf0_0)
/-- Window 1's current staging memref at point `t`, and that it is a whole buffer. -/
abbrev stg_1 (t : Fin cfg0.N) : Memref sig .tc .vmem S2176x128 .bf16 := win0_1.stage (cfg0.slots t 1)
abbrev stgWhole_1 (t : Fin cfg0.N) : (stg_1 t).IsWhole := hstage0_1 ((cfg0.slots t 1).cast nbuf0_1)
/-- Window 2's current staging memref at point `t`, and that it is a whole buffer. -/
abbrev stg_2 (t : Fin cfg0.N) : Memref sig .tc .vmem S256x1 .i32 := win0_2.stage (cfg0.slots t 2)
abbrev stgWhole_2 (t : Fin cfg0.N) : (stg_2 t).IsWhole := hstage0_2 ((cfg0.slots t 2).cast nbuf0_2)
/-- Window 3's current staging memref at point `t`, and that it is a whole buffer. -/
abbrev stg_3 (t : Fin cfg0.N) : Memref sig .tc .vmem S1x2176 .i32 := win0_3.stage (cfg0.slots t 3)
abbrev stgWhole_3 (t : Fin cfg0.N) : (stg_3 t).IsWhole := hstage0_3 ((cfg0.slots t 3).cast nbuf0_3)
/-- Window 4's current staging memref at point `t`, and that it is a whole buffer. -/
abbrev stg_4 (t : Fin cfg0.N) : Memref sig .tc .vmem S256x1 .f32 := win0_4.stage (cfg0.slots t 4)
abbrev stgWhole_4 (t : Fin cfg0.N) : (stg_4 t).IsWhole := hstage0_4 ((cfg0.slots t 4).cast nbuf0_4)
/-- Window 5's current staging memref at point `t`, and that it is a whole buffer. -/
abbrev stg_5 (t : Fin cfg0.N) : Memref sig .tc .vmem S256x1 .f32 := win0_5.stage (cfg0.slots t 5)
abbrev stgWhole_5 (t : Fin cfg0.N) : (stg_5 t).IsWhole := hstage0_5 ((cfg0.slots t 5).cast nbuf0_5)

/-- The running row maximum lives in the kernel's first scratch buffer, whole. -/
abbrev maxRef : Memref sig .tc .vmem S256x1 .f32 := Memref.whole cc0_scratch0
/-- The running rescaled exponential sum lives in its second scratch buffer, whole. -/
abbrev sumRef : Memref sig .tc .vmem S256x1 .f32 := Memref.whole cc0_scratch1
/-- The views through which what the two scratches hold is stated. -/
abbrev maxView : View sig .tc .vmem S256x1 .f32 := maxRef.view
abbrev sumView : View sig .tc .vmem S256x1 .f32 := sumRef.view
/-- One staging buffer of each output, through which its contents are stated (reading pieces back over a cover
    does not depend on which buffer). -/
abbrev outMaxView : View sig .tc .vmem S256x1 .f32 := (Memref.whole cc0_stg4_0 : Memref sig .tc .vmem S256x1 .f32).view
abbrev outLogView : View sig .tc .vmem S256x1 .f32 := (Memref.whole cc0_stg5_0 : Memref sig .tc .vmem S256x1 .f32).view

/-! ## The region invariant's class form, the twenty scoped buffers spelt out -/

/-- The eighteen scoped buffers that are not this kernel's — the other region's sixteen staging buffers and two
    scratches — each whole at some contents. This kernel never touches them. -/
def othersHeld (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg5_1), ((c : Thread nD τ).loc cc1_stg5_1) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg6_1), ((c : Thread nD τ).loc cc1_stg6_1) ↦{fullShare} f)
    ∗ (∃ f : Buf (Elt F) ((c : Thread nD τ).loc cc1_stg7_0), ((c : Thread nD τ).loc cc1_stg7_0) ↦{fullShare} f)
    ∗ (∃ f : Buf (Elt F) ((c : Thread nD τ).loc cc1_stg7_1), ((c : Thread nD τ).loc cc1_stg7_1) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc1_scratch1), ((c : Thread nD τ).loc cc1_scratch1) ↦{fullShare} f))

/-- What the launch hands the region: this kernel's two scratches as memrefs owned at some contents, the other
    eighteen scoped buffers at some contents, and the generator register at some state. -/
theorem PhiA_eq (c : Dev nD) :
    (Pipeline.ΦA spec0 c : sProp 𝕄)
      = iprop(iprop((∃ d, owns (c : Thread nD τ) maxRef fullShare d) ∗ (∃ d, owns (c : Thread nD τ) sumRef fullShare d) ∗ othersHeld c)
          ∗ (∃ r, prngReg c r)) := by
  unfold Pipeline.ΦA othersHeld; rw [scopedRest0_eq]; simp only [maxRef, sumRef, owns_whole]; try rfl

end Cert.KernelIdeal.Lse

end
-- ==== Proof.KernelIdeal.Lse.RunFirst.lean ====
import proofs.«123850_j8598524526701_1_alg».proof.Proof.KernelIdeal.Lse.Shared

set_option maxRecDepth 16384

noncomputable section

namespace Cert.KernelIdeal.Lse

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

set_option maxHeartbeats 1000000 in
/-- THE RESET CASE (column block 0: the first conditional taken, the last not). On whole memrefs — the four inputs at
    their blocks, the two outputs at whatever they hold (`k4`, `k5`: not touched, handed back as found), the two
    scratches at anything (both are overwritten before they are read) — the body runs to the continuation with the
    inputs and outputs as they were and each scratch with its pieces written. The pieces are found by the run:
    the reset, then this block's maximum and rescaled sum over it. -/
noncomputable def run_first (c : Dev nD) (i : grid0.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole)
    (hfirst : atFirstCol i) (hlast : ¬atLastCol i) (x0 : Vec F S256x128 .bf16) (x1 : Vec F S2176x128 .bf16) (x2 : Vec F S256x1 .i32) (x3 : Vec F S1x2176 .i32) :
    Σ' (Lmax : List (View.Piece (Elt F) S256x1 .f32)) (Llog : List (View.Piece (Elt F) S256x1 .f32)) (Lrmax : List (View.Piece (Elt F) S256x1 .f32)), { Lrsum : List (View.Piece (Elt F) S256x1 .f32) //
      ∀ (k4 k5 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare k4 ∗ owns (c : Thread nD τ) arg7 fullShare k5
            ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare k4 ∗ owns (c : Thread nD τ) arg7 fullShare k5
                ∗ (∃ f, arg8.view.loc (c : Thread nD τ) ↦[arg8.view.set]{fullShare} arg8.view.writes (Elt F) f Lrmax) ∗ (∃ f, arg9.view.loc (c : Thread nD τ) ↦[arg9.view.set]{fullShare} arg9.view.writes (Elt F) f Lrsum)) -∗ K ⟨⟩))
          ⊢ wp frame (wpE (defs₀ (F := F)) Variants.none c none) E (cc0__lse_kernel i arg2 harg2 arg3 harg3 arg4 harg4 arg5 harg5 arg6 harg6 arg7 harg7 arg8 harg8 arg9 harg9) K } := by
  refine ⟨[], [], ?_, ?_, fun k4 k5 E K => ?run⟩
  case run =>
    simp only [cc0__lse_kernel_eq_skeleton]; unfold cc0__lse_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dm, %fm, -, HM⟩, ⟨%ds, %fs, -, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HM]; · iexists _; iexact HM
    iexists _; iexact HS

end Cert.KernelIdeal.Lse

end
-- ==== Proof.KernelIdeal.Lse.RunMid.lean ====
import proofs.«123850_j8598524526701_1_alg».proof.Proof.KernelIdeal.Lse.RunFirst

set_option maxRecDepth 16384

noncomputable section

namespace Cert.KernelIdeal.Lse

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

set_option maxHeartbeats 1000000 in
/-- THE MIDDLE CASE (column blocks 1 and 2: neither conditional taken). On whole memrefs — the four inputs at their
    blocks, the two outputs at whatever they hold (`k4`, `k5`: not touched), the two scratches at what the point
    before left (`xs0` the running maximum, `xs1` the running sum) — the body runs to the continuation with the inputs
    and outputs as they were and each scratch with its pieces written: the maximum joined with this block's, the sum
    rescaled to the new maximum and this block's masked exponentials added. -/
noncomputable def run_mid (c : Dev nD) (i : grid0.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole)
    (hfirst : ¬atFirstCol i) (hlast : ¬atLastCol i) (x0 : Vec F S256x128 .bf16) (x1 : Vec F S2176x128 .bf16) (x2 : Vec F S256x1 .i32) (x3 : Vec F S1x2176 .i32) (xs0 : Vec F S256x1 .f32) (xs1 : Vec F S256x1 .f32) :
    Σ' (Lmax : List (View.Piece (Elt F) S256x1 .f32)) (Llog : List (View.Piece (Elt F) S256x1 .f32)) (Lrmax : List (View.Piece (Elt F) S256x1 .f32)), { Lrsum : List (View.Piece (Elt F) S256x1 .f32) //
      ∀ (k4 k5 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare k4 ∗ owns (c : Thread nD τ) arg7 fullShare k5
            ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare k4 ∗ owns (c : Thread nD τ) arg7 fullShare k5
                ∗ (∃ f, arg8.view.loc (c : Thread nD τ) ↦[arg8.view.set]{fullShare} arg8.view.writes (Elt F) f Lrmax) ∗ (∃ f, arg9.view.loc (c : Thread nD τ) ↦[arg9.view.set]{fullShare} arg9.view.writes (Elt F) f Lrsum)) -∗ K ⟨⟩))
          ⊢ wp frame (wpE (defs₀ (F := F)) Variants.none c none) E (cc0__lse_kernel i arg2 harg2 arg3 harg3 arg4 harg4 arg5 harg5 arg6 harg6 arg7 harg7 arg8 harg8 arg9 harg9) K } := by
  refine ⟨[], [], ?_, ?_, fun k4 k5 E K => ?run⟩
  case run =>
    simp only [cc0__lse_kernel_eq_skeleton]; unfold cc0__lse_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fm, %hfm, HM⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    obtain rfl := harg8.eq_unread hfm; obtain rfl := harg9.eq_unread hfs
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HM]; · iexists _; iexact HM
    iexists _; iexact HS

end Cert.KernelIdeal.Lse

end
-- ==== Proof.KernelIdeal.Lse.RunLast.lean ====
import proofs.«123850_j8598524526701_1_alg».proof.Proof.KernelIdeal.Lse.RunMid

set_option maxRecDepth 16384

noncomputable section

namespace Cert.KernelIdeal.Lse

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

set_option maxHeartbeats 1000000 in
/-- THE STORING CASE (column block 3: the first conditional not taken, the last taken). On whole memrefs — the four
    inputs at their blocks, the two outputs at anything (each is read once and then overwritten whole), the two
    scratches at what the point before left (`xs0` the running maximum, `xs1` the running sum) — the body runs to the
    continuation with the inputs as they were and the outputs and scratches with their pieces written: the scratches
    updated by this block, then the maximum copied out and the logarithm of the sum stored. -/
noncomputable def run_last (c : Dev nD) (i : grid0.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole)
    (hfirst : ¬atFirstCol i) (hlast : atLastCol i) (x0 : Vec F S256x128 .bf16) (x1 : Vec F S2176x128 .bf16) (x2 : Vec F S256x1 .i32) (x3 : Vec F S1x2176 .i32) (xs0 : Vec F S256x1 .f32) (xs1 : Vec F S256x1 .f32) :
    Σ' (Lmax : List (View.Piece (Elt F) S256x1 .f32)) (Llog : List (View.Piece (Elt F) S256x1 .f32)) (Lrmax : List (View.Piece (Elt F) S256x1 .f32)), { Lrsum : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f Lmax) ∗ (∃ f, arg7.view.loc (c : Thread nD τ) ↦[arg7.view.set]{fullShare} arg7.view.writes (Elt F) f Llog)
                ∗ (∃ f, arg8.view.loc (c : Thread nD τ) ↦[arg8.view.set]{fullShare} arg8.view.writes (Elt F) f Lrmax) ∗ (∃ f, arg9.view.loc (c : Thread nD τ) ↦[arg9.view.set]{fullShare} arg9.view.writes (Elt F) f Lrsum)) -∗ K ⟨⟩))
          ⊢ wp frame (wpE (defs₀ (F := F)) Variants.none c none) E (cc0__lse_kernel i arg2 harg2 arg3 harg3 arg4 harg4 arg5 harg5 arg6 harg6 arg7 harg7 arg8 harg8 arg9 harg9) K } := by
  refine ⟨?_, ?_, ?_, ?_, fun E K => ?run⟩
  case run =>
    simp only [cc0__lse_kernel_eq_skeleton]; unfold cc0__lse_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fm, %hfm, HM⟩, ⟨%fs, %hfs, HS⟩, Hk⟩
    obtain rfl := harg2.eq_unread hf0; obtain rfl := harg3.eq_unread hf1; obtain rfl := harg4.eq_unread hf2; obtain rfl := harg5.eq_unread hf3
    obtain rfl := harg8.eq_unread hfm; obtain rfl := harg9.eq_unread hfs
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HM]; · iexists _; iexact HM
    iexists _; iexact HS

end Cert.KernelIdeal.Lse

end
-- ==== Proof.KernelIdeal.Lse.Data.lean ====
import proofs.«123850_j8598524526701_1_alg».proof.Proof.KernelIdeal.Lse.RunLast

set_option maxRecDepth 16384

noncomputable section

namespace Cert.KernelIdeal.Lse

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The closed forms, as facts about the two conditions at a point -/

/-- A point at the first column block is not at the last. -/
theorem notLast_of_first (t : Fin cfg0.N) (h0 : t.val % 4 = 0) : ¬atLastCol (grid0.coords t) :=
  fun h => by have := (atLastCol_iff t).mp h; omega
/-- A point at the last column block is not at the first. -/
theorem notFirst_of_last (t : Fin cfg0.N) (h3 : t.val % 4 = 3) : ¬atFirstCol (grid0.coords t) :=
  fun h => by have := (atFirstCol_iff t).mp h; omega
theorem notFirst_of (t : Fin cfg0.N) (h0 : ¬t.val % 4 = 0) : ¬atFirstCol (grid0.coords t) :=
  fun h => h0 ((atFirstCol_iff t).mp h)
theorem notLast_of (t : Fin cfg0.N) (h3 : ¬t.val % 4 = 3) : ¬atLastCol (grid0.coords t) :=
  fun h => h3 ((atLastCol_iff t).mp h)

/-! ## What each case leaves in the two scratches and the two outputs

Each buffer's contents after the body are its pieces read back over arbitrary contents: where the pieces cover the
buffer (the covers below, checked by evaluating the pieces' rectangles) that does not depend on what it held. -/

/-- In the reset case the pieces stored into the running-maximum scratch tile it, so they cover it. -/
theorem cover_rmax_first (c : Dev nD) (i : grid0.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole)
    (hfirst : atFirstCol i) (hlast : ¬atLastCol i) (x0 : Vec F S256x128 .bf16) (x1 : Vec F S2176x128 .bf16) (x2 : Vec F S256x1 .i32) (x3 : Vec F S1x2176 .i32) (y : S256x1.Idx) :
    ∃ pc ∈ (run_first c i arg2 harg2 arg3 harg3 arg4 harg4 arg5 harg5 arg6 harg6 arg7 harg7 arg8 harg8 arg9 harg9 hfirst hlast x0 x1 x2 x3).2.2.1, y ∈ pc.1.set :=
  View.cover_of_tiledL (run_first c i arg2 harg2 arg3 harg3 arg4 harg4 arg5 harg5 arg6 harg6 arg7 harg7 arg8 harg8 arg9 harg9 hfirst hlast x0 x1 x2 x3).2.2.1 S256x1.size (by sl_kernel_rfl) y

/-- In the reset case the pieces stored into the running-sum scratch tile it, so they cover it. -/
theorem cover_rsum_first (c : Dev nD) (i : grid0.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole)
    (hfirst : atFirstCol i) (hlast : ¬atLastCol i) (x0 : Vec F S256x128 .bf16) (x1 : Vec F S2176x128 .bf16) (x2 : Vec F S256x1 .i32) (x3 : Vec F S1x2176 .i32) (y : S256x1.Idx) :
    ∃ pc ∈ (run_first c i arg2 harg2 arg3 harg3 arg4 harg4 arg5 harg5 arg6 harg6 arg7 harg7 arg8 harg8 arg9 harg9 hfirst hlast x0 x1 x2 x3).2.2.2.1, y ∈ pc.1.set :=
  View.cover_of_tiledL (run_first c i arg2 harg2 arg3 harg3 arg4 harg4 arg5 harg5 arg6 harg6 arg7 harg7 arg8 harg8 arg9 harg9 hfirst hlast x0 x1 x2 x3).2.2.2.1 S256x1.size (by sl_kernel_rfl) y

/-- The reset case stores nothing into the row-maximum output: no pieces. A placeholder that nothing reads — at these
    points the window is idle, not written back, and not read at the next point. -/
def outMaxFirst (c : Dev nD) (i : grid0.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole)
    (hfirst : atFirstCol i) (hlast : ¬atLastCol i) (x0 : Vec F S256x128 .bf16) (x1 : Vec F S2176x128 .bf16) (x2 : Vec F S256x1 .i32) (x3 : Vec F S1x2176 .i32) : Vec F S256x1 .f32 :=
  outMaxView.read (Elt F) (outMaxView.writes (Elt F) outMaxView.junk (run_first c i arg2 harg2 arg3 harg3 arg4 harg4 arg5 harg5 arg6 harg6 arg7 harg7 arg8 harg8 arg9 harg9 hfirst hlast x0 x1 x2 x3).1)

/-- Likewise for the log-sum output. -/
def outLogFirst (c : Dev nD) (i : grid0.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole)
    (hfirst : atFirstCol i) (hlast : ¬atLastCol i) (x0 : Vec F S256x128 .bf16) (x1 : Vec F S2176x128 .bf16) (x2 : Vec F S256x1 .i32) (x3 : Vec F S1x2176 .i32) : Vec F S256x1 .f32 :=
  outLogView.read (Elt F) (outLogView.writes (Elt F) outLogView.junk (run_first c i arg2 harg2 arg3 harg3 arg4 harg4 arg5 harg5 arg6 harg6 arg7 harg7 arg8 harg8 arg9 harg9 hfirst hlast x0 x1 x2 x3).2.1)

/-- The running row maximum after the reset case: this block's, over the reset value. -/
def runMaxFirst (c : Dev nD) (i : grid0.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole)
    (hfirst : atFirstCol i) (hlast : ¬atLastCol i) (x0 : Vec F S256x128 .bf16) (x1 : Vec F S2176x128 .bf16) (x2 : Vec F S256x1 .i32) (x3 : Vec F S1x2176 .i32) : Vec F S256x1 .f32 :=
  maxView.read (Elt F) (maxView.writes (Elt F) maxView.junk (run_first c i arg2 harg2 arg3 harg3 arg4 harg4 arg5 harg5 arg6 harg6 arg7 harg7 arg8 harg8 arg9 harg9 hfirst hlast x0 x1 x2 x3).2.2.1)

/-- The running rescaled exponential sum after the reset case. -/
def runSumFirst (c : Dev nD) (i : grid0.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole)
    (hfirst : atFirstCol i) (hlast : ¬atLastCol i) (x0 : Vec F S256x128 .bf16) (x1 : Vec F S2176x128 .bf16) (x2 : Vec F S256x1 .i32) (x3 : Vec F S1x2176 .i32) : Vec F S256x1 .f32 :=
  sumView.read (Elt F) (sumView.writes (Elt F) sumView.junk (run_first c i arg2 harg2 arg3 harg3 arg4 harg4 arg5 harg5 arg6 harg6 arg7 harg7 arg8 harg8 arg9 harg9 hfirst hlast x0 x1 x2 x3).2.2.2.1)

/-- In the middle case the pieces stored into the running-maximum scratch tile it, so they cover it. -/
theorem cover_rmax_mid (c : Dev nD) (i : grid0.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole)
    (hfirst : ¬atFirstCol i) (hlast : ¬atLastCol i) (x0 : Vec F S256x128 .bf16) (x1 : Vec F S2176x128 .bf16) (x2 : Vec F S256x1 .i32) (x3 : Vec F S1x2176 .i32) (xs0 : Vec F S256x1 .f32) (xs1 : Vec F S256x1 .f32) (y : S256x1.Idx) :
    ∃ pc ∈ (run_mid c i arg2 harg2 arg3 harg3 arg4 harg4 arg5 harg5 arg6 harg6 arg7 harg7 arg8 harg8 arg9 harg9 hfirst hlast x0 x1 x2 x3 xs0 xs1).2.2.1, y ∈ pc.1.set :=
  View.cover_of_tiledL (run_mid c i arg2 harg2 arg3 harg3 arg4 harg4 arg5 harg5 arg6 harg6 arg7 harg7 arg8 harg8 arg9 harg9 hfirst hlast x0 x1 x2 x3 xs0 xs1).2.2.1 S256x1.size (by sl_kernel_rfl) y

/-- In the middle case the pieces stored into the running-sum scratch tile it, so they cover it. -/
theorem cover_rsum_mid (c : Dev nD) (i : grid0.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole)
    (hfirst : ¬atFirstCol i) (hlast : ¬atLastCol i) (x0 : Vec F S256x128 .bf16) (x1 : Vec F S2176x128 .bf16) (x2 : Vec F S256x1 .i32) (x3 : Vec F S1x2176 .i32) (xs0 : Vec F S256x1 .f32) (xs1 : Vec F S256x1 .f32) (y : S256x1.Idx) :
    ∃ pc ∈ (run_mid c i arg2 harg2 arg3 harg3 arg4 harg4 arg5 harg5 arg6 harg6 arg7 harg7 arg8 harg8 arg9 harg9 hfirst hlast x0 x1 x2 x3 xs0 xs1).2.2.2.1, y ∈ pc.1.set :=
  View.cover_of_tiledL (run_mid c i arg2 harg2 arg3 harg3 arg4 harg4 arg5 harg5 arg6 harg6 arg7 harg7 arg8 harg8 arg9 harg9 hfirst hlast x0 x1 x2 x3 xs0 xs1).2.2.2.1 S256x1.size (by sl_kernel_rfl) y

/-- The middle case stores nothing into the row-maximum output: no pieces. A placeholder that nothing reads — at these
    points the window is idle, not written back, and not read at the next point. -/
def outMaxMid (c : Dev nD) (i : grid0.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole)
    (hfirst : ¬atFirstCol i) (hlast : ¬atLastCol i) (x0 : Vec F S256x128 .bf16) (x1 : Vec F S2176x128 .bf16) (x2 : Vec F S256x1 .i32) (x3 : Vec F S1x2176 .i32) (xs0 : Vec F S256x1 .f32) (xs1 : Vec F S256x1 .f32) : Vec F S256x1 .f32 :=
  outMaxView.read (Elt F) (outMaxView.writes (Elt F) outMaxView.junk (run_mid c i arg2 harg2 arg3 harg3 arg4 harg4 arg5 harg5 arg6 harg6 arg7 harg7 arg8 harg8 arg9 harg9 hfirst hlast x0 x1 x2 x3 xs0 xs1).1)

/-- Likewise for the log-sum output. -/
def outLogMid (c : Dev nD) (i : grid0.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole)
    (hfirst : ¬atFirstCol i) (hlast : ¬atLastCol i) (x0 : Vec F S256x128 .bf16) (x1 : Vec F S2176x128 .bf16) (x2 : Vec F S256x1 .i32) (x3 : Vec F S1x2176 .i32) (xs0 : Vec F S256x1 .f32) (xs1 : Vec F S256x1 .f32) : Vec F S256x1 .f32 :=
  outLogView.read (Elt F) (outLogView.writes (Elt F) outLogView.junk (run_mid c i arg2 harg2 arg3 harg3 arg4 harg4 arg5 harg5 arg6 harg6 arg7 harg7 arg8 harg8 arg9 harg9 hfirst hlast x0 x1 x2 x3 xs0 xs1).2.1)

/-- The running row maximum after the middle case: the carried one joined with this block's. -/
def runMaxMid (c : Dev nD) (i : grid0.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole)
    (hfirst : ¬atFirstCol i) (hlast : ¬atLastCol i) (x0 : Vec F S256x128 .bf16) (x1 : Vec F S2176x128 .bf16) (x2 : Vec F S256x1 .i32) (x3 : Vec F S1x2176 .i32) (xs0 : Vec F S256x1 .f32) (xs1 : Vec F S256x1 .f32) : Vec F S256x1 .f32 :=
  maxView.read (Elt F) (maxView.writes (Elt F) maxView.junk (run_mid c i arg2 harg2 arg3 harg3 arg4 harg4 arg5 harg5 arg6 harg6 arg7 harg7 arg8 harg8 arg9 harg9 hfirst hlast x0 x1 x2 x3 xs0 xs1).2.2.1)

/-- The running rescaled exponential sum after the middle case. -/
def runSumMid (c : Dev nD) (i : grid0.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole)
    (hfirst : ¬atFirstCol i) (hlast : ¬atLastCol i) (x0 : Vec F S256x128 .bf16) (x1 : Vec F S2176x128 .bf16) (x2 : Vec F S256x1 .i32) (x3 : Vec F S1x2176 .i32) (xs0 : Vec F S256x1 .f32) (xs1 : Vec F S256x1 .f32) : Vec F S256x1 .f32 :=
  sumView.read (Elt F) (sumView.writes (Elt F) sumView.junk (run_mid c i arg2 harg2 arg3 harg3 arg4 harg4 arg5 harg5 arg6 harg6 arg7 harg7 arg8 harg8 arg9 harg9 hfirst hlast x0 x1 x2 x3 xs0 xs1).2.2.2.1)

/-- In the storing case the pieces stored into the row-maximum output tile it, so they cover it. -/
theorem cover_max_last (c : Dev nD) (i : grid0.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole)
    (hfirst : ¬atFirstCol i) (hlast : atLastCol i) (x0 : Vec F S256x128 .bf16) (x1 : Vec F S2176x128 .bf16) (x2 : Vec F S256x1 .i32) (x3 : Vec F S1x2176 .i32) (xs0 : Vec F S256x1 .f32) (xs1 : Vec F S256x1 .f32) (y : S256x1.Idx) :
    ∃ pc ∈ (run_last c i arg2 harg2 arg3 harg3 arg4 harg4 arg5 harg5 arg6 harg6 arg7 harg7 arg8 harg8 arg9 harg9 hfirst hlast x0 x1 x2 x3 xs0 xs1).1, y ∈ pc.1.set :=
  View.cover_of_tiledL (run_last c i arg2 harg2 arg3 harg3 arg4 harg4 arg5 harg5 arg6 harg6 arg7 harg7 arg8 harg8 arg9 harg9 hfirst hlast x0 x1 x2 x3 xs0 xs1).1 S256x1.size (by sl_kernel_rfl) y

/-- In the storing case the pieces stored into the log-sum output tile it, so they cover it. -/
theorem cover_log_last (c : Dev nD) (i : grid0.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole)
    (hfirst : ¬atFirstCol i) (hlast : atLastCol i) (x0 : Vec F S256x128 .bf16) (x1 : Vec F S2176x128 .bf16) (x2 : Vec F S256x1 .i32) (x3 : Vec F S1x2176 .i32) (xs0 : Vec F S256x1 .f32) (xs1 : Vec F S256x1 .f32) (y : S256x1.Idx) :
    ∃ pc ∈ (run_last c i arg2 harg2 arg3 harg3 arg4 harg4 arg5 harg5 arg6 harg6 arg7 harg7 arg8 harg8 arg9 harg9 hfirst hlast x0 x1 x2 x3 xs0 xs1).2.1, y ∈ pc.1.set :=
  View.cover_of_tiledL (run_last c i arg2 harg2 arg3 harg3 arg4 harg4 arg5 harg5 arg6 harg6 arg7 harg7 arg8 harg8 arg9 harg9 hfirst hlast x0 x1 x2 x3 xs0 xs1).2.1 S256x1.size (by sl_kernel_rfl) y

/-- In the storing case the pieces stored into the running-maximum scratch tile it, so they cover it. -/
theorem cover_rmax_last (c : Dev nD) (i : grid0.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole)
    (hfirst : ¬atFirstCol i) (hlast : atLastCol i) (x0 : Vec F S256x128 .bf16) (x1 : Vec F S2176x128 .bf16) (x2 : Vec F S256x1 .i32) (x3 : Vec F S1x2176 .i32) (xs0 : Vec F S256x1 .f32) (xs1 : Vec F S256x1 .f32) (y : S256x1.Idx) :
    ∃ pc ∈ (run_last c i arg2 harg2 arg3 harg3 arg4 harg4 arg5 harg5 arg6 harg6 arg7 harg7 arg8 harg8 arg9 harg9 hfirst hlast x0 x1 x2 x3 xs0 xs1).2.2.1, y ∈ pc.1.set :=
  View.cover_of_tiledL (run_last c i arg2 harg2 arg3 harg3 arg4 harg4 arg5 harg5 arg6 harg6 arg7 harg7 arg8 harg8 arg9 harg9 hfirst hlast x0 x1 x2 x3 xs0 xs1).2.2.1 S256x1.size (by sl_kernel_rfl) y

/-- In the storing case the pieces stored into the running-sum scratch tile it, so they cover it. -/
theorem cover_rsum_last (c : Dev nD) (i : grid0.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole)
    (hfirst : ¬atFirstCol i) (hlast : atLastCol i) (x0 : Vec F S256x128 .bf16) (x1 : Vec F S2176x128 .bf16) (x2 : Vec F S256x1 .i32) (x3 : Vec F S1x2176 .i32) (xs0 : Vec F S256x1 .f32) (xs1 : Vec F S256x1 .f32) (y : S256x1.Idx) :
    ∃ pc ∈ (run_last c i arg2 harg2 arg3 harg3 arg4 harg4 arg5 harg5 arg6 harg6 arg7 harg7 arg8 harg8 arg9 harg9 hfirst hlast x0 x1 x2 x3 xs0 xs1).2.2.2.1, y ∈ pc.1.set :=
  View.cover_of_tiledL (run_last c i arg2 harg2 arg3 harg3 arg4 harg4 arg5 harg5 arg6 harg6 arg7 harg7 arg8 harg8 arg9 harg9 hfirst hlast x0 x1 x2 x3 xs0 xs1).2.2.2.1 S256x1.size (by sl_kernel_rfl) y

/-- What the storing case leaves in the row-maximum output's staging buffer: the running maximum after this block. -/
def outMaxLast (c : Dev nD) (i : grid0.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole)
    (hfirst : ¬atFirstCol i) (hlast : atLastCol i) (x0 : Vec F S256x128 .bf16) (x1 : Vec F S2176x128 .bf16) (x2 : Vec F S256x1 .i32) (x3 : Vec F S1x2176 .i32) (xs0 : Vec F S256x1 .f32) (xs1 : Vec F S256x1 .f32) : Vec F S256x1 .f32 :=
  outMaxView.read (Elt F) (outMaxView.writes (Elt F) outMaxView.junk (run_last c i arg2 harg2 arg3 harg3 arg4 harg4 arg5 harg5 arg6 harg6 arg7 harg7 arg8 harg8 arg9 harg9 hfirst hlast x0 x1 x2 x3 xs0 xs1).1)

/-- What the storing case leaves in the log-sum output's staging buffer: the logarithm of the running sum after this block. -/
def outLogLast (c : Dev nD) (i : grid0.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole)
    (hfirst : ¬atFirstCol i) (hlast : atLastCol i) (x0 : Vec F S256x128 .bf16) (x1 : Vec F S2176x128 .bf16) (x2 : Vec F S256x1 .i32) (x3 : Vec F S1x2176 .i32) (xs0 : Vec F S256x1 .f32) (xs1 : Vec F S256x1 .f32) : Vec F S256x1 .f32 :=
  outLogView.read (Elt F) (outLogView.writes (Elt F) outLogView.junk (run_last c i arg2 harg2 arg3 harg3 arg4 harg4 arg5 harg5 arg6 harg6 arg7 harg7 arg8 harg8 arg9 harg9 hfirst hlast x0 x1 x2 x3 xs0 xs1).2.1)

/-- The running row maximum after the storing case: the carried one joined with this block's. -/
def runMaxLast (c : Dev nD) (i : grid0.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole)
    (hfirst : ¬atFirstCol i) (hlast : atLastCol i) (x0 : Vec F S256x128 .bf16) (x1 : Vec F S2176x128 .bf16) (x2 : Vec F S256x1 .i32) (x3 : Vec F S1x2176 .i32) (xs0 : Vec F S256x1 .f32) (xs1 : Vec F S256x1 .f32) : Vec F S256x1 .f32 :=
  maxView.read (Elt F) (maxView.writes (Elt F) maxView.junk (run_last c i arg2 harg2 arg3 harg3 arg4 harg4 arg5 harg5 arg6 harg6 arg7 harg7 arg8 harg8 arg9 harg9 hfirst hlast x0 x1 x2 x3 xs0 xs1).2.2.1)

/-- The running rescaled exponential sum after the storing case. -/
def runSumLast (c : Dev nD) (i : grid0.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole)
    (hfirst : ¬atFirstCol i) (hlast : atLastCol i) (x0 : Vec F S256x128 .bf16) (x1 : Vec F S2176x128 .bf16) (x2 : Vec F S256x1 .i32) (x3 : Vec F S1x2176 .i32) (xs0 : Vec F S256x1 .f32) (xs1 : Vec F S256x1 .f32) : Vec F S256x1 .f32 :=
  sumView.read (Elt F) (sumView.writes (Elt F) sumView.junk (run_last c i arg2 harg2 arg3 harg3 arg4 harg4 arg5 harg5 arg6 harg6 arg7 harg7 arg8 harg8 arg9 harg9 hfirst hlast x0 x1 x2 x3 xs0 xs1).2.2.2.1)

/-! ## What the outputs and the scratches hold after each point -/

/-- after point n: ((output window 4's staging buffer, output window 5's), (first scratch, second scratch)) -/
def outsAt (c : Dev nD) : (n : ℕ) → n < cfg0.N → (Vec F S256x1 .f32 × Vec F S256x1 .f32) × (Vec F S256x1 .f32 × Vec F S256x1 .f32)
  | 0, hn =>
      ((outMaxFirst c (grid0.coords ⟨0, hn⟩) (stg_0 ⟨0, hn⟩) (stgWhole_0 ⟨0, hn⟩) (stg_1 ⟨0, hn⟩) (stgWhole_1 ⟨0, hn⟩) (stg_2 ⟨0, hn⟩) (stgWhole_2 ⟨0, hn⟩) (stg_3 ⟨0, hn⟩) (stgWhole_3 ⟨0, hn⟩) (stg_4 ⟨0, hn⟩) (stgWhole_4 ⟨0, hn⟩) (stg_5 ⟨0, hn⟩) (stgWhole_5 ⟨0, hn⟩) maxRef (Memref.isWhole_whole _) sumRef (Memref.isWhole_whole _) ((atFirstCol_iff ⟨0, hn⟩).mpr (Nat.zero_mod 4)) (notLast_of_first ⟨0, hn⟩ (Nat.zero_mod 4)) (iblk V c 0 ⟨0, hn⟩) (iblk V c 1 ⟨0, hn⟩) (iblk V c 2 ⟨0, hn⟩) (iblk V c 3 ⟨0, hn⟩), outLogFirst c (grid0.coords ⟨0, hn⟩) (stg_0 ⟨0, hn⟩) (stgWhole_0 ⟨0, hn⟩) (stg_1 ⟨0, hn⟩) (stgWhole_1 ⟨0, hn⟩) (stg_2 ⟨0, hn⟩) (stgWhole_2 ⟨0, hn⟩) (stg_3 ⟨0, hn⟩) (stgWhole_3 ⟨0, hn⟩) (stg_4 ⟨0, hn⟩) (stgWhole_4 ⟨0, hn⟩) (stg_5 ⟨0, hn⟩) (stgWhole_5 ⟨0, hn⟩) maxRef (Memref.isWhole_whole _) sumRef (Memref.isWhole_whole _) ((atFirstCol_iff ⟨0, hn⟩).mpr (Nat.zero_mod 4)) (notLast_of_first ⟨0, hn⟩ (Nat.zero_mod 4)) (iblk V c 0 ⟨0, hn⟩) (iblk V c 1 ⟨0, hn⟩) (iblk V c 2 ⟨0, hn⟩) (iblk V c 3 ⟨0, hn⟩)),
       (runMaxFirst c (grid0.coords ⟨0, hn⟩) (stg_0 ⟨0, hn⟩) (stgWhole_0 ⟨0, hn⟩) (stg_1 ⟨0, hn⟩) (stgWhole_1 ⟨0, hn⟩) (stg_2 ⟨0, hn⟩) (stgWhole_2 ⟨0, hn⟩) (stg_3 ⟨0, hn⟩) (stgWhole_3 ⟨0, hn⟩) (stg_4 ⟨0, hn⟩) (stgWhole_4 ⟨0, hn⟩) (stg_5 ⟨0, hn⟩) (stgWhole_5 ⟨0, hn⟩) maxRef (Memref.isWhole_whole _) sumRef (Memref.isWhole_whole _) ((atFirstCol_iff ⟨0, hn⟩).mpr (Nat.zero_mod 4)) (notLast_of_first ⟨0, hn⟩ (Nat.zero_mod 4)) (iblk V c 0 ⟨0, hn⟩) (iblk V c 1 ⟨0, hn⟩) (iblk V c 2 ⟨0, hn⟩) (iblk V c 3 ⟨0, hn⟩), runSumFirst c (grid0.coords ⟨0, hn⟩) (stg_0 ⟨0, hn⟩) (stgWhole_0 ⟨0, hn⟩) (stg_1 ⟨0, hn⟩) (stgWhole_1 ⟨0, hn⟩) (stg_2 ⟨0, hn⟩) (stgWhole_2 ⟨0, hn⟩) (stg_3 ⟨0, hn⟩) (stgWhole_3 ⟨0, hn⟩) (stg_4 ⟨0, hn⟩) (stgWhole_4 ⟨0, hn⟩) (stg_5 ⟨0, hn⟩) (stgWhole_5 ⟨0, hn⟩) maxRef (Memref.isWhole_whole _) sumRef (Memref.isWhole_whole _) ((atFirstCol_iff ⟨0, hn⟩).mpr (Nat.zero_mod 4)) (notLast_of_first ⟨0, hn⟩ (Nat.zero_mod 4)) (iblk V c 0 ⟨0, hn⟩) (iblk V c 1 ⟨0, hn⟩) (iblk V c 2 ⟨0, hn⟩) (iblk V c 3 ⟨0, hn⟩)))
  | n + 1, hn =>
    if h0 : (n + 1) % 4 = 0 then
      ((outMaxFirst c (grid0.coords ⟨n + 1, hn⟩) (stg_0 ⟨n + 1, hn⟩) (stgWhole_0 ⟨n + 1, hn⟩) (stg_1 ⟨n + 1, hn⟩) (stgWhole_1 ⟨n + 1, hn⟩) (stg_2 ⟨n + 1, hn⟩) (stgWhole_2 ⟨n + 1, hn⟩) (stg_3 ⟨n + 1, hn⟩) (stgWhole_3 ⟨n + 1, hn⟩) (stg_4 ⟨n + 1, hn⟩) (stgWhole_4 ⟨n + 1, hn⟩) (stg_5 ⟨n + 1, hn⟩) (stgWhole_5 ⟨n + 1, hn⟩) maxRef (Memref.isWhole_whole _) sumRef (Memref.isWhole_whole _) ((atFirstCol_iff ⟨n + 1, hn⟩).mpr h0) (notLast_of_first ⟨n + 1, hn⟩ h0) (iblk V c 0 ⟨n + 1, hn⟩) (iblk V c 1 ⟨n + 1, hn⟩) (iblk V c 2 ⟨n + 1, hn⟩) (iblk V c 3 ⟨n + 1, hn⟩), outLogFirst c (grid0.coords ⟨n + 1, hn⟩) (stg_0 ⟨n + 1, hn⟩) (stgWhole_0 ⟨n + 1, hn⟩) (stg_1 ⟨n + 1, hn⟩) (stgWhole_1 ⟨n + 1, hn⟩) (stg_2 ⟨n + 1, hn⟩) (stgWhole_2 ⟨n + 1, hn⟩) (stg_3 ⟨n + 1, hn⟩) (stgWhole_3 ⟨n + 1, hn⟩) (stg_4 ⟨n + 1, hn⟩) (stgWhole_4 ⟨n + 1, hn⟩) (stg_5 ⟨n + 1, hn⟩) (stgWhole_5 ⟨n + 1, hn⟩) maxRef (Memref.isWhole_whole _) sumRef (Memref.isWhole_whole _) ((atFirstCol_iff ⟨n + 1, hn⟩).mpr h0) (notLast_of_first ⟨n + 1, hn⟩ h0) (iblk V c 0 ⟨n + 1, hn⟩) (iblk V c 1 ⟨n + 1, hn⟩) (iblk V c 2 ⟨n + 1, hn⟩) (iblk V c 3 ⟨n + 1, hn⟩)),
       (runMaxFirst c (grid0.coords ⟨n + 1, hn⟩) (stg_0 ⟨n + 1, hn⟩) (stgWhole_0 ⟨n + 1, hn⟩) (stg_1 ⟨n + 1, hn⟩) (stgWhole_1 ⟨n + 1, hn⟩) (stg_2 ⟨n + 1, hn⟩) (stgWhole_2 ⟨n + 1, hn⟩) (stg_3 ⟨n + 1, hn⟩) (stgWhole_3 ⟨n + 1, hn⟩) (stg_4 ⟨n + 1, hn⟩) (stgWhole_4 ⟨n + 1, hn⟩) (stg_5 ⟨n + 1, hn⟩) (stgWhole_5 ⟨n + 1, hn⟩) maxRef (Memref.isWhole_whole _) sumRef (Memref.isWhole_whole _) ((atFirstCol_iff ⟨n + 1, hn⟩).mpr h0) (notLast_of_first ⟨n + 1, hn⟩ h0) (iblk V c 0 ⟨n + 1, hn⟩) (iblk V c 1 ⟨n + 1, hn⟩) (iblk V c 2 ⟨n + 1, hn⟩) (iblk V c 3 ⟨n + 1, hn⟩), runSumFirst c (grid0.coords ⟨n + 1, hn⟩) (stg_0 ⟨n + 1, hn⟩) (stgWhole_0 ⟨n + 1, hn⟩) (stg_1 ⟨n + 1, hn⟩) (stgWhole_1 ⟨n + 1, hn⟩) (stg_2 ⟨n + 1, hn⟩) (stgWhole_2 ⟨n + 1, hn⟩) (stg_3 ⟨n + 1, hn⟩) (stgWhole_3 ⟨n + 1, hn⟩) (stg_4 ⟨n + 1, hn⟩) (stgWhole_4 ⟨n + 1, hn⟩) (stg_5 ⟨n + 1, hn⟩) (stgWhole_5 ⟨n + 1, hn⟩) maxRef (Memref.isWhole_whole _) sumRef (Memref.isWhole_whole _) ((atFirstCol_iff ⟨n + 1, hn⟩).mpr h0) (notLast_of_first ⟨n + 1, hn⟩ h0) (iblk V c 0 ⟨n + 1, hn⟩) (iblk V c 1 ⟨n + 1, hn⟩) (iblk V c 2 ⟨n + 1, hn⟩) (iblk V c 3 ⟨n + 1, hn⟩)))
    else if h3 : (n + 1) % 4 = 3 then
      ((outMaxLast c (grid0.coords ⟨n + 1, hn⟩) (stg_0 ⟨n + 1, hn⟩) (stgWhole_0 ⟨n + 1, hn⟩) (stg_1 ⟨n + 1, hn⟩) (stgWhole_1 ⟨n + 1, hn⟩) (stg_2 ⟨n + 1, hn⟩) (stgWhole_2 ⟨n + 1, hn⟩) (stg_3 ⟨n + 1, hn⟩) (stgWhole_3 ⟨n + 1, hn⟩) (stg_4 ⟨n + 1, hn⟩) (stgWhole_4 ⟨n + 1, hn⟩) (stg_5 ⟨n + 1, hn⟩) (stgWhole_5 ⟨n + 1, hn⟩) maxRef (Memref.isWhole_whole _) sumRef (Memref.isWhole_whole _) (notFirst_of_last ⟨n + 1, hn⟩ h3) ((atLastCol_iff ⟨n + 1, hn⟩).mpr h3) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.1 (outsAt c n (Nat.lt_of_succ_lt hn)).2.2, outLogLast c (grid0.coords ⟨n + 1, hn⟩) (stg_0 ⟨n + 1, hn⟩) (stgWhole_0 ⟨n + 1, hn⟩) (stg_1 ⟨n + 1, hn⟩) (stgWhole_1 ⟨n + 1, hn⟩) (stg_2 ⟨n + 1, hn⟩) (stgWhole_2 ⟨n + 1, hn⟩) (stg_3 ⟨n + 1, hn⟩) (stgWhole_3 ⟨n + 1, hn⟩) (stg_4 ⟨n + 1, hn⟩) (stgWhole_4 ⟨n + 1, hn⟩) (stg_5 ⟨n + 1, hn⟩) (stgWhole_5 ⟨n + 1, hn⟩) maxRef (Memref.isWhole_whole _) sumRef (Memref.isWhole_whole _) (notFirst_of_last ⟨n + 1, hn⟩ h3) ((atLastCol_iff ⟨n + 1, hn⟩).mpr h3) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.1 (outsAt c n (Nat.lt_of_succ_lt hn)).2.2),
       (runMaxLast c (grid0.coords ⟨n + 1, hn⟩) (stg_0 ⟨n + 1, hn⟩) (stgWhole_0 ⟨n + 1, hn⟩) (stg_1 ⟨n + 1, hn⟩) (stgWhole_1 ⟨n + 1, hn⟩) (stg_2 ⟨n + 1, hn⟩) (stgWhole_2 ⟨n + 1, hn⟩) (stg_3 ⟨n + 1, hn⟩) (stgWhole_3 ⟨n + 1, hn⟩) (stg_4 ⟨n + 1, hn⟩) (stgWhole_4 ⟨n + 1, hn⟩) (stg_5 ⟨n + 1, hn⟩) (stgWhole_5 ⟨n + 1, hn⟩) maxRef (Memref.isWhole_whole _) sumRef (Memref.isWhole_whole _) (notFirst_of_last ⟨n + 1, hn⟩ h3) ((atLastCol_iff ⟨n + 1, hn⟩).mpr h3) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.1 (outsAt c n (Nat.lt_of_succ_lt hn)).2.2, runSumLast c (grid0.coords ⟨n + 1, hn⟩) (stg_0 ⟨n + 1, hn⟩) (stgWhole_0 ⟨n + 1, hn⟩) (stg_1 ⟨n + 1, hn⟩) (stgWhole_1 ⟨n + 1, hn⟩) (stg_2 ⟨n + 1, hn⟩) (stgWhole_2 ⟨n + 1, hn⟩) (stg_3 ⟨n + 1, hn⟩) (stgWhole_3 ⟨n + 1, hn⟩) (stg_4 ⟨n + 1, hn⟩) (stgWhole_4 ⟨n + 1, hn⟩) (stg_5 ⟨n + 1, hn⟩) (stgWhole_5 ⟨n + 1, hn⟩) maxRef (Memref.isWhole_whole _) sumRef (Memref.isWhole_whole _) (notFirst_of_last ⟨n + 1, hn⟩ h3) ((atLastCol_iff ⟨n + 1, hn⟩).mpr h3) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.1 (outsAt c n (Nat.lt_of_succ_lt hn)).2.2))
    else
      ((outMaxMid c (grid0.coords ⟨n + 1, hn⟩) (stg_0 ⟨n + 1, hn⟩) (stgWhole_0 ⟨n + 1, hn⟩) (stg_1 ⟨n + 1, hn⟩) (stgWhole_1 ⟨n + 1, hn⟩) (stg_2 ⟨n + 1, hn⟩) (stgWhole_2 ⟨n + 1, hn⟩) (stg_3 ⟨n + 1, hn⟩) (stgWhole_3 ⟨n + 1, hn⟩) (stg_4 ⟨n + 1, hn⟩) (stgWhole_4 ⟨n + 1, hn⟩) (stg_5 ⟨n + 1, hn⟩) (stgWhole_5 ⟨n + 1, hn⟩) maxRef (Memref.isWhole_whole _) sumRef (Memref.isWhole_whole _) (notFirst_of ⟨n + 1, hn⟩ h0) (notLast_of ⟨n + 1, hn⟩ h3) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.1 (outsAt c n (Nat.lt_of_succ_lt hn)).2.2, outLogMid c (grid0.coords ⟨n + 1, hn⟩) (stg_0 ⟨n + 1, hn⟩) (stgWhole_0 ⟨n + 1, hn⟩) (stg_1 ⟨n + 1, hn⟩) (stgWhole_1 ⟨n + 1, hn⟩) (stg_2 ⟨n + 1, hn⟩) (stgWhole_2 ⟨n + 1, hn⟩) (stg_3 ⟨n + 1, hn⟩) (stgWhole_3 ⟨n + 1, hn⟩) (stg_4 ⟨n + 1, hn⟩) (stgWhole_4 ⟨n + 1, hn⟩) (stg_5 ⟨n + 1, hn⟩) (stgWhole_5 ⟨n + 1, hn⟩) maxRef (Memref.isWhole_whole _) sumRef (Memref.isWhole_whole _) (notFirst_of ⟨n + 1, hn⟩ h0) (notLast_of ⟨n + 1, hn⟩ h3) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.1 (outsAt c n (Nat.lt_of_succ_lt hn)).2.2),
       (runMaxMid c (grid0.coords ⟨n + 1, hn⟩) (stg_0 ⟨n + 1, hn⟩) (stgWhole_0 ⟨n + 1, hn⟩) (stg_1 ⟨n + 1, hn⟩) (stgWhole_1 ⟨n + 1, hn⟩) (stg_2 ⟨n + 1, hn⟩) (stgWhole_2 ⟨n + 1, hn⟩) (stg_3 ⟨n + 1, hn⟩) (stgWhole_3 ⟨n + 1, hn⟩) (stg_4 ⟨n + 1, hn⟩) (stgWhole_4 ⟨n + 1, hn⟩) (stg_5 ⟨n + 1, hn⟩) (stgWhole_5 ⟨n + 1, hn⟩) maxRef (Memref.isWhole_whole _) sumRef (Memref.isWhole_whole _) (notFirst_of ⟨n + 1, hn⟩ h0) (notLast_of ⟨n + 1, hn⟩ h3) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.1 (outsAt c n (Nat.lt_of_succ_lt hn)).2.2, runSumMid c (grid0.coords ⟨n + 1, hn⟩) (stg_0 ⟨n + 1, hn⟩) (stgWhole_0 ⟨n + 1, hn⟩) (stg_1 ⟨n + 1, hn⟩) (stgWhole_1 ⟨n + 1, hn⟩) (stg_2 ⟨n + 1, hn⟩) (stgWhole_2 ⟨n + 1, hn⟩) (stg_3 ⟨n + 1, hn⟩) (stgWhole_3 ⟨n + 1, hn⟩) (stg_4 ⟨n + 1, hn⟩) (stgWhole_4 ⟨n + 1, hn⟩) (stg_5 ⟨n + 1, hn⟩) (stgWhole_5 ⟨n + 1, hn⟩) maxRef (Memref.isWhole_whole _) sumRef (Memref.isWhole_whole _) (notFirst_of ⟨n + 1, hn⟩ h0) (notLast_of ⟨n + 1, hn⟩ h3) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.1 (outsAt c n (Nat.lt_of_succ_lt hn)).2.2))

/-- At a point of the first column block: the reset case's contents, from the point's input blocks only. -/
theorem outsAt_first (c : Dev nD) (t : Fin cfg0.N) (h0 : t.val % 4 = 0) :
    outsAt V c t.val t.isLt =
      ((outMaxFirst c (grid0.coords t) (stg_0 t) (stgWhole_0 t) (stg_1 t) (stgWhole_1 t) (stg_2 t) (stgWhole_2 t) (stg_3 t) (stgWhole_3 t) (stg_4 t) (stgWhole_4 t) (stg_5 t) (stgWhole_5 t) maxRef (Memref.isWhole_whole _) sumRef (Memref.isWhole_whole _) ((atFirstCol_iff t).mpr h0) (notLast_of_first t h0) (iblk V c 0 t) (iblk V c 1 t) (iblk V c 2 t) (iblk V c 3 t), outLogFirst c (grid0.coords t) (stg_0 t) (stgWhole_0 t) (stg_1 t) (stgWhole_1 t) (stg_2 t) (stgWhole_2 t) (stg_3 t) (stgWhole_3 t) (stg_4 t) (stgWhole_4 t) (stg_5 t) (stgWhole_5 t) maxRef (Memref.isWhole_whole _) sumRef (Memref.isWhole_whole _) ((atFirstCol_iff t).mpr h0) (notLast_of_first t h0) (iblk V c 0 t) (iblk V c 1 t) (iblk V c 2 t) (iblk V c 3 t)),
       (runMaxFirst c (grid0.coords t) (stg_0 t) (stgWhole_0 t) (stg_1 t) (stgWhole_1 t) (stg_2 t) (stgWhole_2 t) (stg_3 t) (stgWhole_3 t) (stg_4 t) (stgWhole_4 t) (stg_5 t) (stgWhole_5 t) maxRef (Memref.isWhole_whole _) sumRef (Memref.isWhole_whole _) ((atFirstCol_iff t).mpr h0) (notLast_of_first t h0) (iblk V c 0 t) (iblk V c 1 t) (iblk V c 2 t) (iblk V c 3 t), runSumFirst c (grid0.coords t) (stg_0 t) (stgWhole_0 t) (stg_1 t) (stgWhole_1 t) (stg_2 t) (stgWhole_2 t) (stg_3 t) (stgWhole_3 t) (stg_4 t) (stgWhole_4 t) (stg_5 t) (stgWhole_5 t) maxRef (Memref.isWhole_whole _) sumRef (Memref.isWhole_whole _) ((atFirstCol_iff t).mpr h0) (notLast_of_first t h0) (iblk V c 0 t) (iblk V c 1 t) (iblk V c 2 t) (iblk V c 3 t))) := by
  obtain ⟨n, hn⟩ := t
  cases n with
  | zero => exact rfl
  | succ n => exact (dif_pos h0).trans rfl

/-- At a point of column block 1 or 2: the middle case's contents, over the scratches the point before left. -/
theorem outsAt_mid (c : Dev nD) (t : Fin cfg0.N) (h0 : ¬t.val % 4 = 0) (h3 : ¬t.val % 4 = 3) :
    outsAt V c t.val t.isLt =
      ((outMaxMid c (grid0.coords t) (stg_0 t) (stgWhole_0 t) (stg_1 t) (stgWhole_1 t) (stg_2 t) (stgWhole_2 t) (stg_3 t) (stgWhole_3 t) (stg_4 t) (stgWhole_4 t) (stg_5 t) (stgWhole_5 t) maxRef (Memref.isWhole_whole _) sumRef (Memref.isWhole_whole _) (notFirst_of t h0) (notLast_of t h3) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2, outLogMid c (grid0.coords t) (stg_0 t) (stgWhole_0 t) (stg_1 t) (stgWhole_1 t) (stg_2 t) (stgWhole_2 t) (stg_3 t) (stgWhole_3 t) (stg_4 t) (stgWhole_4 t) (stg_5 t) (stgWhole_5 t) maxRef (Memref.isWhole_whole _) sumRef (Memref.isWhole_whole _) (notFirst_of t h0) (notLast_of t h3) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2),
       (runMaxMid c (grid0.coords t) (stg_0 t) (stgWhole_0 t) (stg_1 t) (stgWhole_1 t) (stg_2 t) (stgWhole_2 t) (stg_3 t) (stgWhole_3 t) (stg_4 t) (stgWhole_4 t) (stg_5 t) (stgWhole_5 t) maxRef (Memref.isWhole_whole _) sumRef (Memref.isWhole_whole _) (notFirst_of t h0) (notLast_of t h3) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2, runSumMid c (grid0.coords t) (stg_0 t) (stgWhole_0 t) (stg_1 t) (stgWhole_1 t) (stg_2 t) (stgWhole_2 t) (stg_3 t) (stgWhole_3 t) (stg_4 t) (stgWhole_4 t) (stg_5 t) (stgWhole_5 t) maxRef (Memref.isWhole_whole _) sumRef (Memref.isWhole_whole _) (notFirst_of t h0) (notLast_of t h3) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2)) := by
  obtain ⟨n, hn⟩ := t
  cases n with
  | zero => exact absurd (Nat.zero_mod 4) h0
  | succ n => exact (dif_neg h0).trans ((dif_neg h3).trans rfl)

/-- At a point of the last column block: the storing case's contents, over the scratches the point before left. -/
theorem outsAt_last (c : Dev nD) (t : Fin cfg0.N) (h3 : t.val % 4 = 3) :
    outsAt V c t.val t.isLt =
      ((outMaxLast c (grid0.coords t) (stg_0 t) (stgWhole_0 t) (stg_1 t) (stgWhole_1 t) (stg_2 t) (stgWhole_2 t) (stg_3 t) (stgWhole_3 t) (stg_4 t) (stgWhole_4 t) (stg_5 t) (stgWhole_5 t) maxRef (Memref.isWhole_whole _) sumRef (Memref.isWhole_whole _) (notFirst_of_last t h3) ((atLastCol_iff t).mpr h3) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2, outLogLast c (grid0.coords t) (stg_0 t) (stgWhole_0 t) (stg_1 t) (stgWhole_1 t) (stg_2 t) (stgWhole_2 t) (stg_3 t) (stgWhole_3 t) (stg_4 t) (stgWhole_4 t) (stg_5 t) (stgWhole_5 t) maxRef (Memref.isWhole_whole _) sumRef (Memref.isWhole_whole _) (notFirst_of_last t h3) ((atLastCol_iff t).mpr h3) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2),
       (runMaxLast c (grid0.coords t) (stg_0 t) (stgWhole_0 t) (stg_1 t) (stgWhole_1 t) (stg_2 t) (stgWhole_2 t) (stg_3 t) (stgWhole_3 t) (stg_4 t) (stgWhole_4 t) (stg_5 t) (stgWhole_5 t) maxRef (Memref.isWhole_whole _) sumRef (Memref.isWhole_whole _) (notFirst_of_last t h3) ((atLastCol_iff t).mpr h3) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2, runSumLast c (grid0.coords t) (stg_0 t) (stgWhole_0 t) (stg_1 t) (stgWhole_1 t) (stg_2 t) (stgWhole_2 t) (stg_3 t) (stgWhole_3 t) (stg_4 t) (stgWhole_4 t) (stg_5 t) (stgWhole_5 t) maxRef (Memref.isWhole_whole _) sumRef (Memref.isWhole_whole _) (notFirst_of_last t h3) ((atLastCol_iff t).mpr h3) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2)) := by
  obtain ⟨n, hn⟩ := t
  cases n with
  | zero => exact absurd (show (0 : ℕ) % 4 = 3 from h3) (by decide)
  | succ n =>
    have h3' : (n + 1) % 4 = 3 := h3
    have h0 : ¬(n + 1) % 4 = 0 := fun h => by omega
    exact (dif_neg h0).trans ((dif_pos h3').trans rfl)

/-! ## The region invariant -/

/-- Before position `n`. Before the first point: what the launch hands the region. Afterwards: this kernel's two
    scratches at what the point before left in them (the running maximum and the running sum), the other eighteen
    scoped buffers at some contents, the generator register at some state. -/
def PhiS (c : Dev nD) : (n : ℕ) → n ≤ cfg0.N → sProp 𝕄
  | 0, _ => Pipeline.ΦA spec0 c
  | n + 1, hn =>
    iprop(iprop(owns (c : Thread nD τ) maxRef fullShare (outsAt V c n hn).2.1 ∗ owns (c : Thread nD τ) sumRef fullShare (outsAt V c n hn).2.2 ∗ othersHeld c)
      ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn =
      iprop(iprop(owns (c : Thread nD τ) maxRef fullShare (outsAt V c n hn).2.1 ∗ owns (c : Thread nD τ) sumRef fullShare (outsAt V c n hn).2.2 ∗ othersHeld c)
        ∗ (∃ r, prngReg c r)) := rfl

theorem PhiS_pos (c : Dev nD) (n : ℕ) (h : n ≤ cfg0.N) (hz : n ≠ 0) :
    PhiS V c n h =
      iprop(iprop(owns (c : Thread nD τ) maxRef fullShare (outsAt V c (n - 1) (by omega)).2.1 ∗ owns (c : Thread nD τ) sumRef fullShare (outsAt V c (n - 1) (by omega)).2.2 ∗ othersHeld c)
        ∗ (∃ r, prngReg c r)) := by
  cases n with
  | zero => exact absurd rfl hz
  | succ n => rfl

/-! ## The pipeline's proof data -/

/-- The arrays as the region finds them; after the body at a point each input's buffer at its block, the two outputs'
    at the matching components of `outsAt`; the invariant above; full shares; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1.1
    | ⟨5, _⟩ => (outsAt V c t.val t.isLt).1.2
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem q_eq (c : Dev nD) (w : Fin cfg0.W) : (dat V c).q w = fullShare := by
  dsimp only [dat]
theorem owed_eq (c : Dev nD) (t : Fin (cfg0.N + 1)) : (dat V c).owed t = 0 := by
  dsimp only [dat]
/-- The bound on the pairs the core's waits have recorded is left at the structure's default, everything: the body
    takes on no new units. -/
theorem recorded_eq (c : Dev nD) (t : Fin (cfg0.N + 1)) : (dat V c).recorded t = Set.univ := by
  dsimp only [dat]

/-- The invariant at a point's start, restated at the point's position. -/
theorem Phi_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_max (c : Dev nD) (t : Fin cfg0.N) : (dat V c).after 4 t = (outsAt V c t.val t.isLt).1.1 := by dsimp only [dat]
theorem after_logsum (c : Dev nD) (t : Fin cfg0.N) : (dat V c).after 5 t = (outsAt V c t.val t.isLt).1.2 := by dsimp only [dat]

/-- Each input's current staging buffer holds its block when the body starts, at every point. -/
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d

end Cert.KernelIdeal.Lse

end
-- ==== Proof.KernelIdeal.Lse.Body.lean ====
import proofs.«123850_j8598524526701_1_alg».proof.Proof.KernelIdeal.Lse.Data

set_option maxRecDepth 16384

noncomputable section

namespace Cert.KernelIdeal.Lse

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The body obligation, at a generic point -/

/-- What the body is called with at point `t`: the invariant, what the core owes, and each window's current staging
    buffer at what it then holds. -/
def bodyPre (c : Dev nD) (t : Fin cfg0.N) : sProp 𝕄 :=
  iprop((dat V c).Φ t.castSucc ∗ (dat V c).owesAt () t.castSucc
    ∗ (∃ d, owns (c : Thread nD τ) (stg_0 t) fullShare ((dat V c).before 0 t d))
    ∗ (∃ d, owns (c : Thread nD τ) (stg_1 t) fullShare ((dat V c).before 1 t d))
    ∗ (∃ d, owns (c : Thread nD τ) (stg_2 t) fullShare ((dat V c).before 2 t d))
    ∗ (∃ d, owns (c : Thread nD τ) (stg_3 t) fullShare ((dat V c).before 3 t d))
    ∗ (∃ d, owns (c : Thread nD τ) (stg_4 t) fullShare ((dat V c).before 4 t d))
    ∗ (∃ d, owns (c : Thread nD τ) (stg_5 t) fullShare ((dat V c).before 5 t d)))

/-- What it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4800000 in
/-- The body at any point. The inputs' buffers hold their blocks; the point's position mod 4 says which of the three
    cases it is in, and that case's run applies. The invariant hands the body the two scratches at what the point before
    left (at anything before the first point: the reset case reads neither before overwriting it) and takes them back at
    this point's contents, by the covers; the other eighteen scoped buffers and the generator register pass through
    untouched; the core owes nothing throughout. Where the outputs are idle their buffers go back as they came; at the
    storing points they go back at the pieces read over their covers. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).owesAt () t.succ = (dat V c).owesAt () t.castSucc from rfl]
  rw [show (dat V c).Φ t.succ = PhiS V c (t.val + 1) t.isLt from rfl, PhiS_succ]
  have hN : t.val < 68 := lt_of_lt_of_eq t.isLt (show cfg0.N = 68 from N_0)
  by_cases h0 : t.val % 4 = 0
  · -- the reset case
    have hF : atFirstCol (grid0.coords t) := (atFirstCol_iff t).mpr h0
    have hL : ¬atLastCol (grid0.coords t) := notLast_of_first t h0
    rw [show (dat V c).leavesExact 0 t = owns (c : Thread nD τ) (stg_0 t) fullShare ((dat V c).after 0 t) from by
      unfold Dat.leavesExact; rw [live_0 t], after_0]
    rw [show (dat V c).leavesExact 1 t = owns (c : Thread nD τ) (stg_1 t) fullShare ((dat V c).after 1 t) from by
      unfold Dat.leavesExact; rw [live_1 t], after_1]
    rw [show (dat V c).leavesExact 2 t = owns (c : Thread nD τ) (stg_2 t) fullShare ((dat V c).after 2 t) from by
      unfold Dat.leavesExact; rw [live_2 t], after_2]
    rw [show (dat V c).leavesExact 3 t = owns (c : Thread nD τ) (stg_3 t) fullShare ((dat V c).after 3 t) from by
      unfold Dat.leavesExact; rw [live_3 t], after_3]
    rw [Dat.leavesExact_idle (dat V c) 4 t (idle_max_first t hF hL) (noFlush_max_first t hF hL)]
    rw [Dat.leavesExact_idle (dat V c) 5 t (idle_logsum_first t hF hL) (noFlush_logsum_first t hF hL)]
    rw [outsAt_first V c t h0]
    dsimp only
    unfold runMaxFirst runSumFirst
    by_cases hz : t.val = 0
    · rw [Phi_castSucc V c t, PhiS_zero V c _ _ hz, PhiA_eq]
      iintro ⟨⟨⟨HM, HS, Hoth⟩, Hg⟩, Ho, ⟨%d0, H0⟩, ⟨%d1, H1⟩, ⟨%d2, H2⟩, ⟨%d3, H3⟩, ⟨%d4, H4⟩, ⟨%d5, H5⟩⟩
      iapply ((run_first c (grid0.coords t) _ _ _ _ _ _ _ _ _ _ _ _ _ _ _ _ hF hL (iblk V c 0 t) (iblk V c 1 t) (iblk V c 2 t) (iblk V c 3 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HM]; · iexact HM
      isplitl [HS]; · iexact HS
      iintro ⟨H0, H1, H2, H3, H4, H5, ⟨%em, HM⟩, ⟨%es, HS⟩⟩
      isplitl [HM HS Hoth Hg]
      · isplitl [HM HS Hoth]
        · isplitl [HM]
          · unfold owns; iexists _; isplitr
            swap; · iexact HM
            ipureintro; exact View.read_writes_of_cover _ _ _ _ _ (cover_rmax_first _ _ _ _ _ _ _ _ _ _ _ _ _ _ _ _ _ _ _ _ _ _ _ _)
          isplitl [HS]
          · unfold owns; iexists _; isplitr
            swap; · iexact HS
            ipureintro; exact View.read_writes_of_cover _ _ _ _ _ (cover_rsum_first _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [Phi_castSucc V c t, PhiS_pos V c _ _ hz]
      iintro ⟨⟨⟨HM, HS, Hoth⟩, Hg⟩, Ho, ⟨%d0, H0⟩, ⟨%d1, H1⟩, ⟨%d2, H2⟩, ⟨%d3, H3⟩, ⟨%d4, H4⟩, ⟨%d5, H5⟩⟩
      iapply ((run_first c (grid0.coords t) _ _ _ _ _ _ _ _ _ _ _ _ _ _ _ _ hF hL (iblk V c 0 t) (iblk V c 1 t) (iblk V c 2 t) (iblk V c 3 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HM]; · iexists _; iexact HM
      isplitl [HS]; · iexists _; iexact HS
      iintro ⟨H0, H1, H2, H3, H4, H5, ⟨%em, HM⟩, ⟨%es, HS⟩⟩
      isplitl [HM HS Hoth Hg]
      · isplitl [HM HS Hoth]
        · isplitl [HM]
          · unfold owns; iexists _; isplitr
            swap; · iexact HM
            ipureintro; exact View.read_writes_of_cover _ _ _ _ _ (cover_rmax_first _ _ _ _ _ _ _ _ _ _ _ _ _ _ _ _ _ _ _ _ _ _ _ _)
          isplitl [HS]
          · unfold owns; iexists _; isplitr
            swap; · iexact HS
            ipureintro; exact View.read_writes_of_cover _ _ _ _ _ (cover_rsum_first _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun h => h0 (by rw [h])
    have hF : ¬atFirstCol (grid0.coords t) := notFirst_of t h0
    by_cases h3 : t.val % 4 = 3
    · -- the storing case
      have hL : atLastCol (grid0.coords t) := (atLastCol_iff t).mpr h3
      rw [show (dat V c).leavesExact 0 t = owns (c : Thread nD τ) (stg_0 t) fullShare ((dat V c).after 0 t) from by
        unfold Dat.leavesExact; rw [live_0 t], after_0]
      rw [show (dat V c).leavesExact 1 t = owns (c : Thread nD τ) (stg_1 t) fullShare ((dat V c).after 1 t) from by
        unfold Dat.leavesExact; rw [live_1 t], after_1]
      rw [show (dat V c).leavesExact 2 t = owns (c : Thread nD τ) (stg_2 t) fullShare ((dat V c).after 2 t) from by
        unfold Dat.leavesExact; rw [live_2 t], after_2]
      rw [show (dat V c).leavesExact 3 t = owns (c : Thread nD τ) (stg_3 t) fullShare ((dat V c).after 3 t) from by
        unfold Dat.leavesExact; rw [live_3 t], after_3]
      rw [show (dat V c).leavesExact 4 t = owns (c : Thread nD τ) (stg_4 t) fullShare ((dat V c).after 4 t) from by
        unfold Dat.leavesExact; rw [live_max_last t hF hL], after_max]
      rw [show (dat V c).leavesExact 5 t = owns (c : Thread nD τ) (stg_5 t) fullShare ((dat V c).after 5 t) from by
        unfold Dat.leavesExact; rw [live_logsum_last t hF hL], after_logsum]
      rw [outsAt_last V c t h3]
      dsimp only
      unfold outMaxLast outLogLast runMaxLast runSumLast
      rw [Phi_castSucc V c t, PhiS_pos V c _ _ hz]
      iintro ⟨⟨⟨HM, HS, Hoth⟩, Hg⟩, Ho, ⟨%d0, H0⟩, ⟨%d1, H1⟩, ⟨%d2, H2⟩, ⟨%d3, H3⟩, ⟨%d4, H4⟩, ⟨%d5, H5⟩⟩
      iapply ((run_last c (grid0.coords t) _ _ _ _ _ _ _ _ _ _ _ _ _ _ _ _ hF hL (iblk V c 0 t) (iblk V c 1 t) (iblk V c 2 t) (iblk V c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HM]; · iexact HM
      isplitl [HS]; · iexact HS
      iintro ⟨H0, H1, H2, H3, ⟨%e4, H4⟩, ⟨%e5, H5⟩, ⟨%em, HM⟩, ⟨%es, HS⟩⟩
      isplitl [HM HS Hoth Hg]
      · isplitl [HM HS Hoth]
        · isplitl [HM]
          · unfold owns; iexists _; isplitr
            swap; · iexact HM
            ipureintro; exact View.read_writes_of_cover _ _ _ _ _ (cover_rmax_last _ _ _ _ _ _ _ _ _ _ _ _ _ _ _ _ _ _ _ _ _ _ _ _ _ _)
          isplitl [HS]
          · unfold owns; iexists _; isplitr
            swap; · iexact HS
            ipureintro; exact View.read_writes_of_cover _ _ _ _ _ (cover_rsum_last _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover_max_last _ _ _ _ _ _ _ _ _ _ _ _ _ _ _ _ _ _ _ _ _ _ _ _ _ _)
      unfold owns; iexists _; isplitr
      swap; · iexact H5
      ipureintro; exact View.read_writes_of_cover _ _ _ _ _ (cover_log_last _ _ _ _ _ _ _ _ _ _ _ _ _ _ _ _ _ _ _ _ _ _ _ _ _ _)
    · -- the middle case
      have hL : ¬atLastCol (grid0.coords t) := notLast_of t h3
      rw [show (dat V c).leavesExact 0 t = owns (c : Thread nD τ) (stg_0 t) fullShare ((dat V c).after 0 t) from by
        unfold Dat.leavesExact; rw [live_0 t], after_0]
      rw [show (dat V c).leavesExact 1 t = owns (c : Thread nD τ) (stg_1 t) fullShare ((dat V c).after 1 t) from by
        unfold Dat.leavesExact; rw [live_1 t], after_1]
      rw [show (dat V c).leavesExact 2 t = owns (c : Thread nD τ) (stg_2 t) fullShare ((dat V c).after 2 t) from by
        unfold Dat.leavesExact; rw [live_2 t], after_2]
      rw [show (dat V c).leavesExact 3 t = owns (c : Thread nD τ) (stg_3 t) fullShare ((dat V c).after 3 t) from by
        unfold Dat.leavesExact; rw [live_3 t], after_3]
      rw [Dat.leavesExact_idle (dat V c) 4 t (idle_max_mid t hF hL) (noFlush_max_mid t hF hL)]
      rw [Dat.leavesExact_idle (dat V c) 5 t (idle_logsum_mid t hF hL) (noFlush_logsum_mid t hF hL)]
      rw [outsAt_mid V c t h0 h3]
      dsimp only
      unfold runMaxMid runSumMid
      rw [Phi_castSucc V c t, PhiS_pos V c _ _ hz]
      iintro ⟨⟨⟨HM, HS, Hoth⟩, Hg⟩, Ho, ⟨%d0, H0⟩, ⟨%d1, H1⟩, ⟨%d2, H2⟩, ⟨%d3, H3⟩, ⟨%d4, H4⟩, ⟨%d5, H5⟩⟩
      iapply ((run_mid c (grid0.coords t) _ _ _ _ _ _ _ _ _ _ _ _ _ _ _ _ hF hL (iblk V c 0 t) (iblk V c 1 t) (iblk V c 2 t) (iblk V c 3 t) _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HM]; · iexact HM
      isplitl [HS]; · iexact HS
      iintro ⟨H0, H1, H2, H3, H4, H5, ⟨%em, HM⟩, ⟨%es, HS⟩⟩
      isplitl [HM HS Hoth Hg]
      · isplitl [HM HS Hoth]
        · isplitl [HM]
          · unfold owns; iexists _; isplitr
            swap; · iexact HM
            ipureintro; exact View.read_writes_of_cover _ _ _ _ _ (cover_rmax_mid _ _ _ _ _ _ _ _ _ _ _ _ _ _ _ _ _ _ _ _ _ _ _ _ _ _)
          isplitl [HS]
          · unfold owns; iexists _; isplitr
            swap; · iexact HS
            ipureintro; exact View.read_writes_of_cover _ _ _ _ _ (cover_rsum_mid _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point: the six windows conjoined one by one. -/
theorem body_obligation (c : Dev nD) : BodyObligation (dat V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point the invariant gives the launch's form back: what the two scratches hold is forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HM, HS, Hoth⟩, Hg⟩
  isplitl [HM HS Hoth]
  · isplitl [HM]; · iexists _; iexact HM
    isplitl [HS]; · iexists _; iexact HS
    iexact Hoth
  iexact Hg

/-- In particular after the last point. -/
theorem hout (c : Dev nD) : (dat V c).Φ (Fin.last cfg0.N) ⊢ Pipeline.ΦA spec0 c :=
  Phi_out V c _ (by rw [Fin.val_last]; have : cfg0.N = 68 := N_0; omega)

end Cert.KernelIdeal.Lse

end
-- ==== Proof.KernelIdeal.Loss.Shared.lean ====
import proofs.«123850_j8598524526701_1_alg».proof.Proof.Gen.KernelIdeal.Launch
import proofs.«123850_j8598524526701_1_alg».proof.Proof.Gen.KernelIdeal.Skeleton
import proofs.«123850_j8598524526701_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Loss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off the window's array as the launch finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The inputs' staging buffers hold their blocks

An input window is never idle and its blocks are uncut, so whether or not the pipeline fetched it at a point
(the windows whose index map ignores the column coordinate are fetched only at the first column of a row block),
its current staging buffer holds the block of that point: unfetched, the block index has not moved. Stated for any
proof data whose array is the entry contents and whose body leaves the block in place. -/

theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's two conditionals, on the column coordinate only -/

/-- The first conditional's test: the column coordinate is 0 (the scalar chain of the body, substituted). -/
abbrev atFirstCol (i : grid1.Coords) : Prop := (Scalar.cmpi .ne (Scalar.extui (Scalar.cmpi .eq (BitVec.ofNat 32 (i 1).val) 0#32)) 0#32) = 1#1
/-- It holds exactly at the points t = 4 i + 0. -/
theorem atFirstCol_iff : ∀ t : Fin cfg1.N, atFirstCol (grid1.coords t) ↔ t.val % 4 = 0 :=
  (by decide +kernel : ∀ t : Fin grid1.N, atFirstCol (grid1.coords t) ↔ t.val % 4 = 0)

/-- The last conditional's test: the column coordinate is 3. -/
abbrev atLastCol (i : grid1.Coords) : Prop := k1_cond2 i = 1#1
/-- It holds exactly at the points t = 4 i + 3. -/
theorem atLastCol_iff : ∀ t : Fin cfg1.N, atLastCol (grid1.coords t) ↔ t.val % 4 = 3 :=
  (by decide +kernel : ∀ t : Fin grid1.N, atLastCol (grid1.coords t) ↔ t.val % 4 = 3)

/-! ## Where the windows are idle -/
/-- Input window 0 is live at every point. -/
theorem live0 : ∀ t : Fin cfg1.N, cfg1.idle 0 (grid1.coords t) = false := by decide +kernel
/-- Input window 1 is live at every point. -/
theorem live1 : ∀ t : Fin cfg1.N, cfg1.idle 1 (grid1.coords t) = false := by decide +kernel
/-- Input window 2 is live at every point. -/
theorem live2 : ∀ t : Fin cfg1.N, cfg1.idle 2 (grid1.coords t) = false := by decide +kernel
/-- Input window 3 is live at every point. -/
theorem live3 : ∀ t : Fin cfg1.N, cfg1.idle 3 (grid1.coords t) = false := by decide +kernel
/-- Input window 4 is live at every point. -/
theorem live4 : ∀ t : Fin cfg1.N, cfg1.idle 4 (grid1.coords t) = false := by decide +kernel
/-- Input window 5 is live at every point. -/
theorem live5 : ∀ t : Fin cfg1.N, cfg1.idle 5 (grid1.coords t) = false := by decide +kernel
/-- At a first-column point output window 6 is idle (nothing is stored into it) -/
theorem numer_idle_first : ∀ t : Fin cfg1.N, atFirstCol (grid1.coords t) → ¬atLastCol (grid1.coords t) → cfg1.idle 6 (grid1.coords t) = true := by decide +kernel
/-- and its block is not written back there. -/
theorem numer_noFlush_first : ∀ t : Fin cfg1.N, atFirstCol (grid1.coords t) → ¬atLastCol (grid1.coords t) → (cfg1.win 6).flush t = false := by decide +kernel
/-- At a middle-column point output window 6 is idle -/
theorem numer_idle_mid : ∀ t : Fin cfg1.N, ¬atFirstCol (grid1.coords t) → ¬atLastCol (grid1.coords t) → cfg1.idle 6 (grid1.coords t) = true := by decide +kernel
/-- and not written back. -/
theorem numer_noFlush_mid : ∀ t : Fin cfg1.N, ¬atFirstCol (grid1.coords t) → ¬atLastCol (grid1.coords t) → (cfg1.win 6).flush t = false := by decide +kernel
/-- At a last-column point output window 6 is live: the row sum is stored into it. -/
theorem numer_live_last : ∀ t : Fin cfg1.N, ¬atFirstCol (grid1.coords t) → atLastCol (grid1.coords t) → cfg1.idle 6 (grid1.coords t) = false := by decide +kernel
/-- At a first-column point output window 7 is idle (nothing is stored into it) -/
theorem count_idle_first : ∀ t : Fin cfg1.N, atFirstCol (grid1.coords t) → ¬atLastCol (grid1.coords t) → cfg1.idle 7 (grid1.coords t) = true := by decide +kernel
/-- and its block is not written back there. -/
theorem count_noFlush_first : ∀ t : Fin cfg1.N, atFirstCol (grid1.coords t) → ¬atLastCol (grid1.coords t) → (cfg1.win 7).flush t = false := by decide +kernel
/-- At a middle-column point output window 7 is idle -/
theorem count_idle_mid : ∀ t : Fin cfg1.N, ¬atFirstCol (grid1.coords t) → ¬atLastCol (grid1.coords t) → cfg1.idle 7 (grid1.coords t) = true := by decide +kernel
/-- and not written back. -/
theorem count_noFlush_mid : ∀ t : Fin cfg1.N, ¬atFirstCol (grid1.coords t) → ¬atLastCol (grid1.coords t) → (cfg1.win 7).flush t = false := by decide +kernel
/-- At a last-column point output window 7 is live: the row sum is stored into it. -/
theorem count_live_last : ∀ t : Fin cfg1.N, ¬atFirstCol (grid1.coords t) → atLastCol (grid1.coords t) → cfg1.idle 7 (grid1.coords t) = false := by decide +kernel

/-! ## The memrefs the body is called with -/

/-- One staging buffer of each output window, through whose view its contents are stated (reading written pieces
    back does not depend on which buffer's view is used). -/
abbrev VO6 : View sig .tc .vmem S256x1 .f32 := (Memref.whole cc1_stg6_0 : Memref sig .tc .vmem S256x1 .f32).view
abbrev VO7 : View sig .tc .vmem S256x1 .f32 := (Memref.whole cc1_stg7_0 : Memref sig .tc .vmem S256x1 .f32).view
/-- Each window's current staging memref at point `t`, and that it is a whole buffer. -/
abbrev ms0 (t : Fin cfg1.N) : Memref sig .tc .vmem S256x128 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S2176x128 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S256x1 .i32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x2176 .i32 := win1_3.stage (cfg1.slots t 3)
abbrev hs3 (t : Fin cfg1.N) : (ms3 t).IsWhole := hstage1_3 ((cfg1.slots t 3).cast nbuf1_3)
abbrev ms4 (t : Fin cfg1.N) : Memref sig .tc .vmem S256x1 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S256x1 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S256x1 .f32 := win1_6.stage (cfg1.slots t 6)
abbrev hs6 (t : Fin cfg1.N) : (ms6 t).IsWhole := hstage1_6 ((cfg1.slots t 6).cast nbuf1_6)
abbrev ms7 (t : Fin cfg1.N) : Memref sig .tc .vmem S256x1 .f32 := win1_7.stage (cfg1.slots t 7)
abbrev hs7 (t : Fin cfg1.N) : (ms7 t).IsWhole := hstage1_7 ((cfg1.slots t 7).cast nbuf1_7)
/-- The two scratch operands: whole scoped buffers of this kernel, passed beside the windows. The first carries the
    running masked row sum (the numerator), the second the running count of unmasked columns. -/
abbrev scM0 : Memref sig .tc .vmem S256x1 .f32 := Memref.whole cc1_scratch0
abbrev scM1 : Memref sig .tc .vmem S256x1 .f32 := Memref.whole cc1_scratch1
/-- Their views: what each holds between points is stated through them. -/
abbrev VS0 : View sig .tc .vmem S256x1 .f32 := scM0.view
abbrev VS1 : View sig .tc .vmem S256x1 .f32 := scM1.view

/-! ## The launch's invariant, buffer by buffer -/

/-- A whole scoped buffer of the core held at some contents. -/
abbrev heldAny (c : Dev nD) (b : Ref sig .tc) : sProp 𝕄 :=
  iprop(∃ f : Buf (Elt F) ((c : Thread nD τ).loc b), ((c : Thread nD τ).loc b) ↦{fullShare} f)

/-- What the launch hands the body besides the windows: the sixteen scoped buffers that are no staging buffer of this
    launch — the other launch's twelve staging buffers and its two scratches at some contents, then this kernel's two
    scratches as memrefs owned at some contents — and the generator register at some state. -/
theorem PhiA_eq (c : Dev nD) :
    (Pipeline.ΦA spec1 c : sProp 𝕄)
      = iprop(iprop(heldAny c cc0_stg0_0 ∗ heldAny c cc0_stg0_1 ∗ heldAny c cc0_stg1_0 ∗ heldAny c cc0_stg1_1 ∗ heldAny c cc0_stg2_0 ∗ heldAny c cc0_stg2_1 ∗ heldAny c cc0_stg3_0 ∗ heldAny c cc0_stg3_1 ∗ heldAny c cc0_stg4_0 ∗ heldAny c cc0_stg4_1 ∗ heldAny c cc0_stg5_0 ∗ heldAny c cc0_stg5_1 ∗ heldAny c cc0_scratch0 ∗ heldAny c cc0_scratch1 ∗ (∃ d, owns (c : Thread nD τ) scM0 fullShare d) ∗ (∃ d, owns (c : Thread nD τ) scM1 fullShare d)) ∗ (∃ r, prngReg c r)) := by
  unfold Pipeline.ΦA; rw [scopedRest1_eq]; simp only [heldAny, scM0, scM1, owns_whole]; try rfl

end Cert.KernelIdeal.Loss

end
-- ==== Proof.KernelIdeal.Loss.RunFirst.lean ====
import proofs.«123850_j8598524526701_1_alg».proof.Proof.KernelIdeal.Loss.Shared

set_option maxRecDepth 16384

noncomputable section

namespace Cert.KernelIdeal.Loss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

-- (the run's proof term is large: the definition's epilogue walks it past the default budget)
set_option maxHeartbeats 4000000 in
/-- The body at a first-column point (the reset is taken, the output store is not). On whole memrefs — the six inputs' at
    their contents, the two outputs' at contents handed back untouched (nothing is stored into them), the two scratches
    at anything — it runs to the continuation holding the inputs and outputs as they were and each scratch with the
    pieces written into it: first the reset to zero, then this column block's masked row sum (resp. mask count) added
    to what was just read back. The piece lists are what the run finds. -/
noncomputable def runFirst (c : Dev nD) (i : grid1.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : atFirstCol i) (hc1 : ¬atLastCol i)
    (x0 : Vec F S256x128 .bf16) (x1 : Vec F S2176x128 .bf16) (x2 : Vec F S256x1 .i32) (x3 : Vec F S1x2176 .i32) (x4 : Vec F S256x1 .f32) (x5 : Vec F S256x1 .f32) :
    Σ' (L6 : List (View.Piece (Elt F) S256x1 .f32)) (L7 : List (View.Piece (Elt F) S256x1 .f32)) (LS0 : List (View.Piece (Elt F) S256x1 .f32)), { LS1 : List (View.Piece (Elt F) S256x1 .f32) //
      ∀ (xi6 xi7 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__main_kernel i arg2 harg2 arg3 harg3 arg4 harg4 arg5 harg5 arg6 harg6 arg7 harg7 arg8 harg8 arg9 harg9 arg10 harg10 arg11 harg11) K } := by
  refine ⟨[], [], ?_, ?_, fun xi6 xi7 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.KernelIdeal.Loss

end
-- ==== Proof.KernelIdeal.Loss.RunMid.lean ====
import proofs.«123850_j8598524526701_1_alg».proof.Proof.KernelIdeal.Loss.RunFirst

set_option maxRecDepth 16384

noncomputable section

namespace Cert.KernelIdeal.Loss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

-- (the run's proof term is large: the definition's epilogue walks it past the default budget)
set_option maxHeartbeats 4000000 in
/-- The body at a middle-column point (neither conditional is taken). On whole memrefs — the six inputs' at their
    contents, the two outputs' handed back untouched, the two scratches at what the point before left — it runs to the
    continuation holding the inputs and outputs as they were and each scratch with one piece written: its previous
    contents plus this column block's masked row sum (resp. mask count). -/
noncomputable def runMid (c : Dev nD) (i : grid1.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬atFirstCol i) (hc1 : ¬atLastCol i)
    (x0 : Vec F S256x128 .bf16) (x1 : Vec F S2176x128 .bf16) (x2 : Vec F S256x1 .i32) (x3 : Vec F S1x2176 .i32) (x4 : Vec F S256x1 .f32) (x5 : Vec F S256x1 .f32) (xs0 : Vec F S256x1 .f32) (xs1 : Vec F S256x1 .f32) :
    Σ' (L6 : List (View.Piece (Elt F) S256x1 .f32)) (L7 : List (View.Piece (Elt F) S256x1 .f32)) (LS0 : List (View.Piece (Elt F) S256x1 .f32)), { LS1 : List (View.Piece (Elt F) S256x1 .f32) //
      ∀ (xi6 xi7 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__main_kernel i arg2 harg2 arg3 harg3 arg4 harg4 arg5 harg5 arg6 harg6 arg7 harg7 arg8 harg8 arg9 harg9 arg10 harg10 arg11 harg11) K } := by
  refine ⟨[], [], ?_, ?_, fun xi6 xi7 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.KernelIdeal.Loss

end
-- ==== Proof.KernelIdeal.Loss.RunLast.lean ====
import proofs.«123850_j8598524526701_1_alg».proof.Proof.KernelIdeal.Loss.RunMid

set_option maxRecDepth 16384

noncomputable section

namespace Cert.KernelIdeal.Loss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

-- (the run's proof term is large: the definition's epilogue walks it past the default budget)
set_option maxHeartbeats 4000000 in
/-- The body at a last-column point (no reset; the output store is taken). On whole memrefs — the six inputs' at their
    contents, the two outputs' at anything, the two scratches at what the point before left — it runs to the
    continuation holding the inputs as they were, each scratch with its accumulated piece written, and each output
    with one piece written: the scratch's final contents, read back after the accumulation. -/
noncomputable def runLast (c : Dev nD) (i : grid1.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬atFirstCol i) (hc1 : atLastCol i)
    (x0 : Vec F S256x128 .bf16) (x1 : Vec F S2176x128 .bf16) (x2 : Vec F S256x1 .i32) (x3 : Vec F S1x2176 .i32) (x4 : Vec F S256x1 .f32) (x5 : Vec F S256x1 .f32) (xs0 : Vec F S256x1 .f32) (xs1 : Vec F S256x1 .f32) :
    Σ' (L6 : List (View.Piece (Elt F) S256x1 .f32)) (L7 : List (View.Piece (Elt F) S256x1 .f32)) (LS0 : List (View.Piece (Elt F) S256x1 .f32)), { LS1 : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__main_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexists _; iexact HS0
    iexists _; iexact HS1

end Cert.KernelIdeal.Loss

end
-- ==== Proof.KernelIdeal.Loss.Data.lean ====
import proofs.«123850_j8598524526701_1_alg».proof.Proof.KernelIdeal.Loss.RunLast

set_option maxRecDepth 16384

noncomputable section

namespace Cert.KernelIdeal.Loss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## What each control case leaves in the scratches and the outputs

Each is the list of pieces the case's run found, read back over arbitrary prior contents: the lists cover the buffer, so
the prior contents do not matter. -/

/-! ### At a first-column point -/

/-- The pieces written into the first scratch at a first-column point cover it (they tile the 256 x 1 column). -/
theorem scoverFirst0 (c : Dev nD) (i : grid1.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : atFirstCol i) (hc1 : ¬atLastCol i)
    (x0 : Vec F S256x128 .bf16) (x1 : Vec F S2176x128 .bf16) (x2 : Vec F S256x1 .i32) (x3 : Vec F S1x2176 .i32) (x4 : Vec F S256x1 .f32) (x5 : Vec F S256x1 .f32) (y : S256x1.Idx) :
    ∃ pc ∈ (runFirst c i arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (runFirst c i arg2 harg2 arg3 harg3 arg4 harg4 arg5 harg5 arg6 harg6 arg7 harg7 arg8 harg8 arg9 harg9 arg10 harg10 arg11 harg11 hc0 hc1 x0 x1 x2 x3 x4 x5).2.2.1 S256x1.size (by sl_kernel_rfl) y

/-- The running masked row sum the first scratch holds after a first-column point: its pieces read back. -/
def scrNumerFirst (c : Dev nD) (i : grid1.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : atFirstCol i) (hc1 : ¬atLastCol i)
    (x0 : Vec F S256x128 .bf16) (x1 : Vec F S2176x128 .bf16) (x2 : Vec F S256x1 .i32) (x3 : Vec F S1x2176 .i32) (x4 : Vec F S256x1 .f32) (x5 : Vec F S256x1 .f32) : Vec F S256x1 .f32 :=
  VS0.read (Elt F) (VS0.writes (Elt F) VS0.junk (runFirst c i arg2 harg2 arg3 harg3 arg4 harg4 arg5 harg5 arg6 harg6 arg7 harg7 arg8 harg8 arg9 harg9 arg10 harg10 arg11 harg11 hc0 hc1 x0 x1 x2 x3 x4 x5).2.2.1)

/-- The pieces written into the second scratch at a first-column point cover it. -/
theorem scoverFirst1 (c : Dev nD) (i : grid1.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : atFirstCol i) (hc1 : ¬atLastCol i)
    (x0 : Vec F S256x128 .bf16) (x1 : Vec F S2176x128 .bf16) (x2 : Vec F S256x1 .i32) (x3 : Vec F S1x2176 .i32) (x4 : Vec F S256x1 .f32) (x5 : Vec F S256x1 .f32) (y : S256x1.Idx) :
    ∃ pc ∈ (runFirst c i arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL (runFirst c i arg2 harg2 arg3 harg3 arg4 harg4 arg5 harg5 arg6 harg6 arg7 harg7 arg8 harg8 arg9 harg9 arg10 harg10 arg11 harg11 hc0 hc1 x0 x1 x2 x3 x4 x5).2.2.2.1 S256x1.size (by sl_kernel_rfl) y

/-- The running mask count the second scratch holds after a first-column point: its pieces read back. -/
def scrCountFirst (c : Dev nD) (i : grid1.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : atFirstCol i) (hc1 : ¬atLastCol i)
    (x0 : Vec F S256x128 .bf16) (x1 : Vec F S2176x128 .bf16) (x2 : Vec F S256x1 .i32) (x3 : Vec F S1x2176 .i32) (x4 : Vec F S256x1 .f32) (x5 : Vec F S256x1 .f32) : Vec F S256x1 .f32 :=
  VS1.read (Elt F) (VS1.writes (Elt F) VS1.junk (runFirst c i arg2 harg2 arg3 harg3 arg4 harg4 arg5 harg5 arg6 harg6 arg7 harg7 arg8 harg8 arg9 harg9 arg10 harg10 arg11 harg11 hc0 hc1 x0 x1 x2 x3 x4 x5).2.2.2.1)

/-- Output window 6's staging buffer after a first-column point — nothing is stored (the window is idle there and not written back): no pieces, a placeholder nothing consults. -/
def outNumerFirst (c : Dev nD) (i : grid1.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : atFirstCol i) (hc1 : ¬atLastCol i)
    (x0 : Vec F S256x128 .bf16) (x1 : Vec F S2176x128 .bf16) (x2 : Vec F S256x1 .i32) (x3 : Vec F S1x2176 .i32) (x4 : Vec F S256x1 .f32) (x5 : Vec F S256x1 .f32) : Vec F S256x1 .f32 :=
  VO6.read (Elt F) (VO6.writes (Elt F) VO6.junk (runFirst c i arg2 harg2 arg3 harg3 arg4 harg4 arg5 harg5 arg6 harg6 arg7 harg7 arg8 harg8 arg9 harg9 arg10 harg10 arg11 harg11 hc0 hc1 x0 x1 x2 x3 x4 x5).1)

/-- Output window 7's staging buffer after a first-column point — nothing is stored: a placeholder nothing consults. -/
def outCountFirst (c : Dev nD) (i : grid1.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : atFirstCol i) (hc1 : ¬atLastCol i)
    (x0 : Vec F S256x128 .bf16) (x1 : Vec F S2176x128 .bf16) (x2 : Vec F S256x1 .i32) (x3 : Vec F S1x2176 .i32) (x4 : Vec F S256x1 .f32) (x5 : Vec F S256x1 .f32) : Vec F S256x1 .f32 :=
  VO7.read (Elt F) (VO7.writes (Elt F) VO7.junk (runFirst c i arg2 harg2 arg3 harg3 arg4 harg4 arg5 harg5 arg6 harg6 arg7 harg7 arg8 harg8 arg9 harg9 arg10 harg10 arg11 harg11 hc0 hc1 x0 x1 x2 x3 x4 x5).2.1)

/-! ### At a middle-column point -/

/-- The pieces written into the first scratch at a middle-column point cover it (they tile the 256 x 1 column). -/
theorem scoverMid0 (c : Dev nD) (i : grid1.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬atFirstCol i) (hc1 : ¬atLastCol i)
    (x0 : Vec F S256x128 .bf16) (x1 : Vec F S2176x128 .bf16) (x2 : Vec F S256x1 .i32) (x3 : Vec F S1x2176 .i32) (x4 : Vec F S256x1 .f32) (x5 : Vec F S256x1 .f32) (xs0 : Vec F S256x1 .f32) (xs1 : Vec F S256x1 .f32) (y : S256x1.Idx) :
    ∃ pc ∈ (runMid c i arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (runMid c i arg2 harg2 arg3 harg3 arg4 harg4 arg5 harg5 arg6 harg6 arg7 harg7 arg8 harg8 arg9 harg9 arg10 harg10 arg11 harg11 hc0 hc1 x0 x1 x2 x3 x4 x5 xs0 xs1).2.2.1 S256x1.size (by sl_kernel_rfl) y

/-- The running masked row sum the first scratch holds after a middle-column point: its pieces read back. -/
def scrNumerMid (c : Dev nD) (i : grid1.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬atFirstCol i) (hc1 : ¬atLastCol i)
    (x0 : Vec F S256x128 .bf16) (x1 : Vec F S2176x128 .bf16) (x2 : Vec F S256x1 .i32) (x3 : Vec F S1x2176 .i32) (x4 : Vec F S256x1 .f32) (x5 : Vec F S256x1 .f32) (xs0 : Vec F S256x1 .f32) (xs1 : Vec F S256x1 .f32) : Vec F S256x1 .f32 :=
  VS0.read (Elt F) (VS0.writes (Elt F) VS0.junk (runMid c i arg2 harg2 arg3 harg3 arg4 harg4 arg5 harg5 arg6 harg6 arg7 harg7 arg8 harg8 arg9 harg9 arg10 harg10 arg11 harg11 hc0 hc1 x0 x1 x2 x3 x4 x5 xs0 xs1).2.2.1)

/-- The pieces written into the second scratch at a middle-column point cover it. -/
theorem scoverMid1 (c : Dev nD) (i : grid1.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬atFirstCol i) (hc1 : ¬atLastCol i)
    (x0 : Vec F S256x128 .bf16) (x1 : Vec F S2176x128 .bf16) (x2 : Vec F S256x1 .i32) (x3 : Vec F S1x2176 .i32) (x4 : Vec F S256x1 .f32) (x5 : Vec F S256x1 .f32) (xs0 : Vec F S256x1 .f32) (xs1 : Vec F S256x1 .f32) (y : S256x1.Idx) :
    ∃ pc ∈ (runMid c i arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (runMid c i arg2 harg2 arg3 harg3 arg4 harg4 arg5 harg5 arg6 harg6 arg7 harg7 arg8 harg8 arg9 harg9 arg10 harg10 arg11 harg11 hc0 hc1 x0 x1 x2 x3 x4 x5 xs0 xs1).2.2.2.1 S256x1.size (by sl_kernel_rfl) y

/-- The running mask count the second scratch holds after a middle-column point: its pieces read back. -/
def scrCountMid (c : Dev nD) (i : grid1.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬atFirstCol i) (hc1 : ¬atLastCol i)
    (x0 : Vec F S256x128 .bf16) (x1 : Vec F S2176x128 .bf16) (x2 : Vec F S256x1 .i32) (x3 : Vec F S1x2176 .i32) (x4 : Vec F S256x1 .f32) (x5 : Vec F S256x1 .f32) (xs0 : Vec F S256x1 .f32) (xs1 : Vec F S256x1 .f32) : Vec F S256x1 .f32 :=
  VS1.read (Elt F) (VS1.writes (Elt F) VS1.junk (runMid c i arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- Output window 6's staging buffer after a middle-column point — nothing is stored (the window is idle there and not written back): no pieces, a placeholder nothing consults. -/
def outNumerMid (c : Dev nD) (i : grid1.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬atFirstCol i) (hc1 : ¬atLastCol i)
    (x0 : Vec F S256x128 .bf16) (x1 : Vec F S2176x128 .bf16) (x2 : Vec F S256x1 .i32) (x3 : Vec F S1x2176 .i32) (x4 : Vec F S256x1 .f32) (x5 : Vec F S256x1 .f32) (xs0 : Vec F S256x1 .f32) (xs1 : Vec F S256x1 .f32) : Vec F S256x1 .f32 :=
  VO6.read (Elt F) (VO6.writes (Elt F) VO6.junk (runMid c i arg2 harg2 arg3 harg3 arg4 harg4 arg5 harg5 arg6 harg6 arg7 harg7 arg8 harg8 arg9 harg9 arg10 harg10 arg11 harg11 hc0 hc1 x0 x1 x2 x3 x4 x5 xs0 xs1).1)

/-- Output window 7's staging buffer after a middle-column point — nothing is stored: a placeholder nothing consults. -/
def outCountMid (c : Dev nD) (i : grid1.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬atFirstCol i) (hc1 : ¬atLastCol i)
    (x0 : Vec F S256x128 .bf16) (x1 : Vec F S2176x128 .bf16) (x2 : Vec F S256x1 .i32) (x3 : Vec F S1x2176 .i32) (x4 : Vec F S256x1 .f32) (x5 : Vec F S256x1 .f32) (xs0 : Vec F S256x1 .f32) (xs1 : Vec F S256x1 .f32) : Vec F S256x1 .f32 :=
  VO7.read (Elt F) (VO7.writes (Elt F) VO7.junk (runMid c i arg2 harg2 arg3 harg3 arg4 harg4 arg5 harg5 arg6 harg6 arg7 harg7 arg8 harg8 arg9 harg9 arg10 harg10 arg11 harg11 hc0 hc1 x0 x1 x2 x3 x4 x5 xs0 xs1).2.1)

/-! ### At a last-column point -/

/-- The pieces written into the first scratch at a last-column point cover it (they tile the 256 x 1 column). -/
theorem scoverLast0 (c : Dev nD) (i : grid1.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬atFirstCol i) (hc1 : atLastCol i)
    (x0 : Vec F S256x128 .bf16) (x1 : Vec F S2176x128 .bf16) (x2 : Vec F S256x1 .i32) (x3 : Vec F S1x2176 .i32) (x4 : Vec F S256x1 .f32) (x5 : Vec F S256x1 .f32) (xs0 : Vec F S256x1 .f32) (xs1 : Vec F S256x1 .f32) (y : S256x1.Idx) :
    ∃ pc ∈ (runLast c i arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (runLast c i arg2 harg2 arg3 harg3 arg4 harg4 arg5 harg5 arg6 harg6 arg7 harg7 arg8 harg8 arg9 harg9 arg10 harg10 arg11 harg11 hc0 hc1 x0 x1 x2 x3 x4 x5 xs0 xs1).2.2.1 S256x1.size (by sl_kernel_rfl) y

/-- The running masked row sum the first scratch holds after a last-column point: its pieces read back. -/
def scrNumerLast (c : Dev nD) (i : grid1.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬atFirstCol i) (hc1 : atLastCol i)
    (x0 : Vec F S256x128 .bf16) (x1 : Vec F S2176x128 .bf16) (x2 : Vec F S256x1 .i32) (x3 : Vec F S1x2176 .i32) (x4 : Vec F S256x1 .f32) (x5 : Vec F S256x1 .f32) (xs0 : Vec F S256x1 .f32) (xs1 : Vec F S256x1 .f32) : Vec F S256x1 .f32 :=
  VS0.read (Elt F) (VS0.writes (Elt F) VS0.junk (runLast c i arg2 harg2 arg3 harg3 arg4 harg4 arg5 harg5 arg6 harg6 arg7 harg7 arg8 harg8 arg9 harg9 arg10 harg10 arg11 harg11 hc0 hc1 x0 x1 x2 x3 x4 x5 xs0 xs1).2.2.1)

/-- The pieces written into the second scratch at a last-column point cover it. -/
theorem scoverLast1 (c : Dev nD) (i : grid1.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬atFirstCol i) (hc1 : atLastCol i)
    (x0 : Vec F S256x128 .bf16) (x1 : Vec F S2176x128 .bf16) (x2 : Vec F S256x1 .i32) (x3 : Vec F S1x2176 .i32) (x4 : Vec F S256x1 .f32) (x5 : Vec F S256x1 .f32) (xs0 : Vec F S256x1 .f32) (xs1 : Vec F S256x1 .f32) (y : S256x1.Idx) :
    ∃ pc ∈ (runLast c i arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (runLast c i arg2 harg2 arg3 harg3 arg4 harg4 arg5 harg5 arg6 harg6 arg7 harg7 arg8 harg8 arg9 harg9 arg10 harg10 arg11 harg11 hc0 hc1 x0 x1 x2 x3 x4 x5 xs0 xs1).2.2.2.1 S256x1.size (by sl_kernel_rfl) y

/-- The running mask count the second scratch holds after a last-column point: its pieces read back. -/
def scrCountLast (c : Dev nD) (i : grid1.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬atFirstCol i) (hc1 : atLastCol i)
    (x0 : Vec F S256x128 .bf16) (x1 : Vec F S2176x128 .bf16) (x2 : Vec F S256x1 .i32) (x3 : Vec F S1x2176 .i32) (x4 : Vec F S256x1 .f32) (x5 : Vec F S256x1 .f32) (xs0 : Vec F S256x1 .f32) (xs1 : Vec F S256x1 .f32) : Vec F S256x1 .f32 :=
  VS1.read (Elt F) (VS1.writes (Elt F) VS1.junk (runLast c i arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- The piece stored into output window 6 at a last-column point covers its block. -/
theorem coverLast6 (c : Dev nD) (i : grid1.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬atFirstCol i) (hc1 : atLastCol i)
    (x0 : Vec F S256x128 .bf16) (x1 : Vec F S2176x128 .bf16) (x2 : Vec F S256x1 .i32) (x3 : Vec F S1x2176 .i32) (x4 : Vec F S256x1 .f32) (x5 : Vec F S256x1 .f32) (xs0 : Vec F S256x1 .f32) (xs1 : Vec F S256x1 .f32) (y : S256x1.Idx) :
    ∃ pc ∈ (runLast c i arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (runLast c i arg2 harg2 arg3 harg3 arg4 harg4 arg5 harg5 arg6 harg6 arg7 harg7 arg8 harg8 arg9 harg9 arg10 harg10 arg11 harg11 hc0 hc1 x0 x1 x2 x3 x4 x5 xs0 xs1).1 S256x1.size (by sl_kernel_rfl) y

/-- The piece stored into output window 7 at a last-column point covers its block. -/
theorem coverLast7 (c : Dev nD) (i : grid1.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬atFirstCol i) (hc1 : atLastCol i)
    (x0 : Vec F S256x128 .bf16) (x1 : Vec F S2176x128 .bf16) (x2 : Vec F S256x1 .i32) (x3 : Vec F S1x2176 .i32) (x4 : Vec F S256x1 .f32) (x5 : Vec F S256x1 .f32) (xs0 : Vec F S256x1 .f32) (xs1 : Vec F S256x1 .f32) (y : S256x1.Idx) :
    ∃ pc ∈ (runLast c i arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (runLast c i arg2 harg2 arg3 harg3 arg4 harg4 arg5 harg5 arg6 harg6 arg7 harg7 arg8 harg8 arg9 harg9 arg10 harg10 arg11 harg11 hc0 hc1 x0 x1 x2 x3 x4 x5 xs0 xs1).2.1 S256x1.size (by sl_kernel_rfl) y

/-- Output window 6's staging buffer after a last-column point — what the store leaves in it: the row block's masked row sum. -/
def outNumerLast (c : Dev nD) (i : grid1.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬atFirstCol i) (hc1 : atLastCol i)
    (x0 : Vec F S256x128 .bf16) (x1 : Vec F S2176x128 .bf16) (x2 : Vec F S256x1 .i32) (x3 : Vec F S1x2176 .i32) (x4 : Vec F S256x1 .f32) (x5 : Vec F S256x1 .f32) (xs0 : Vec F S256x1 .f32) (xs1 : Vec F S256x1 .f32) : Vec F S256x1 .f32 :=
  VO6.read (Elt F) (VO6.writes (Elt F) VO6.junk (runLast c i arg2 harg2 arg3 harg3 arg4 harg4 arg5 harg5 arg6 harg6 arg7 harg7 arg8 harg8 arg9 harg9 arg10 harg10 arg11 harg11 hc0 hc1 x0 x1 x2 x3 x4 x5 xs0 xs1).1)

/-- Output window 7's staging buffer after a last-column point — what the store leaves in it: the row block's mask count. -/
def outCountLast (c : Dev nD) (i : grid1.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬atFirstCol i) (hc1 : atLastCol i)
    (x0 : Vec F S256x128 .bf16) (x1 : Vec F S2176x128 .bf16) (x2 : Vec F S256x1 .i32) (x3 : Vec F S1x2176 .i32) (x4 : Vec F S256x1 .f32) (x5 : Vec F S256x1 .f32) (xs0 : Vec F S256x1 .f32) (xs1 : Vec F S256x1 .f32) : Vec F S256x1 .f32 :=
  VO7.read (Elt F) (VO7.writes (Elt F) VO7.junk (runLast c i arg2 harg2 arg3 harg3 arg4 harg4 arg5 harg5 arg6 harg6 arg7 harg7 arg8 harg8 arg9 harg9 arg10 harg10 arg11 harg11 hc0 hc1 x0 x1 x2 x3 x4 x5 xs0 xs1).2.1)

/-! ## What the outputs and the scratches hold after each point -/

/-- after point n: ((output window 6's staging buffer, output window 7's), (first scratch, second scratch)) -/
def outsAt (c : Dev nD) : (n : ℕ) → n < cfg1.N → (Vec F S256x1 .f32 × Vec F S256x1 .f32) × (Vec F S256x1 .f32 × Vec F S256x1 .f32)
  | 0, hn => ((outNumerFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) scM0 (Memref.isWhole_whole _) scM1 (Memref.isWhole_whole _) ((atFirstCol_iff ⟨0, hn⟩).mpr (Nat.zero_mod _)) (fun h => (fun h => by (try dsimp only at h); omega) ((atLastCol_iff ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩), outCountFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) scM0 (Memref.isWhole_whole _) scM1 (Memref.isWhole_whole _) ((atFirstCol_iff ⟨0, hn⟩).mpr (Nat.zero_mod _)) (fun h => (fun h => by (try dsimp only at h); omega) ((atLastCol_iff ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩)), (scrNumerFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) scM0 (Memref.isWhole_whole _) scM1 (Memref.isWhole_whole _) ((atFirstCol_iff ⟨0, hn⟩).mpr (Nat.zero_mod _)) (fun h => (fun h => by (try dsimp only at h); omega) ((atLastCol_iff ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩), scrCountFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) scM0 (Memref.isWhole_whole _) scM1 (Memref.isWhole_whole _) ((atFirstCol_iff ⟨0, hn⟩).mpr (Nat.zero_mod _)) (fun h => (fun h => by (try dsimp only at h); omega) ((atLastCol_iff ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩)))
  | n + 1, hn =>
    if h0 : (n + 1) % 4 = 0 then
      if h3 : (n + 1) % 4 = 3 then
        False.elim (by omega)
      else
        ((outNumerFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scM0 (Memref.isWhole_whole _) scM1 (Memref.isWhole_whole _) ((atFirstCol_iff ⟨n + 1, hn⟩).mpr h0) (fun h => h3 ((atLastCol_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩), outCountFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scM0 (Memref.isWhole_whole _) scM1 (Memref.isWhole_whole _) ((atFirstCol_iff ⟨n + 1, hn⟩).mpr h0) (fun h => h3 ((atLastCol_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩)), (scrNumerFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scM0 (Memref.isWhole_whole _) scM1 (Memref.isWhole_whole _) ((atFirstCol_iff ⟨n + 1, hn⟩).mpr h0) (fun h => h3 ((atLastCol_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩), scrCountFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scM0 (Memref.isWhole_whole _) scM1 (Memref.isWhole_whole _) ((atFirstCol_iff ⟨n + 1, hn⟩).mpr h0) (fun h => h3 ((atLastCol_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩)))
    else
      if h3 : (n + 1) % 4 = 3 then
        ((outNumerLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scM0 (Memref.isWhole_whole _) scM1 (Memref.isWhole_whole _) (fun h => h0 ((atFirstCol_iff ⟨n + 1, hn⟩).mp h)) ((atLastCol_iff ⟨n + 1, hn⟩).mpr h3) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt c n (Nat.lt_of_succ_lt hn)).2.1 (outsAt c n (Nat.lt_of_succ_lt hn)).2.2, outCountLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scM0 (Memref.isWhole_whole _) scM1 (Memref.isWhole_whole _) (fun h => h0 ((atFirstCol_iff ⟨n + 1, hn⟩).mp h)) ((atLastCol_iff ⟨n + 1, hn⟩).mpr h3) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt c n (Nat.lt_of_succ_lt hn)).2.1 (outsAt c n (Nat.lt_of_succ_lt hn)).2.2), (scrNumerLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scM0 (Memref.isWhole_whole _) scM1 (Memref.isWhole_whole _) (fun h => h0 ((atFirstCol_iff ⟨n + 1, hn⟩).mp h)) ((atLastCol_iff ⟨n + 1, hn⟩).mpr h3) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt c n (Nat.lt_of_succ_lt hn)).2.1 (outsAt c n (Nat.lt_of_succ_lt hn)).2.2, scrCountLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scM0 (Memref.isWhole_whole _) scM1 (Memref.isWhole_whole _) (fun h => h0 ((atFirstCol_iff ⟨n + 1, hn⟩).mp h)) ((atLastCol_iff ⟨n + 1, hn⟩).mpr h3) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt c n (Nat.lt_of_succ_lt hn)).2.1 (outsAt c n (Nat.lt_of_succ_lt hn)).2.2))
      else
        ((outNumerMid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scM0 (Memref.isWhole_whole _) scM1 (Memref.isWhole_whole _) (fun h => h0 ((atFirstCol_iff ⟨n + 1, hn⟩).mp h)) (fun h => h3 ((atLastCol_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt c n (Nat.lt_of_succ_lt hn)).2.1 (outsAt c n (Nat.lt_of_succ_lt hn)).2.2, outCountMid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scM0 (Memref.isWhole_whole _) scM1 (Memref.isWhole_whole _) (fun h => h0 ((atFirstCol_iff ⟨n + 1, hn⟩).mp h)) (fun h => h3 ((atLastCol_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt c n (Nat.lt_of_succ_lt hn)).2.1 (outsAt c n (Nat.lt_of_succ_lt hn)).2.2), (scrNumerMid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scM0 (Memref.isWhole_whole _) scM1 (Memref.isWhole_whole _) (fun h => h0 ((atFirstCol_iff ⟨n + 1, hn⟩).mp h)) (fun h => h3 ((atLastCol_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt c n (Nat.lt_of_succ_lt hn)).2.1 (outsAt c n (Nat.lt_of_succ_lt hn)).2.2, scrCountMid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scM0 (Memref.isWhole_whole _) scM1 (Memref.isWhole_whole _) (fun h => h0 ((atFirstCol_iff ⟨n + 1, hn⟩).mp h)) (fun h => h3 ((atLastCol_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt c n (Nat.lt_of_succ_lt hn)).2.1 (outsAt c n (Nat.lt_of_succ_lt hn)).2.2))

/-- At a first-column point: the reset case's contents, from the point's input blocks only. -/
theorem outsAt_first (c : Dev nD) (t : Fin cfg1.N) (h0 : t.val % 4 = 0) :
    outsAt V c t.val t.isLt = ((outNumerFirst c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) ((atFirstCol_iff t).mpr h0) (fun h => (by omega : ¬t.val % 4 = 3) ((atLastCol_iff t).mp h)) (iblk V c 0 t) (iblk V c 1 t) (iblk V c 2 t) (iblk V c 3 t) (iblk V c 4 t) (iblk V c 5 t), outCountFirst c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) ((atFirstCol_iff t).mpr h0) (fun h => (by omega : ¬t.val % 4 = 3) ((atLastCol_iff t).mp h)) (iblk V c 0 t) (iblk V c 1 t) (iblk V c 2 t) (iblk V c 3 t) (iblk V c 4 t) (iblk V c 5 t)), (scrNumerFirst c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) ((atFirstCol_iff t).mpr h0) (fun h => (by omega : ¬t.val % 4 = 3) ((atLastCol_iff t).mp h)) (iblk V c 0 t) (iblk V c 1 t) (iblk V c 2 t) (iblk V c 3 t) (iblk V c 4 t) (iblk V c 5 t), scrCountFirst c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) ((atFirstCol_iff t).mpr h0) (fun h => (by omega : ¬t.val % 4 = 3) ((atLastCol_iff t).mp h)) (iblk V c 0 t) (iblk V c 1 t) (iblk V c 2 t) (iblk V c 3 t) (iblk V c 4 t) (iblk V c 5 t))) := by
  obtain ⟨n, hn⟩ := t
  cases n with
  | zero => exact rfl
  | succ n =>
    have h0' : (n + 1) % 4 = 0 := h0
    exact (dif_pos h0').trans ((dif_neg (by omega)).trans rfl)

/-- At a middle-column point: that case's contents, over the scratch pair the point before left. -/
theorem outsAt_mid (c : Dev nD) (t : Fin cfg1.N) (h0 : ¬t.val % 4 = 0) (h3 : ¬t.val % 4 = 3) :
    outsAt V c t.val t.isLt = ((outNumerMid c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) (fun h => h0 ((atFirstCol_iff t).mp h)) (fun h => h3 ((atLastCol_iff t).mp h)) (iblk V c 0 t) (iblk V c 1 t) (iblk V c 2 t) (iblk V c 3 t) (iblk V c 4 t) (iblk V c 5 t) (outsAt V c (t.val - 1) (Nat.lt_of_le_of_lt (Nat.sub_le _ _) t.isLt)).2.1 (outsAt V c (t.val - 1) (Nat.lt_of_le_of_lt (Nat.sub_le _ _) t.isLt)).2.2, outCountMid c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) (fun h => h0 ((atFirstCol_iff t).mp h)) (fun h => h3 ((atLastCol_iff t).mp h)) (iblk V c 0 t) (iblk V c 1 t) (iblk V c 2 t) (iblk V c 3 t) (iblk V c 4 t) (iblk V c 5 t) (outsAt V c (t.val - 1) (Nat.lt_of_le_of_lt (Nat.sub_le _ _) t.isLt)).2.1 (outsAt V c (t.val - 1) (Nat.lt_of_le_of_lt (Nat.sub_le _ _) t.isLt)).2.2), (scrNumerMid c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) (fun h => h0 ((atFirstCol_iff t).mp h)) (fun h => h3 ((atLastCol_iff t).mp h)) (iblk V c 0 t) (iblk V c 1 t) (iblk V c 2 t) (iblk V c 3 t) (iblk V c 4 t) (iblk V c 5 t) (outsAt V c (t.val - 1) (Nat.lt_of_le_of_lt (Nat.sub_le _ _) t.isLt)).2.1 (outsAt V c (t.val - 1) (Nat.lt_of_le_of_lt (Nat.sub_le _ _) t.isLt)).2.2, scrCountMid c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) (fun h => h0 ((atFirstCol_iff t).mp h)) (fun h => h3 ((atLastCol_iff t).mp h)) (iblk V c 0 t) (iblk V c 1 t) (iblk V c 2 t) (iblk V c 3 t) (iblk V c 4 t) (iblk V c 5 t) (outsAt V c (t.val - 1) (Nat.lt_of_le_of_lt (Nat.sub_le _ _) t.isLt)).2.1 (outsAt V c (t.val - 1) (Nat.lt_of_le_of_lt (Nat.sub_le _ _) t.isLt)).2.2)) := by
  obtain ⟨n, hn⟩ := t
  cases n with
  | zero => exact (by exfalso; (try dsimp only at h0); exact absurd (Nat.zero_mod _) h0)
  | succ n => exact (dif_neg h0).trans ((dif_neg h3).trans rfl)

/-- At a last-column point: that case's contents, over the scratch pair the point before left. -/
theorem outsAt_last (c : Dev nD) (t : Fin cfg1.N) (h3 : t.val % 4 = 3) :
    outsAt V c t.val t.isLt = ((outNumerLast c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) (fun h => (by omega : ¬t.val % 4 = 0) ((atFirstCol_iff t).mp h)) ((atLastCol_iff t).mpr h3) (iblk V c 0 t) (iblk V c 1 t) (iblk V c 2 t) (iblk V c 3 t) (iblk V c 4 t) (iblk V c 5 t) (outsAt V c (t.val - 1) (Nat.lt_of_le_of_lt (Nat.sub_le _ _) t.isLt)).2.1 (outsAt V c (t.val - 1) (Nat.lt_of_le_of_lt (Nat.sub_le _ _) t.isLt)).2.2, outCountLast c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) (fun h => (by omega : ¬t.val % 4 = 0) ((atFirstCol_iff t).mp h)) ((atLastCol_iff t).mpr h3) (iblk V c 0 t) (iblk V c 1 t) (iblk V c 2 t) (iblk V c 3 t) (iblk V c 4 t) (iblk V c 5 t) (outsAt V c (t.val - 1) (Nat.lt_of_le_of_lt (Nat.sub_le _ _) t.isLt)).2.1 (outsAt V c (t.val - 1) (Nat.lt_of_le_of_lt (Nat.sub_le _ _) t.isLt)).2.2), (scrNumerLast c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) (fun h => (by omega : ¬t.val % 4 = 0) ((atFirstCol_iff t).mp h)) ((atLastCol_iff t).mpr h3) (iblk V c 0 t) (iblk V c 1 t) (iblk V c 2 t) (iblk V c 3 t) (iblk V c 4 t) (iblk V c 5 t) (outsAt V c (t.val - 1) (Nat.lt_of_le_of_lt (Nat.sub_le _ _) t.isLt)).2.1 (outsAt V c (t.val - 1) (Nat.lt_of_le_of_lt (Nat.sub_le _ _) t.isLt)).2.2, scrCountLast c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) (fun h => (by omega : ¬t.val % 4 = 0) ((atFirstCol_iff t).mp h)) ((atLastCol_iff t).mpr h3) (iblk V c 0 t) (iblk V c 1 t) (iblk V c 2 t) (iblk V c 3 t) (iblk V c 4 t) (iblk V c 5 t) (outsAt V c (t.val - 1) (Nat.lt_of_le_of_lt (Nat.sub_le _ _) t.isLt)).2.1 (outsAt V c (t.val - 1) (Nat.lt_of_le_of_lt (Nat.sub_le _ _) t.isLt)).2.2)) := by
  obtain ⟨n, hn⟩ := t
  cases n with
  | zero => exact (by exfalso; (try dsimp only at h3); omega)
  | succ n =>
    have h3' : (n + 1) % 4 = 3 := h3
    exact (dif_neg (by omega)).trans ((dif_pos h3').trans rfl)

/-! ## The invariant between points -/

/-- Before the first point: what the launch hands over (every scoped buffer at some contents). Before any later point:
    the other launch's fourteen buffers still at some contents, this kernel's two scratches at what the point before
    left in them (the running row sum and the running count), and the generator register at some state. -/
def PhiS (c : Dev nD) : (n : ℕ) → n ≤ cfg1.N → sProp 𝕄
  | 0, _ => Pipeline.ΦA spec1 c
  | n + 1, hn => iprop(iprop(heldAny c cc0_stg0_0 ∗ heldAny c cc0_stg0_1 ∗ heldAny c cc0_stg1_0 ∗ heldAny c cc0_stg1_1 ∗ heldAny c cc0_stg2_0 ∗ heldAny c cc0_stg2_1 ∗ heldAny c cc0_stg3_0 ∗ heldAny c cc0_stg3_1 ∗ heldAny c cc0_stg4_0 ∗ heldAny c cc0_stg4_1 ∗ heldAny c cc0_stg5_0 ∗ heldAny c cc0_stg5_1 ∗ heldAny c cc0_scratch0 ∗ heldAny c cc0_scratch1 ∗ owns (c : Thread nD τ) scM0 fullShare (outsAt V c n hn).2.1 ∗ owns (c : Thread nD τ) scM1 fullShare (outsAt V c n hn).2.2) ∗ (∃ r, prngReg c r))

theorem PhiS_zero (c : Dev nD) (n : ℕ) (h : n ≤ cfg1.N) (hz : n = 0) : PhiS V c n h = Pipeline.ΦA spec1 c := by
  subst hz; rfl

/-- After point `n`: the scratches at that point's contents. -/
theorem PhiS_succ (c : Dev nD) (n : ℕ) (hn : n < cfg1.N) :
    PhiS V c (n + 1) hn = iprop(iprop(heldAny c cc0_stg0_0 ∗ heldAny c cc0_stg0_1 ∗ heldAny c cc0_stg1_0 ∗ heldAny c cc0_stg1_1 ∗ heldAny c cc0_stg2_0 ∗ heldAny c cc0_stg2_1 ∗ heldAny c cc0_stg3_0 ∗ heldAny c cc0_stg3_1 ∗ heldAny c cc0_stg4_0 ∗ heldAny c cc0_stg4_1 ∗ heldAny c cc0_stg5_0 ∗ heldAny c cc0_stg5_1 ∗ heldAny c cc0_scratch0 ∗ heldAny c cc0_scratch1 ∗ owns (c : Thread nD τ) scM0 fullShare (outsAt V c n hn).2.1 ∗ owns (c : Thread nD τ) scM1 fullShare (outsAt V c n hn).2.2) ∗ (∃ r, prngReg c r)) := rfl

/-- Before a point that is not the first: the scratches at what the point before left. -/
theorem PhiS_pos (c : Dev nD) (n : ℕ) (h : n ≤ cfg1.N) (hz : n ≠ 0) :
    PhiS V c n h = iprop(iprop(heldAny c cc0_stg0_0 ∗ heldAny c cc0_stg0_1 ∗ heldAny c cc0_stg1_0 ∗ heldAny c cc0_stg1_1 ∗ heldAny c cc0_stg2_0 ∗ heldAny c cc0_stg2_1 ∗ heldAny c cc0_stg3_0 ∗ heldAny c cc0_stg3_1 ∗ heldAny c cc0_stg4_0 ∗ heldAny c cc0_stg4_1 ∗ heldAny c cc0_stg5_0 ∗ heldAny c cc0_stg5_1 ∗ heldAny c cc0_scratch0 ∗ heldAny c cc0_scratch1 ∗ owns (c : Thread nD τ) scM0 fullShare (outsAt V c (n - 1) (by omega)).2.1 ∗ owns (c : Thread nD τ) scM1 fullShare (outsAt V c (n - 1) (by omega)).2.2) ∗ (∃ r, prngReg c r)) := by
  cases n with
  | zero => exact absurd rfl hz
  | succ n => rfl

/-! ## The proof data -/

/-- The arrays as the launch finds them; after the body at a point each input's buffer at its block, each output's at
    its component of `outsAt`; the invariant `PhiS`; full shares; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt V c t.val t.isLt).1.1
    | ⟨7, _⟩ => (outsAt V c t.val t.isLt).1.2
  Φ t := PhiS V c t.val (Nat.le_of_lt_succ t.isLt)
  q _ := fullShare
  owed _ := 0

/-- The proof data's arrays are the entry contents. -/
theorem A_eq (c : Dev nD) (w : Fin cfg1.W) : (dat V c).A w = V c (Pipeline.arrRef spec1 w) := by
  dsimp only [dat]

/-- Every window is held at the full share, -/
theorem q_eq (c : Dev nD) (w : Fin cfg1.W) : (dat V c).q w = fullShare := by
  dsimp only [dat]

/-- and the core owes nothing at any point. -/
theorem owed_eq (c : Dev nD) (t : Fin (cfg1.N + 1)) : (dat V c).owed t = 0 := by
  dsimp only [dat]

/-- No bound is put on the pairs the core's waits have recorded. -/
theorem recorded_eq (c : Dev nD) (t : Fin (cfg1.N + 1)) : (dat V c).recorded t = Set.univ := by
  dsimp only [dat]

/-- The invariant at a point's start, restated at the point's position. -/
theorem PhiS_castSucc (c : Dev nD) (t : Fin cfg1.N) :
    (dat V c).Φ t.castSucc = PhiS V c t.val (Nat.le_of_lt t.isLt) := by
  dsimp only [dat]; simp only [Fin.coe_castSucc]

/-- What the body leaves, window by window. -/
theorem after_in0 (c : Dev nD) (t : Fin cfg1.N) : (dat V c).after 0 t = iblk V c 0 t := by dsimp only [dat]
theorem after_in1 (c : Dev nD) (t : Fin cfg1.N) : (dat V c).after 1 t = iblk V c 1 t := by dsimp only [dat]
theorem after_in2 (c : Dev nD) (t : Fin cfg1.N) : (dat V c).after 2 t = iblk V c 2 t := by dsimp only [dat]
theorem after_in3 (c : Dev nD) (t : Fin cfg1.N) : (dat V c).after 3 t = iblk V c 3 t := by dsimp only [dat]
theorem after_in4 (c : Dev nD) (t : Fin cfg1.N) : (dat V c).after 4 t = iblk V c 4 t := by dsimp only [dat]
theorem after_in5 (c : Dev nD) (t : Fin cfg1.N) : (dat V c).after 5 t = iblk V c 5 t := by dsimp only [dat]
theorem after_numer (c : Dev nD) (t : Fin cfg1.N) : (dat V c).after 6 t = (outsAt V c t.val t.isLt).1.1 := by dsimp only [dat]
theorem after_count (c : Dev nD) (t : Fin cfg1.N) : (dat V c).after 7 t = (outsAt V c t.val t.isLt).1.2 := by dsimp only [dat]

/-- Each input's current staging buffer holds its block at every point, fetched there or not. -/
theorem before_in0 (c : Dev nD) (t : Fin cfg1.N) (d) : (dat V c).before 0 t d = iblk V c 0 t :=
  before0_of V (dat V c) (A_eq V c 0) (after_in0 V c) t d
theorem before_in1 (c : Dev nD) (t : Fin cfg1.N) (d) : (dat V c).before 1 t d = iblk V c 1 t :=
  before1_of V (dat V c) (A_eq V c 1) (after_in1 V c) t d
theorem before_in2 (c : Dev nD) (t : Fin cfg1.N) (d) : (dat V c).before 2 t d = iblk V c 2 t :=
  before2_of V (dat V c) (A_eq V c 2) (after_in2 V c) t d
theorem before_in3 (c : Dev nD) (t : Fin cfg1.N) (d) : (dat V c).before 3 t d = iblk V c 3 t :=
  before3_of V (dat V c) (A_eq V c 3) (after_in3 V c) t d
theorem before_in4 (c : Dev nD) (t : Fin cfg1.N) (d) : (dat V c).before 4 t d = iblk V c 4 t :=
  before4_of V (dat V c) (A_eq V c 4) (after_in4 V c) t d
theorem before_in5 (c : Dev nD) (t : Fin cfg1.N) (d) : (dat V c).before 5 t d = iblk V c 5 t :=
  before5_of V (dat V c) (A_eq V c 5) (after_in5 V c) t d

end Cert.KernelIdeal.Loss

end
-- ==== Proof.KernelIdeal.Loss.Body.lean ====
import proofs.«123850_j8598524526701_1_alg».proof.Proof.KernelIdeal.Loss.Data

set_option maxRecDepth 16384

noncomputable section

namespace Cert.KernelIdeal.Loss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The body obligation at a generic point -/

/-- What the body is called with at point `t`: the invariant, what the core owes, and every window's current staging
    buffer at what it then holds. -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d)))

/-- What it returns: the invariant at the next point, the same debt, and every buffer at what the body leaves. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 8000000 in
/-- The body at any point. The six inputs' buffers hold their blocks and are live, so each is left at its block. The
    column coordinate decides the case: at a first column both scratches are reset whatever they held (at the very
    first point the launch's invariant hands them at some contents; later the named contents of the row block before
    are forgotten) and the outputs, idle and not written back, are handed back as found; at a middle column the
    scratches arrive at what the point before left and are taken back at this point's sums, the outputs again
    untouched; at a last column the outputs are live and receive the scratches' final contents. The other launch's
    fourteen scoped buffers and the generator register pass through untouched, and the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_in0, before_in1, before_in2, before_in3, before_in4, before_in5]
  rw [show (dat V c).owesAt () t.succ = (dat V c).owesAt () t.castSucc from rfl]
  rw [show (dat V c).Φ t.succ = PhiS V c (t.val + 1) t.isLt from rfl, PhiS_succ]
  have hN : t.val < 68 := lt_of_lt_of_eq t.isLt (show cfg1.N = 68 from N_1)
  rw [show (dat V c).leavesExact 0 t = owns (c : Thread nD τ) (ms0 t) fullShare ((dat V c).after 0 t) from by
    unfold Dat.leavesExact; rw [live0 t], after_in0]
  rw [show (dat V c).leavesExact 1 t = owns (c : Thread nD τ) (ms1 t) fullShare ((dat V c).after 1 t) from by
    unfold Dat.leavesExact; rw [live1 t], after_in1]
  rw [show (dat V c).leavesExact 2 t = owns (c : Thread nD τ) (ms2 t) fullShare ((dat V c).after 2 t) from by
    unfold Dat.leavesExact; rw [live2 t], after_in2]
  rw [show (dat V c).leavesExact 3 t = owns (c : Thread nD τ) (ms3 t) fullShare ((dat V c).after 3 t) from by
    unfold Dat.leavesExact; rw [live3 t], after_in3]
  rw [show (dat V c).leavesExact 4 t = owns (c : Thread nD τ) (ms4 t) fullShare ((dat V c).after 4 t) from by
    unfold Dat.leavesExact; rw [live4 t], after_in4]
  rw [show (dat V c).leavesExact 5 t = owns (c : Thread nD τ) (ms5 t) fullShare ((dat V c).after 5 t) from by
    unfold Dat.leavesExact; rw [live5 t], after_in5]
  by_cases h0 : t.val % 4 = 0
  · have hc0 : atFirstCol (grid1.coords t) := (atFirstCol_iff t).mpr h0
    have hc1 : ¬atLastCol (grid1.coords t) := fun h => (by omega : ¬t.val % 4 = 3) ((atLastCol_iff t).mp h)
    rw [Dat.leavesExact_idle (dat V c) 6 t (numer_idle_first t hc0 hc1) (numer_noFlush_first t hc0 hc1)]
    rw [Dat.leavesExact_idle (dat V c) 7 t (count_idle_first t hc0 hc1) (count_noFlush_first t hc0 hc1)]
    rw [outsAt_first V c t h0]
    unfold scrNumerFirst scrCountFirst; (try dsimp only)
    by_cases hz : t.val = 0
    · rw [PhiS_castSucc V c t, PhiS_zero V c _ _ hz, PhiA_eq]
      iintro ⟨⟨⟨G1, G2, G3, G4, G5, G6, G7, G8, G9, G10, G11, G12, G13, G14, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runFirst c (grid1.coords t) _ _ _ _ _ _ _ _ _ _ _ _ _ _ _ _ _ _ _ _ hc0 hc1 (iblk V c 0 t) (iblk V c 1 t) (iblk V c 2 t) (iblk V c 3 t) (iblk V c 4 t) (iblk V c 5 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [G1 G2 G3 G4 G5 G6 G7 G8 G9 G10 G11 G12 G13 G14 HS0 HS1 Hg]
      · isplitl [G1 G2 G3 G4 G5 G6 G7 G8 G9 G10 G11 G12 G13 G14 HS0 HS1]
        · isplitl [G1]; · iexact G1
          isplitl [G2]; · iexact G2
          isplitl [G3]; · iexact G3
          isplitl [G4]; · iexact G4
          isplitl [G5]; · iexact G5
          isplitl [G6]; · iexact G6
          isplitl [G7]; · iexact G7
          isplitl [G8]; · iexact G8
          isplitl [G9]; · iexact G9
          isplitl [G10]; · iexact G10
          isplitl [G11]; · iexact G11
          isplitl [G12]; · iexact G12
          isplitl [G13]; · iexact G13
          isplitl [G14]; · iexact G14
          isplitl [HS0]
          · unfold owns; iexists _; isplitr
            swap; · iexact HS0
            ipureintro; exact View.read_writes_of_cover _ _ _ _ _ (scoverFirst0 c _ _ _ _ _ _ _ _ _ _ _ _ _ _ _ _ _ _ _ _ _ _ _ _ _ _ _ _ _)
          unfold owns; iexists _; isplitr
          swap; · iexact HS1
          ipureintro; exact View.read_writes_of_cover _ _ _ _ _ (scoverFirst1 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

    · rw [PhiS_castSucc V c t, PhiS_pos V c _ _ hz]
      iintro ⟨⟨⟨G1, G2, G3, G4, G5, G6, G7, G8, G9, G10, G11, G12, G13, G14, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runFirst c (grid1.coords t) _ _ _ _ _ _ _ _ _ _ _ _ _ _ _ _ _ _ _ _ hc0 hc1 (iblk V c 0 t) (iblk V c 1 t) (iblk V c 2 t) (iblk V c 3 t) (iblk V c 4 t) (iblk V c 5 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      iintro ⟨H0, H1, H2, H3, H4, H5, H6, H7, ⟨%es0, HS0⟩, ⟨%es1, HS1⟩⟩
      isplitl [G1 G2 G3 G4 G5 G6 G7 G8 G9 G10 G11 G12 G13 G14 HS0 HS1 Hg]
      · isplitl [G1 G2 G3 G4 G5 G6 G7 G8 G9 G10 G11 G12 G13 G14 HS0 HS1]
        · isplitl [G1]; · iexact G1
          isplitl [G2]; · iexact G2
          isplitl [G3]; · iexact G3
          isplitl [G4]; · iexact G4
          isplitl [G5]; · iexact G5
          isplitl [G6]; · iexact G6
          isplitl [G7]; · iexact G7
          isplitl [G8]; · iexact G8
          isplitl [G9]; · iexact G9
          isplitl [G10]; · iexact G10
          isplitl [G11]; · iexact G11
          isplitl [G12]; · iexact G12
          isplitl [G13]; · iexact G13
          isplitl [G14]; · iexact G14
          isplitl [HS0]
          · unfold owns; iexists _; isplitr
            swap; · iexact HS0
            ipureintro; exact View.read_writes_of_cover _ _ _ _ _ (scoverFirst0 c _ _ _ _ _ _ _ _ _ _ _ _ _ _ _ _ _ _ _ _ _ _ _ _ _ _ _ _ _)
          unfold owns; iexists _; isplitr
          swap; · iexact HS1
          ipureintro; exact View.read_writes_of_cover _ _ _ _ _ (scoverFirst1 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

  · by_cases h3 : t.val % 4 = 3
    · have hc0 : ¬atFirstCol (grid1.coords t) := fun h => h0 ((atFirstCol_iff t).mp h)
      have hc1 : atLastCol (grid1.coords t) := (atLastCol_iff t).mpr h3
      have hz : t.val ≠ 0 := by omega
      rw [show (dat V c).leavesExact 6 t = owns (c : Thread nD τ) (ms6 t) fullShare ((dat V c).after 6 t) from by
        unfold Dat.leavesExact; rw [numer_live_last t hc0 hc1], after_numer]
      rw [show (dat V c).leavesExact 7 t = owns (c : Thread nD τ) (ms7 t) fullShare ((dat V c).after 7 t) from by
        unfold Dat.leavesExact; rw [count_live_last t hc0 hc1], after_count]
      rw [outsAt_last V c t h3]
      unfold outNumerLast outCountLast scrNumerLast scrCountLast; (try dsimp only)
      rw [PhiS_castSucc V c t, PhiS_pos V c _ _ hz]
      iintro ⟨⟨⟨G1, G2, G3, G4, G5, G6, G7, G8, G9, G10, G11, G12, G13, G14, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runLast c (grid1.coords t) _ _ _ _ _ _ _ _ _ _ _ _ _ _ _ _ _ _ _ _ hc0 hc1 (iblk V c 0 t) (iblk V c 1 t) (iblk V c 2 t) (iblk V c 3 t) (iblk V c 4 t) (iblk V c 5 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, ⟨%e6, H6⟩, ⟨%e7, H7⟩, ⟨%es0, HS0⟩, ⟨%es1, HS1⟩⟩
      isplitl [G1 G2 G3 G4 G5 G6 G7 G8 G9 G10 G11 G12 G13 G14 HS0 HS1 Hg]
      · isplitl [G1 G2 G3 G4 G5 G6 G7 G8 G9 G10 G11 G12 G13 G14 HS0 HS1]
        · isplitl [G1]; · iexact G1
          isplitl [G2]; · iexact G2
          isplitl [G3]; · iexact G3
          isplitl [G4]; · iexact G4
          isplitl [G5]; · iexact G5
          isplitl [G6]; · iexact G6
          isplitl [G7]; · iexact G7
          isplitl [G8]; · iexact G8
          isplitl [G9]; · iexact G9
          isplitl [G10]; · iexact G10
          isplitl [G11]; · iexact G11
          isplitl [G12]; · iexact G12
          isplitl [G13]; · iexact G13
          isplitl [G14]; · iexact G14
          isplitl [HS0]
          · unfold owns; iexists _; isplitr
            swap; · iexact HS0
            ipureintro; exact View.read_writes_of_cover _ _ _ _ _ (scoverLast0 c _ _ _ _ _ _ _ _ _ _ _ _ _ _ _ _ _ _ _ _ _ _ _ _ _ _ _ _ _ _ _)
          unfold owns; iexists _; isplitr
          swap; · iexact HS1
          ipureintro; exact View.read_writes_of_cover _ _ _ _ _ (scoverLast1 c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverLast6 c _ _ _ _ _ _ _ _ _ _ _ _ _ _ _ _ _ _ _ _ _ _ _ _ _ _ _ _ _ _ _)
      unfold owns; iexists _; isplitr
      swap; · iexact H7
      ipureintro; exact View.read_writes_of_cover _ _ _ _ _ (coverLast7 c _ _ _ _ _ _ _ _ _ _ _ _ _ _ _ _ _ _ _ _ _ _ _ _ _ _ _ _ _ _ _)

    · have hc0 : ¬atFirstCol (grid1.coords t) := fun h => h0 ((atFirstCol_iff t).mp h)
      have hc1 : ¬atLastCol (grid1.coords t) := fun h => h3 ((atLastCol_iff t).mp h)
      have hz : t.val ≠ 0 := by omega
      rw [Dat.leavesExact_idle (dat V c) 6 t (numer_idle_mid t hc0 hc1) (numer_noFlush_mid t hc0 hc1)]
      rw [Dat.leavesExact_idle (dat V c) 7 t (count_idle_mid t hc0 hc1) (count_noFlush_mid t hc0 hc1)]
      rw [outsAt_mid V c t h0 h3]
      unfold scrNumerMid scrCountMid; (try dsimp only)
      rw [PhiS_castSucc V c t, PhiS_pos V c _ _ hz]
      iintro ⟨⟨⟨G1, G2, G3, G4, G5, G6, G7, G8, G9, G10, G11, G12, G13, G14, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runMid c (grid1.coords t) _ _ _ _ _ _ _ _ _ _ _ _ _ _ _ _ _ _ _ _ hc0 hc1 (iblk V c 0 t) (iblk V c 1 t) (iblk V c 2 t) (iblk V c 3 t) (iblk V c 4 t) (iblk V c 5 t) _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [G1 G2 G3 G4 G5 G6 G7 G8 G9 G10 G11 G12 G13 G14 HS0 HS1 Hg]
      · isplitl [G1 G2 G3 G4 G5 G6 G7 G8 G9 G10 G11 G12 G13 G14 HS0 HS1]
        · isplitl [G1]; · iexact G1
          isplitl [G2]; · iexact G2
          isplitl [G3]; · iexact G3
          isplitl [G4]; · iexact G4
          isplitl [G5]; · iexact G5
          isplitl [G6]; · iexact G6
          isplitl [G7]; · iexact G7
          isplitl [G8]; · iexact G8
          isplitl [G9]; · iexact G9
          isplitl [G10]; · iexact G10
          isplitl [G11]; · iexact G11
          isplitl [G12]; · iexact G12
          isplitl [G13]; · iexact G13
          isplitl [G14]; · iexact G14
          isplitl [HS0]
          · unfold owns; iexists _; isplitr
            swap; · iexact HS0
            ipureintro; exact View.read_writes_of_cover _ _ _ _ _ (scoverMid0 c _ _ _ _ _ _ _ _ _ _ _ _ _ _ _ _ _ _ _ _ _ _ _ _ _ _ _ _ _ _ _)
          unfold owns; iexists _; isplitr
          swap; · iexact HS1
          ipureintro; exact View.read_writes_of_cover _ _ _ _ _ (scoverMid1 c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation (c : Dev nD) : BodyObligation (dat V c) (defs₀ (F := F)) Variants.none () Set.univ := fun t => by
  rw [bigSep_W1, bigSep_W1]
  exact sound_body V c t

/-- What the launch hands over is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives the launch's back: the scratches' named contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨G1, G2, G3, G4, G5, G6, G7, G8, G9, G10, G11, G12, G13, G14, HS0, HS1⟩, Hg⟩
  isplitl [G1 G2 G3 G4 G5 G6 G7 G8 G9 G10 G11 G12 G13 G14 HS0 HS1]
  · isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    isplitl [G13]; · iexact G13
    isplitl [G14]; · iexact G14
    isplitl [HS0]; · iexists _; iexact HS0
    iexists _; iexact HS1
  iexact Hg

/-- The same after the last point. -/
theorem hout (c : Dev nD) : (dat V c).Φ (Fin.last cfg1.N) ⊢ Pipeline.ΦA spec1 c :=
  Phi_out V c _ (by rw [Fin.val_last]; have : cfg1.N = 68 := N_1; omega)

end Cert.KernelIdeal.Loss

end
-- ==== Proof.KernelIdeal.Whole.lean ====
import proofs.«123850_j8598524526701_1_alg».proof.Proof.KernelIdeal.Lse.Body
import proofs.«123850_j8598524526701_1_alg».proof.Proof.KernelIdeal.Loss.Body
import proofs.«123850_j8598524526701_1_alg».proof.Proof.Gen.KernelIdeal.Regions
import Idealize.ShloMosaic.Lib.Pipeline.RegionsLoop
import Idealize.ShloMosaic.Lib.Pipeline.FrameSuffix
import Idealize.ShloMosaic.Lib.Pipeline.FrameBody
import Idealize.ShloMosaic.Lib.Tactic

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Dat Seg HostSeg RegionSeg)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents between the two regions and after them

Each region changes only its windows' arrays: an input array is left as found, an output array ends at what the
region's write-backs leave, and every buffer that is no array of the region is untouched. -/

/-- What the first region finds in the buffers its core can name: the launch contents after the first host stretch. -/
abbrev E1 : (c : Dev nD) → (b : Ref sig .tc) → Buf (Elt F) ((c : Thread nD τ).loc b) := fun c b => Gen.V1 m c (Proc.devRef .tc b)

/-- After the first region: its six arrays at what its write-backs leave, every other buffer as the region found it. -/
def W2 (c : Dev nD) : Valuation τ sig (Elt F) := Pipeline.withArrays spec0 c (Gen.V1 m c) fun w => (Lse.dat (E1 m) c).arrAt w cfg0.N

theorem W2_arr (c : Dev nD) (w : Fin cfg0.W) : W2 m c (Proc.devRef .tc (Pipeline.arrRef spec0 w)) = (Lse.dat (E1 m) c).arrAt w cfg0.N := by
  unfold W2; exact Pipeline.withArrays_arr spec0 launch0.win.arr_inj c _ _ w

theorem W2_of_ne (c : Dev nD) (b : Ref sig .tc) (hb : ∀ w, Pipeline.arrRef spec0 w ≠ b) : W2 m c (Proc.devRef .tc b) = Gen.V1 m c (Proc.devRef .tc b) := by
  unfold W2; exact Pipeline.withArrays_of_ne spec0 c _ _ b hb

/-- An input array of the first region holds afterwards what it held before: no write-back touches it. -/
theorem W2_in (c : Dev nD) (w : Fin cfg0.W) (hw : (cfg0.win w).isOut = false) :
    W2 m c (Proc.devRef .tc (Pipeline.arrRef spec0 w)) = Gen.V1 m c (Proc.devRef .tc (Pipeline.arrRef spec0 w)) :=
  (W2_arr m c w).trans (((Lse.dat (E1 m) c).arrAt_in w hw _).trans (Lse.A_eq (E1 m) c w))

/-- What the second region finds: the first region's exit contents. -/
abbrev E2 : (c : Dev nD) → (b : Ref sig .tc) → Buf (Elt F) ((c : Thread nD τ).loc b) := fun c b => W2 m c (Proc.devRef .tc b)

/-- After the second region: its eight arrays at what its write-backs leave, every other buffer as the region found it. -/
def W3 (c : Dev nD) : Valuation τ sig (Elt F) := Pipeline.withArrays spec1 c (W2 m c) fun w => (Loss.dat (E2 m) c).arrAt w cfg1.N

theorem W3_arr (c : Dev nD) (w : Fin cfg1.W) : W3 m c (Proc.devRef .tc (Pipeline.arrRef spec1 w)) = (Loss.dat (E2 m) c).arrAt w cfg1.N := by
  unfold W3; exact Pipeline.withArrays_arr spec1 launch1.win.arr_inj c _ _ w

theorem W3_of_ne (c : Dev nD) (b : Ref sig .tc) (hb : ∀ w, Pipeline.arrRef spec1 w ≠ b) : W3 m c (Proc.devRef .tc b) = W2 m c (Proc.devRef .tc b) := by
  unfold W3; exact Pipeline.withArrays_of_ne spec1 c _ _ b hb

/-- An input array of the second region holds afterwards what it held before. -/
theorem W3_in (c : Dev nD) (w : Fin cfg1.W) (hw : (cfg1.win w).isOut = false) :
    W3 m c (Proc.devRef .tc (Pipeline.arrRef spec1 w)) = W2 m c (Proc.devRef .tc (Pipeline.arrRef spec1 w)) :=
  (W3_arr m c w).trans (((Loss.dat (E2 m) c).arrAt_in w hw _).trans (Loss.A_eq (E2 m) c w))

/-- The second region's entry contents at an input array of the first region are the first region's entry contents:
    the first region leaves its inputs as it found them. (At the numerals 0 to 3 the reference is also the second
    region's window of the same number.) -/
theorem E2_in (c : Dev nD) (w : Fin cfg0.W) (hw : (cfg0.win w).isOut = false) : E2 m c (Pipeline.arrRef spec0 w) = E1 m c (Pipeline.arrRef spec0 w) :=
  W2_in m c w hw

/-- The contents the regions leave in the buffers they may change, read off the two valuations above: after the
    first region (item 2 of the run) the first, after the second the second. -/
def outs : Gen.Outs (F := F) := fun J r c => if J = 2 then W2 m c (Proc.devRef .tc r) else W3 m c (Proc.devRef .tc r)

theorem outs_two (r : Ref sig .tc) (c : Dev nD) : outs m 2 r c = W2 m c (Proc.devRef .tc r) := if_pos rfl
theorem outs_three (r : Ref sig .tc) (c : Dev nD) : outs m 3 r c = W3 m c (Proc.devRef .tc r) := if_neg (by decide)

/-- Which windows of the first region are outputs, and that no input's array is an output's. -/
theorem outWin0 : ∀ w : Fin 6, (cfg0.win w).isOut = true → w = 4 ∨ w = 5 := by decide
theorem inArr0 : ∀ w : Fin 6, (cfg0.win w).isOut = false → Pipeline.arrRef spec0 w ∉ ([main_v20_0, main_v20_1] : List (Ref sig .tc)) := by decide
theorem outWin1 : ∀ w : Fin 8, (cfg1.win w).isOut = true → w = 6 ∨ w = 7 := by decide
theorem inArr1 : ∀ w : Fin 8, (cfg1.win w).isOut = false → Pipeline.arrRef spec1 w ∉ ([main_v21_0, main_v21_1] : List (Ref sig .tc)) := by decide

/-- The valuation the host side writes over the unknowns, at these contents, is the first region's exit valuation:
    on the two output arrays both read the write-backs' result, on an input array both read the entry contents,
    and elsewhere neither differs from the entry valuation. -/
theorem V2_eq (c : Dev nD) : Gen.V2 m (outs m) c = W2 m c := by
  funext b
  by_cases h : ∃ w, Proc.devRef .tc (Pipeline.arrRef spec0 w) = b
  · obtain ⟨w, rfl⟩ := h
    cases hw : (cfg0.win w).isOut
    · exact (Gen.V2_of m (outs m) c _ (inArr0 w hw)).trans (W2_in m c w hw).symm
    · rcases outWin0 w hw with rfl | rfl
      · show Function.update (Function.update (Gen.V1 m c) (Proc.devRef .tc main_v20_0) (outs m 2 main_v20_0 c))
            (Proc.devRef .tc main_v20_1) (outs m 2 main_v20_1 c) (Proc.devRef .tc main_v20_0) = _
        rw [Function.update_of_ne (StableHlo.devRef_ne_of_ne (by decide)), Function.update_self]
        exact outs_two m main_v20_0 c
      · show Function.update (Function.update (Gen.V1 m c) (Proc.devRef .tc main_v20_0) (outs m 2 main_v20_0 c))
            (Proc.devRef .tc main_v20_1) (outs m 2 main_v20_1 c) (Proc.devRef .tc main_v20_1) = _
        rw [Function.update_self]
        exact outs_two m main_v20_1 c
  · have h0 : b ≠ Proc.devRef .tc main_v20_0 := fun e => h ⟨4, e.symm⟩
    have h1 : b ≠ Proc.devRef .tc main_v20_1 := fun e => h ⟨5, e.symm⟩
    rw [show Gen.V2 m (outs m) c b = Gen.V1 m c b from (Function.update_of_ne h1 _ _).trans (Function.update_of_ne h0 _ _)]
    unfold W2 Pipeline.withArrays
    rw [dif_neg h]

/-- The same after the second region. -/
theorem V3_eq (c : Dev nD) : Gen.V3 m (outs m) c = W3 m c := by
  funext b
  by_cases h : ∃ w, Proc.devRef .tc (Pipeline.arrRef spec1 w) = b
  · obtain ⟨w, rfl⟩ := h
    cases hw : (cfg1.win w).isOut
    · exact ((Gen.V3_of m (outs m) c _ (inArr1 w hw)).trans (congrFun (V2_eq m c) _)).trans (W3_in m c w hw).symm
    · rcases outWin1 w hw with rfl | rfl
      · show Function.update (Function.update (Gen.V2 m (outs m) c) (Proc.devRef .tc main_v21_0) (outs m 3 main_v21_0 c))
            (Proc.devRef .tc main_v21_1) (outs m 3 main_v21_1 c) (Proc.devRef .tc main_v21_0) = _
        rw [Function.update_of_ne (StableHlo.devRef_ne_of_ne (by decide)), Function.update_self]
        exact outs_three m main_v21_0 c
      · show Function.update (Function.update (Gen.V2 m (outs m) c) (Proc.devRef .tc main_v21_0) (outs m 3 main_v21_0 c))
            (Proc.devRef .tc main_v21_1) (outs m 3 main_v21_1 c) (Proc.devRef .tc main_v21_1) = _
        rw [Function.update_self]
        exact outs_three m main_v21_1 c
  · have h0 : b ≠ Proc.devRef .tc main_v21_0 := fun e => h ⟨6, e.symm⟩
    have h1 : b ≠ Proc.devRef .tc main_v21_1 := fun e => h ⟨7, e.symm⟩
    rw [show Gen.V3 m (outs m) c b = Gen.V2 m (outs m) c b from (Function.update_of_ne h1 _ _).trans (Function.update_of_ne h0 _ _),
      V2_eq]
    unfold W3 Pipeline.withArrays
    rw [dif_neg h]

/-! ## Each region's exit contents, in the form the arrays' rejoining takes -/

theorem hF0 (c : Dev nD) (w : Fin cfg0.W) : (Lse.dat (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- The second region's exit contents at the references its core can name. -/
abbrev E3 : (c : Dev nD) → (b : Ref sig .tc) → Buf (Elt F) ((c : Thread nD τ).loc b) := fun c b => W3 m c (Proc.devRef .tc b)

theorem hF1 (c : Dev nD) (w : Fin cfg1.W) : (Loss.dat (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-! ## The proof data family, the levels, and what rides beside the buffers -/

/-- Each pipeline's proof data at its region's entry contents. -/
def pdats : (p : Fin 2) → (c : Dev nD) → Dat τ (Elt F) Unit ℕ (UR sig nD τ) ℕ (cfgs p) c
  | ⟨0, _⟩ => fun c => Lse.dat (E1 m) c
  | ⟨1, _⟩ => fun c => Loss.dat (E2 m) c

/-- No core owes another anything: no level is assigned. -/
abbrev L : GSem nD τ sig → Finset Unit := fun _ => ∅
abbrev lv : GSem nD τ sig → Unit → ℕ := fun _ _ => 0

/-- Beside the buffers through every item of the run: the core's generator register at some state (a region's
    invariant takes it in and gives it back) and the core owing nothing. -/
abbrev R (c : Dev nD) : sProp 𝕄 := iprop((∃ r, prngReg c r) ∗ ∃ W, owes (c : Thread nD τ) (0 : CellTallies nD τ sig Unit) W)

/-- The same at every item. -/
abbrev E : Fin 3 → Dev nD → sProp 𝕄 := fun _ c => R c

/-- A core owing nothing, whatever pairs its waits have recorded, is what a pipeline's loop holds at a point where
    the proof data owe nothing and bound the recorded pairs by nothing. -/
theorem owesAt_of_owes {cfg : Cfg sig Λ₀} {c : Dev nD} (dt : Dat τ (Elt F) Unit ℕ (UR sig nD τ) ℕ cfg c) (t : Fin (cfg.N + 1))
    (hO : dt.owed t = 0) (hR : dt.recorded t = Set.univ) :
    (iprop(∃ W, owes (c : Thread nD τ) (0 : CellTallies nD τ sig Unit) W) : sProp 𝕄) ⊢ dt.owesAt () t := by
  unfold Pipeline.Dat.owesAt Pipeline.owesWithin Pipeline.Dat.bound
  rw [hO, hR]
  iintro ⟨%W, HO⟩; iexists W; isplitr; · ipureintro; exact fun _ _ => Or.inl trivial
  iexact HO

/-- and back. -/
theorem owes_of_owesAt {cfg : Cfg sig Λ₀} {c : Dev nD} (dt : Dat τ (Elt F) Unit ℕ (UR sig nD τ) ℕ cfg c) (t : Fin (cfg.N + 1))
    (hO : dt.owed t = 0) :
    dt.owesAt () t ⊢ (iprop(∃ W, owes (c : Thread nD τ) (0 : CellTallies nD τ sig Unit) W) : sProp 𝕄) := by
  unfold Pipeline.Dat.owesAt Pipeline.owesWithin
  rw [hO]
  iintro ⟨%W, -, HO⟩; iexists W; iexact HO

/-! ## The regions as segments -/

set_option backward.isDefEq.respectTransparency.types false in
/-- THE FIRST REGION over the thread state: entered from every unscoped buffer at the contents after the first host
    stretch, left at `W2`. Its arrays are split out of the unscoped buffers and put back at the exit contents; the
    generator register goes into the invariant and comes out; nothing is owed; the kernel has no semaphore of its own. -/
def reg0 : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (Lse.body_obligation (E1 m) c).loose
  hwaits := Pipeline.hwaits_of_owed_zero _ _ _ _ L lv 0 fun c t => Lse.owed_eq (E1 m) c t
  pre c := iprop(StableHlo.held (c : Thread nD τ) (Pipeline.ucRefs τ sig) (Gen.V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun w => Lse.q_eq (E1 m) c w) (E1 m c) fun w => Lse.A_eq (E1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_owes (Lse.dat (E1 m) c) 0 (Lse.owed_eq (E1 m) c 0) (Lse.recorded_eq (E1 m) c 0)); iexact HO
    isplitl [Hp]; · iexact Hp
    iexact Hrest
  hin c := by
    refine BIBase.Entails.trans ?_ (Lse.hin (E1 m) c)
    unfold Pipeline.ΦA
    iintro ⟨Hp, -, Hr⟩
    isplitl [Hr]; · iexact Hr
    iexact Hp
  hout c := by
    rw [Pipeline.ownSems0_none]
    refine BIBase.Entails.trans (Lse.hout (E1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => Lse.q_eq (E1 m) c w)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_of_owesAt (Lse.dat (E1 m) c) (Fin.last _) (Lse.owed_eq (E1 m) c _)); iexact HO

set_option backward.isDefEq.respectTransparency.types false in
/-- THE SECOND REGION over the thread state: entered from every unscoped buffer at `W2`, left at `W3`; otherwise as
    the first. -/
def reg1 : RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (Loss.body_obligation (E2 m) c).loose
  hwaits := Pipeline.hwaits_of_owed_zero _ _ _ _ L lv 1 fun c t => Loss.owed_eq (E2 m) c t
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun w => Loss.q_eq (E2 m) c w) (E2 m c) fun w => Loss.A_eq (E2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_owes (Loss.dat (E2 m) c) 0 (Loss.owed_eq (E2 m) c 0) (Loss.recorded_eq (E2 m) c 0)); iexact HO
    isplitl [Hp]; · iexact Hp
    iexact Hrest
  hin c := by
    refine BIBase.Entails.trans ?_ (Loss.hin (E2 m) c)
    unfold Pipeline.ΦA
    iintro ⟨Hp, -, Hr⟩
    isplitl [Hr]; · iexact Hr
    iexact Hp
  hout c := by
    rw [Pipeline.ownSems0_none]
    refine BIBase.Entails.trans (Loss.hout (E2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => Loss.q_eq (E2 m) c w)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_of_owesAt (Loss.dat (E2 m) c) (Fin.last _) (Loss.owed_eq (E2 m) c _)); iexact HO

/-! ## The thread states chain -/

theorem hpost0 (c : Dev nD) : (reg0 m).post c ⊢ iprop(StableHlo.held (c : Thread nD τ) (Pipeline.ucRefs τ sig) (Gen.V2 m (outs m) c) ∗ E 1 c) := by
  rw [V2_eq]; exact .rfl
theorem hpre1 (c : Dev nD) : iprop(StableHlo.held (c : Thread nD τ) (Pipeline.ucRefs τ sig) (Gen.V2 m (outs m) c) ∗ E 1 c) ⊢ (reg1 m).pre c := by
  rw [V2_eq]; exact .rfl
theorem hpost1 (c : Dev nD) : (reg1 m).post c ⊢ iprop(StableHlo.held (c : Thread nD τ) (Pipeline.ucRefs τ sig) (Gen.V3 m (outs m) c) ∗ E 2 c) := by
  rw [V3_eq]; exact .rfl
/-- The rider ends owing nothing: drop the register. -/
theorem hE2 (c : Dev nD) : (E 2 c : sProp 𝕄) ⊢ iprop(∃ W, owes (c : Thread nD τ) (0 : CellTallies nD τ sig Unit) W) := by
  iintro ⟨-, HO⟩; iexact HO

/-! ## The launch -/

/-- The launch's element of the user algebra: the pipelines' cells and their tokens, nothing else. -/
abbrev u₀ : UR sig nD τ := initOf (Pipeline.cells cfgs cellOf_inj) (Pipeline.launchToks cfgs cellOf_inj)

/-- Owning it is owning the pipelines' share; no core gets a ghost resource of its own. -/
theorem hu₀ : (ownU u₀ : sProp 𝕄) ⊢ |={Set.univ}=> iprop(BI.own (emb₁ (initOf (Pipeline.cells cfgs cellOf_inj) (Pipeline.launchToks cfgs cellOf_inj)))
    ∗ bigSep Finset.univ fun _ : Dev nD => (BI.emp : sProp 𝕄)) := by
  iintro Hu; imodintro
  isplitl [Hu]
  · iapply (show (ownU u₀ : sProp 𝕄) ⊢ BI.own (emb₁ u₀) from .rfl)
    iexact Hu
  iapply (show (BI.emp : sProp 𝕄) ⊢ bigSep Finset.univ (fun _ : Dev nD => (BI.emp : sProp 𝕄)) from by rw [BI.bigSep_emp_const])
  iempintro

/-- THE LAUNCH'S FIRST STATE beside the buffers, per core: of what the launch deals a core, its generator register at
    the launch state and its owing nothing (recorded pairs: none) make the rider; the rest is dropped. -/
theorem rider_init (c : Dev nD) :
    (iprop(iprop(unscopedSems0 c ∗ owes (c : Thread nD τ) ((0 : Dev nD → CellTallies nD τ sig Unit) c) ∅
        ∗ Pipeline.launchCred (0 : Dev nD → CellTallies nD τ sig Unit) c ∗ prngReg c (ρ c) ∗ BI.emp) ∗ levAts L lv) : sProp 𝕄)
      ⊢ |={Set.univ}=> E 0 c := by
  iintro ⟨⟨-, HO, -, Hp, -⟩, -⟩
  imodintro
  isplitl [Hp]; · iexists _; iexact Hp
  iexists ∅; iexact HO

/-- The same with the buffers: every unscoped buffer at its launch contents beside the rider, on every core at once. -/
theorem first_state :
    (iprop((bigSep Finset.univ fun c : Dev nD => iprop(unscopedBufs c (fun b => m ((c.tc : Thread nD τ).loc b)) ∗ unscopedSems0 c
        ∗ owes (c.tc : Thread nD τ) ((0 : Dev nD → CellTallies nD τ sig Unit) c) ∅ ∗ Pipeline.launchCred (0 : Dev nD → CellTallies nD τ sig Unit) c
        ∗ prngReg c (ρ c) ∗ BI.emp)) ∗ levAts L lv) : sProp 𝕄)
      ⊢ |={Set.univ}=> bigSep Finset.univ fun c : Dev nD => iprop(StableHlo.held (c : Thread nD τ) (Pipeline.ucRefs τ sig) (Gen.V0 m c) ∗ E 0 c) := by
  refine Pipeline.initEach L lv fun c => ?_
  rw [show unscopedBufs c (fun b => m ((c : Thread nD τ).loc b)) = StableHlo.held (c : Thread nD τ) (Pipeline.ucRefs τ sig) (Gen.V0 m c)
    from Pipeline.unscopedBufs_held c (Gen.V0 m c)]
  iintro ⟨⟨Hh, Hrest⟩, Hla⟩
  imod (rider_init ρ c) $$ [Hrest Hla] with HR
  · isplitl [Hrest]; · iexact Hrest
    iexact Hla
  imodintro
  isplitl [Hh]; · iexact Hh
  iexact HR

/-! ## The two statements of the run -/

set_option backward.isDefEq.respectTransparency.types false in
/-- THE FRAME, at any `F`: from any memory with zero counters every weakly fair execution of the program on the
    TensorCores terminates, and every final memory holds each of the five argument arrays as launched. The host side
    (the program as its four items, the two host stretches, the chaining, the arguments read back) is the conditional
    frame's; supplied here are the two regions' records at the exit contents above, the rider, and the launch. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Gen.frame_cond m emb₁ () Variants.none L lv (fun _ _ => rfl) ρ (outs m) (pdats m) 0 (fun _ => iprop(emp)) u₀ hu₀ E
    (Pipeline.initEach L lv (rider_init ρ)) hE2
    (reg0 m) (fun _ => .rfl) (hpost0 m) (reg1 m) (hpre1 m) (hpost1 m)

set_option backward.isDefEq.respectTransparency.types false in
/-- THE RUN WITH EVERY UNSCOPED BUFFER NAMED: the same launch over the same four items, the post reading the whole
    last valuation — every unscoped buffer of every core ends at the contents after the last host stretch. -/
theorem run_all : θ_run defs (onTc (τ := τ) (main (F := F))) ⟨m, fun _ => 0, ρ⟩ (fun r => ∀ c : Dev nD,
      ∀ b ∈ Pipeline.ucRefs τ sig, r.2.mem ((c : Thread nD τ).1, b) = Gen.V4 m (outs m) c b) := by
  refine Pipeline.θ_run_regions_kit_dev (pcfgs (F := F)) adm (pdats m) () cellOf_inj emb₁ defs₀ Variants.none L lv m ρ main
    (Gen.segs m (outs m) Variants.none L lv E () (pdats m) (reg0 m) (reg1 m))
    (fun c Q => by
      rewrite [main_chain c, Seg.run_eq_chain,
        show (Gen.segs m (outs m) Variants.none L lv E () (pdats m) (reg0 m) (reg1 m) c).map Seg.prog = [
          StableHlo.seq hostOps0,
          Prog.lift (.customCall (Pipeline.entry 0) ()),
          Prog.lift (.customCall (Pipeline.entry 1) ()),
          StableHlo.seq hostOps2 ] from rfl]
      exact .rfl)
    (fun c => by simp only [Gen.segs, Seg.pipes_host, Seg.pipes_region, Seg.pipes_nil]; decide) 0 (fun _ _ => rfl)
    (fun _ => iprop(emp)) u₀ hu₀
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V4 m (outs m) c))
    (hch := fun c => ⟨.rfl, .rfl, (hpost0 m c).trans (hpre1 m c), hpost1 m c, sep_mono .rfl (hE2 c)⟩)
    (hinit := first_state m ρ)
    (QY := fun c s => ∀ b ∈ Pipeline.ucRefs τ sig, s.mem ((c : Thread nD τ).1, b) = Gen.V4 m (outs m) c b)
    (hfin := fun c s' => by
      iintro ⟨Hh, HSI⟩
      unfold StableHlo.held
      imodintro
      iapply (pointsTo_read_all (Pipeline.ucRefs τ sig) (fun b => ((c : Thread nD τ).1, b)) (Gen.V4 m (outs m) c) s')
      isplitl [Hh] <;> iassumption)
    (hQ := fun _ h => h)

end Cert.KernelIdeal.Whole

end
-- ==== Proof.Reference.Staged.lean ====
/-
  The reference's run, read stage by stage. Its 105 operations are taken in ten stretches, a cut before every
  concatenation; after each stretch every buffer that a later operation still reads holds its stage, the value that
  operation of the program writes as a function of the five arguments, and the arguments hold what they held. A buffer a
  stretch does not write keeps its contents; a buffer it writes is its operation applied to operands that are stages
  already, which is the next stage by definition. After the tenth stretch the result buffer holds the last stage.
-/
import proofs.«123850_j8598524526701_1_alg».proof.Proof.Reference.GenStages
import Idealize.ShloMosaic.Lib.StableHlo.Run
import Idealize.ShloMosaic.Lib.Pipeline.Frame

noncomputable section

namespace Cert.ReferenceIdeal.Staged

open Cert.ReferenceIdeal Cert.ReferenceIdeal.Gen Idealize.ShloMosaic Idealize.ShloMosaic.TcCoe Idealize.SL.Sem
open Idealize.ShloMosaic.StableHlo Cert.ReferenceIdeal.ReadP
open Cert.ReferenceIdeal.ValueP (ops main_eq ops_sub scopedRefs_eq scopedSems_eq)

variable {F : FTy → Type} [FloatOps F]

/-! ## The operation list in ten stretches, a cut before every concatenation -/

/-- Operations 1 … 12 of 105. -/
abbrev stretch1 : List (HloOp τ sig (Elt F)) := (ops.drop 0).take 12

/-- Operations 13 … 19 of 105. -/
abbrev stretch2 : List (HloOp τ sig (Elt F)) := (ops.drop 12).take 7

/-- Operations 20 … 20 of 105. -/
abbrev stretch3 : List (HloOp τ sig (Elt F)) := (ops.drop 19).take 1

/-- Operations 21 … 21 of 105. -/
abbrev stretch4 : List (HloOp τ sig (Elt F)) := (ops.drop 20).take 1

/-- Operations 22 … 39 of 105. -/
abbrev stretch5 : List (HloOp τ sig (Elt F)) := (ops.drop 21).take 18

/-- Operations 40 … 62 of 105. -/
abbrev stretch6 : List (HloOp τ sig (Elt F)) := (ops.drop 39).take 23

/-- Operations 63 … 72 of 105. -/
abbrev stretch7 : List (HloOp τ sig (Elt F)) := (ops.drop 62).take 10

/-- Operations 73 … 76 of 105. -/
abbrev stretch8 : List (HloOp τ sig (Elt F)) := (ops.drop 72).take 4

/-- Operations 77 … 80 of 105. -/
abbrev stretch9 : List (HloOp τ sig (Elt F)) := (ops.drop 76).take 4

/-- Operations 81 … 105 of 105. -/
abbrev stretch10 : List (HloOp τ sig (Elt F)) := (ops.drop 80).take 25

set_option maxRecDepth 8192 in
/-- The reference's operations are the ten stretches in order. -/
theorem ops_cut : (ops : List (HloOp τ sig (Elt F))) = stretch1 ++ (stretch2 ++ (stretch3 ++ (stretch4 ++ (stretch5 ++ (stretch6 ++ (stretch7 ++ (stretch8 ++ (stretch9 ++ (stretch10))))))))) := rfl

/-! ## The buffers after each stretch, from any contents: every buffer still to be read holds its stage of the arguments -/

section
variable (V0 : Valuation τ sig (Elt F))

/-- The buffer contents before the first stretch. -/
def held0 : Valuation τ sig (Elt F) := V0
theorem held0_main_arg0 : held0 V0 (no_index (Proc.devRef .tc main_arg0)) = V0 (Proc.devRef .tc main_arg0) := rfl
theorem held0_main_arg1 : held0 V0 (no_index (Proc.devRef .tc main_arg1)) = V0 (Proc.devRef .tc main_arg1) := rfl
theorem held0_main_arg2 : held0 V0 (no_index (Proc.devRef .tc main_arg2)) = V0 (Proc.devRef .tc main_arg2) := rfl
theorem held0_main_arg3 : held0 V0 (no_index (Proc.devRef .tc main_arg3)) = V0 (Proc.devRef .tc main_arg3) := rfl
theorem held0_main_arg4 : held0 V0 (no_index (Proc.devRef .tc main_arg4)) = V0 (Proc.devRef .tc main_arg4) := rfl

/-- The buffer contents after the first 1 stretch. -/
def held1 : Valuation τ sig (Elt F) := after stretch1 (held0 V0)
/-- The buffers stretch 1 writes. -/
abbrev stretch1_W : List (Ref sig .tc) := [main_v0, main_v1, main_v2, main_c, main_v3, main_v4, main_c_0, main_v5, main_v6, main_c_1, main_v7, main_v8]
theorem stretch1_writes : (stretch1 : List (HloOp τ sig (Elt F))).Forall fun op => op.writes ⊆ (stretch1_W.map (Proc.devRef (τ := τ) .tc)).toFinset := by
  simp only [stretch1, ops, List.drop_succ_cons, List.drop_zero, List.take_succ_cons, List.take_zero, List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- A buffer stretch 1 does not write keeps its contents through it. -/
theorem held1_keep (r : Ref sig .tc) (h : r ∉ stretch1_W) :
    held1 V0 (Proc.devRef .tc r) = held0 V0 (Proc.devRef .tc r) :=
  after_of_writes_sub stretch1 _ stretch1_writes h
theorem held1_main_arg0 : held1 V0 (no_index (Proc.devRef .tc main_arg0)) = V0 (Proc.devRef .tc main_arg0) :=
  (held1_keep V0 main_arg0 (by decide)).trans (held0_main_arg0 V0)
theorem held1_main_arg1 : held1 V0 (no_index (Proc.devRef .tc main_arg1)) = V0 (Proc.devRef .tc main_arg1) :=
  (held1_keep V0 main_arg1 (by decide)).trans (held0_main_arg1 V0)
theorem held1_main_arg2 : held1 V0 (no_index (Proc.devRef .tc main_arg2)) = V0 (Proc.devRef .tc main_arg2) :=
  (held1_keep V0 main_arg2 (by decide)).trans (held0_main_arg2 V0)
theorem held1_main_arg3 : held1 V0 (no_index (Proc.devRef .tc main_arg3)) = V0 (Proc.devRef .tc main_arg3) :=
  (held1_keep V0 main_arg3 (by decide)).trans (held0_main_arg3 V0)
theorem held1_main_arg4 : held1 V0 (no_index (Proc.devRef .tc main_arg4)) = V0 (Proc.devRef .tc main_arg4) :=
  (held1_keep V0 main_arg4 (by decide)).trans (held0_main_arg4 V0)
set_option maxRecDepth 65536 in
set_option maxHeartbeats 1200000 in
theorem held1_main_v1 : held1 V0 (no_index (Proc.devRef .tc main_v1)) = val_main_v1 (F := F) (V0 (Proc.devRef .tc main_arg0)) := by
  unfold held1
  simp only [stretch1, ops, List.drop_succ_cons, List.drop_zero, List.take_succ_cons, List.take_zero]
  after_results_simp
  first
    | (rw [held0_main_arg0]; rfl)
    | (simp only [held0_main_arg0] <;> rfl)
set_option maxRecDepth 65536 in
set_option maxHeartbeats 1200000 in
theorem held1_main_v2 : held1 V0 (no_index (Proc.devRef .tc main_v2)) = val_main_v2 (F := F) (V0 (Proc.devRef .tc main_arg0)) := by
  unfold held1
  simp only [stretch1, ops, List.drop_succ_cons, List.drop_zero, List.take_succ_cons, List.take_zero]
  after_results_simp
  first
    | (rw [held0_main_arg0]; rfl)
    | (simp only [held0_main_arg0] <;> rfl)
set_option maxRecDepth 65536 in
set_option maxHeartbeats 1200000 in
theorem held1_main_v4 : held1 V0 (no_index (Proc.devRef .tc main_v4)) = val_main_v4 (F := F) (V0 (Proc.devRef .tc main_arg0)) (V0 (Proc.devRef .tc main_arg2)) := by
  unfold held1
  simp only [stretch1, ops, List.drop_succ_cons, List.drop_zero, List.take_succ_cons, List.take_zero]
  after_results_simp
  first
    | (rw [held0_main_arg0, held0_main_arg2]; rfl)
    | (simp only [held0_main_arg0, held0_main_arg2] <;> rfl)
set_option maxRecDepth 65536 in
set_option maxHeartbeats 1200000 in
theorem held1_main_v6 : held1 V0 (no_index (Proc.devRef .tc main_v6)) = val_main_v6 (F := F) (V0 (Proc.devRef .tc main_arg0)) (V0 (Proc.devRef .tc main_arg3)) := by
  unfold held1
  simp only [stretch1, ops, List.drop_succ_cons, List.drop_zero, List.take_succ_cons, List.take_zero]
  after_results_simp
  first
    | (rw [held0_main_arg0, held0_main_arg3]; rfl)
    | (simp only [held0_main_arg0, held0_main_arg3] <;> rfl)
set_option maxRecDepth 65536 in
set_option maxHeartbeats 1200000 in
theorem held1_main_v8 : held1 V0 (no_index (Proc.devRef .tc main_v8)) = val_main_v8 (F := F) (V0 (Proc.devRef .tc main_arg1)) (V0 (Proc.devRef .tc main_arg4)) := by
  unfold held1
  simp only [stretch1, ops, List.drop_succ_cons, List.drop_zero, List.take_succ_cons, List.take_zero]
  after_results_simp
  first
    | (rw [held0_main_arg1, held0_main_arg4]; rfl)
    | (simp only [held0_main_arg1, held0_main_arg4] <;> rfl)

/-- The buffer contents after the first 2 stretches. -/
def held2 : Valuation τ sig (Elt F) := after stretch2 (held1 V0)
/-- The buffers stretch 2 writes. -/
abbrev stretch2_W : List (Ref sig .tc) := [main_v9, main_v10, main_v11, main_v12, main_v13, main_v14, main_v15]
theorem stretch2_writes : (stretch2 : List (HloOp τ sig (Elt F))).Forall fun op => op.writes ⊆ (stretch2_W.map (Proc.devRef (τ := τ) .tc)).toFinset := by
  simp only [stretch2, ops, List.drop_succ_cons, List.drop_zero, List.take_succ_cons, List.take_zero, List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- A buffer stretch 2 does not write keeps its contents through it. -/
theorem held2_keep (r : Ref sig .tc) (h : r ∉ stretch2_W) :
    held2 V0 (Proc.devRef .tc r) = held1 V0 (Proc.devRef .tc r) :=
  after_of_writes_sub stretch2 _ stretch2_writes h
theorem held2_main_arg0 : held2 V0 (no_index (Proc.devRef .tc main_arg0)) = V0 (Proc.devRef .tc main_arg0) :=
  (held2_keep V0 main_arg0 (by decide)).trans (held1_main_arg0 V0)
theorem held2_main_arg1 : held2 V0 (no_index (Proc.devRef .tc main_arg1)) = V0 (Proc.devRef .tc main_arg1) :=
  (held2_keep V0 main_arg1 (by decide)).trans (held1_main_arg1 V0)
theorem held2_main_arg2 : held2 V0 (no_index (Proc.devRef .tc main_arg2)) = V0 (Proc.devRef .tc main_arg2) :=
  (held2_keep V0 main_arg2 (by decide)).trans (held1_main_arg2 V0)
theorem held2_main_arg3 : held2 V0 (no_index (Proc.devRef .tc main_arg3)) = V0 (Proc.devRef .tc main_arg3) :=
  (held2_keep V0 main_arg3 (by decide)).trans (held1_main_arg3 V0)
theorem held2_main_arg4 : held2 V0 (no_index (Proc.devRef .tc main_arg4)) = V0 (Proc.devRef .tc main_arg4) :=
  (held2_keep V0 main_arg4 (by decide)).trans (held1_main_arg4 V0)
theorem held2_main_v1 : held2 V0 (no_index (Proc.devRef .tc main_v1)) = val_main_v1 (F := F) (V0 (Proc.devRef .tc main_arg0)) :=
  (held2_keep V0 main_v1 (by decide)).trans (held1_main_v1 V0)
theorem held2_main_v2 : held2 V0 (no_index (Proc.devRef .tc main_v2)) = val_main_v2 (F := F) (V0 (Proc.devRef .tc main_arg0)) :=
  (held2_keep V0 main_v2 (by decide)).trans (held1_main_v2 V0)
theorem held2_main_v4 : held2 V0 (no_index (Proc.devRef .tc main_v4)) = val_main_v4 (F := F) (V0 (Proc.devRef .tc main_arg0)) (V0 (Proc.devRef .tc main_arg2)) :=
  (held2_keep V0 main_v4 (by decide)).trans (held1_main_v4 V0)
theorem held2_main_v6 : held2 V0 (no_index (Proc.devRef .tc main_v6)) = val_main_v6 (F := F) (V0 (Proc.devRef .tc main_arg0)) (V0 (Proc.devRef .tc main_arg3)) :=
  (held2_keep V0 main_v6 (by decide)).trans (held1_main_v6 V0)
set_option maxRecDepth 65536 in
theorem held2_main_v15 : held2 V0 (no_index (Proc.devRef .tc main_v15)) = val_main_v15 (F := F) (V0 (Proc.devRef .tc main_arg1)) (V0 (Proc.devRef .tc main_arg4)) := by
  unfold held2
  simp only [stretch2, ops, List.drop_succ_cons, List.drop_zero, List.take_succ_cons, List.take_zero]
  after_results_simp
  first
    | (rw [held1_main_arg1, held1_main_v8]; rfl)
    | (simp only [held1_main_arg1, held1_main_v8] <;> rfl)

/-- The buffer contents after the first 3 stretches. -/
def held3 : Valuation τ sig (Elt F) := after stretch3 (held2 V0)
/-- The buffers stretch 3 writes. -/
abbrev stretch3_W : List (Ref sig .tc) := [main_v16]
theorem stretch3_writes : (stretch3 : List (HloOp τ sig (Elt F))).Forall fun op => op.writes ⊆ (stretch3_W.map (Proc.devRef (τ := τ) .tc)).toFinset := by
  simp only [stretch3, ops, List.drop_succ_cons, List.drop_zero, List.take_succ_cons, List.take_zero, List.Forall]; exact (by simp only [nullary_writes, unary_writes, binary_writes, ternary_writes, reshape_writes, Finset.singleton_subset_iff, List.mem_toFinset]; exact List.mem_map_of_mem (by decide))
/-- A buffer stretch 3 does not write keeps its contents through it. -/
theorem held3_keep (r : Ref sig .tc) (h : r ∉ stretch3_W) :
    held3 V0 (Proc.devRef .tc r) = held2 V0 (Proc.devRef .tc r) :=
  after_of_writes_sub stretch3 _ stretch3_writes h
theorem held3_main_arg0 : held3 V0 (no_index (Proc.devRef .tc main_arg0)) = V0 (Proc.devRef .tc main_arg0) :=
  (held3_keep V0 main_arg0 (by decide)).trans (held2_main_arg0 V0)
theorem held3_main_arg1 : held3 V0 (no_index (Proc.devRef .tc main_arg1)) = V0 (Proc.devRef .tc main_arg1) :=
  (held3_keep V0 main_arg1 (by decide)).trans (held2_main_arg1 V0)
theorem held3_main_arg2 : held3 V0 (no_index (Proc.devRef .tc main_arg2)) = V0 (Proc.devRef .tc main_arg2) :=
  (held3_keep V0 main_arg2 (by decide)).trans (held2_main_arg2 V0)
theorem held3_main_arg3 : held3 V0 (no_index (Proc.devRef .tc main_arg3)) = V0 (Proc.devRef .tc main_arg3) :=
  (held3_keep V0 main_arg3 (by decide)).trans (held2_main_arg3 V0)
theorem held3_main_arg4 : held3 V0 (no_index (Proc.devRef .tc main_arg4)) = V0 (Proc.devRef .tc main_arg4) :=
  (held3_keep V0 main_arg4 (by decide)).trans (held2_main_arg4 V0)
theorem held3_main_v2 : held3 V0 (no_index (Proc.devRef .tc main_v2)) = val_main_v2 (F := F) (V0 (Proc.devRef .tc main_arg0)) :=
  (held3_keep V0 main_v2 (by decide)).trans (held2_main_v2 V0)
theorem held3_main_v6 : held3 V0 (no_index (Proc.devRef .tc main_v6)) = val_main_v6 (F := F) (V0 (Proc.devRef .tc main_arg0)) (V0 (Proc.devRef .tc main_arg3)) :=
  (held3_keep V0 main_v6 (by decide)).trans (held2_main_v6 V0)
theorem held3_main_v15 : held3 V0 (no_index (Proc.devRef .tc main_v15)) = val_main_v15 (F := F) (V0 (Proc.devRef .tc main_arg1)) (V0 (Proc.devRef .tc main_arg4)) :=
  (held3_keep V0 main_v15 (by decide)).trans (held2_main_v15 V0)
set_option maxRecDepth 65536 in
theorem held3_main_v16 : held3 V0 (no_index (Proc.devRef .tc main_v16)) = val_main_v16 (F := F) (V0 (Proc.devRef .tc main_arg0)) (V0 (Proc.devRef .tc main_arg2)) := by
  unfold held3
  simp only [stretch3, ops, List.drop_succ_cons, List.drop_zero, List.take_succ_cons, List.take_zero]
  after_results_simp
  first
    | (rw [held2_main_v1, held2_main_v4]; rfl)
    | (simp only [held2_main_v1, held2_main_v4] <;> rfl)

/-- The buffer contents after the first 4 stretches. -/
def held4 : Valuation τ sig (Elt F) := after stretch4 (held3 V0)
/-- The buffers stretch 4 writes. -/
abbrev stretch4_W : List (Ref sig .tc) := [main_v17]
theorem stretch4_writes : (stretch4 : List (HloOp τ sig (Elt F))).Forall fun op => op.writes ⊆ (stretch4_W.map (Proc.devRef (τ := τ) .tc)).toFinset := by
  simp only [stretch4, ops, List.drop_succ_cons, List.drop_zero, List.take_succ_cons, List.take_zero, List.Forall]; exact (by simp only [nullary_writes, unary_writes, binary_writes, ternary_writes, reshape_writes, Finset.singleton_subset_iff, List.mem_toFinset]; exact List.mem_map_of_mem (by decide))
/-- A buffer stretch 4 does not write keeps its contents through it. -/
theorem held4_keep (r : Ref sig .tc) (h : r ∉ stretch4_W) :
    held4 V0 (Proc.devRef .tc r) = held3 V0 (Proc.devRef .tc r) :=
  after_of_writes_sub stretch4 _ stretch4_writes h
theorem held4_main_arg0 : held4 V0 (no_index (Proc.devRef .tc main_arg0)) = V0 (Proc.devRef .tc main_arg0) :=
  (held4_keep V0 main_arg0 (by decide)).trans (held3_main_arg0 V0)
theorem held4_main_arg1 : held4 V0 (no_index (Proc.devRef .tc main_arg1)) = V0 (Proc.devRef .tc main_arg1) :=
  (held4_keep V0 main_arg1 (by decide)).trans (held3_main_arg1 V0)
theorem held4_main_arg2 : held4 V0 (no_index (Proc.devRef .tc main_arg2)) = V0 (Proc.devRef .tc main_arg2) :=
  (held4_keep V0 main_arg2 (by decide)).trans (held3_main_arg2 V0)
theorem held4_main_arg3 : held4 V0 (no_index (Proc.devRef .tc main_arg3)) = V0 (Proc.devRef .tc main_arg3) :=
  (held4_keep V0 main_arg3 (by decide)).trans (held3_main_arg3 V0)
theorem held4_main_arg4 : held4 V0 (no_index (Proc.devRef .tc main_arg4)) = V0 (Proc.devRef .tc main_arg4) :=
  (held4_keep V0 main_arg4 (by decide)).trans (held3_main_arg4 V0)
theorem held4_main_v15 : held4 V0 (no_index (Proc.devRef .tc main_v15)) = val_main_v15 (F := F) (V0 (Proc.devRef .tc main_arg1)) (V0 (Proc.devRef .tc main_arg4)) :=
  (held4_keep V0 main_v15 (by decide)).trans (held3_main_v15 V0)
theorem held4_main_v16 : held4 V0 (no_index (Proc.devRef .tc main_v16)) = val_main_v16 (F := F) (V0 (Proc.devRef .tc main_arg0)) (V0 (Proc.devRef .tc main_arg2)) :=
  (held4_keep V0 main_v16 (by decide)).trans (held3_main_v16 V0)
set_option maxRecDepth 65536 in
theorem held4_main_v17 : held4 V0 (no_index (Proc.devRef .tc main_v17)) = val_main_v17 (F := F) (V0 (Proc.devRef .tc main_arg0)) (V0 (Proc.devRef .tc main_arg3)) := by
  unfold held4
  simp only [stretch4, ops, List.drop_succ_cons, List.drop_zero, List.take_succ_cons, List.take_zero]
  after_results_simp
  first
    | (rw [held3_main_v2, held3_main_v6]; rfl)
    | (simp only [held3_main_v2, held3_main_v6] <;> rfl)

/-- The buffer contents after the first 5 stretches. -/
def held5 : Valuation τ sig (Elt F) := after stretch5 (held4 V0)
/-- The buffers stretch 5 writes. -/
abbrev stretch5_W : List (Ref sig .tc) := [main_v18, main_v19, main_v20, main_cst, main_v21, main_v22, main_cst_2, main_v23, main_v24, main_v25, main_v26, main_v27, main_v28, main_v29, main_cst_3, main_v30, main_cst_4, main_v31]
theorem stretch5_writes : (stretch5 : List (HloOp τ sig (Elt F))).Forall fun op => op.writes ⊆ (stretch5_W.map (Proc.devRef (τ := τ) .tc)).toFinset := by
  simp only [stretch5, ops, List.drop_succ_cons, List.drop_zero, List.take_succ_cons, List.take_zero, List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- A buffer stretch 5 does not write keeps its contents through it. -/
theorem held5_keep (r : Ref sig .tc) (h : r ∉ stretch5_W) :
    held5 V0 (Proc.devRef .tc r) = held4 V0 (Proc.devRef .tc r) :=
  after_of_writes_sub stretch5 _ stretch5_writes h
theorem held5_main_arg0 : held5 V0 (no_index (Proc.devRef .tc main_arg0)) = V0 (Proc.devRef .tc main_arg0) :=
  (held5_keep V0 main_arg0 (by decide)).trans (held4_main_arg0 V0)
theorem held5_main_arg1 : held5 V0 (no_index (Proc.devRef .tc main_arg1)) = V0 (Proc.devRef .tc main_arg1) :=
  (held5_keep V0 main_arg1 (by decide)).trans (held4_main_arg1 V0)
theorem held5_main_arg2 : held5 V0 (no_index (Proc.devRef .tc main_arg2)) = V0 (Proc.devRef .tc main_arg2) :=
  (held5_keep V0 main_arg2 (by decide)).trans (held4_main_arg2 V0)
theorem held5_main_arg3 : held5 V0 (no_index (Proc.devRef .tc main_arg3)) = V0 (Proc.devRef .tc main_arg3) :=
  (held5_keep V0 main_arg3 (by decide)).trans (held4_main_arg3 V0)
theorem held5_main_arg4 : held5 V0 (no_index (Proc.devRef .tc main_arg4)) = V0 (Proc.devRef .tc main_arg4) :=
  (held5_keep V0 main_arg4 (by decide)).trans (held4_main_arg4 V0)
set_option maxRecDepth 65536 in
set_option maxHeartbeats 1800000 in
theorem held5_main_v26 : held5 V0 (no_index (Proc.devRef .tc main_v26)) = val_main_v26 (F := F) (V0 (Proc.devRef .tc main_arg0)) (V0 (Proc.devRef .tc main_arg2)) (V0 (Proc.devRef .tc main_arg3)) := by
  unfold held5
  simp only [stretch5, ops, List.drop_succ_cons, List.drop_zero, List.take_succ_cons, List.take_zero]
  after_results_simp
  first
    | (rw [held4_main_v17, held4_main_v16]; rfl)
    | (simp only [held4_main_v17, held4_main_v16] <;> rfl)
set_option maxRecDepth 65536 in
set_option maxHeartbeats 1800000 in
theorem held5_main_v29 : held5 V0 (no_index (Proc.devRef .tc main_v29)) = val_main_v29 (F := F) (V0 (Proc.devRef .tc main_arg1)) (V0 (Proc.devRef .tc main_arg4)) := by
  unfold held5
  simp only [stretch5, ops, List.drop_succ_cons, List.drop_zero, List.take_succ_cons, List.take_zero]
  after_results_simp
  first
    | (rw [held4_main_v15]; rfl)
    | (simp only [held4_main_v15] <;> rfl)
set_option maxRecDepth 65536 in
set_option maxHeartbeats 1800000 in
theorem held5_main_v30 : held5 V0 (no_index (Proc.devRef .tc main_v30)) = val_main_v30 (F := F) := by
  unfold held5
  simp only [stretch5, ops, List.drop_succ_cons, List.drop_zero, List.take_succ_cons, List.take_zero]
  after_results_simp
  all_goals rfl
set_option maxRecDepth 65536 in
set_option maxHeartbeats 1800000 in
theorem held5_main_v31 : held5 V0 (no_index (Proc.devRef .tc main_v31)) = val_main_v31 (F := F) := by
  unfold held5
  simp only [stretch5, ops, List.drop_succ_cons, List.drop_zero, List.take_succ_cons, List.take_zero]
  after_results_simp
  all_goals rfl

/-- The buffer contents after the first 6 stretches. -/
def held6 : Valuation τ sig (Elt F) := after stretch6 (held5 V0)
/-- The buffers stretch 6 writes. -/
abbrev stretch6_W : List (Ref sig .tc) := [main_v32, main_v33, main_v34, main_v35, main_v36, main_cst_5, main_v37, main_c_6, main_v38, main_v39, main_c_7, main_v40, main_v41, main_v42, main_c_8, main_v43, main_v44, main_c_9, main_v45, main_v46, main_v47, main_v48, main_v49]
theorem stretch6_writes : (stretch6 : List (HloOp τ sig (Elt F))).Forall fun op => op.writes ⊆ (stretch6_W.map (Proc.devRef (τ := τ) .tc)).toFinset := by
  simp only [stretch6, ops, List.drop_succ_cons, List.drop_zero, List.take_succ_cons, List.take_zero, List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- A buffer stretch 6 does not write keeps its contents through it. -/
theorem held6_keep (r : Ref sig .tc) (h : r ∉ stretch6_W) :
    held6 V0 (Proc.devRef .tc r) = held5 V0 (Proc.devRef .tc r) :=
  after_of_writes_sub stretch6 _ stretch6_writes h
theorem held6_main_arg0 : held6 V0 (no_index (Proc.devRef .tc main_arg0)) = V0 (Proc.devRef .tc main_arg0) :=
  (held6_keep V0 main_arg0 (by decide)).trans (held5_main_arg0 V0)
theorem held6_main_arg1 : held6 V0 (no_index (Proc.devRef .tc main_arg1)) = V0 (Proc.devRef .tc main_arg1) :=
  (held6_keep V0 main_arg1 (by decide)).trans (held5_main_arg1 V0)
theorem held6_main_arg2 : held6 V0 (no_index (Proc.devRef .tc main_arg2)) = V0 (Proc.devRef .tc main_arg2) :=
  (held6_keep V0 main_arg2 (by decide)).trans (held5_main_arg2 V0)
theorem held6_main_arg3 : held6 V0 (no_index (Proc.devRef .tc main_arg3)) = V0 (Proc.devRef .tc main_arg3) :=
  (held6_keep V0 main_arg3 (by decide)).trans (held5_main_arg3 V0)
theorem held6_main_arg4 : held6 V0 (no_index (Proc.devRef .tc main_arg4)) = V0 (Proc.devRef .tc main_arg4) :=
  (held6_keep V0 main_arg4 (by decide)).trans (held5_main_arg4 V0)
theorem held6_main_v26 : held6 V0 (no_index (Proc.devRef .tc main_v26)) = val_main_v26 (F := F) (V0 (Proc.devRef .tc main_arg0)) (V0 (Proc.devRef .tc main_arg2)) (V0 (Proc.devRef .tc main_arg3)) :=
  (held6_keep V0 main_v26 (by decide)).trans (held5_main_v26 V0)
theorem held6_main_v29 : held6 V0 (no_index (Proc.devRef .tc main_v29)) = val_main_v29 (F := F) (V0 (Proc.devRef .tc main_arg1)) (V0 (Proc.devRef .tc main_arg4)) :=
  (held6_keep V0 main_v29 (by decide)).trans (held5_main_v29 V0)
set_option maxRecDepth 65536 in
set_option maxHeartbeats 2000000 in
theorem held6_main_v35 : held6 V0 (no_index (Proc.devRef .tc main_v35)) = val_main_v35 (F := F) := by
  unfold held6
  simp only [stretch6, ops, List.drop_succ_cons, List.drop_zero, List.take_succ_cons, List.take_zero]
  after_results_simp
  first
    | (rw [held5_main_v31, held5_main_v30]; rfl)
    | (simp only [held5_main_v31, held5_main_v30] <;> rfl)
set_option maxRecDepth 65536 in
set_option maxHeartbeats 2000000 in
theorem held6_main_v37 : held6 V0 (no_index (Proc.devRef .tc main_v37)) = val_main_v37 (F := F) := by
  unfold held6
  simp only [stretch6, ops, List.drop_succ_cons, List.drop_zero, List.take_succ_cons, List.take_zero]
  after_results_simp
  all_goals rfl
set_option maxRecDepth 65536 in
set_option maxHeartbeats 2000000 in
theorem held6_main_v48 : held6 V0 (no_index (Proc.devRef .tc main_v48)) = val_main_v48 (F := F) := by
  unfold held6
  simp only [stretch6, ops, List.drop_succ_cons, List.drop_zero, List.take_succ_cons, List.take_zero]
  after_results_simp
  all_goals rfl
set_option maxRecDepth 65536 in
set_option maxHeartbeats 2000000 in
theorem held6_main_v49 : held6 V0 (no_index (Proc.devRef .tc main_v49)) = val_main_v49 (F := F) := by
  unfold held6
  simp only [stretch6, ops, List.drop_succ_cons, List.drop_zero, List.take_succ_cons, List.take_zero]
  after_results_simp
  all_goals rfl

/-- The buffer contents after the first 7 stretches. -/
def held7 : Valuation τ sig (Elt F) := after stretch7 (held6 V0)
/-- The buffers stretch 7 writes. -/
abbrev stretch7_W : List (Ref sig .tc) := [main_v50, main_v51, main_cst_10, main_v52, main_v53, main_v54, main_v55, main_v56, main_v57, main_v58]
theorem stretch7_writes : (stretch7 : List (HloOp τ sig (Elt F))).Forall fun op => op.writes ⊆ (stretch7_W.map (Proc.devRef (τ := τ) .tc)).toFinset := by
  simp only [stretch7, ops, List.drop_succ_cons, List.drop_zero, List.take_succ_cons, List.take_zero, List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- A buffer stretch 7 does not write keeps its contents through it. -/
theorem held7_keep (r : Ref sig .tc) (h : r ∉ stretch7_W) :
    held7 V0 (Proc.devRef .tc r) = held6 V0 (Proc.devRef .tc r) :=
  after_of_writes_sub stretch7 _ stretch7_writes h
theorem held7_main_arg0 : held7 V0 (no_index (Proc.devRef .tc main_arg0)) = V0 (Proc.devRef .tc main_arg0) :=
  (held7_keep V0 main_arg0 (by decide)).trans (held6_main_arg0 V0)
theorem held7_main_arg1 : held7 V0 (no_index (Proc.devRef .tc main_arg1)) = V0 (Proc.devRef .tc main_arg1) :=
  (held7_keep V0 main_arg1 (by decide)).trans (held6_main_arg1 V0)
theorem held7_main_arg2 : held7 V0 (no_index (Proc.devRef .tc main_arg2)) = V0 (Proc.devRef .tc main_arg2) :=
  (held7_keep V0 main_arg2 (by decide)).trans (held6_main_arg2 V0)
theorem held7_main_arg3 : held7 V0 (no_index (Proc.devRef .tc main_arg3)) = V0 (Proc.devRef .tc main_arg3) :=
  (held7_keep V0 main_arg3 (by decide)).trans (held6_main_arg3 V0)
theorem held7_main_arg4 : held7 V0 (no_index (Proc.devRef .tc main_arg4)) = V0 (Proc.devRef .tc main_arg4) :=
  (held7_keep V0 main_arg4 (by decide)).trans (held6_main_arg4 V0)
theorem held7_main_v26 : held7 V0 (no_index (Proc.devRef .tc main_v26)) = val_main_v26 (F := F) (V0 (Proc.devRef .tc main_arg0)) (V0 (Proc.devRef .tc main_arg2)) (V0 (Proc.devRef .tc main_arg3)) :=
  (held7_keep V0 main_v26 (by decide)).trans (held6_main_v26 V0)
set_option maxRecDepth 65536 in
set_option maxHeartbeats 1000000 in
theorem held7_main_v54 : held7 V0 (no_index (Proc.devRef .tc main_v54)) = val_main_v54 (F := F) (V0 (Proc.devRef .tc main_arg1)) (V0 (Proc.devRef .tc main_arg4)) := by
  unfold held7
  simp only [stretch7, ops, List.drop_succ_cons, List.drop_zero, List.take_succ_cons, List.take_zero]
  after_results_simp
  first
    | (rw [held6_main_v29]; rfl)
    | (simp only [held6_main_v29] <;> rfl)
set_option maxRecDepth 65536 in
set_option maxHeartbeats 1000000 in
theorem held7_main_v57 : held7 V0 (no_index (Proc.devRef .tc main_v57)) = val_main_v57 (F := F) (V0 (Proc.devRef .tc main_arg1)) (V0 (Proc.devRef .tc main_arg4)) := by
  unfold held7
  simp only [stretch7, ops, List.drop_succ_cons, List.drop_zero, List.take_succ_cons, List.take_zero]
  after_results_simp
  first
    | (rw [held6_main_v35, held6_main_v49, held6_main_v48, held6_main_v37, held6_main_v29]; rfl)
    | (simp only [held6_main_v35, held6_main_v49, held6_main_v48, held6_main_v37, held6_main_v29] <;> rfl)
set_option maxRecDepth 65536 in
set_option maxHeartbeats 1000000 in
theorem held7_main_v58 : held7 V0 (no_index (Proc.devRef .tc main_v58)) = val_main_v58 (F := F) (V0 (Proc.devRef .tc main_arg1)) (V0 (Proc.devRef .tc main_arg4)) := by
  unfold held7
  simp only [stretch7, ops, List.drop_succ_cons, List.drop_zero, List.take_succ_cons, List.take_zero]
  after_results_simp
  first
    | (rw [held6_main_v35, held6_main_v49, held6_main_v48, held6_main_v37, held6_main_v29]; rfl)
    | (simp only [held6_main_v35, held6_main_v49, held6_main_v48, held6_main_v37, held6_main_v29] <;> rfl)

/-- The buffer contents after the first 8 stretches. -/
def held8 : Valuation τ sig (Elt F) := after stretch8 (held7 V0)
/-- The buffers stretch 8 writes. -/
abbrev stretch8_W : List (Ref sig .tc) := [main_v59, main_v60, main_v61, main_v62]
theorem stretch8_writes : (stretch8 : List (HloOp τ sig (Elt F))).Forall fun op => op.writes ⊆ (stretch8_W.map (Proc.devRef (τ := τ) .tc)).toFinset := by
  simp only [stretch8, ops, List.drop_succ_cons, List.drop_zero, List.take_succ_cons, List.take_zero, List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- A buffer stretch 8 does not write keeps its contents through it. -/
theorem held8_keep (r : Ref sig .tc) (h : r ∉ stretch8_W) :
    held8 V0 (Proc.devRef .tc r) = held7 V0 (Proc.devRef .tc r) :=
  after_of_writes_sub stretch8 _ stretch8_writes h
theorem held8_main_arg0 : held8 V0 (no_index (Proc.devRef .tc main_arg0)) = V0 (Proc.devRef .tc main_arg0) :=
  (held8_keep V0 main_arg0 (by decide)).trans (held7_main_arg0 V0)
theorem held8_main_arg1 : held8 V0 (no_index (Proc.devRef .tc main_arg1)) = V0 (Proc.devRef .tc main_arg1) :=
  (held8_keep V0 main_arg1 (by decide)).trans (held7_main_arg1 V0)
theorem held8_main_arg2 : held8 V0 (no_index (Proc.devRef .tc main_arg2)) = V0 (Proc.devRef .tc main_arg2) :=
  (held8_keep V0 main_arg2 (by decide)).trans (held7_main_arg2 V0)
theorem held8_main_arg3 : held8 V0 (no_index (Proc.devRef .tc main_arg3)) = V0 (Proc.devRef .tc main_arg3) :=
  (held8_keep V0 main_arg3 (by decide)).trans (held7_main_arg3 V0)
theorem held8_main_arg4 : held8 V0 (no_index (Proc.devRef .tc main_arg4)) = V0 (Proc.devRef .tc main_arg4) :=
  (held8_keep V0 main_arg4 (by decide)).trans (held7_main_arg4 V0)
theorem held8_main_v54 : held8 V0 (no_index (Proc.devRef .tc main_v54)) = val_main_v54 (F := F) (V0 (Proc.devRef .tc main_arg1)) (V0 (Proc.devRef .tc main_arg4)) :=
  (held8_keep V0 main_v54 (by decide)).trans (held7_main_v54 V0)
set_option maxRecDepth 65536 in
theorem held8_main_v59 : held8 V0 (no_index (Proc.devRef .tc main_v59)) = val_main_v59 (F := F) (V0 (Proc.devRef .tc main_arg1)) (V0 (Proc.devRef .tc main_arg4)) := by
  unfold held8
  simp only [stretch8, ops, List.drop_succ_cons, List.drop_zero, List.take_succ_cons, List.take_zero]
  after_results_simp
  first
    | (rw [held7_main_v58, held7_main_v57]; rfl)
    | (simp only [held7_main_v58, held7_main_v57] <;> rfl)
set_option maxRecDepth 65536 in
theorem held8_main_v61 : held8 V0 (no_index (Proc.devRef .tc main_v61)) = val_main_v61 (F := F) (V0 (Proc.devRef .tc main_arg0)) (V0 (Proc.devRef .tc main_arg2)) (V0 (Proc.devRef .tc main_arg3)) := by
  unfold held8
  simp only [stretch8, ops, List.drop_succ_cons, List.drop_zero, List.take_succ_cons, List.take_zero]
  after_results_simp
  first
    | (rw [held7_main_v26]; rfl)
    | (simp only [held7_main_v26] <;> rfl)
set_option maxRecDepth 65536 in
theorem held8_main_v62 : held8 V0 (no_index (Proc.devRef .tc main_v62)) = val_main_v62 (F := F) (V0 (Proc.devRef .tc main_arg0)) (V0 (Proc.devRef .tc main_arg2)) (V0 (Proc.devRef .tc main_arg3)) := by
  unfold held8
  simp only [stretch8, ops, List.drop_succ_cons, List.drop_zero, List.take_succ_cons, List.take_zero]
  after_results_simp
  first
    | (rw [held7_main_v26]; rfl)
    | (simp only [held7_main_v26] <;> rfl)

/-- The buffer contents after the first 9 stretches. -/
def held9 : Valuation τ sig (Elt F) := after stretch9 (held8 V0)
/-- The buffers stretch 9 writes. -/
abbrev stretch9_W : List (Ref sig .tc) := [main_v63, main_v64, main_v65, main_v66]
theorem stretch9_writes : (stretch9 : List (HloOp τ sig (Elt F))).Forall fun op => op.writes ⊆ (stretch9_W.map (Proc.devRef (τ := τ) .tc)).toFinset := by
  simp only [stretch9, ops, List.drop_succ_cons, List.drop_zero, List.take_succ_cons, List.take_zero, List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- A buffer stretch 9 does not write keeps its contents through it. -/
theorem held9_keep (r : Ref sig .tc) (h : r ∉ stretch9_W) :
    held9 V0 (Proc.devRef .tc r) = held8 V0 (Proc.devRef .tc r) :=
  after_of_writes_sub stretch9 _ stretch9_writes h
theorem held9_main_arg0 : held9 V0 (no_index (Proc.devRef .tc main_arg0)) = V0 (Proc.devRef .tc main_arg0) :=
  (held9_keep V0 main_arg0 (by decide)).trans (held8_main_arg0 V0)
theorem held9_main_arg1 : held9 V0 (no_index (Proc.devRef .tc main_arg1)) = V0 (Proc.devRef .tc main_arg1) :=
  (held9_keep V0 main_arg1 (by decide)).trans (held8_main_arg1 V0)
theorem held9_main_arg2 : held9 V0 (no_index (Proc.devRef .tc main_arg2)) = V0 (Proc.devRef .tc main_arg2) :=
  (held9_keep V0 main_arg2 (by decide)).trans (held8_main_arg2 V0)
theorem held9_main_arg3 : held9 V0 (no_index (Proc.devRef .tc main_arg3)) = V0 (Proc.devRef .tc main_arg3) :=
  (held9_keep V0 main_arg3 (by decide)).trans (held8_main_arg3 V0)
theorem held9_main_arg4 : held9 V0 (no_index (Proc.devRef .tc main_arg4)) = V0 (Proc.devRef .tc main_arg4) :=
  (held9_keep V0 main_arg4 (by decide)).trans (held8_main_arg4 V0)
theorem held9_main_v59 : held9 V0 (no_index (Proc.devRef .tc main_v59)) = val_main_v59 (F := F) (V0 (Proc.devRef .tc main_arg1)) (V0 (Proc.devRef .tc main_arg4)) :=
  (held9_keep V0 main_v59 (by decide)).trans (held8_main_v59 V0)
set_option maxRecDepth 65536 in
theorem held9_main_v63 : held9 V0 (no_index (Proc.devRef .tc main_v63)) = val_main_v63 (F := F) (V0 (Proc.devRef .tc main_arg0)) (V0 (Proc.devRef .tc main_arg2)) (V0 (Proc.devRef .tc main_arg3)) := by
  unfold held9
  simp only [stretch9, ops, List.drop_succ_cons, List.drop_zero, List.take_succ_cons, List.take_zero]
  after_results_simp
  first
    | (rw [held8_main_v62, held8_main_v61]; rfl)
    | (simp only [held8_main_v62, held8_main_v61] <;> rfl)
set_option maxRecDepth 65536 in
theorem held9_main_v65 : held9 V0 (no_index (Proc.devRef .tc main_v65)) = val_main_v65 (F := F) (V0 (Proc.devRef .tc main_arg1)) (V0 (Proc.devRef .tc main_arg4)) := by
  unfold held9
  simp only [stretch9, ops, List.drop_succ_cons, List.drop_zero, List.take_succ_cons, List.take_zero]
  after_results_simp
  first
    | (rw [held8_main_v54]; rfl)
    | (simp only [held8_main_v54] <;> rfl)
set_option maxRecDepth 65536 in
theorem held9_main_v66 : held9 V0 (no_index (Proc.devRef .tc main_v66)) = val_main_v66 (F := F) (V0 (Proc.devRef .tc main_arg1)) (V0 (Proc.devRef .tc main_arg4)) := by
  unfold held9
  simp only [stretch9, ops, List.drop_succ_cons, List.drop_zero, List.take_succ_cons, List.take_zero]
  after_results_simp
  first
    | (rw [held8_main_v54]; rfl)
    | (simp only [held8_main_v54] <;> rfl)

/-- The buffer contents after the first 10 stretches. -/
def held10 : Valuation τ sig (Elt F) := after stretch10 (held9 V0)
/-- The buffers stretch 10 writes. -/
abbrev stretch10_W : List (Ref sig .tc) := [main_v67, main_v68, main_v69, main_cst_11, main_v70, main_v71, main_v72, main_v73, main_v74, main_cst_12, main_v75, main_v76, main_v77, main_cst_13, main_v78, main_cst_14, main_v79, main_v80, main_cst_15, main_v81, main_v82, main_cst_16, main_v83, main_cst_17, main_v84]
theorem stretch10_writes : (stretch10 : List (HloOp τ sig (Elt F))).Forall fun op => op.writes ⊆ (stretch10_W.map (Proc.devRef (τ := τ) .tc)).toFinset := by
  simp only [stretch10, ops, List.drop_succ_cons, List.drop_zero, List.take_succ_cons, List.take_zero, List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- A buffer stretch 10 does not write keeps its contents through it. -/
theorem held10_keep (r : Ref sig .tc) (h : r ∉ stretch10_W) :
    held10 V0 (Proc.devRef .tc r) = held9 V0 (Proc.devRef .tc r) :=
  after_of_writes_sub stretch10 _ stretch10_writes h
theorem held10_main_arg0 : held10 V0 (no_index (Proc.devRef .tc main_arg0)) = V0 (Proc.devRef .tc main_arg0) :=
  (held10_keep V0 main_arg0 (by decide)).trans (held9_main_arg0 V0)
theorem held10_main_arg1 : held10 V0 (no_index (Proc.devRef .tc main_arg1)) = V0 (Proc.devRef .tc main_arg1) :=
  (held10_keep V0 main_arg1 (by decide)).trans (held9_main_arg1 V0)
theorem held10_main_arg2 : held10 V0 (no_index (Proc.devRef .tc main_arg2)) = V0 (Proc.devRef .tc main_arg2) :=
  (held10_keep V0 main_arg2 (by decide)).trans (held9_main_arg2 V0)
theorem held10_main_arg3 : held10 V0 (no_index (Proc.devRef .tc main_arg3)) = V0 (Proc.devRef .tc main_arg3) :=
  (held10_keep V0 main_arg3 (by decide)).trans (held9_main_arg3 V0)
theorem held10_main_arg4 : held10 V0 (no_index (Proc.devRef .tc main_arg4)) = V0 (Proc.devRef .tc main_arg4) :=
  (held10_keep V0 main_arg4 (by decide)).trans (held9_main_arg4 V0)
set_option maxRecDepth 65536 in
set_option maxHeartbeats 2000000 in
theorem held10_main_v84 : held10 V0 (no_index (Proc.devRef .tc main_v84)) = val_main_v84 (F := F) (V0 (Proc.devRef .tc main_arg0)) (V0 (Proc.devRef .tc main_arg1)) (V0 (Proc.devRef .tc main_arg2)) (V0 (Proc.devRef .tc main_arg3)) (V0 (Proc.devRef .tc main_arg4)) := by
  unfold held10
  simp only [stretch10, ops, List.drop_succ_cons, List.drop_zero, List.take_succ_cons, List.take_zero]
  after_results_simp
  first
    | (rw [held9_main_v59, held9_main_v66, held9_main_v65, held9_main_v63]; rfl)
    | (simp only [held9_main_v59, held9_main_v66, held9_main_v65, held9_main_v63] <;> rfl)

set_option maxRecDepth 8192 in
/-- The whole list from any contents is the ten stretches one after the other. -/
theorem after_ops : after ops V0 = held10 V0 := by
  simp only [ops_cut, after_append]
  rfl

end

/-! ## The run -/

section
variable (m : (ℓ : Loc nD τ sig) → Buf (Elt F) ℓ) (c : Dev nD)

/-- After all 105 operations the result buffer holds the last stage of the five argument buffers' launch contents. -/
theorem result_held :
    after ops (launchContents m c) (Proc.devRef .tc main_v84) = val_main_v84 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [after_ops]
  exact held10_main_v84 (launchContents m c)

/-- Argument 0 is never written. -/
theorem arg0_held :
    after ops (launchContents m c) (Proc.devRef .tc main_arg0) = m ((c.tc : Thread nD τ).loc main_arg0) := by
  rw [after_ops]
  exact held10_main_arg0 (launchContents m c)

/-- Argument 1 is never written. -/
theorem arg1_held :
    after ops (launchContents m c) (Proc.devRef .tc main_arg1) = m ((c.tc : Thread nD τ).loc main_arg1) := by
  rw [after_ops]
  exact held10_main_arg1 (launchContents m c)

/-- Argument 2 is never written. -/
theorem arg2_held :
    after ops (launchContents m c) (Proc.devRef .tc main_arg2) = m ((c.tc : Thread nD τ).loc main_arg2) := by
  rw [after_ops]
  exact held10_main_arg2 (launchContents m c)

/-- Argument 3 is never written. -/
theorem arg3_held :
    after ops (launchContents m c) (Proc.devRef .tc main_arg3) = m ((c.tc : Thread nD τ).loc main_arg3) := by
  rw [after_ops]
  exact held10_main_arg3 (launchContents m c)

/-- Argument 4 is never written. -/
theorem arg4_held :
    after ops (launchContents m c) (Proc.devRef .tc main_arg4) = m ((c.tc : Thread nD τ).loc main_arg4) := by
  rw [after_ops]
  exact held10_main_arg4 (launchContents m c)

end

/-- On every device, from any memory with zero counters: every weakly fair execution of the reference terminates with
    its result buffer at the last stage of the five argument buffers' launch contents (stated once per value the
    program returns: it returns the one buffer three times) and the five arguments unchanged. -/
theorem run_staged (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v84) = val_main_v84 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v84) = val_main_v84 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v84) = val_main_v84 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v84).trans (result_held m c), (h c main_v84).trans (result_held m c),
      (h c main_v84).trans (result_held m c),
      (h c main_arg0).trans (arg0_held m c), (h c main_arg1).trans (arg1_held m c), (h c main_arg2).trans (arg2_held m c),
      (h c main_arg3).trans (arg3_held m c), (h c main_arg4).trans (arg4_held m c)⟩)
    (run_seq scopedRefs_eq scopedSems_eq defs main (fun _ => ops) main_eq (fun _ => ops_sub) m ρ)

end Cert.ReferenceIdeal.Staged

end
-- ==== Proof.Value.Spec.lean ====
/-
  What both programs compute, as one function of two arrays: the 8704 contrast rows of 128 features
  (the two views' queues with the fresh batch written over their first 256 rows and appended, one
  view after the other) and the 4352 labels of one view (the label queue treated the same way).

  For anchor row r (row 3841 + r of the contrast rows, r < 4352) and contrast row j:
    sim        the inner product of the two rows, times the reciprocal temperature;
    rowMax     the largest sim over all 8704 contrast rows;
    negWeight  1 where the two rows' labels differ, 0 where they agree;
    expSum     the sum over j of exp (sim - rowMax) weighted by negWeight;
    logProb    (sim - rowMax) - log expSum;
    posWeight  1 where the labels agree, except on the diagonal j = anchor, where it is 1 only for
               the rows that belong to the old part of the second view's queue;
    numer      the sum over j of posWeight * min 0 logProb;   count  the sum over j of posWeight.
  The loss is minus the mean over the 4352 anchors of numer / count.

  The reciprocal temperature is the exact reciprocal of the 32-bit float nearest to 0.07, the number
  the reference divides by.
-/
import Idealize.ShloMosaic.PureOps.Ideal

noncomputable section

namespace Cert.SupCon

open Idealize.ShloMosaic

/-- The reciprocal of 9395241 / 2^27, the 32-bit float nearest to 0.07. -/
def invTemp : EReal := ((134217728 / 9395241 : ℝ) : EReal)

/-- Contrast row j of the two concatenated views carries the label of row j mod 4352 of one view. -/
def labOf (labB : Fin 4352 → BitVec 32) (j : Fin 8704) : BitVec 32 :=
  labB ⟨j.val % 4352, Nat.mod_lt _ (by norm_num)⟩

/-- Anchor r is contrast row 3841 + r. -/
def anchor (r : Fin 4352) : Fin 8704 := ⟨3841 + r.val, by have := r.isLt; omega⟩

section
variable (C : Fin 8704 → Fin 128 → EReal) (labB : Fin 4352 → BitVec 32)

def sim (i j : Fin 8704) : EReal := (∑ k : Fin 128, C i k * C j k) * invTemp

def rowMax (r : Fin 4352) : EReal := Finset.univ.sup fun j : Fin 8704 => sim C (anchor r) j

def negWeight (r : Fin 4352) (j : Fin 8704) : EReal :=
  if labOf labB (anchor r) = labOf labB j then 0 else 1

def expSum (r : Fin 4352) : EReal :=
  ∑ j : Fin 8704, Ideal.exp (sim C (anchor r) j - rowMax C r) * negWeight labB r j

def logProb (r : Fin 4352) (j : Fin 8704) : EReal :=
  (sim C (anchor r) j - rowMax C r) - Ideal.log (expSum C labB r)

/-- On the diagonal only rows 4352 ≤ g < 8192 count as their own positives. -/
def diagWeight (g : Fin 8704) : EReal := if 4352 ≤ g.val ∧ g.val < 8192 then 1 else 0

def posWeight (r : Fin 4352) (j : Fin 8704) : EReal :=
  if labOf labB (anchor r) = labOf labB j then (if anchor r = j then diagWeight (anchor r) else 1) else 0

def numer (r : Fin 4352) : EReal :=
  ∑ j : Fin 8704, posWeight labB r j * min 0 (logProb C labB r j)

def count (r : Fin 4352) : EReal := ∑ j : Fin 8704, posWeight labB r j

/-- The mean over the anchors of minus numer / count, with the three literal words both programs
    carry (0, -1 and 4352) left as the words they are. -/
def loss : EReal :=
  Ideal.div (Ideal.ofBits .f32 0x00000000#32
      + ∑ r : Fin 4352, Ideal.ofBits .f32 0xBF800000#32 * Ideal.div (numer C labB r) (count labB r))
    (Ideal.ofBits .f32 0x45880000#32)

end

/-- The 32-bit words of 0 and 1. -/
theorem ofBits_zero : Ideal.ofBits .f32 0x00000000#32 = 0 := by simp [Ideal.ofBits, Ideal.ieee]
theorem ofBits_one : Ideal.ofBits .f32 0x3F800000#32 = 1 := by
  simp [Ideal.ofBits, Ideal.ieee, -EReal.coe_mul]; norm_num
/-- The word of minus infinity is the bottom element. -/
theorem ofBits_negInf : Ideal.ofBits .f32 0xFF800000#32 = ⊥ := by simp [Ideal.ofBits, Ideal.ieee]

/-- Dividing by the 32-bit float nearest to 0.07 is multiplying by the reciprocal temperature. -/
theorem div_temp (x : EReal) : Ideal.div x (Ideal.ofBits .f32 0x3D8F5C29#32) = x * invTemp := by
  have h : Ideal.ofBits .f32 0x3D8F5C29#32 = ((9395241 / 134217728 : ℝ) : EReal) := by
    simp [Ideal.ofBits, Ideal.ieee, -EReal.coe_mul]; norm_num
  rw [h, Ideal.div_coe (by norm_num : (9395241 / 134217728 : ℝ) ≠ 0)]
  unfold invTemp; congr 2; norm_num

end Cert.SupCon

end
-- ==== Proof.LibScatterRead.lean ====
/-
  General lemmas, about no particular program, that read a host scatter, scatter-add or gather AT AN INDEX: which updates
  land on an entry, as a condition on the index words read signed.

  The landing index. `resultIdx?_eq_some_iff`: an update lands on operand index i exactly when, on every operand axis,
  its start (the index word for that axis read signed, not clamped; zero on an axis the map does not name) plus its
  window coordinate is i's coordinate. For each shape of dimension numbers below, `start_…` and `window_…` compute the
  two summands on each axis and `resultIdx?_…` states the landing condition in coordinates.

  Accumulating scatters (the ideal instance: the exact sum of the colliding updates).
  • `scatterAdd_vec_apply`: E scalar updates into a vector [n], index array [E,1]: entry a ends at its old value plus
    the sum of the updates whose index word, read signed, is a.
  • `scatterAdd_rows_apply`: E rows of f entries into a matrix [n,f], index array [E,1] (the row index): entry (a,k)
    ends at its old value plus the sum over the updates e whose index word is a of their k-th entries.
  • `scatterAdd_mat_apply`: E scalar updates into a matrix [n1,n2], index array [E,2] (row, column): entry (p,q) ends at
    its old value plus the sum of the updates whose two index words are p and q.

  Overwriting scatters (the body returns the update; any element type). `setStep` is one step of the fold over the
  update positions in row-major order, `foldl_setStep_miss` / `foldl_setStep_hit` the fold's invariant at one entry,
  and `scatter_set_miss` / `scatter_set_hit` the scatter read at an entry: the operand's entry when no update lands
  there, the update's when exactly one does.
  • `scatter_set_prefix_vec`: the leading n entries of a vector [N] overwritten (one start index, the word 0): entry a
    is update a when a < n and the operand's entry otherwise.
  • `scatter_set_prefix_rows`: the same for the leading n rows of a matrix [N,f].

  Gather.
  • `gather_rows_apply`: E rows of a matrix [n,f] gathered, index array [E,1], slice sizes [1,f]: for an index word that
    is in range (read signed it is a < n, so the clamp does nothing), row e of the result is row a of the operand.
-/
import Idealize.ShloMosaic.PureOps.Ideal
import Idealize.ShloMosaic.PureOps.ShapeOps
import Idealize.ShloMosaic.PureOps.Contract
import Idealize.ShloMosaic.PureOps.Dims
import Idealize.ShloMosaic.Lib.ValueIdx

noncomputable section

open Idealize.ShloMosaic Idealize.ShloMosaic.ValueIdx

namespace Idealize.ShloMosaic.ScatterRead

/-- An update lands on operand index i exactly when on every operand axis its start plus its window coordinate is i's coordinate. -/
theorem resultIdx?_eq_some_iff {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  split_ifs with h
  · rw [Option.some.injEq]
    constructor
    · intro heq a
      rw [← heq]
      exact (Int.toNat_of_nonneg (h a).1).symm
    · intro hall
      funext a
      refine Fin.ext ?_
      show (d.start j idx a + (d.window j a : ℤ)).toNat = (i a).val
      rw [hall a]; exact Int.toNat_natCast _
  · constructor
    · intro heq; exact absurd heq (by simp)
    · intro hall
      exfalso; apply h
      intro a
      rw [hall a]
      exact ⟨Int.natCast_nonneg _, by exact_mod_cast (i a).isLt⟩

/-- The vector case: the start on the one operand axis is the update's index word read signed. -/
theorem start_vec {n E : ℕ} (d : ScatterDims ⟨1, ![n]⟩ ⟨2, ![E, 1]⟩ ⟨1, ![E]⟩)
    (h1 : d.updateWindowDims = []) (h2 : d.insertedWindowDims = [0]) (h3 : d.scatterDimsToOperandDims = [0]) (h4 : d.indexVectorDim = 1)
    (idx : IVec ⟨2, ![E, 1]⟩ 32) (e : Fin E) (a : Fin 1) :
    d.start (ix1 e) idx a = (idx (ix2 e (0 : Fin 1))).toInt := by
  obtain ⟨uw, iw, sd, iv, wf⟩ := d
  dsimp only at h1 h2 h3 h4; subst h1 h2 h3 h4
  obtain rfl : a = 0 := Subsingleton.elim _ _
  unfold ScatterDims.start
  rw [dif_pos (List.mem_singleton.mpr rfl)]
  congr 2
  funext b; refine Fin.ext ?_
  match b with
  | ⟨0, _⟩ => rfl
  | ⟨1, _⟩ => rfl

/-- The vector case: there is no window axis, the window coordinate is zero. -/
theorem window_vec {n E : ℕ} (d : ScatterDims ⟨1, ![n]⟩ ⟨2, ![E, 1]⟩ ⟨1, ![E]⟩)
    (h1 : d.updateWindowDims = []) (h2 : d.insertedWindowDims = [0]) (h3 : d.scatterDimsToOperandDims = [0]) (h4 : d.indexVectorDim = 1)
    (j : (⟨1, ![E]⟩ : Shape).Idx) (a : Fin 1) :
    d.window j a = 0 := by
  obtain ⟨uw, iw, sd, iv, wf⟩ := d
  dsimp only at h1 h2 h3 h4; subst h1 h2 h3 h4
  obtain rfl : a = 0 := Subsingleton.elim _ _
  unfold ScatterDims.window
  rw [dif_neg (by simp [ScatterDims.sKept, Shape.kept])]

/-- A rank-1 index set is its one coordinate range. -/
def idxEquiv1 {n : ℕ} : (⟨1, ![n]⟩ : Shape).Idx ≃ Fin n where
  toFun i := i 0
  invFun a := ix1 a
  left_inv i := (eq_ix1 i).symm
  right_inv _ := rfl

/-- The vector case: update e lands on entry a exactly when its index word, read signed, is a. -/
theorem resultIdx?_vec {n E : ℕ} (d : ScatterDims ⟨1, ![n]⟩ ⟨2, ![E, 1]⟩ ⟨1, ![E]⟩)
    (h1 : d.updateWindowDims = []) (h2 : d.insertedWindowDims = [0]) (h3 : d.scatterDimsToOperandDims = [0]) (h4 : d.indexVectorDim = 1)
    (idx : IVec ⟨2, ![E, 1]⟩ 32) (e : Fin E) (a : Fin n) :
    d.resultIdx? (ix1 e) idx = some (ix1 a) ↔ (idx (ix2 e (0 : Fin 1))).toInt = (a.val : ℤ) := by
  rw [resultIdx?_eq_some_iff]
  constructor
  · intro h
    have := h 0
    rw [start_vec d h1 h2 h3 h4, window_vec d h1 h2 h3 h4, Nat.cast_zero, add_zero] at this
    exact this
  · intro h b
    obtain rfl : b = 0 := Subsingleton.elim _ _
    rw [start_vec d h1 h2 h3 h4, window_vec d h1 h2 h3 h4, Nat.cast_zero, add_zero]
    exact h

/-- A float scatter-add of E scalar updates into a vector of n entries, one start index per update (index array [E,1]): entry a ends at its old value plus the sum of the updates whose index word, read SIGNED, is a. -/
theorem scatterAdd_vec_apply {n E : ℕ} (d : ScatterDims ⟨1, ![n]⟩ ⟨2, ![E, 1]⟩ ⟨1, ![E]⟩)
    (h1 : d.updateWindowDims = []) (h2 : d.insertedWindowDims = [0]) (h3 : d.scatterDimsToOperandDims = [0]) (h4 : d.indexVectorDim = 1)
    (x : FVec Ideal ⟨1, ![n]⟩ .f32) (idx : IVec ⟨2, ![E, 1]⟩ 32) (upd : FVec Ideal ⟨1, ![E]⟩ .f32) (a : Fin n) :
    Host.scatterAdd d x idx upd (ix1 a) = x (ix1 a) + ∑ e ∈ Finset.univ.filter (fun e : Fin E => (idx (ix2 e (0 : Fin 1))).toInt = (a.val : ℤ)), upd (ix1 e) := by
  show Ideal.hostScatterAdd d x idx upd (ix1 a) = _
  unfold Ideal.hostScatterAdd
  congr 1
  refine Finset.sum_equiv idxEquiv1 ?_ ?_
  · intro j
    rw [Finset.mem_filter, Finset.mem_filter]
    simp only [Finset.mem_univ, true_and]
    rw [eq_ix1 j]
    exact resultIdx?_vec d h1 h2 h3 h4 idx (j 0) a
  · intro j _
    exact congrArg upd (eq_ix1 j)

/-- The rows case: the start on the row axis is the update's index word read signed, on the column axis zero. -/
theorem start_rows {n f E : ℕ} (d : ScatterDims ⟨2, ![n, f]⟩ ⟨2, ![E, 1]⟩ ⟨2, ![E, f]⟩)
    (h1 : d.updateWindowDims = [1]) (h2 : d.insertedWindowDims = [0]) (h3 : d.scatterDimsToOperandDims = [0]) (h4 : d.indexVectorDim = 1)
    (idx : IVec ⟨2, ![E, 1]⟩ 32) (e : Fin E) (k : Fin f) :
    d.start (ix2 e k) idx 0 = (idx (ix2 e (0 : Fin 1))).toInt ∧ d.start (ix2 e k) idx 1 = 0 := by
  obtain ⟨uw, iw, sd, iv, wf⟩ := d
  dsimp only at h1 h2 h3 h4; subst h1 h2 h3 h4
  unfold ScatterDims.start
  constructor
  · rw [dif_pos (List.mem_singleton.mpr rfl)]
    congr 2
    funext b; refine Fin.ext ?_
    match b with
    | ⟨0, _⟩ => rfl
    | ⟨1, _⟩ => rfl
  · rw [dif_neg (show (1 : Fin 2) ∉ [(0 : Fin 2)] by decide)]

/-- The rows case: the window coordinate is zero on the row axis and the update's column on the column axis. -/
theorem window_rows {n f E : ℕ} (d : ScatterDims ⟨2, ![n, f]⟩ ⟨2, ![E, 1]⟩ ⟨2, ![E, f]⟩)
    (h1 : d.updateWindowDims = [1]) (h2 : d.insertedWindowDims = [0]) (h3 : d.scatterDimsToOperandDims = [0]) (h4 : d.indexVectorDim = 1)
    (e : Fin E) (k : Fin f) :
    d.window (ix2 e k) 0 = 0 ∧ d.window (ix2 e k) 1 = k.val := by
  obtain ⟨uw, iw, sd, iv, wf⟩ := d
  dsimp only at h1 h2 h3 h4; subst h1 h2 h3 h4
  unfold ScatterDims.window
  constructor
  · rw [dif_neg (by simp [ScatterDims.sKept, Shape.kept])]
  · rw [dif_pos (by simp [ScatterDims.sKept, Shape.kept])]
    rfl

/-- The rows case: element (e, k') of the updates lands on entry (a, k) exactly when e's index word, read signed, is a and k' = k. -/
theorem resultIdx?_rows {n f E : ℕ} (d : ScatterDims ⟨2, ![n, f]⟩ ⟨2, ![E, 1]⟩ ⟨2, ![E, f]⟩)
    (h1 : d.updateWindowDims = [1]) (h2 : d.insertedWindowDims = [0]) (h3 : d.scatterDimsToOperandDims = [0]) (h4 : d.indexVectorDim = 1)
    (idx : IVec ⟨2, ![E, 1]⟩ 32) (e : Fin E) (k' : Fin f) (a : Fin n) (k : Fin f) :
    d.resultIdx? (ix2 e k') idx = some (ix2 a k) ↔ (idx (ix2 e (0 : Fin 1))).toInt = (a.val : ℤ) ∧ k' = k := by
  rw [resultIdx?_eq_some_iff]
  obtain ⟨hs0, hs1⟩ := start_rows d h1 h2 h3 h4 idx e k'
  obtain ⟨hw0, hw1⟩ := window_rows d h1 h2 h3 h4 e k'
  constructor
  · intro h
    have e0 := h 0
    have e1 := h 1
    rw [hs0, hw0, Nat.cast_zero, add_zero] at e0
    rw [hs1, hw1, zero_add] at e1
    exact ⟨e0, Fin.ext (by exact_mod_cast e1)⟩
  · rintro ⟨h, rfl⟩ b
    match b with
    | ⟨0, _⟩ =>
      show d.start (ix2 e k') idx 0 + ((d.window (ix2 e k') 0 : ℕ) : ℤ) = _
      rw [hs0, hw0, Nat.cast_zero, add_zero]; exact h
    | ⟨1, _⟩ =>
      show d.start (ix2 e k') idx 1 + ((d.window (ix2 e k') 1 : ℕ) : ℤ) = _
      rw [hs1, hw1, zero_add]

/-- A float scatter-add of E rows of f entries into a matrix [n, f] (index array [E,1], the row index). -/
theorem scatterAdd_rows_apply {n f E : ℕ} (d : ScatterDims ⟨2, ![n, f]⟩ ⟨2, ![E, 1]⟩ ⟨2, ![E, f]⟩)
    (h1 : d.updateWindowDims = [1]) (h2 : d.insertedWindowDims = [0]) (h3 : d.scatterDimsToOperandDims = [0]) (h4 : d.indexVectorDim = 1)
    (x : FVec Ideal ⟨2, ![n, f]⟩ .f32) (idx : IVec ⟨2, ![E, 1]⟩ 32) (upd : FVec Ideal ⟨2, ![E, f]⟩ .f32) (a : Fin n) (k : Fin f) :
    Host.scatterAdd d x idx upd (ix2 a k) = x (ix2 a k) + ∑ e ∈ Finset.univ.filter (fun e : Fin E => (idx (ix2 e (0 : Fin 1))).toInt = (a.val : ℤ)), upd (ix2 e k) := by
  show Ideal.hostScatterAdd d x idx upd (ix2 a k) = _
  unfold Ideal.hostScatterAdd
  congr 1
  have key : ∀ j : (⟨2, ![E, f]⟩ : Shape).Idx, d.resultIdx? j idx = some (ix2 a k) ↔
      (idx (ix2 (j 0) (0 : Fin 1))).toInt = (a.val : ℤ) ∧ j 1 = k := by
    intro j
    conv_lhs => rw [eq_ix2 j]
    exact resultIdx?_rows d h1 h2 h3 h4 idx (j 0) (j 1) a k
  refine Finset.sum_nbij' (fun j => (j 0 : Fin E)) (fun e => ix2 e k) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key (ix2 e k)).2 ⟨(Finset.mem_filter.1 he).2, rfl⟩⟩
  · intro j hj
    have hk : j 1 = k := ((key j).1 (Finset.mem_filter.1 hj).2).2
    rw [← hk]; exact (eq_ix2 j).symm
  · intro e _
    rfl
  · intro j hj
    have hk : j 1 = k := ((key j).1 (Finset.mem_filter.1 hj).2).2
    rw [← hk]; exact congrArg upd (eq_ix2 j)

/-- The matrix case: the starts on the two operand axes are the update's two index words read signed. -/
theorem start_mat {n1 n2 E : ℕ} (d : ScatterDims ⟨2, ![n1, n2]⟩ ⟨2, ![E, 2]⟩ ⟨1, ![E]⟩)
    (h1 : d.updateWindowDims = []) (h2 : d.insertedWindowDims = [0, 1]) (h3 : d.scatterDimsToOperandDims = [0, 1]) (h4 : d.indexVectorDim = 1)
    (idx : IVec ⟨2, ![E, 2]⟩ 32) (e : Fin E) :
    d.start (ix1 e) idx 0 = (idx (ix2 e (0 : Fin 2))).toInt ∧ d.start (ix1 e) idx 1 = (idx (ix2 e (1 : Fin 2))).toInt := by
  obtain ⟨uw, iw, sd, iv, wf⟩ := d
  dsimp only at h1 h2 h3 h4; subst h1 h2 h3 h4
  unfold ScatterDims.start
  constructor
  · rw [dif_pos (show (0 : Fin 2) ∈ [(0 : Fin 2), 1] by decide)]
    congr 2
    funext b; refine Fin.ext ?_
    match b with
    | ⟨0, _⟩ => rfl
    | ⟨1, _⟩ => rfl
  · rw [dif_pos (show (1 : Fin 2) ∈ [(0 : Fin 2), 1] by decide)]
    congr 2
    funext b; refine Fin.ext ?_
    match b with
    | ⟨0, _⟩ => rfl
    | ⟨1, _⟩ => rfl

/-- The matrix case: both operand axes are inserted, the window coordinate is zero. -/
theorem window_mat {n1 n2 E : ℕ} (d : ScatterDims ⟨2, ![n1, n2]⟩ ⟨2, ![E, 2]⟩ ⟨1, ![E]⟩)
    (h1 : d.updateWindowDims = []) (h2 : d.insertedWindowDims = [0, 1]) (h3 : d.scatterDimsToOperandDims = [0, 1]) (h4 : d.indexVectorDim = 1)
    (j : (⟨1, ![E]⟩ : Shape).Idx) (b : Fin 2) :
    d.window j b = 0 := by
  obtain ⟨uw, iw, sd, iv, wf⟩ := d
  dsimp only at h1 h2 h3 h4; subst h1 h2 h3 h4
  unfold ScatterDims.window
  rw [dif_neg]
  intro h
  have h' := (List.mem_filter.1 h).2
  simp only [decide_eq_true_eq] at h'
  apply h'
  show b ∈ [(0 : Fin 2), 1]
  match b with
  | ⟨0, _⟩ => exact List.mem_cons.2 (Or.inl rfl)
  | ⟨1, _⟩ => exact List.mem_cons.2 (Or.inr (List.mem_cons.2 (Or.inl rfl)))

/-- The matrix case: update e lands on entry (p, q) exactly when its two index words, read signed, are p and q. -/
theorem resultIdx?_mat {n1 n2 E : ℕ} (d : ScatterDims ⟨2, ![n1, n2]⟩ ⟨2, ![E, 2]⟩ ⟨1, ![E]⟩)
    (h1 : d.updateWindowDims = []) (h2 : d.insertedWindowDims = [0, 1]) (h3 : d.scatterDimsToOperandDims = [0, 1]) (h4 : d.indexVectorDim = 1)
    (idx : IVec ⟨2, ![E, 2]⟩ 32) (e : Fin E) (p : Fin n1) (q : Fin n2) :
    d.resultIdx? (ix1 e) idx = some (ix2 p q) ↔
      (idx (ix2 e (0 : Fin 2))).toInt = (p.val : ℤ) ∧ (idx (ix2 e (1 : Fin 2))).toInt = (q.val : ℤ) := by
  rw [resultIdx?_eq_some_iff]
  obtain ⟨hs0, hs1⟩ := start_mat d h1 h2 h3 h4 idx e
  constructor
  · intro h
    have e0 := h 0
    have e1 := h 1
    rw [hs0, window_mat d h1 h2 h3 h4, Nat.cast_zero, add_zero] at e0
    rw [hs1, window_mat d h1 h2 h3 h4, Nat.cast_zero, add_zero] at e1
    exact ⟨e0, e1⟩
  · rintro ⟨hp, hq⟩ b
    rw [window_mat d h1 h2 h3 h4, Nat.cast_zero, add_zero]
    match b with
    | ⟨0, _⟩ => exact hs0.trans hp
    | ⟨1, _⟩ => exact hs1.trans hq

/-- A float scatter-add of E scalar updates into a matrix [n1, n2], two index words per update (index array [E,2]: row, column). -/
theorem scatterAdd_mat_apply {n1 n2 E : ℕ} (d : ScatterDims ⟨2, ![n1, n2]⟩ ⟨2, ![E, 2]⟩ ⟨1, ![E]⟩)
    (h1 : d.updateWindowDims = []) (h2 : d.insertedWindowDims = [0, 1]) (h3 : d.scatterDimsToOperandDims = [0, 1]) (h4 : d.indexVectorDim = 1)
    (x : FVec Ideal ⟨2, ![n1, n2]⟩ .f32) (idx : IVec ⟨2, ![E, 2]⟩ 32) (upd : FVec Ideal ⟨1, ![E]⟩ .f32) (p : Fin n1) (q : Fin n2) :
    Host.scatterAdd d x idx upd (ix2 p q) = x (ix2 p q)
      + ∑ e ∈ Finset.univ.filter (fun e : Fin E => (idx (ix2 e (0 : Fin 2))).toInt = (p.val : ℤ) ∧ (idx (ix2 e (1 : Fin 2))).toInt = (q.val : ℤ)), upd (ix1 e) := by
  show Ideal.hostScatterAdd d x idx upd (ix2 p q) = _
  unfold Ideal.hostScatterAdd
  congr 1
  refine Finset.sum_equiv idxEquiv1 ?_ ?_
  · intro j
    rw [Finset.mem_filter, Finset.mem_filter]
    simp only [Finset.mem_univ, true_and]
    rw [eq_ix1 j]
    exact resultIdx?_mat d h1 h2 h3 h4 idx (j 0) p q
  · intro j _
    exact congrArg upd (eq_ix1 j)

section SetFold
variable {α : Type} {s si u : Shape} {w : ℕ}

/-- One step of an overwriting scatter: the update at row-major position m replaces the entry it lands on, if it lands. -/
def setStep (d : ScatterDims s si u) (idx : IVec si w) (upd : u.Idx → α) (r : s.Idx → α) (m : Fin u.numel) : s.Idx → α :=
  match d.resultIdx? (u.rowMajor.symm m) idx with
  | some i => fun i' => if i' = i then upd (u.rowMajor.symm m) else r i'
  | none => r

/-- An overwriting scatter is the left fold of that step over the update positions in row-major order. -/
theorem scatter_set_eq_foldl (d : ScatterDims s si u) (x : s.Idx → α) (idx : IVec si w) (upd : u.Idx → α) :
    Host.scatter d (fun _ b => b) x idx upd = (List.finRange u.numel).foldl (setStep d idx upd) x := rfl

/-- A step whose update does not land on entry i leaves it. -/
theorem setStep_of_ne (d : ScatterDims s si u) (idx : IVec si w) (upd : u.Idx → α) (r : s.Idx → α) (m : Fin u.numel) (i : s.Idx)
    (h : d.resultIdx? (u.rowMajor.symm m) idx ≠ some i) : setStep d idx upd r m i = r i := by
  unfold setStep
  generalize d.resultIdx? (u.rowMajor.symm m) idx = o at h
  cases o with
  | none => rfl
  | some i0 =>
    show (if i = i0 then upd (u.rowMajor.symm m) else r i) = r i
    rw [if_neg (fun e => h (congrArg some e.symm))]

/-- A step whose update lands on entry i writes it there. -/
theorem setStep_of_eq (d : ScatterDims s si u) (idx : IVec si w) (upd : u.Idx → α) (r : s.Idx → α) (m : Fin u.numel) (i : s.Idx)
    (h : d.resultIdx? (u.rowMajor.symm m) idx = some i) : setStep d idx upd r m i = upd (u.rowMajor.symm m) := by
  unfold setStep
  rw [h]
  show (if i = i then upd (u.rowMajor.symm m) else r i) = upd (u.rowMajor.symm m)
  rw [if_pos rfl]

/-- Folding over positions none of which lands on entry i leaves it. -/
theorem foldl_setStep_miss (d : ScatterDims s si u) (idx : IVec si w) (upd : u.Idx → α) (i : s.Idx) :
    ∀ (l : List (Fin u.numel)) (r : s.Idx → α), (∀ m ∈ l, d.resultIdx? (u.rowMajor.symm m) idx ≠ some i) →
      l.foldl (setStep d idx upd) r i = r i
  | [], _, _ => rfl
  | m :: l, r, h => by
    rw [List.foldl_cons, foldl_setStep_miss d idx upd i l _ (fun m' hm' => h m' (List.mem_cons_of_mem _ hm')),
      setStep_of_ne d idx upd r m i (h m (List.mem_cons.2 (Or.inl rfl)))]

/-- Folding over positions of which exactly m0 lands on entry i leaves the update at m0 there. -/
theorem foldl_setStep_hit (d : ScatterDims s si u) (idx : IVec si w) (upd : u.Idx → α) (i : s.Idx) (m0 : Fin u.numel)
    (h0 : d.resultIdx? (u.rowMajor.symm m0) idx = some i) :
    ∀ (l : List (Fin u.numel)) (r : s.Idx → α), m0 ∈ l → (∀ m ∈ l, d.resultIdx? (u.rowMajor.symm m) idx = some i → m = m0) →
      l.foldl (setStep d idx upd) r i = upd (u.rowMajor.symm m0)
  | [], _, hm, _ => absurd hm (by simp)
  | m :: l, r, hm, huniq => by
    rw [List.foldl_cons]
    by_cases hl : m0 ∈ l
    · exact foldl_setStep_hit d idx upd i m0 h0 l _ hl (fun m' hm' => huniq m' (List.mem_cons_of_mem _ hm'))
    · have hm0 : m0 = m := by
        rcases List.mem_cons.1 hm with h | h
        · exact h
        · exact absurd h hl
      subst hm0
      rw [foldl_setStep_miss d idx upd i l _ (fun m' hm' e => hl (huniq m' (List.mem_cons_of_mem _ hm') e ▸ hm')),
        setStep_of_eq d idx upd r m0 i h0]

/-- THE OVERWRITING SCATTER READ AT ENTRY i, when the landing indices are pairwise distinct there: the update that lands on i. -/
theorem scatter_set_hit (d : ScatterDims s si u) (x : s.Idx → α) (idx : IVec si w) (upd : u.Idx → α) (i : s.Idx) (j0 : u.Idx)
    (h0 : d.resultIdx? j0 idx = some i) (huniq : ∀ j, d.resultIdx? j idx = some i → j = j0) :
    Host.scatter d (fun _ b => b) x idx upd i = upd j0 := by
  rw [scatter_set_eq_foldl]
  have := foldl_setStep_hit d idx upd i (u.rowMajor j0) (by rw [Equiv.symm_apply_apply]; exact h0)
    (List.finRange u.numel) x (List.mem_finRange _)
    (fun m _ e => by rw [← huniq _ e, Equiv.apply_symm_apply])
  rw [this, Equiv.symm_apply_apply]

/-- The overwriting scatter read at an entry no update lands on: the operand's entry. -/
theorem scatter_set_miss (d : ScatterDims s si u) (x : s.Idx → α) (idx : IVec si w) (upd : u.Idx → α) (i : s.Idx)
    (h : ∀ j, d.resultIdx? j idx ≠ some i) :
    Host.scatter d (fun _ b => b) x idx upd i = x i := by
  rw [scatter_set_eq_foldl]
  exact foldl_setStep_miss d idx upd i _ x (fun m _ => h _)

end SetFold

/-- The prefix overwrite of a vector: the start on the one operand axis is the one index word read signed. -/
theorem start_pvec {N n : ℕ} (d : ScatterDims ⟨1, ![N]⟩ ⟨1, ![1]⟩ ⟨1, ![n]⟩)
    (h1 : d.updateWindowDims = [0]) (h2 : d.insertedWindowDims = []) (h3 : d.scatterDimsToOperandDims = [0]) (h4 : d.indexVectorDim = 0)
    (idx : IVec ⟨1, ![1]⟩ 32) (j : (⟨1, ![n]⟩ : Shape).Idx) (b : Fin 1) :
    d.start j idx b = (idx (ix1 (0 : Fin 1))).toInt := by
  obtain ⟨uw, iw, sd, iv, wf⟩ := d
  dsimp only at h1 h2 h3 h4; subst h1 h2 h3 h4
  obtain rfl : b = 0 := Subsingleton.elim _ _
  unfold ScatterDims.start
  rw [dif_pos (List.mem_singleton.mpr rfl)]
  congr 2
  funext c; refine Fin.ext ?_
  match c with
  | ⟨0, _⟩ => rfl

/-- The prefix overwrite of a vector: the window coordinate on the one operand axis is the update's position. -/
theorem window_pvec {N n : ℕ} (d : ScatterDims ⟨1, ![N]⟩ ⟨1, ![1]⟩ ⟨1, ![n]⟩)
    (h1 : d.updateWindowDims = [0]) (h2 : d.insertedWindowDims = []) (h3 : d.scatterDimsToOperandDims = [0]) (h4 : d.indexVectorDim = 0)
    (c : Fin n) (b : Fin 1) :
    d.window (ix1 c) b = c.val := by
  obtain ⟨uw, iw, sd, iv, wf⟩ := d
  dsimp only at h1 h2 h3 h4; subst h1 h2 h3 h4
  obtain rfl : b = 0 := Subsingleton.elim _ _
  unfold ScatterDims.window
  rw [dif_pos (by simp [ScatterDims.sKept, Shape.kept])]
  rfl

/-- The prefix overwrite of a vector at the start word 0: update c lands on entry a exactly when c = a. -/
theorem resultIdx?_pvec {N n : ℕ} (d : ScatterDims ⟨1, ![N]⟩ ⟨1, ![1]⟩ ⟨1, ![n]⟩)
    (h1 : d.updateWindowDims = [0]) (h2 : d.insertedWindowDims = []) (h3 : d.scatterDimsToOperandDims = [0]) (h4 : d.indexVectorDim = 0)
    (idx : IVec ⟨1, ![1]⟩ 32) (hidx : idx (ix1 (0 : Fin 1)) = 0#32) (c : Fin n) (a : Fin N) :
    d.resultIdx? (ix1 c) idx = some (ix1 a) ↔ c.val = a.val := by
  rw [resultIdx?_eq_some_iff]
  have h0 : (0#32 : BitVec 32).toInt = 0 := by decide
  constructor
  · intro h
    have e0 := h 0
    rw [start_pvec d h1 h2 h3 h4, window_pvec d h1 h2 h3 h4, hidx, h0, zero_add] at e0
    exact_mod_cast e0
  · intro h b
    obtain rfl : b = 0 := Subsingleton.elim _ _
    rw [start_pvec d h1 h2 h3 h4, window_pvec d h1 h2 h3 h4, hidx, h0, zero_add]
    exact_mod_cast h

/-- Overwriting the leading n entries of a vector of N ≥ n entries (one start index, the word 0; the body returns the update): x.at[:n].set(u). Generic in the element type α. -/
theorem scatter_set_prefix_vec {α : Type} {N n : ℕ} (hn : n ≤ N) (d : ScatterDims ⟨1, ![N]⟩ ⟨1, ![1]⟩ ⟨1, ![n]⟩)
    (h1 : d.updateWindowDims = [0]) (h2 : d.insertedWindowDims = []) (h3 : d.scatterDimsToOperandDims = [0]) (h4 : d.indexVectorDim = 0)
    (x : (⟨1, ![N]⟩ : Shape).Idx → α) (idx : IVec ⟨1, ![1]⟩ 32) (hidx : idx (ix1 (0 : Fin 1)) = 0#32) (upd : (⟨1, ![n]⟩ : Shape).Idx → α) (a : Fin N) :
    Host.scatter d (fun _ b => b) x idx upd (ix1 a) = if h : a.val < n then upd (ix1 ⟨a.val, h⟩) else x (ix1 a) := by
  by_cases h : a.val < n
  · rw [dif_pos h]
    refine scatter_set_hit d x idx upd (ix1 a) (ix1 ⟨a.val, h⟩) ((resultIdx?_pvec d h1 h2 h3 h4 idx hidx ⟨a.val, h⟩ a).2 rfl) ?_
    intro j e
    obtain ⟨c, rfl⟩ : ∃ c, j = ix1 c := ⟨j 0, eq_ix1 j⟩
    have hc := (resultIdx?_pvec d h1 h2 h3 h4 idx hidx c a).1 e
    exact congrArg ix1 (Fin.ext hc)
  · rw [dif_neg h]
    refine scatter_set_miss d x idx upd (ix1 a) ?_
    intro j e
    obtain ⟨c, rfl⟩ : ∃ c, j = ix1 c := ⟨j 0, eq_ix1 j⟩
    have hc := (resultIdx?_pvec d h1 h2 h3 h4 idx hidx c a).1 e
    exact h (hc ▸ c.isLt)

/-- The prefix overwrite of a matrix's rows: the start is the one index word read signed on the row axis, zero on the column axis. -/
theorem start_prows {N n f : ℕ} (d : ScatterDims ⟨2, ![N, f]⟩ ⟨1, ![1]⟩ ⟨2, ![n, f]⟩)
    (h1 : d.updateWindowDims = [0, 1]) (h2 : d.insertedWindowDims = []) (h3 : d.scatterDimsToOperandDims = [0]) (h4 : d.indexVectorDim = 0)
    (idx : IVec ⟨1, ![1]⟩ 32) (j : (⟨2, ![n, f]⟩ : Shape).Idx) :
    d.start j idx 0 = (idx (ix1 (0 : Fin 1))).toInt ∧ d.start j idx 1 = 0 := by
  obtain ⟨uw, iw, sd, iv, wf⟩ := d
  dsimp only at h1 h2 h3 h4; subst h1 h2 h3 h4
  unfold ScatterDims.start
  constructor
  · rw [dif_pos (List.mem_singleton.mpr rfl)]
    congr 2
    funext c; refine Fin.ext ?_
    match c with
    | ⟨0, _⟩ => rfl
  · rw [dif_neg (show (1 : Fin 2) ∉ [(0 : Fin 2)] by decide)]

/-- The prefix overwrite of a matrix's rows: the window coordinates are the update's row and column. -/
theorem window_prows {N n f : ℕ} (d : ScatterDims ⟨2, ![N, f]⟩ ⟨1, ![1]⟩ ⟨2, ![n, f]⟩)
    (h1 : d.updateWindowDims = [0, 1]) (h2 : d.insertedWindowDims = []) (h3 : d.scatterDimsToOperandDims = [0]) (h4 : d.indexVectorDim = 0)
    (c : Fin n) (k : Fin f) :
    d.window (ix2 c k) 0 = c.val ∧ d.window (ix2 c k) 1 = k.val := by
  obtain ⟨uw, iw, sd, iv, wf⟩ := d
  dsimp only at h1 h2 h3 h4; subst h1 h2 h3 h4
  unfold ScatterDims.window
  constructor
  · rw [dif_pos (by simp [ScatterDims.sKept, Shape.kept])]
    rfl
  · rw [dif_pos (by simp [ScatterDims.sKept, Shape.kept])]
    rfl

/-- The prefix overwrite of a matrix's rows at the start word 0: element (c, k') of the updates lands on entry (a, k) exactly when c = a and k' = k. -/
theorem resultIdx?_prows {N n f : ℕ} (d : ScatterDims ⟨2, ![N, f]⟩ ⟨1, ![1]⟩ ⟨2, ![n, f]⟩)
    (h1 : d.updateWindowDims = [0, 1]) (h2 : d.insertedWindowDims = []) (h3 : d.scatterDimsToOperandDims = [0]) (h4 : d.indexVectorDim = 0)
    (idx : IVec ⟨1, ![1]⟩ 32) (hidx : idx (ix1 (0 : Fin 1)) = 0#32) (c : Fin n) (k' : Fin f) (a : Fin N) (k : Fin f) :
    d.resultIdx? (ix2 c k') idx = some (ix2 a k) ↔ c.val = a.val ∧ k' = k := by
  rw [resultIdx?_eq_some_iff]
  have h0 : (0#32 : BitVec 32).toInt = 0 := by decide
  obtain ⟨hs0, hs1⟩ := start_prows d h1 h2 h3 h4 idx (ix2 c k')
  obtain ⟨hw0, hw1⟩ := window_prows d h1 h2 h3 h4 c k'
  constructor
  · intro h
    have e0 := h 0
    have e1 := h 1
    rw [hs0, hw0, hidx, h0, zero_add] at e0
    rw [hs1, hw1, zero_add] at e1
    exact ⟨by exact_mod_cast e0, Fin.ext (by exact_mod_cast e1)⟩
  · rintro ⟨h, rfl⟩ b
    match b with
    | ⟨0, _⟩ =>
      show d.start (ix2 c k') idx 0 + ((d.window (ix2 c k') 0 : ℕ) : ℤ) = _
      rw [hs0, hw0, hidx, h0, zero_add]; exact_mod_cast h
    | ⟨1, _⟩ =>
      show d.start (ix2 c k') idx 1 + ((d.window (ix2 c k') 1 : ℕ) : ℤ) = _
      rw [hs1, hw1, zero_add]

/-- The same for the leading n rows of a matrix [N, f]: x.at[:n].set(u) with u : [n, f]. -/
theorem scatter_set_prefix_rows {α : Type} {N n f : ℕ} (hn : n ≤ N) (d : ScatterDims ⟨2, ![N, f]⟩ ⟨1, ![1]⟩ ⟨2, ![n, f]⟩)
    (h1 : d.updateWindowDims = [0, 1]) (h2 : d.insertedWindowDims = []) (h3 : d.scatterDimsToOperandDims = [0]) (h4 : d.indexVectorDim = 0)
    (x : (⟨2, ![N, f]⟩ : Shape).Idx → α) (idx : IVec ⟨1, ![1]⟩ 32) (hidx : idx (ix1 (0 : Fin 1)) = 0#32) (upd : (⟨2, ![n, f]⟩ : Shape).Idx → α) (a : Fin N) (k : Fin f) :
    Host.scatter d (fun _ b => b) x idx upd (ix2 a k) = if h : a.val < n then upd (ix2 ⟨a.val, h⟩ k) else x (ix2 a k) := by
  by_cases h : a.val < n
  · rw [dif_pos h]
    refine scatter_set_hit d x idx upd (ix2 a k) (ix2 ⟨a.val, h⟩ k)
      ((resultIdx?_prows d h1 h2 h3 h4 idx hidx ⟨a.val, h⟩ k a k).2 ⟨rfl, rfl⟩) ?_
    intro j e
    obtain ⟨c, k', rfl⟩ : ∃ c k', j = ix2 c k' := ⟨j 0, j 1, eq_ix2 j⟩
    obtain ⟨hc, rfl⟩ := (resultIdx?_prows d h1 h2 h3 h4 idx hidx c k' a k).1 e
    obtain rfl : c = ⟨a.val, h⟩ := Fin.ext hc
    rfl
  · rw [dif_neg h]
    refine scatter_set_miss d x idx upd (ix2 a k) ?_
    intro j e
    obtain ⟨c, k', rfl⟩ : ∃ c k', j = ix2 c k' := ⟨j 0, j 1, eq_ix2 j⟩
    have hc := ((resultIdx?_prows d h1 h2 h3 h4 idx hidx c k' a k).1 e).1
    exact h (hc ▸ c.isLt)

/-- A gather of E rows of a matrix [n, f] (index array [E,1], slice sizes [1, f]): row e of the result is the row of x named by the index word read signed, clamped into [0, n-1]; stated for an index word that IS in range. -/
theorem gather_rows_apply {α : Type} {n f E : ℕ} (d : GatherDims ⟨2, ![n, f]⟩ ⟨2, ![E, 1]⟩ ⟨2, ![E, f]⟩)
    (h1 : d.offsetDims = [1]) (h2 : d.collapsedSliceDims = [0]) (h3 : d.operandBatchingDims = []) (h4 : d.startIndicesBatchingDims = []) (h5 : d.startIndexMap = [0]) (h6 : d.indexVectorDim = 1) (h7 : d.sliceSizes = ![1, f])
    (x : (⟨2, ![n, f]⟩ : Shape).Idx → α) (idx : IVec ⟨2, ![E, 1]⟩ 32) (e : Fin E) (k : Fin f) (a : Fin n) (ha : (idx (ix2 e (0 : Fin 1))).toInt = (a.val : ℤ)) :
    Host.gather d x idx (ix2 e k) = x (ix2 a k) := by
  obtain ⟨od, cd, ob, sb, sm, iv, ss, wf⟩ := d
  dsimp only at h1 h2 h3 h4 h5 h6 h7; subst h1 h2 h3 h4 h5 h6 h7
  unfold Host.gather
  congr 1
  funext b
  refine Fin.ext ?_
  match b with
  | ⟨0, _⟩ =>
    show GatherDims.start _ (ix2 e k) idx 0 + GatherDims.batchCoord _ (ix2 e k) 0 + GatherDims.offCoord _ (ix2 e k) 0 = a.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (s := ⟨2, ![n, f]⟩) (si := ⟨2, ![E, 1]⟩) (t := ⟨2, ![E, f]⟩)
        ⟨[1], [0], [], [], [0], 1, ![1, f], wf⟩ (ix2 e k)
        ⟨List.idxOf (0 : Fin 2) [0], List.idxOf_lt_length_iff.2 (List.mem_singleton.mpr rfl)⟩ = ix2 e (0 : Fin 1) := by
      funext c; refine Fin.ext ?_
      match c with
      | ⟨0, _⟩ => rfl
      | ⟨1, _⟩ => rfl
    rw [hsi, ha]
    show min ((a.val : ℤ)).toNat (n - 1) = a.val
    rw [Int.toNat_natCast]
    have := a.isLt
    omega
  | ⟨1, _⟩ =>
    show GatherDims.start _ (ix2 e k) idx 1 + GatherDims.batchCoord _ (ix2 e k) 1 + GatherDims.offCoord _ (ix2 e k) 1 = k.val
    rw [GatherDims.batchCoord_eq_zero _ _ _ List.not_mem_nil]
    unfold GatherDims.start GatherDims.offCoord
    rw [dif_neg (show (1 : Fin 2) ∉ [(0 : Fin 2)] by decide),
      dif_pos (by simp [GatherDims.sKept, Shape.kept])]
    simp only [Nat.add_zero, Nat.zero_add]
    rfl

end Idealize.ShloMosaic.ScatterRead

end
-- ==== Proof.Value.Prefix.lean ====
/-
  The host operations both programs begin with, as named functions of the five inputs, and the few facts the rest
  of the proof reads off them: the contrast rows and the labels after the prefix, entry by entry, and that every
  contrast entry is finite when the three float inputs are.
-/
import proofs.«123850_j8598524526701_1_alg».proof.Proof.Value.Spec
import proofs.«123850_j8598524526701_1_alg».proof.Proof.LibScatterRead
import proofs.«123850_j8598524526701_1_alg».proof.Proof.Gen.KernelIdeal.Regions
import proofs.«123850_j8598524526701_1_alg».proof.Proof.Gen.Pre_finite_inputs
import proofs.«123850_j8598524526701_1_alg».proof.Defs
import Idealize.ShloMosaic.Lib.StableHlo.Run
import Idealize.ShloMosaic.Lib.ValueIdx
import Idealize.ShloMosaic.Lib.ValueLayout
import Idealize.ShloMosaic.Lib.Pipeline.Value
import Idealize.ShloMosaic.Lib.ReduceAll

noncomputable section

namespace Cert.SupCon

open Idealize.ShloMosaic Idealize.ShloMosaic.ValueIdx Cert.KernelIdeal
open Cert.KernelIdeal.Gen (shapeCasts_S256x2x128_S512x128 slices_S512x128_S256x128_0_0 slices_S512x128_S256x128_256_0
  bcast_S_S1 concatenates_S4096_S256_S4352_d0 concatenates_S4352_S4352_S8704_d0
  concatenates_S4096x128_S256x128_S4352x128_d0 concatenates_S4352x128_S4352x128_S8704x128_d0
  slices_S8704x128_S4352x128_3841_0 slices_S8704_S4352_3841 bitsLt_bf16_f32 shapeCasts_S4352_S4352x1
  shapeCasts_S8704_S1x8704)

/-! ## The prefix as functions of the inputs -/

/-- The batch's two views as 512 rows: row 2 b + v is view v of sample b. -/
def batchRows (x0 : FVec Ideal S256x2x128 .f32) : FVec Ideal S512x128 .f32 :=
  shapeCast S512x128 x0 shapeCasts_S256x2x128_S512x128

/-- The first 256 of those rows. -/
def batchLo (x0 : FVec Ideal S256x2x128 .f32) : FVec Ideal S256x128 .f32 :=
  extractStridedSlice S256x128 ![0, 0] (batchRows x0) slices_S512x128_S256x128_0_0

/-- The last 256 of those rows. -/
def batchHi (x0 : FVec Ideal S256x2x128 .f32) : FVec Ideal S256x128 .f32 :=
  extractStridedSlice S256x128 ![256, 0] (batchRows x0) slices_S512x128_S256x128_256_0

/-- The one start index of the overwriting scatters: the word 0. -/
def startZero : IVec S1 32 := broadcastInDim S1 ![] bcast_S_S1 (constantI S_ 32 0#32)

/-- A feature queue with 256 fresh rows written over its first 256 rows. -/
def queueSet (x : FVec Ideal S4096x128 .f32) (u : FVec Ideal S256x128 .f32) : FVec Ideal S4096x128 .f32 :=
  Host.scatter scatter_S4096x128_S1_S256x128_01_n_0_0 (fun _ b => b) x startZero u

/-- One view: the refreshed queue followed by 256 batch rows. -/
def viewRows (q : FVec Ideal S4096x128 .f32) (b : FVec Ideal S256x128 .f32) : FVec Ideal S4352x128 .f32 :=
  concatenate S4352x128 0 [⟨S4096x128, q⟩, ⟨S256x128, b⟩] concatenates_S4096x128_S256x128_S4352x128_d0

/-- the 8704 contrast rows: both queues with the fresh batch written over their first 256 rows and appended, one
    view after the other -/
def contrastArr (x0 : FVec Ideal S256x2x128 .f32) (x2 x3 : FVec Ideal S4096x128 .f32) : FVec Ideal S8704x128 .f32 :=
  concatenate S8704x128 0
    [⟨S4352x128, viewRows (queueSet x2 (batchHi x0)) (batchLo x0)⟩,
     ⟨S4352x128, viewRows (queueSet x3 (batchLo x0)) (batchHi x0)⟩]
    concatenates_S4352x128_S4352x128_S8704x128_d0

/-- The label queue with the batch's labels written over its first 256 entries. -/
def labelQueueSet (x1 : IVec S256 32) (x4 : IVec S4096 32) : IVec S4096 32 :=
  Host.scatter scatter_S4096_S1_S256_0_n_0_0 (fun _ b => b) x4 startZero x1

/-- one view's 4352 labels: the label queue with the batch's labels written over its first 256 entries, then the
    batch's labels -/
def labBArr (x1 : IVec S256 32) (x4 : IVec S4096 32) : IVec S4352 32 :=
  concatenate S4352 0 [⟨S4096, labelQueueSet x1 x4⟩, ⟨S256, x1⟩] concatenates_S4096_S256_S4352_d0

/-- The contrast rows as a function of row and column. -/
def contrastFn (x0 : FVec Ideal S256x2x128 .f32) (x2 x3 : FVec Ideal S4096x128 .f32) : Fin 8704 → Fin 128 → EReal :=
  fun i k => contrastArr x0 x2 x3 (ix2 i k)

/-- One view's labels as a function of the row. -/
def labBFn (x1 : IVec S256 32) (x4 : IVec S4096 32) : Fin 4352 → BitVec 32 := fun p => labBArr x1 x4 (ix1 p)

/-! ## Layout operations read at coordinates -/

section Reads
variable {α : Type}

/-- Two blocks of rows stacked: a row below the first block's height is that row of the first block, any other row
    is a row of the second block, the first block's height less. -/
theorem stackRows_apply {A B C f : ℕ} (x₁ : (⟨2, ![A, f]⟩ : Shape).Idx → α) (x₂ : (⟨2, ![B, f]⟩ : Shape).Idx → α)
    (h : Shape.Concatenates [(⟨2, ![A, f]⟩ : Shape), ⟨2, ![B, f]⟩] ⟨2, ![C, f]⟩ 0) (hC : C = A + B) (p : Fin C) (k : Fin f) :
    concatenate (⟨2, ![C, f]⟩ : Shape) 0 [⟨_, x₁⟩, ⟨_, x₂⟩] h (ix2 p k)
      = if hp : p.val < A then x₁ (ix2 ⟨p.val, hp⟩ k)
        else x₂ (ix2 ⟨p.val - A, by have := p.isLt; omega⟩ k) := by
  by_cases hp : p.val < A
  · rw [dif_pos hp]
    refine concatenate_pair_apply_left 0 x₁ x₂ h (ix2 p k) rfl (ix2 ⟨p.val, hp⟩ k) ?_
    intro b
    match b with
    | ⟨0, _⟩ => rfl
    | ⟨1, _⟩ => rfl
  · rw [dif_neg hp]
    refine concatenate_pair_apply_right 0 x₁ x₂ h (ix2 p k) rfl rfl (ix2 ⟨p.val - A, by have := p.isLt; omega⟩ k) ?_ ?_
    · intro b hb
      match b, hb with
      | ⟨0, _⟩, hb => exact absurd rfl hb
      | ⟨1, _⟩, _ => rfl
    · show (p.val - A) + A = p.val
      omega

/-- The same for two vectors laid end to end. -/
theorem stackVec_apply {A B C : ℕ} (x₁ : (⟨1, ![A]⟩ : Shape).Idx → α) (x₂ : (⟨1, ![B]⟩ : Shape).Idx → α)
    (h : Shape.Concatenates [(⟨1, ![A]⟩ : Shape), ⟨1, ![B]⟩] ⟨1, ![C]⟩ 0) (hC : C = A + B) (p : Fin C) :
    concatenate (⟨1, ![C]⟩ : Shape) 0 [⟨_, x₁⟩, ⟨_, x₂⟩] h (ix1 p)
      = if hp : p.val < A then x₁ (ix1 ⟨p.val, hp⟩)
        else x₂ (ix1 ⟨p.val - A, by have := p.isLt; omega⟩) := by
  by_cases hp : p.val < A
  · rw [dif_pos hp]
    refine concatenate_pair_apply_left 0 x₁ x₂ h (ix1 p) rfl (ix1 ⟨p.val, hp⟩) ?_
    intro b
    match b with
    | ⟨0, _⟩ => rfl
  · rw [dif_neg hp]
    refine concatenate_pair_apply_right 0 x₁ x₂ h (ix1 p) rfl rfl (ix1 ⟨p.val - A, by have := p.isLt; omega⟩) ?_ ?_
    · intro b hb
      match b, hb with
      | ⟨0, _⟩, hb => exact absurd rfl hb
    · show (p.val - A) + A = p.val
      omega

/-- A block of n rows cut out of a matrix from row o on: its row p is row o + p. -/
theorem sliceRows_apply {N n f : ℕ} (o : ℕ) (x : (⟨2, ![N, f]⟩ : Shape).Idx → α)
    (h : (⟨2, ![N, f]⟩ : Shape).Slices ![o, 0] ⟨2, ![n, f]⟩) (ho : o + n ≤ N) (p : Fin n) (k : Fin f) :
    extractStridedSlice (⟨2, ![n, f]⟩ : Shape) ![o, 0] x h (ix2 p k)
      = x (ix2 ⟨o + p.val, by have := p.isLt; omega⟩ k) := by
  refine extractStridedSlice_apply ![o, 0] x h (ix2 p k) _ ?_
  intro a
  match a with
  | ⟨0, _⟩ => rfl
  | ⟨1, _⟩ => exact (Nat.zero_add _).symm

/-- A stretch of n entries cut out of a vector from entry o on: its entry p is entry o + p. -/
theorem sliceVec_apply {N n : ℕ} (o : ℕ) (x : (⟨1, ![N]⟩ : Shape).Idx → α)
    (h : (⟨1, ![N]⟩ : Shape).Slices ![o] ⟨1, ![n]⟩) (ho : o + n ≤ N) (p : Fin n) :
    extractStridedSlice (⟨1, ![n]⟩ : Shape) ![o] x h (ix1 p)
      = x (ix1 ⟨o + p.val, by have := p.isLt; omega⟩) := by
  refine extractStridedSlice_apply ![o] x h (ix1 p) _ ?_
  intro a
  match a with
  | ⟨0, _⟩ => rfl

/-- A vector viewed as one column: entry (p, 0) is entry p. -/
theorem asColumn_apply {n : ℕ} (x : (⟨1, ![n]⟩ : Shape).Idx → α)
    (h : (⟨1, ![n]⟩ : Shape).ShapeCasts ⟨2, ![n, 1]⟩) (p : Fin n) :
    shapeCast (⟨2, ![n, 1]⟩ : Shape) x h (ix2 p (0 : Fin 1)) = x (ix1 p) := by
  refine shapeCast_apply x h _ _ ?_
  rw [Shape.rowMajor_val_one, Shape.rowMajor_val_two]
  show p.val = p.val * 1 + 0
  omega

/-- A vector viewed as one row: entry (0, p) is entry p. -/
theorem asRow_apply {n : ℕ} (x : (⟨1, ![n]⟩ : Shape).Idx → α)
    (h : (⟨1, ![n]⟩ : Shape).ShapeCasts ⟨2, ![1, n]⟩) (p : Fin n) :
    shapeCast (⟨2, ![1, n]⟩ : Shape) x h (ix2 (0 : Fin 1) p) = x (ix1 p) := by
  refine shapeCast_apply x h _ _ ?_
  rw [Shape.rowMajor_val_one, Shape.rowMajor_val_two]
  show p.val = 0 * n + p.val
  omega

end Reads

/-! ## The valuation after the prefix -/

/-- Both views' labels: one view's labels twice. -/
def labAllArr (x1 : IVec S256 32) (x4 : IVec S4096 32) : IVec S8704 32 :=
  concatenate S8704 0 [⟨S4352, labBArr x1 x4⟩, ⟨S4352, labBArr x1 x4⟩] concatenates_S4352_S4352_S8704_d0

/-- Entry j of the two views' labels is entry j mod 4352 of one view's. -/
theorem labAllArr_apply (x1 : IVec S256 32) (x4 : IVec S4096 32) (j : Fin 8704) :
    labAllArr x1 x4 (ix1 j) = labOf (labBFn x1 x4) j := by
  unfold labAllArr
  refine (stackVec_apply (labBArr x1 x4) (labBArr x1 x4) concatenates_S4352_S4352_S8704_d0 (by norm_num) j).trans ?_
  unfold labOf labBFn
  by_cases hp : j.val < 4352
  · rw [dif_pos hp]
    exact congrArg (fun q : Fin 4352 => labBArr x1 x4 (ix1 q)) (Fin.ext (Nat.mod_eq_of_lt hp).symm)
  · rw [dif_neg hp]
    refine congrArg (fun q : Fin 4352 => labBArr x1 x4 (ix1 q)) (Fin.ext ?_)
    show j.val - 4352 = j.val % 4352
    have := j.isLt
    omega

section
variable (m : (ℓ : Loc nD τ sig) → Buf (Elt Ideal) ℓ) (c : Dev nD)

set_option maxHeartbeats 4000000 in
/-- The anchor rows' array after the prefix: 4352 rows of the contrast rows from row 3841 on. -/
theorem V1_anchorArr :
    Gen.V1 m c (Proc.devRef .tc main_v16)
      = (truncf .bf16 (extractStridedSlice S4352x128 ![3841, 0] (contrastArr (m ((c.tc : Thread nD τ).loc main_arg0)) (m ((c.tc : Thread nD τ).loc main_arg2)) (m ((c.tc : Thread nD τ).loc main_arg3))) slices_S8704x128_S4352x128_3841_0)
          bitsLt_bf16_f32 : FVec Ideal S4352x128 .bf16) := by
  after_results; rfl

set_option maxHeartbeats 4000000 in
/-- The contrast rows' array after the prefix. -/
theorem V1_contrastArr :
    Gen.V1 m c (Proc.devRef .tc main_v17)
      = (truncf .bf16 (contrastArr (m ((c.tc : Thread nD τ).loc main_arg0)) (m ((c.tc : Thread nD τ).loc main_arg2)) (m ((c.tc : Thread nD τ).loc main_arg3))) bitsLt_bf16_f32 : FVec Ideal S8704x128 .bf16) := by
  after_results; rfl

/-- The anchors' labels after the prefix: 4352 of the two views' labels from entry 3841 on, as a column. -/
theorem V1_anchorLabArr :
    Gen.V1 m c (Proc.devRef .tc main_v18)
      = (shapeCast S4352x1 (extractStridedSlice S4352 ![3841] (labAllArr (m ((c.tc : Thread nD τ).loc main_arg1)) (m ((c.tc : Thread nD τ).loc main_arg4))) slices_S8704_S4352_3841)
          shapeCasts_S4352_S4352x1 : IVec S4352x1 32) := by
  after_results; rfl

/-- The contrast rows' labels after the prefix: the two views' labels as a row. -/
theorem V1_contrastLabArr :
    Gen.V1 m c (Proc.devRef .tc main_v19)
      = (shapeCast S1x8704 (labAllArr (m ((c.tc : Thread nD τ).loc main_arg1)) (m ((c.tc : Thread nD τ).loc main_arg4))) shapeCasts_S8704_S1x8704 : IVec S1x8704 32) := by
  after_results; rfl

theorem V1_anchorRows (r : Fin 4352) (k : Fin 128) :
    (Gen.V1 m c (Proc.devRef .tc main_v16) : S4352x128.Idx → EReal) (ix2 r k)
      = contrastFn (m ((c.tc : Thread nD τ).loc main_arg0)) (m ((c.tc : Thread nD τ).loc main_arg2)) (m ((c.tc : Thread nD τ).loc main_arg3)) (anchor r) k := by
  refine (congrFun (V1_anchorArr m c) (ix2 r k)).trans ?_
  refine (truncf_apply (ψ := .bf16) _ bitsLt_bf16_f32 _).trans ?_
  exact sliceRows_apply 3841 (contrastArr (m ((c.tc : Thread nD τ).loc main_arg0)) (m ((c.tc : Thread nD τ).loc main_arg2)) (m ((c.tc : Thread nD τ).loc main_arg3))) slices_S8704x128_S4352x128_3841_0 (by norm_num) r k

theorem V1_contrastRows (j : Fin 8704) (k : Fin 128) :
    (Gen.V1 m c (Proc.devRef .tc main_v17) : S8704x128.Idx → EReal) (ix2 j k)
      = contrastFn (m ((c.tc : Thread nD τ).loc main_arg0)) (m ((c.tc : Thread nD τ).loc main_arg2)) (m ((c.tc : Thread nD τ).loc main_arg3)) j k := by
  refine (congrFun (V1_contrastArr m c) (ix2 j k)).trans ?_
  exact truncf_apply (ψ := .bf16) _ bitsLt_bf16_f32 _

theorem V1_anchorLabels (r : Fin 4352) :
    (Gen.V1 m c (Proc.devRef .tc main_v18) : S4352x1.Idx → BitVec 32) (ix2 r 0)
      = labOf (labBFn (m ((c.tc : Thread nD τ).loc main_arg1)) (m ((c.tc : Thread nD τ).loc main_arg4))) (anchor r) := by
  refine (congrFun (V1_anchorLabArr m c) (ix2 r 0)).trans ?_
  refine (asColumn_apply _ shapeCasts_S4352_S4352x1 r).trans ?_
  refine (sliceVec_apply 3841 (labAllArr (m ((c.tc : Thread nD τ).loc main_arg1)) (m ((c.tc : Thread nD τ).loc main_arg4))) slices_S8704_S4352_3841 (by norm_num) r).trans ?_
  exact labAllArr_apply (m ((c.tc : Thread nD τ).loc main_arg1)) (m ((c.tc : Thread nD τ).loc main_arg4)) (anchor r)

theorem V1_contrastLabels (j : Fin 8704) :
    (Gen.V1 m c (Proc.devRef .tc main_v19) : S1x8704.Idx → BitVec 32) (ix2 0 j)
      = labOf (labBFn (m ((c.tc : Thread nD τ).loc main_arg1)) (m ((c.tc : Thread nD τ).loc main_arg4))) j := by
  refine (congrFun (V1_contrastLabArr m c) (ix2 0 j)).trans ?_
  refine (asRow_apply _ shapeCasts_S8704_S1x8704 j).trans ?_
  exact labAllArr_apply (m ((c.tc : Thread nD τ).loc main_arg1)) (m ((c.tc : Thread nD τ).loc main_arg4)) j

end

/-! ## Finiteness -/

/-- Every entry of the array is a real number. -/
def AllReal {s : Shape} (a : s.Idx → EReal) : Prop := ∀ i, ∃ x : ℝ, a i = (x : EReal)

theorem allReal_shapeCast {s t : Shape} {a : s.Idx → EReal} (ha : AllReal a) (h : s.ShapeCasts t) :
    AllReal (shapeCast t a h) := fun j => by unfold shapeCast; exact ha _

theorem allReal_slice {s t : Shape} {a : s.Idx → EReal} (ha : AllReal a) (off : Fin s.rank → Nat) (h : s.Slices off t) :
    AllReal (extractStridedSlice t off a h) := fun j => by unfold extractStridedSlice; exact ha _

theorem allReal_stackRows {A B C f : ℕ} {x₁ : (⟨2, ![A, f]⟩ : Shape).Idx → EReal} {x₂ : (⟨2, ![B, f]⟩ : Shape).Idx → EReal}
    (h₁ : AllReal x₁) (h₂ : AllReal x₂)
    (h : Shape.Concatenates [(⟨2, ![A, f]⟩ : Shape), ⟨2, ![B, f]⟩] ⟨2, ![C, f]⟩ 0) (hC : C = A + B) :
    AllReal (concatenate (⟨2, ![C, f]⟩ : Shape) 0 [⟨_, x₁⟩, ⟨_, x₂⟩] h) := by
  intro j
  obtain ⟨p, k, rfl⟩ : ∃ (p : Fin C) (k : Fin f), j = ix2 p k := ⟨j 0, j 1, eq_ix2 j⟩
  rw [stackRows_apply x₁ x₂ h hC p k]
  by_cases hp : p.val < A
  · rw [dif_pos hp]; exact h₁ _
  · rw [dif_neg hp]; exact h₂ _

/-- The start index of the overwriting scatters is the word 0. -/
theorem startZero_apply : startZero (ix1 (0 : Fin 1)) = 0#32 := rfl

/-- The refreshed queue read at a row: the fresh row below 256, the queue's own row from 256 on. -/
theorem queueSet_apply (x : FVec Ideal S4096x128 .f32) (u : FVec Ideal S256x128 .f32) (a : Fin 4096) (k : Fin 128) :
    queueSet x u (ix2 a k) = if h : a.val < 256 then u (ix2 ⟨a.val, h⟩ k) else x (ix2 a k) :=
  ScatterRead.scatter_set_prefix_rows (by norm_num) scatter_S4096x128_S1_S256x128_01_n_0_0 rfl rfl rfl rfl x startZero
    startZero_apply u a k

/-- The refreshed label queue read at an entry: the batch's label below 256, the queue's own from 256 on. -/
theorem labelQueueSet_apply (x1 : IVec S256 32) (x4 : IVec S4096 32) (a : Fin 4096) :
    labelQueueSet x1 x4 (ix1 a) = if h : a.val < 256 then x1 (ix1 ⟨a.val, h⟩) else x4 (ix1 a) :=
  ScatterRead.scatter_set_prefix_vec (by norm_num) scatter_S4096_S1_S256_0_n_0_0 rfl rfl rfl rfl x4 startZero
    startZero_apply x1 a

theorem allReal_queueSet {x : FVec Ideal S4096x128 .f32} {u : FVec Ideal S256x128 .f32} (hx : AllReal x) (hu : AllReal u) :
    AllReal (queueSet x u) := by
  intro j
  obtain ⟨a, k, rfl⟩ : ∃ (a : Fin 4096) (k : Fin 128), j = ix2 a k := ⟨j 0, j 1, eq_ix2 j⟩
  rw [queueSet_apply x u a k]
  by_cases hp : a.val < 256
  · rw [dif_pos hp]; exact hu _
  · rw [dif_neg hp]; exact hx _

theorem contrast_finite (x0 : FVec Ideal S256x2x128 .f32) (x2 x3 : FVec Ideal S4096x128 .f32)
    (h0 : ∀ i, ∃ x : ℝ, x0 i = (x : EReal)) (h2 : ∀ i, ∃ x : ℝ, x2 i = (x : EReal))
    (h3 : ∀ i, ∃ x : ℝ, x3 i = (x : EReal)) :
    ∀ i k, ∃ x : ℝ, contrastFn x0 x2 x3 i k = (x : EReal) := by
  have hb : AllReal (batchRows x0) := allReal_shapeCast h0 _
  have hlo : AllReal (batchLo x0) := allReal_slice hb _ _
  have hhi : AllReal (batchHi x0) := allReal_slice hb _ _
  have hv1 : AllReal (viewRows (queueSet x2 (batchHi x0)) (batchLo x0)) :=
    allReal_stackRows (allReal_queueSet h2 hhi) hlo concatenates_S4096x128_S256x128_S4352x128_d0 (by norm_num)
  have hv2 : AllReal (viewRows (queueSet x3 (batchLo x0)) (batchHi x0)) :=
    allReal_stackRows (allReal_queueSet h3 hlo) hhi concatenates_S4096x128_S256x128_S4352x128_d0 (by norm_num)
  intro i k
  exact allReal_stackRows hv1 hv2 concatenates_S4352x128_S4352x128_S8704x128_d0 (by norm_num) (ix2 i k)

/-- An extended real whose absolute value is below the word of plus infinity is a real number. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

theorem finite_of_pre (m : (ℓ : Loc nD τ sig) → Buf (Elt Ideal) ℓ) (c : Dev nD) (h : Cert.Pre_KernelIdeal m) :
    (∀ i, ∃ x : ℝ, (m ((c.tc : Thread nD τ).loc main_arg0) : S256x2x128.Idx → EReal) i = ((x : ℝ) : EReal))
    ∧ (∀ i, ∃ x : ℝ, (m ((c.tc : Thread nD τ).loc main_arg2) : S4096x128.Idx → EReal) i = ((x : ℝ) : EReal))
    ∧ (∀ i, ∃ x : ℝ, (m ((c.tc : Thread nD τ).loc main_arg3) : S4096x128.Idx → EReal) i = ((x : ℝ) : EReal)) := by
  haveI : Subsingleton Cert.Pre_finite_inputs.S_.Idx := ⟨fun a b => funext fun d => d.elim0⟩
  have hc := congrFun (h c) ix0
  dsimp only [Cert.Pre_finite_inputs.fn] at hc
  obtain ⟨h02, h3'⟩ := IntOp.andi_eq_one.1 hc
  obtain ⟨h0', h2'⟩ := IntOp.andi_eq_one.1 h02
  refine ⟨fun i => ?_, fun i => ?_, fun i => ?_⟩
  · exact real_of_abs_lt_inf _ (Host.reduce_andi_all _ _ _ _ _ h0' i)
  · exact real_of_abs_lt_inf _ (Host.reduce_andi_all _ _ _ _ _ h2' i)
  · exact real_of_abs_lt_inf _ (Host.reduce_andi_all _ _ _ _ _ h3' i)

end Cert.SupCon

end
-- ==== Proof.Value.Blocks.lean ====
/-
  The 8704 contrast columns are swept in 4 blocks of 2176. This file is the arithmetic of that sweep
  over the extended reals: whole-row sums and suprema split into blocks, and the running pair
  (maximum so far, sum so far rescaled to that maximum) after the fourth block is the whole-row pair.
-/
import proofs.«123850_j8598524526701_1_alg».proof.Proof.Value.Spec
import Mathlib.Data.EReal.Basic
import Mathlib.Data.EReal.Operations
import Mathlib.Algebra.BigOperators.Fin
import Mathlib.Data.Fintype.BigOperators
import Mathlib.Data.Finset.Lattice.Fold
import Mathlib.Analysis.SpecialFunctions.Exp

namespace Cert.SupCon

open Idealize.ShloMosaic

/-- column q of block b -/
def col (b : Fin 4) (q : Fin 2176) : Fin 8704 :=
  ⟨b.val * 2176 + q.val, by have := b.isLt; have := q.isLt; omega⟩

/-- A column is a block and a place in it: quotient and remainder by 2176. -/
def colEquiv : Fin 4 × Fin 2176 ≃ Fin 8704 where
  toFun p := col p.1 p.2
  invFun j := (⟨j.val / 2176, by have := j.isLt; omega⟩, ⟨j.val % 2176, Nat.mod_lt _ (by norm_num)⟩)
  left_inv := by
    rintro ⟨b, q⟩
    have hb := b.isLt
    have hq := q.isLt
    ext <;> simp only [col] <;> omega
  right_inv := by
    intro j
    have hj := j.isLt
    ext
    simp only [col]
    omega

theorem sum_blocks (f : Fin 8704 → EReal) :
    ∑ j, f j = ∑ b : Fin 4, ∑ q : Fin 2176, f (col b q) := by
  calc ∑ j, f j = ∑ p : Fin 4 × Fin 2176, f (colEquiv p) := (Equiv.sum_comp colEquiv f).symm
    _ = ∑ b : Fin 4, ∑ q : Fin 2176, f (col b q) :=
        Fintype.sum_prod_type' fun b q => f (col b q)

theorem sup_blocks (f : Fin 8704 → EReal) :
    Finset.univ.sup f
      = Finset.univ.sup fun b : Fin 4 => Finset.univ.sup fun q : Fin 2176 => f (col b q) := by
  apply le_antisymm
  · refine Finset.sup_le fun j _ => ?_
    obtain ⟨⟨b, q⟩, rfl⟩ := colEquiv.surjective j
    exact le_trans
      (Finset.le_sup (f := fun q => f (col b q)) (Finset.mem_univ q))
      (Finset.le_sup (f := fun b => Finset.univ.sup fun q => f (col b q)) (Finset.mem_univ b))
  · exact Finset.sup_le fun b _ => Finset.sup_le fun q _ => Finset.le_sup (Finset.mem_univ _)

/-- one block's update of (running maximum, running rescaled sum): the new maximum is the larger of
    the old one and the block's; the old sum is rescaled by exp (old maximum - new maximum) and the
    block's terms exp (s q - new maximum) * w q are added -/
noncomputable def step (ML : EReal × EReal) (s w : Fin 2176 → EReal) : EReal × EReal :=
  let M := max ML.1 (Finset.univ.sup s); (M, Ideal.exp (ML.1 - M) * ML.2 + ∑ q, Ideal.exp (s q - M) * w q)

/-- the running pair after blocks 0 … b, from (⊥, 0) -/
noncomputable def run (s w : Fin 4 → Fin 2176 → EReal) : (n : ℕ) → EReal × EReal
  | 0 => (⊥, 0)
  | n + 1 => if h : n < 4 then step (run s w n) (s ⟨n, h⟩) (w ⟨n, h⟩) else run s w n

theorem step_fst (ML : EReal × EReal) (s w : Fin 2176 → EReal) :
    (step ML s w).1 = max ML.1 (Finset.univ.sup s) := rfl

theorem step_snd (ML : EReal × EReal) (s w : Fin 2176 → EReal) :
    (step ML s w).2 = Ideal.exp (ML.1 - (step ML s w).1) * ML.2
      + ∑ q, Ideal.exp (s q - (step ML s w).1) * w q := rfl

section unroll
variable (s w : Fin 4 → Fin 2176 → EReal)

theorem run_one : run s w 1 = step (⊥, 0) (s 0) (w 0) := by
  show (if h : 0 < 4 then step (run s w 0) (s ⟨0, h⟩) (w ⟨0, h⟩) else run s w 0) = _
  rw [dif_pos (by norm_num)]; rfl

theorem run_two : run s w 2 = step (run s w 1) (s 1) (w 1) := by
  show (if h : 1 < 4 then step (run s w 1) (s ⟨1, h⟩) (w ⟨1, h⟩) else run s w 1) = _
  rw [dif_pos (by norm_num)]; rfl

theorem run_three : run s w 3 = step (run s w 2) (s 2) (w 2) := by
  show (if h : 2 < 4 then step (run s w 2) (s ⟨2, h⟩) (w ⟨2, h⟩) else run s w 2) = _
  rw [dif_pos (by norm_num)]; rfl

theorem run_four : run s w 4 = step (run s w 3) (s 3) (w 3) := by
  show (if h : 3 < 4 then step (run s w 3) (s ⟨3, h⟩) (w ⟨3, h⟩) else run s w 3) = _
  rw [dif_pos (by norm_num)]; rfl

end unroll

/-- The supremum over the four blocks is the maximum of the four entries. -/
theorem sup_four (g : Fin 4 → EReal) :
    Finset.univ.sup g = max (max (max (g 0) (g 1)) (g 2)) (g 3) := by
  apply le_antisymm
  · refine Finset.sup_le fun b _ => ?_
    fin_cases b <;> simp [le_max_iff]
  · simp only [max_le_iff]
    exact ⟨⟨⟨Finset.le_sup (Finset.mem_univ _), Finset.le_sup (Finset.mem_univ _)⟩,
      Finset.le_sup (Finset.mem_univ _)⟩, Finset.le_sup (Finset.mem_univ _)⟩

theorem run_max (s w : Fin 4 → Fin 2176 → EReal) :
    (run s w 4).1 = Finset.univ.sup fun b => Finset.univ.sup fun q => s b q := by
  rw [run_four, step_fst, run_three, step_fst, run_two, step_fst, run_one, step_fst,
    sup_four fun b => Finset.univ.sup fun q => s b q]
  show max (max (max (max ⊥ _) _) _) _ = _
  rw [max_eq_right bot_le]

/-- The coercion of the reals into the extended reals goes through finite sums. -/
theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The coercion goes through the maximum of two reals. -/
theorem coe_max (a b : ℝ) : max (a : EReal) (b : EReal) = ((max a b : ℝ) : EReal) :=
  (EReal.coe_strictMono.monotone.map_max).symm

/-- A block of real entries has a real supremum. -/
theorem sup_real (x : Fin 2176 → ℝ) :
    ∃ m : ℝ, Finset.univ.sup (fun q => (x q : EReal)) = (m : EReal) := by
  obtain ⟨i, -, hi⟩ := Finset.exists_mem_eq_sup Finset.univ
    (⟨⟨0, by norm_num⟩, Finset.mem_univ _⟩ : (Finset.univ : Finset (Fin 2176)).Nonempty)
    (fun q => (x q : EReal))
  exact ⟨x i, hi⟩

/-- One block's terms with real entries, a real maximum and real weights are one real number. -/
theorem block_coe (x v : Fin 2176 → ℝ) (m : ℝ) :
    ∑ q, Ideal.exp ((x q : EReal) - (m : EReal)) * (v q : EReal)
      = ((∑ q, Real.exp (x q - m) * v q : ℝ) : EReal) := by
  rw [coe_sum]
  refine Finset.sum_congr rfl fun q _ => ?_
  rw [← EReal.coe_sub, Ideal.exp_coe, ← EReal.coe_mul]

/-- The first block's update, from (⊥, 0): the old sum contributes exp ⊥ * 0 = 0. -/
theorem step_bot (s w : Fin 2176 → EReal) (x v : Fin 2176 → ℝ)
    (hs : ∀ q, s q = (x q : EReal)) (hw : ∀ q, w q = (v q : EReal)) :
    ∃ m : ℝ, step (⊥, 0) s w = ((m : EReal), ((∑ q, Real.exp (x q - m) * v q : ℝ) : EReal)) := by
  obtain rfl : s = fun q => (x q : EReal) := funext hs
  obtain rfl : w = fun q => (v q : EReal) := funext hw
  obtain ⟨m, hm⟩ := sup_real x
  refine ⟨m, ?_⟩
  have h1 : (step (⊥, 0) (fun q => (x q : EReal)) fun q => (v q : EReal)).1 = (m : EReal) := by
    rw [step_fst, hm]; exact max_eq_right bot_le
  refine Prod.ext h1 ?_
  rw [step_snd, h1]
  show Ideal.exp (⊥ - (m : EReal)) * 0 + _ = _
  rw [mul_zero, zero_add]
  exact block_coe x v m

/-- A later block's update, from a pair known to be real: everything stays real. -/
theorem step_coe {P : EReal × EReal} {m l : ℝ} (hP : P = ((m : EReal), (l : EReal)))
    (s w : Fin 2176 → EReal) (x v : Fin 2176 → ℝ)
    (hs : ∀ q, s q = (x q : EReal)) (hw : ∀ q, w q = (v q : EReal)) :
    ∃ m' : ℝ, step P s w
      = ((m' : EReal), ((Real.exp (m - m') * l + ∑ q, Real.exp (x q - m') * v q : ℝ) : EReal)) := by
  subst hP
  obtain rfl : s = fun q => (x q : EReal) := funext hs
  obtain rfl : w = fun q => (v q : EReal) := funext hw
  obtain ⟨c, hc⟩ := sup_real x
  refine ⟨max m c, ?_⟩
  have h1 : (step ((m : EReal), (l : EReal)) (fun q => (x q : EReal)) fun q => (v q : EReal)).1
      = ((max m c : ℝ) : EReal) := by
    rw [step_fst, hc]; exact coe_max m c
  refine Prod.ext h1 ?_
  rw [step_snd, h1]
  show Ideal.exp ((m : EReal) - ((max m c : ℝ) : EReal)) * (l : EReal) + _ = _
  rw [block_coe x v (max m c), ← EReal.coe_sub, Ideal.exp_coe, ← EReal.coe_mul, ← EReal.coe_add]

/-- Moving a block's real terms from one reference point to another: exp (b - c) * exp (x - b) = exp (x - c). -/
theorem rescale (x v : Fin 2176 → ℝ) (b c : ℝ) :
    Real.exp (b - c) * ∑ q, Real.exp (x q - b) * v q = ∑ q, Real.exp (x q - c) * v q := by
  rw [Finset.mul_sum]
  refine Finset.sum_congr rfl fun q _ => ?_
  rw [← mul_assoc, ← Real.exp_add]
  congr 2
  ring

/-- the rescaling law; it needs every s b q a real number (at an infinite entry
    exp (a - b) * exp (b - c) = exp (a - c) fails) and every weight 0 or 1 -/
theorem run_sum (s w : Fin 4 → Fin 2176 → EReal) (hs : ∀ b q, ∃ x : ℝ, s b q = (x : EReal))
    (hw : ∀ b q, w b q = 0 ∨ w b q = 1) :
    (run s w 4).2 = ∑ b : Fin 4, ∑ q : Fin 2176, Ideal.exp (s b q - (run s w 4).1) * w b q := by
  choose x hx using hs
  have hw' : ∀ b q, ∃ v : ℝ, w b q = (v : EReal) := by
    intro b q
    rcases hw b q with h | h
    · exact ⟨0, by rw [h, EReal.coe_zero]⟩
    · exact ⟨1, by rw [h, EReal.coe_one]⟩
  choose v hv using hw'
  obtain ⟨m1, h1⟩ := step_bot (s 0) (w 0) (x 0) (v 0) (hx 0) (hv 0)
  obtain ⟨m2, h2⟩ := step_coe h1 (s 1) (w 1) (x 1) (v 1) (hx 1) (hv 1)
  obtain ⟨m3, h3⟩ := step_coe h2 (s 2) (w 2) (x 2) (v 2) (hx 2) (hv 2)
  obtain ⟨m4, h4⟩ := step_coe h3 (s 3) (w 3) (x 3) (v 3) (hx 3) (hv 3)
  have r4 : run s w 4
      = step (step (step (step (⊥, 0) (s 0) (w 0)) (s 1) (w 1)) (s 2) (w 2)) (s 3) (w 3) := by
    rw [run_four, run_three, run_two, run_one]
  rw [r4, h4]
  show ((_ : ℝ) : EReal) = ∑ b : Fin 4, ∑ q : Fin 2176, Ideal.exp (s b q - (m4 : EReal)) * w b q
  have hb : ∀ b : Fin 4, ∑ q : Fin 2176, Ideal.exp (s b q - (m4 : EReal)) * w b q
      = ((∑ q, Real.exp (x b q - m4) * v b q : ℝ) : EReal) := by
    intro b
    rw [← block_coe (x b) (v b) m4]
    refine Finset.sum_congr rfl fun q _ => ?_
    rw [hx b q, hv b q]
  rw [Finset.sum_congr rfl fun b _ => hb b, ← coe_sum, EReal.coe_eq_coe_iff, Fin.sum_univ_four]
  simp only [mul_add, rescale]

/-- a plain running sum from 0 over the four blocks is the sum of the blocks (no finiteness:
    addition on the extended reals is a commutative monoid) -/
theorem acc_blocks (B : Fin 4 → EReal) : (((0 + B 0) + B 1) + B 2) + B 3 = ∑ b : Fin 4, B b := by
  rw [Fin.sum_univ_four, zero_add]

end Cert.SupCon
-- ==== Proof.Value.Lse.Pay.lean ====
/-
  One grid point of the row-maximum and log-sum sweep, read entry by entry over the extended reals.
  For an anchor block a (256 rows of 128 features), a contrast block cb (2176 rows of 128 features), the anchor
  rows' labels la and the contrast rows' labels lc:
    the similarity block at (p, q) is the inner product of row p of a and row q of cb, times the reciprocal temperature;
    the new running maximum at row p is the larger of the old one and the largest similarity of row p;
    the rescaled old sum at row p is exp (old maximum - new maximum) times the old sum;
    the block's sum at row p adds exp (similarity - new maximum) over the columns whose label differs from row p's;
    the new running sum is the rescaled old sum plus the block's sum.
  Together the two new values at row p are one step of the blockwise recurrence on the pair (maximum, sum).
-/
import proofs.«123850_j8598524526701_1_alg».proof.Proof.Gen.KernelIdeal.Skeleton
import proofs.«123850_j8598524526701_1_alg».proof.Proof.Value.Blocks
import Idealize.ShloMosaic.Lib.ValueIdx
import Idealize.ShloMosaic.Lib.ValueLayout
import Idealize.ShloMosaic.Lib.Pipeline.Value
import Idealize.ShloMosaic.PureOps.Ideal.Laws

noncomputable section

namespace Cert.SupCon

open Cert.KernelIdeal Idealize.ShloMosaic Idealize.ShloMosaic.ValueIdx

/-- The named scale of the similarity block is the reciprocal temperature. -/
theorem named_invTemp :
    Named.named (F := Ideal) Cert.KernelIdeal.κ "inv_temp" (φ := .f32) 0x41649249#32 = invTemp := by
  unfold invTemp
  exact IdealRules.named_const.ideal_named_scalar _ _ _ _ rfl

/-! ## Three layout readings the sweep needs: a vector as a column, a column spread over the columns of a
    matrix, and a select on equality of two words -/

/-- An [n] vector cast to [n, 1] reads, at (i, u), the vector at i. -/
theorem shapeCast_col_apply {α : Type} {n : ℕ} (x : (⟨1, ![n]⟩ : Shape).Idx → α)
    (h : (⟨1, ![n]⟩ : Shape).ShapeCasts ⟨2, ![n, 1]⟩) (i : Fin n) (u : Fin 1) :
    shapeCast ⟨2, ![n, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An [a, 1] column broadcast to [a, b] reads, at (p, c), the column at p. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A select on the equality test of two words is the if on their equality. -/
theorem select_cmpi_eq {α : Type} {w : ℕ} (x y : BitVec w) (A B : α) :
    Scalar.select (IntOp.cmpi .eq x y) A B = if x = y then A else B := by
  have hc : IntOp.cmpi .eq x y = BitVec.ofBool (x == y) := rfl
  unfold Scalar.select
  rw [hc]
  by_cases h : x = y
  · subst h; simp
  · have hb : (x == y) = false := by simpa using h
    rw [if_neg h, hb]
    exact if_neg (by decide)

/-! ## The product's operand indices: output (p, q) and contraction position k read (p, k) and (k, q) -/

theorem dot_lhs0 (i : S256x2176.Idx) (k : dot_S256x128_S128x2176_S256x2176_1_0_0_1_n_n.contr.Idx) :
    (dot_S256x128_S128x2176_S256x2176_1_0_0_1_n_n.lhsIdx i k 0).val = (i 0).val := by
  unfold DotDims.lhsIdx
  rw [dif_neg (show ¬(0 : Fin S256x128.rank) ∈ dot_S256x128_S128x2176_S256x2176_1_0_0_1_n_n.lhsBatch by decide),
    dif_pos (show (0 : Fin S256x128.rank) ∈ dot_S256x128_S128x2176_S256x2176_1_0_0_1_n_n.lhsNonContracting by decide)]
  rfl
theorem dot_lhs1 (i : S256x2176.Idx) (k : dot_S256x128_S128x2176_S256x2176_1_0_0_1_n_n.contr.Idx) :
    (dot_S256x128_S128x2176_S256x2176_1_0_0_1_n_n.lhsIdx i k 1).val = (k ⟨0, by decide⟩).val :=
  dot_S256x128_S128x2176_S256x2176_1_0_0_1_n_n.lhsIdx_val_of_single rfl i k
theorem dot_rhs0 (i : S256x2176.Idx) (k : dot_S256x128_S128x2176_S256x2176_1_0_0_1_n_n.contr.Idx) :
    (dot_S256x128_S128x2176_S256x2176_1_0_0_1_n_n.rhsIdx i k 0).val = (k ⟨0, by decide⟩).val :=
  dot_S256x128_S128x2176_S256x2176_1_0_0_1_n_n.rhsIdx_val_of_single rfl i k
theorem dot_rhs1 (i : S256x2176.Idx) (k : dot_S256x128_S128x2176_S256x2176_1_0_0_1_n_n.contr.Idx) :
    (dot_S256x128_S128x2176_S256x2176_1_0_0_1_n_n.rhsIdx i k 1).val = (i 1).val := by
  unfold DotDims.rhsIdx
  rw [dif_neg (show ¬(1 : Fin S128x2176.rank) ∈ dot_S256x128_S128x2176_S256x2176_1_0_0_1_n_n.rhsBatch by decide),
    dif_pos (show (1 : Fin S128x2176.rank) ∈ dot_S256x128_S128x2176_S256x2176_1_0_0_1_n_n.rhsNonContracting by decide)]
  rfl

/-! ## The similarity block -/

/-- Entry (p, q) of the similarity block: row p of the anchor block against row q of the contrast block. -/
theorem simBlock_apply (a : FVec Ideal S256x128 .bf16) (cb : FVec Ideal S2176x128 .bf16) (p : Fin 256) (q : Fin 2176) :
    Gen.k0_pay6 (F := Ideal) a cb (ix2 p q) = (∑ k : Fin 128, a (ix2 p k) * cb (ix2 q k)) * invTemp := by
  unfold Gen.k0_pay6
  dsimp only
  refine (mulf_apply _ _ _).trans ?_
  refine congrArg₂ (· * ·) ?_ ((broadcast_apply _ _).trans named_invTemp)
  refine (Ideal.matmul_constant_zero_apply dot_S256x128_S128x2176_S256x2176_1_0_0_1_n_n none _ _ (ix2 p q)).trans ?_
  refine (Equiv.sum_comp (contrEquiv1 dot_S256x128_S128x2176_S256x2176_1_0_0_1_n_n 128 rfl rfl).symm _).symm.trans ?_
  refine Finset.sum_congr rfl fun k _ => ?_
  have hk := contrEquiv1_symm_val dot_S256x128_S128x2176_S256x2176_1_0_0_1_n_n 128 rfl rfl k
  have el : dot_S256x128_S128x2176_S256x2176_1_0_0_1_n_n.lhsIdx (ix2 p q) ((contrEquiv1 dot_S256x128_S128x2176_S256x2176_1_0_0_1_n_n 128 rfl rfl).symm k) = ix2 p k := funext fun ax => Fin.ext (by
    match ax with
    | ⟨0, _⟩ => exact dot_lhs0 _ _
    | ⟨1, _⟩ => exact (dot_lhs1 _ _).trans hk)
  have er : dot_S256x128_S128x2176_S256x2176_1_0_0_1_n_n.rhsIdx (ix2 p q) ((contrEquiv1 dot_S256x128_S128x2176_S256x2176_1_0_0_1_n_n 128 rfl rfl).symm k) = ix2 k q := funext fun ax => Fin.ext (by
    match ax with
    | ⟨0, _⟩ => exact (dot_rhs0 _ _).trans hk
    | ⟨1, _⟩ => exact dot_rhs1 _ _)
  rw [el, er, shapeCast_self, shapeCast_self]
  exact congrArg (a (ix2 p k) * ·) (transpose_ix2_apply cb _ k q)

/-! ## The running maximum -/

/-- The largest entry of row p of a [256, 2176] block, as the reduction from minus infinity computes it. -/
theorem rowSup_apply (x : FVec Ideal S256x2176 .f32) (h : S256x2176.Reduces [1] S256) (hφ : FKind.Formats .f32)
    (hacc : (0xFF800000#32 : BitVec 32) = FKind.maximumf.neutral .f32 hφ) (p : Fin 256) :
    multiReduction .maximumf [1] S256 x 0xFF800000#32 h hφ hacc (ix1 p) = Finset.univ.sup fun q : Fin 2176 => x (ix2 p q) := by
  refine (Ideal.multiReduction_maximumf_single x _ h hφ hacc (ix1 p)).trans ?_
  have hl : ∀ q : Fin 2176, h.lift (ix1 p) q = ix2 p q := fun q => funext fun ax => Fin.ext (by
    match ax with
    | ⟨0, _⟩ => rfl
    | ⟨1, _⟩ => rfl)
  show Finset.fold max (Ideal.ofBits .f32 0xFF800000#32) (fun q : Fin 2176 => x (h.lift (ix1 p) q)) Finset.univ = _
  simp only [hl]
  rw [ofBits_negInf]
  rfl

/-- The new running maximum at row p: the larger of the old one and the row's largest similarity. -/
theorem newMax_apply (a : FVec Ideal S256x128 .bf16) (cb : FVec Ideal S2176x128 .bf16) (m : FVec Ideal S256x1 .f32) (p : Fin 256) :
    Gen.k0_pay7 (F := Ideal) a cb m (ix2 p 0)
      = max (m (ix2 p 0)) (Finset.univ.sup fun q : Fin 2176 => Gen.k0_pay6 (F := Ideal) a cb (ix2 p q)) := by
  unfold Gen.k0_pay7
  dsimp only
  refine (maximumf_apply _ _ _).trans ?_
  refine congrArg (max (m (ix2 p 0))) ?_
  refine (shapeCast_col_apply _ _ p 0).trans ?_
  exact rowSup_apply _ _ _ _ p

/-! ## The running sum -/

/-- The rescaled old sum at row p. -/
theorem rescaled_apply (a : FVec Ideal S256x128 .bf16) (cb : FVec Ideal S2176x128 .bf16) (m m' l : FVec Ideal S256x1 .f32) (p : Fin 256) :
    Gen.k0_pay8 (F := Ideal) a cb m m' l (ix2 p 0)
      = Ideal.exp (m' (ix2 p 0) - Gen.k0_pay7 (F := Ideal) a cb m (ix2 p 0)) * l (ix2 p 0) := by
  unfold Gen.k0_pay8
  rfl

/-- The sum over one row of a [256, 2176] block, as the reduction from zero computes it. -/
theorem rowSum_apply (x : FVec Ideal S256x2176 .f32) (h : S256x2176.Reduces [1] S256) (hφ : FKind.Formats .f32)
    (hacc : (0x00000000#32 : BitVec 32) = FKind.add.neutral .f32 hφ) (p : Fin 256) :
    multiReduction .add [1] S256 x 0x00000000#32 h hφ hacc (ix1 p) = ∑ q : Fin 2176, x (ix2 p q) := by
  refine (Ideal.multiReduction_add_single x _ h hφ hacc (ix1 p)).trans ?_
  have hl : ∀ q : Fin 2176, h.lift (ix1 p) q = ix2 p q := fun q => funext fun ax => Fin.ext (by
    match ax with
    | ⟨0, _⟩ => rfl
    | ⟨1, _⟩ => rfl)
  show ∑ q : Fin 2176, x (h.lift (ix1 p) q) = _
  simp only [hl]

/-- The block's sum at row p: exp (similarity - new maximum) over the columns whose label differs from row p's. -/
theorem blockSum_apply (a : FVec Ideal S256x128 .bf16) (cb : FVec Ideal S2176x128 .bf16) (la : IVec S256x1 32) (lc : IVec S1x2176 32)
    (m : FVec Ideal S256x1 .f32) (p : Fin 256) :
    Gen.k0_pay9 (F := Ideal) a cb la lc m (ix1 p)
      = ∑ q : Fin 2176, Ideal.exp (Gen.k0_pay6 (F := Ideal) a cb (ix2 p q) - Gen.k0_pay7 (F := Ideal) a cb m (ix2 p 0))
          * (if la (ix2 p 0) = lc (ix2 0 q) then 0 else 1) := by
  unfold Gen.k0_pay9
  dsimp only
  refine (rowSum_apply _ _ _ _ p).trans ?_
  refine Finset.sum_congr rfl fun q _ => ?_
  refine (mulf_apply _ _ _).trans ?_
  refine congrArg₂ (· * ·) ?_ ?_
  · show Ideal.exp (Gen.k0_pay6 (F := Ideal) a cb (ix2 p q) - _) = _
    refine congrArg (fun z => Ideal.exp (Gen.k0_pay6 (F := Ideal) a cb (ix2 p q) - z)) ?_
    exact broadcastTo_col_apply _ _ p q
  · refine (select_apply _ _ _ _).trans ?_
    show Scalar.select (IntOp.cmpi .eq _ _) (Ideal.ofBits .f32 0x00000000#32) (Ideal.ofBits .f32 0x3F800000#32) = _
    rw [select_cmpi_eq, ofBits_zero, ofBits_one, broadcastTo_col_apply, broadcastTo_1b_ab_apply, shapeCast_self, shapeCast_self]

/-- The new running sum at row p: the rescaled old sum plus the block's sum. -/
theorem newSum_apply (s : FVec Ideal S256x1 .f32) (b : FVec Ideal S256 .f32) (p : Fin 256) :
    Gen.k0_pay1 (F := Ideal) s b (ix2 p 0) = s (ix2 p 0) + b (ix1 p) := by
  unfold Gen.k0_pay1
  rw [shapeCast_self]
  refine (addf_apply _ _ _).trans ?_
  exact congrArg (s (ix2 p 0) + ·) (shapeCast_col_apply _ _ p 0)

/-- The stored logarithm at row p. -/
theorem logOf_apply (l : FVec Ideal S256x1 .f32) (p : Fin 256) :
    Gen.k0_pay3 (F := Ideal) l (ix2 p 0) = Ideal.log (l (ix2 p 0)) := rfl

/-- The reset values: minus infinity for the maximum, zero for the sum. -/
theorem resetMax_apply (p : Fin 256) : Gen.k0_pay4 (F := Ideal) (ix2 p 0) = ⊥ := by
  unfold Gen.k0_pay4
  rw [shapeCast_self]
  exact ofBits_negInf
theorem resetSum_apply (p : Fin 256) : Gen.k0_pay5 (F := Ideal) (ix2 p 0) = 0 := by
  unfold Gen.k0_pay5
  rw [shapeCast_self]
  exact ofBits_zero

/-! ## One point is one step of the recurrence -/

/-- At row p the new (maximum, sum) is the step of the old pair over the row's similarities and the weights
    (0 where the labels agree, 1 where they differ). -/
theorem update_eq_step (a : FVec Ideal S256x128 .bf16) (cb : FVec Ideal S2176x128 .bf16) (la : IVec S256x1 32) (lc : IVec S1x2176 32)
    (m l : FVec Ideal S256x1 .f32) (p : Fin 256) :
    (Gen.k0_pay7 (F := Ideal) a cb m (ix2 p 0),
      Gen.k0_pay1 (F := Ideal) (Gen.k0_pay8 (F := Ideal) a cb m m l) (Gen.k0_pay9 (F := Ideal) a cb la lc m) (ix2 p 0))
      = step (m (ix2 p 0), l (ix2 p 0)) (fun q => Gen.k0_pay6 (F := Ideal) a cb (ix2 p q))
          (fun q => if la (ix2 p 0) = lc (ix2 0 q) then 0 else 1) := by
  refine Prod.ext ?_ ?_
  · exact newMax_apply a cb m p
  · show _ = Ideal.exp (m (ix2 p 0) - max (m (ix2 p 0)) (Finset.univ.sup fun q => Gen.k0_pay6 (F := Ideal) a cb (ix2 p q))) * l (ix2 p 0)
        + ∑ q, Ideal.exp (Gen.k0_pay6 (F := Ideal) a cb (ix2 p q) - max (m (ix2 p 0)) (Finset.univ.sup fun q => Gen.k0_pay6 (F := Ideal) a cb (ix2 p q)))
            * (if la (ix2 p 0) = lc (ix2 0 q) then 0 else 1)
    rw [← newMax_apply a cb m p]
    refine (newSum_apply _ _ p).trans ?_
    exact congrArg₂ (· + ·) (rescaled_apply a cb m m l p) (blockSum_apply a cb la lc m p)

end Cert.SupCon

end
-- ==== Proof.Value.Lse.Rows.lean ====
/-
  From blocks to rows. Anchor row r lies in row block r / 256 at place r % 256; contrast row col b q lies in
  column block b at place q. When an anchor block holds rows of C at the anchors' positions and a contrast block
  holds the rows of column block b, the similarity block's entries are sim, the weights are negWeight, and one
  point's update of the running pair is the blockwise recurrence's step over
      s b q = sim C (anchor r) (col b q),   w b q = negWeight labB r (col b q).
  After the fourth block the pair is (rowMax, expSum).
-/
import proofs.«123850_j8598524526701_1_alg».proof.Proof.Value.Lse.Pay

noncomputable section

namespace Cert.SupCon

open Cert.KernelIdeal Idealize.ShloMosaic Idealize.ShloMosaic.ValueIdx

variable (C : Fin 8704 → Fin 128 → EReal) (labB : Fin 4352 → BitVec 32)

/-- The similarities of anchor row r against column block b. -/
def simOf (r : Fin 4352) (b : Fin 4) (q : Fin 2176) : EReal := sim C (anchor r) (col b q)
/-- The weights of anchor row r against column block b: 1 where the labels differ. -/
def negOf (r : Fin 4352) (b : Fin 4) (q : Fin 2176) : EReal := negWeight labB r (col b q)

/-- Every similarity of real rows is real. -/
theorem sim_real (hfin : ∀ i k, ∃ x : ℝ, C i k = (x : EReal)) (i j : Fin 8704) : ∃ x : ℝ, sim C i j = (x : EReal) := by
  choose g hg using hfin
  refine ⟨(∑ k, g i k * g j k) * (134217728 / 9395241), ?_⟩
  unfold sim invTemp
  rw [EReal.coe_mul, coe_sum]
  refine congrArg (· * _) (Finset.sum_congr rfl fun k _ => ?_)
  rw [hg i k, hg j k, EReal.coe_mul]

theorem negOf_zero_or_one (r : Fin 4352) (b : Fin 4) (q : Fin 2176) : negOf labB r b q = 0 ∨ negOf labB r b q = 1 := by
  unfold negOf negWeight
  split
  · exact Or.inl rfl
  · exact Or.inr rfl

/-- After the four blocks the running maximum is the row's maximum. -/
theorem run_fst_eq_rowMax (r : Fin 4352) : (run (simOf C r) (negOf labB r) 4).1 = rowMax C r := by
  rw [run_max]
  exact (sup_blocks fun j => sim C (anchor r) j).symm

/-- After the four blocks the running sum is the row's weighted sum of exponentials. -/
theorem run_snd_eq_expSum (hfin : ∀ i k, ∃ x : ℝ, C i k = (x : EReal)) (r : Fin 4352) :
    (run (simOf C r) (negOf labB r) 4).2 = expSum C labB r := by
  rw [run_sum (simOf C r) (negOf labB r) (fun b q => sim_real C hfin (anchor r) (col b q)) (negOf_zero_or_one labB r), run_fst_eq_rowMax]
  exact (sum_blocks fun j => Ideal.exp (sim C (anchor r) j - rowMax C r) * negWeight labB r j).symm

/-! ## One point on blocks that hold the rows -/

section Point
variable (a : FVec Ideal S256x128 .bf16) (cb : FVec Ideal S2176x128 .bf16) (la : IVec S256x1 32) (lc : IVec S1x2176 32)
  (r : Fin 4352) (p : Fin 256) (b : Fin 4)
  (ha : ∀ k : Fin 128, a (ix2 p k) = C (anchor r) k)
  (hc : ∀ (q : Fin 2176) (k : Fin 128), cb (ix2 q k) = C (col b q) k)
  (hla : la (ix2 p 0) = labOf labB (anchor r))
  (hlc : ∀ q : Fin 2176, lc (ix2 0 q) = labOf labB (col b q))

include ha hc in
/-- The similarity block holds the row's similarities against the column block. -/
theorem simBlock_eq (q : Fin 2176) : Gen.k0_pay6 (F := Ideal) a cb (ix2 p q) = simOf C r b q := by
  rw [simBlock_apply]
  unfold simOf sim
  refine congrArg (· * invTemp) (Finset.sum_congr rfl fun k _ => ?_)
  rw [ha k, hc q k]

include hla hlc in
/-- The select on the labels is the row's weight. -/
theorem weight_eq (q : Fin 2176) : (if la (ix2 p 0) = lc (ix2 0 q) then (0 : EReal) else 1) = negOf labB r b q := by
  unfold negOf negWeight
  rw [hla, hlc q]

include ha hc hla hlc in
/-- One point's new (maximum, sum) at row p is the step of the old pair over the row's similarities and weights. -/
theorem point_eq_step (m l : FVec Ideal S256x1 .f32) :
    (Gen.k0_pay7 (F := Ideal) a cb m (ix2 p 0),
      Gen.k0_pay1 (F := Ideal) (Gen.k0_pay8 (F := Ideal) a cb m m l) (Gen.k0_pay9 (F := Ideal) a cb la lc m) (ix2 p 0))
      = step (m (ix2 p 0), l (ix2 p 0)) (simOf C r b) (negOf labB r b) := by
  rw [update_eq_step]
  congr 1
  · exact funext fun q => simBlock_eq C a cb r p b ha hc q
  · exact funext fun q => weight_eq labB la lc r p b hla hlc q

end Point

end Cert.SupCon

end
-- ==== Proof.Value.Lse.Pieces.lean ====
/-
  What each of the three control cases leaves behind, as arithmetic of the blocks it loaded (for every float
  instance). A case's run found, for each buffer, the pieces stored into it; the pieces cover the buffer, so reading
  them back gives the last store's value with every load in it replaced by what the buffer held at that moment.
    first column block:   the reset values are stored, then the update reads them back;
    middle column blocks: the update reads what the point before left (maximum m, sum l);
    last column block:    the same update, and the two outputs get the new maximum and the logarithm of the new sum.
  The update: new maximum = max m (row maxima of the similarity block); new sum = exp (m - new maximum) * l plus
  the block's weighted sum of exp (similarity - new maximum).
-/
import proofs.«123850_j8598524526701_1_alg».proof.Proof.KernelIdeal.Lse.Data
import Idealize.ShloMosaic.Lib.Pipeline.Value

set_option maxRecDepth 16384

noncomputable section

namespace Cert.SupCon

open Idealize.ShloMosaic Idealize.ShloMosaic.TcCoe Idealize.ShloMosaic.Tactic
open Idealize.SL Idealize.SL.Sem
open Cert.KernelIdeal Cert.KernelIdeal.Gen Cert.KernelIdeal.Lse

variable {F : FTy → Type} [FloatOps F] [Named F]

/-- The zero offsets of a whole-buffer access. -/
theorem hz00 : (![0, 0] : Fin 2 → Nat) = fun _ => 0 := funext fun a => by fin_cases a <;> rfl

/-- The cast of a column to its own shape changes nothing. -/
theorem pay2_id (v : FVec F S256x1 .f32) : k0_pay2 v = v := by
  unfold k0_pay2
  exact shapeCast_self v _

theorem runMaxMid_eq (c : Dev nD) (i : grid0.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hfirst : ¬atFirstCol i) (hlast : ¬atLastCol i) (x0 : Vec F S256x128 .bf16) (x1 : Vec F S2176x128 .bf16) (x2 : Vec F S256x1 .i32) (x3 : Vec F S1x2176 .i32) (xs0 : Vec F S256x1 .f32) (xs1 : Vec F S256x1 .f32) :
    runMaxMid c i arg2 harg2 arg3 harg3 arg4 harg4 arg5 harg5 arg6 harg6 arg7 harg7 arg8 harg8 arg9 harg9 hfirst hlast x0 x1 x2 x3 xs0 xs1 = k0_pay2 (k0_pay7 x0 x1 xs0) := by
  unfold runMaxMid
  rw [View.read_writes_eq_canon _ _ _ (cover_rmax_mid c i arg2 harg2 arg3 harg3 arg4 harg4 arg5 harg5 arg6 harg6 arg7 harg7 arg8 harg8 arg9 harg9 hfirst hlast x0 x1 x2 x3 xs0 xs1)]
  unfold run_mid
  dsimp only
  sl_unfold_words
  first
    | rw [View.canon_unit_zero hz00]
    | rw [View.canon_cons_unit_zero (S := S256x1) hz00, View.readCov_unit_zero (S := S256x1) _ hz00]
  simp only [View.readAt_eq_ld, harg2.read_unread, harg3.read_unread, harg4.read_unread, harg5.read_unread,
    harg8.read_unread, harg9.read_unread, View.ld_unit_zero (S := S256x1) hz00, View.ld_unit_zero (S := S256x128) hz00,
    View.ld_unit_zero (S := S2176x128) hz00, View.ld_unit_zero (S := S1x2176) hz00,
    View.readCov_unit_zero (S := S256x1) _ hz00]

theorem runSumMid_eq (c : Dev nD) (i : grid0.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hfirst : ¬atFirstCol i) (hlast : ¬atLastCol i) (x0 : Vec F S256x128 .bf16) (x1 : Vec F S2176x128 .bf16) (x2 : Vec F S256x1 .i32) (x3 : Vec F S1x2176 .i32) (xs0 : Vec F S256x1 .f32) (xs1 : Vec F S256x1 .f32) :
    runSumMid c i arg2 harg2 arg3 harg3 arg4 harg4 arg5 harg5 arg6 harg6 arg7 harg7 arg8 harg8 arg9 harg9 hfirst hlast x0 x1 x2 x3 xs0 xs1 = k0_pay1 (k0_pay8 x0 x1 xs0 xs0 xs1) (k0_pay9 x0 x1 x2 x3 xs0) := by
  unfold runSumMid
  rw [View.read_writes_eq_canon _ _ _ (cover_rsum_mid c i arg2 harg2 arg3 harg3 arg4 harg4 arg5 harg5 arg6 harg6 arg7 harg7 arg8 harg8 arg9 harg9 hfirst hlast x0 x1 x2 x3 xs0 xs1)]
  unfold run_mid
  dsimp only
  sl_unfold_words
  first
    | rw [View.canon_unit_zero hz00]
    | rw [View.canon_cons_unit_zero (S := S256x1) hz00, View.readCov_unit_zero (S := S256x1) _ hz00]
  simp only [View.readAt_eq_ld, harg2.read_unread, harg3.read_unread, harg4.read_unread, harg5.read_unread,
    harg8.read_unread, harg9.read_unread, View.ld_unit_zero (S := S256x1) hz00, View.ld_unit_zero (S := S256x128) hz00,
    View.ld_unit_zero (S := S2176x128) hz00, View.ld_unit_zero (S := S1x2176) hz00,
    View.readCov_unit_zero (S := S256x1) _ hz00]

theorem runMaxLast_eq (c : Dev nD) (i : grid0.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hfirst : ¬atFirstCol i) (hlast : atLastCol i) (x0 : Vec F S256x128 .bf16) (x1 : Vec F S2176x128 .bf16) (x2 : Vec F S256x1 .i32) (x3 : Vec F S1x2176 .i32) (xs0 : Vec F S256x1 .f32) (xs1 : Vec F S256x1 .f32) :
    runMaxLast c i arg2 harg2 arg3 harg3 arg4 harg4 arg5 harg5 arg6 harg6 arg7 harg7 arg8 harg8 arg9 harg9 hfirst hlast x0 x1 x2 x3 xs0 xs1 = k0_pay2 (k0_pay7 x0 x1 xs0) := by
  unfold runMaxLast
  rw [View.read_writes_eq_canon _ _ _ (cover_rmax_last c i arg2 harg2 arg3 harg3 arg4 harg4 arg5 harg5 arg6 harg6 arg7 harg7 arg8 harg8 arg9 harg9 hfirst hlast x0 x1 x2 x3 xs0 xs1)]
  unfold run_last
  dsimp only
  sl_unfold_words
  first
    | rw [View.canon_unit_zero hz00]
    | rw [View.canon_cons_unit_zero (S := S256x1) hz00, View.readCov_unit_zero (S := S256x1) _ hz00]
  simp only [View.readAt_eq_ld, harg2.read_unread, harg3.read_unread, harg4.read_unread, harg5.read_unread,
    harg8.read_unread, harg9.read_unread, View.ld_unit_zero (S := S256x1) hz00, View.ld_unit_zero (S := S256x128) hz00,
    View.ld_unit_zero (S := S2176x128) hz00, View.ld_unit_zero (S := S1x2176) hz00,
    View.readCov_unit_zero (S := S256x1) _ hz00]

theorem runSumLast_eq (c : Dev nD) (i : grid0.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hfirst : ¬atFirstCol i) (hlast : atLastCol i) (x0 : Vec F S256x128 .bf16) (x1 : Vec F S2176x128 .bf16) (x2 : Vec F S256x1 .i32) (x3 : Vec F S1x2176 .i32) (xs0 : Vec F S256x1 .f32) (xs1 : Vec F S256x1 .f32) :
    runSumLast c i arg2 harg2 arg3 harg3 arg4 harg4 arg5 harg5 arg6 harg6 arg7 harg7 arg8 harg8 arg9 harg9 hfirst hlast x0 x1 x2 x3 xs0 xs1 = k0_pay1 (k0_pay8 x0 x1 xs0 xs0 xs1) (k0_pay9 x0 x1 x2 x3 xs0) := by
  unfold runSumLast
  rw [View.read_writes_eq_canon _ _ _ (cover_rsum_last c i arg2 harg2 arg3 harg3 arg4 harg4 arg5 harg5 arg6 harg6 arg7 harg7 arg8 harg8 arg9 harg9 hfirst hlast x0 x1 x2 x3 xs0 xs1)]
  unfold run_last
  dsimp only
  sl_unfold_words
  first
    | rw [View.canon_unit_zero hz00]
    | rw [View.canon_cons_unit_zero (S := S256x1) hz00, View.readCov_unit_zero (S := S256x1) _ hz00]
  simp only [View.readAt_eq_ld, harg2.read_unread, harg3.read_unread, harg4.read_unread, harg5.read_unread,
    harg8.read_unread, harg9.read_unread, View.ld_unit_zero (S := S256x1) hz00, View.ld_unit_zero (S := S256x128) hz00,
    View.ld_unit_zero (S := S2176x128) hz00, View.ld_unit_zero (S := S1x2176) hz00,
    View.readCov_unit_zero (S := S256x1) _ hz00]

theorem outMaxLast_eq (c : Dev nD) (i : grid0.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hfirst : ¬atFirstCol i) (hlast : atLastCol i) (x0 : Vec F S256x128 .bf16) (x1 : Vec F S2176x128 .bf16) (x2 : Vec F S256x1 .i32) (x3 : Vec F S1x2176 .i32) (xs0 : Vec F S256x1 .f32) (xs1 : Vec F S256x1 .f32) :
    outMaxLast c i arg2 harg2 arg3 harg3 arg4 harg4 arg5 harg5 arg6 harg6 arg7 harg7 arg8 harg8 arg9 harg9 hfirst hlast x0 x1 x2 x3 xs0 xs1 = k0_pay2 (k0_pay7 x0 x1 xs0) := by
  unfold outMaxLast
  rw [View.read_writes_eq_canon _ _ _ (cover_max_last c i arg2 harg2 arg3 harg3 arg4 harg4 arg5 harg5 arg6 harg6 arg7 harg7 arg8 harg8 arg9 harg9 hfirst hlast x0 x1 x2 x3 xs0 xs1)]
  unfold run_last
  dsimp only
  sl_unfold_words
  first
    | rw [View.canon_unit_zero hz00]
    | rw [View.canon_cons_unit_zero (S := S256x1) hz00, View.readCov_unit_zero (S := S256x1) _ hz00]
  simp only [View.readAt_eq_ld, harg2.read_unread, harg3.read_unread, harg4.read_unread, harg5.read_unread,
    harg8.read_unread, harg9.read_unread, View.ld_unit_zero (S := S256x1) hz00, View.ld_unit_zero (S := S256x128) hz00,
    View.ld_unit_zero (S := S2176x128) hz00, View.ld_unit_zero (S := S1x2176) hz00,
    View.readCov_unit_zero (S := S256x1) _ hz00]

theorem outLogLast_eq (c : Dev nD) (i : grid0.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hfirst : ¬atFirstCol i) (hlast : atLastCol i) (x0 : Vec F S256x128 .bf16) (x1 : Vec F S2176x128 .bf16) (x2 : Vec F S256x1 .i32) (x3 : Vec F S1x2176 .i32) (xs0 : Vec F S256x1 .f32) (xs1 : Vec F S256x1 .f32) :
    outLogLast c i arg2 harg2 arg3 harg3 arg4 harg4 arg5 harg5 arg6 harg6 arg7 harg7 arg8 harg8 arg9 harg9 hfirst hlast x0 x1 x2 x3 xs0 xs1 = k0_pay3 (k0_pay1 (k0_pay8 x0 x1 xs0 xs0 xs1) (k0_pay9 x0 x1 x2 x3 xs0)) := by
  unfold outLogLast
  rw [View.read_writes_eq_canon _ _ _ (cover_log_last c i arg2 harg2 arg3 harg3 arg4 harg4 arg5 harg5 arg6 harg6 arg7 harg7 arg8 harg8 arg9 harg9 hfirst hlast x0 x1 x2 x3 xs0 xs1)]
  unfold run_last
  dsimp only
  sl_unfold_words
  first
    | rw [View.canon_unit_zero hz00]
    | rw [View.canon_cons_unit_zero (S := S256x1) hz00, View.readCov_unit_zero (S := S256x1) _ hz00]
  simp only [View.readAt_eq_ld, harg2.read_unread, harg3.read_unread, harg4.read_unread, harg5.read_unread,
    harg8.read_unread, harg9.read_unread, View.ld_unit_zero (S := S256x1) hz00, View.ld_unit_zero (S := S256x128) hz00,
    View.ld_unit_zero (S := S2176x128) hz00, View.ld_unit_zero (S := S1x2176) hz00,
    View.readCov_unit_zero (S := S256x1) _ hz00]

theorem runMaxFirst_eq (c : Dev nD) (i : grid0.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hfirst : atFirstCol i) (hlast : ¬atLastCol i) (x0 : Vec F S256x128 .bf16) (x1 : Vec F S2176x128 .bf16) (x2 : Vec F S256x1 .i32) (x3 : Vec F S1x2176 .i32) :
    runMaxFirst c i arg2 harg2 arg3 harg3 arg4 harg4 arg5 harg5 arg6 harg6 arg7 harg7 arg8 harg8 arg9 harg9 hfirst hlast x0 x1 x2 x3 = k0_pay2 (k0_pay7 x0 x1 (k0_pay4 (F := F))) := by
  unfold runMaxFirst
  rw [View.read_writes_eq_canon _ _ _ (cover_rmax_first c i arg2 harg2 arg3 harg3 arg4 harg4 arg5 harg5 arg6 harg6 arg7 harg7 arg8 harg8 arg9 harg9 hfirst hlast x0 x1 x2 x3)]
  unfold run_first
  dsimp only
  sl_unfold_words
  first
    | rw [View.canon_unit_zero hz00]
    | rw [View.canon_cons_unit_zero (S := S256x1) hz00, View.readCov_unit_zero (S := S256x1) _ hz00]
  simp only [View.readAt_eq_ld, harg2.read_unread, harg3.read_unread, harg4.read_unread, harg5.read_unread,
    harg8.read_unread, harg9.read_unread, View.ld_unit_zero (S := S256x1) hz00, View.ld_unit_zero (S := S256x128) hz00,
    View.ld_unit_zero (S := S2176x128) hz00, View.ld_unit_zero (S := S1x2176) hz00,
    View.readCov_unit_zero (S := S256x1) _ hz00]

theorem runSumFirst_eq (c : Dev nD) (i : grid0.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hfirst : atFirstCol i) (hlast : ¬atLastCol i) (x0 : Vec F S256x128 .bf16) (x1 : Vec F S2176x128 .bf16) (x2 : Vec F S256x1 .i32) (x3 : Vec F S1x2176 .i32) :
    runSumFirst c i arg2 harg2 arg3 harg3 arg4 harg4 arg5 harg5 arg6 harg6 arg7 harg7 arg8 harg8 arg9 harg9 hfirst hlast x0 x1 x2 x3 = k0_pay1 (k0_pay8 x0 x1 (k0_pay4 (F := F)) (k0_pay4 (F := F)) (k0_pay5 (F := F))) (k0_pay9 x0 x1 x2 x3 (k0_pay4 (F := F))) := by
  unfold runSumFirst
  rw [View.read_writes_eq_canon _ _ _ (cover_rsum_first c i arg2 harg2 arg3 harg3 arg4 harg4 arg5 harg5 arg6 harg6 arg7 harg7 arg8 harg8 arg9 harg9 hfirst hlast x0 x1 x2 x3)]
  unfold run_first
  dsimp only
  sl_unfold_words
  first
    | rw [View.canon_unit_zero hz00]
    | rw [View.canon_cons_unit_zero (S := S256x1) hz00, View.readCov_unit_zero (S := S256x1) _ hz00]
  simp only [View.readAt_eq_ld, harg2.read_unread, harg3.read_unread, harg4.read_unread, harg5.read_unread,
    harg8.read_unread, harg9.read_unread, View.ld_unit_zero (S := S256x1) hz00, View.ld_unit_zero (S := S256x128) hz00,
    View.ld_unit_zero (S := S2176x128) hz00, View.ld_unit_zero (S := S1x2176) hz00,
    View.readCov_unit_zero (S := S256x1) _ hz00]

end Cert.SupCon

end
-- ==== Proof.Value.Lse.lean ====
/-
  What the row-maximum and log-sum region leaves in its two output arrays: at anchor row r, the largest
  similarity of the row, and the logarithm of the row's sum of exp (similarity - largest) over the contrast
  rows whose label differs from the anchor's.

  Point t = 4 * i + b of the 17 x 4 grid works on anchor rows 256 * i + p and contrast rows col b q. Its four input
  blocks are read off the arrays at those rows; after it the two scratches hold, at row p, the blockwise
  recurrence's pair after b + 1 blocks (by induction on the point: the first column block starts from the reset
  values, the others from what the point before left); the last column block stores the pair's maximum and the
  logarithm of its sum, and row r of each output array is written back by point 4 * (r / 256) + 3.
-/
import proofs.«123850_j8598524526701_1_alg».proof.Proof.Value.Lse.Rows
import proofs.«123850_j8598524526701_1_alg».proof.Proof.Value.Lse.Pieces
import Idealize.ShloMosaic.Lib.Pipeline.Value

noncomputable section

namespace Cert.SupCon

open Cert.KernelIdeal Cert.KernelIdeal.Gen Idealize.ShloMosaic Idealize.ShloMosaic.TcCoe Idealize.ShloMosaic.ValueIdx
open Idealize.ShloMosaic.Pipeline (Dat)

section Sweep
variable (V : (c : Dev nD) → (b : Ref sig .tc) → Buf (Elt Ideal) ((c : Thread nD τ).loc b)) (c : Dev nD)

/-! ## The blocks and the arrays, by their shapes -/

abbrev ancBlk (t : Fin cfg0.N) : FVec Ideal S256x128 .bf16 := Lse.iblk V c 0 t
abbrev conBlk (t : Fin cfg0.N) : FVec Ideal S2176x128 .bf16 := Lse.iblk V c 1 t
abbrev ancLab (t : Fin cfg0.N) : IVec S256x1 32 := Lse.iblk V c 2 t
abbrev conLab (t : Fin cfg0.N) : IVec S1x2176 32 := Lse.iblk V c 3 t
abbrev ancArr : FVec Ideal S4352x128 .bf16 := V c main_v16
abbrev conArr : FVec Ideal S8704x128 .bf16 := V c main_v17
abbrev ancLabArr : IVec S4352x1 32 := V c main_v18
abbrev conLabArr : IVec S1x8704 32 := V c main_v19

/-- The block indices over the grid: row-block windows move with t / 4, column-block windows with t % 4. -/
theorem idx_facts : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val / 4 ∧ win0_2.index t (1 : Fin 2) = 0
    ∧ win0_3.index t (0 : Fin 2) = 0 ∧ win0_3.index t (1 : Fin 2) = t.val % 4
    ∧ win0_4.index t (0 : Fin 2) = t.val / 4 ∧ win0_4.index t (1 : Fin 2) = 0
    ∧ win0_5.index t (0 : Fin 2) = t.val / 4 ∧ win0_5.index t (1 : Fin 2) = 0 :=
  (by decide +kernel : ∀ t : Fin grid0.N, _)

/-- The anchor row at place p of point t's row block. -/
def rowOf (t : Fin cfg0.N) (p : Fin 256) : Fin 4352 :=
  ⟨256 * (t.val / 4) + p.val, by have := t.isLt; have hN : cfg0.N = 68 := Gen.N_0; have := p.isLt; omega⟩
/-- Point t's column block. -/
def blkOf (t : Fin cfg0.N) : Fin 4 := ⟨t.val % 4, Nat.mod_lt _ (by norm_num)⟩

theorem ancBlk_apply (t : Fin cfg0.N) (p : Fin 256) (k : Fin 128) :
    ancBlk V c t (ix2 p k) = ancArr V c (ix2 (rowOf t p) k) := by
  obtain ⟨e0, e1, -⟩ := idx_facts t
  show ancArr V c (((cfg0.win 0).blk t).view.emb (ix2 p k)) = _
  congr 1
  funext a; apply Fin.ext
  match a with
  | ⟨0, _⟩ => show win0_0.index t (0 : Fin 2) * 256 + 1 * p.val = 256 * (t.val / 4) + p.val; rw [e0]; omega
  | ⟨1, _⟩ => show win0_0.index t (1 : Fin 2) * 128 + 1 * k.val = k.val; rw [e1]; omega

theorem conBlk_apply (t : Fin cfg0.N) (q : Fin 2176) (k : Fin 128) :
    conBlk V c t (ix2 q k) = conArr V c (ix2 (col (blkOf t) q) k) := by
  obtain ⟨-, -, e0, e1, -⟩ := idx_facts t
  show conArr V c (((cfg0.win 1).blk t).view.emb (ix2 q k)) = _
  congr 1
  funext a; apply Fin.ext
  match a with
  | ⟨0, _⟩ => show win0_1.index t (0 : Fin 2) * 2176 + 1 * q.val = t.val % 4 * 2176 + q.val; rw [e0]; omega
  | ⟨1, _⟩ => show win0_1.index t (1 : Fin 2) * 128 + 1 * k.val = k.val; rw [e1]; omega

theorem ancLab_apply (t : Fin cfg0.N) (p : Fin 256) :
    ancLab V c t (ix2 p 0) = ancLabArr V c (ix2 (rowOf t p) 0) := by
  obtain ⟨-, -, -, -, e0, e1, -⟩ := idx_facts t
  show ancLabArr V c (((cfg0.win 2).blk t).view.emb (ix2 p 0)) = _
  congr 1
  funext a; apply Fin.ext
  match a with
  | ⟨0, _⟩ => show win0_2.index t (0 : Fin 2) * 256 + 1 * p.val = 256 * (t.val / 4) + p.val; rw [e0]; omega
  | ⟨1, _⟩ => show win0_2.index t (1 : Fin 2) * 1 + 1 * 0 = 0; rw [e1]

theorem conLab_apply (t : Fin cfg0.N) (q : Fin 2176) :
    conLab V c t (ix2 0 q) = conLabArr V c (ix2 0 (col (blkOf t) q)) := by
  obtain ⟨-, -, -, -, -, -, e0, e1, -⟩ := idx_facts t
  show conLabArr V c (((cfg0.win 3).blk t).view.emb (ix2 0 q)) = _
  congr 1
  funext a; apply Fin.ext
  match a with
  | ⟨0, _⟩ => show win0_3.index t (0 : Fin 2) * 1 + 1 * 0 = 0; rw [e0]
  | ⟨1, _⟩ => show win0_3.index t (1 : Fin 2) * 2176 + 1 * q.val = t.val % 4 * 2176 + q.val; rw [e1]; omega

/-! ## The scratches after each point -/

variable (C : Fin 8704 → Fin 128 → EReal) (labB : Fin 4352 → BitVec 32)

/-- What the two scratches hold at row p after point n. -/
def pairAt (n : ℕ) (hn : n < cfg0.N) (p : Fin 256) : EReal × EReal :=
  (((Lse.outsAt V c n hn).2.1 : FVec Ideal S256x1 .f32) (ix2 p 0), ((Lse.outsAt V c n hn).2.2 : FVec Ideal S256x1 .f32) (ix2 p 0))

/-! ## The outputs -/

/-- What the last column block leaves in the two outputs' staging buffers at row p: the new maximum, and the
    logarithm of the new sum. -/
theorem outs_last (t : Fin cfg0.N) (h3 : t.val % 4 = 3) (p : Fin 256) :
    ((Lse.outsAt V c t.val t.isLt).1.1 : FVec Ideal S256x1 .f32) (ix2 p 0) = (pairAt V c t.val t.isLt p).1
    ∧ ((Lse.outsAt V c t.val t.isLt).1.2 : FVec Ideal S256x1 .f32) (ix2 p 0) = Ideal.log (pairAt V c t.val t.isLt p).2 := by
  unfold pairAt
  rw [Lse.outsAt_last V c t h3]
  dsimp only
  rw [outMaxLast_eq, outLogLast_eq, runMaxLast_eq, runSumLast_eq]
  exact ⟨rfl, rfl⟩

/-- The row maxima as an array. -/
def maxArr : FVec Ideal S4352x1 .f32 := fun i => rowMax C ⟨(i 0).val, (i 0).isLt⟩
/-- The logarithms of the rows' weighted exponential sums as an array. -/
def logArr : FVec Ideal S4352x1 .f32 := fun i => Ideal.log (expSum C labB ⟨(i 0).val, (i 0).isLt⟩)

section Hyp
variable (hA : ∀ (r : Fin 4352) (k : Fin 128), ancArr V c (ix2 r k) = C (anchor r) k)
  (hC : ∀ (j : Fin 8704) (k : Fin 128), conArr V c (ix2 j k) = C j k)
  (hLa : ∀ r : Fin 4352, ancLabArr V c (ix2 r 0) = labOf labB (anchor r))
  (hLc : ∀ j : Fin 8704, conLabArr V c (ix2 0 j) = labOf labB j)
  (hfin : ∀ i k, ∃ x : ℝ, C i k = (x : EReal))

include hA hC hLa hLc in
/-- A point of the first column block: the step from the reset pair. -/
theorem pairAt_first (t : Fin cfg0.N) (h0 : t.val % 4 = 0) (p : Fin 256) :
    pairAt V c t.val t.isLt p = step (⊥, 0) (simOf C (rowOf t p) (blkOf t)) (negOf labB (rowOf t p) (blkOf t)) := by
  unfold pairAt
  rw [Lse.outsAt_first V c t h0]
  dsimp only
  rw [runMaxFirst_eq, runSumFirst_eq, pay2_id]
  refine (point_eq_step C labB (ancBlk V c t) (conBlk V c t) (ancLab V c t) (conLab V c t) (rowOf t p) p (blkOf t)
    (fun k => (ancBlk_apply V c t p k).trans (hA _ k)) (fun q k => (conBlk_apply V c t q k).trans (hC _ k))
    ((ancLab_apply V c t p).trans (hLa _)) (fun q => (conLab_apply V c t q).trans (hLc _))
    (k0_pay4 (F := Ideal)) (k0_pay5 (F := Ideal))).trans ?_
  rw [resetMax_apply, resetSum_apply]

include hA hC hLa hLc in
/-- A later point: the step from the pair the point before left. -/
theorem pairAt_next (t : Fin cfg0.N) (h0 : ¬t.val % 4 = 0) (p : Fin 256) :
    pairAt V c t.val t.isLt p
      = step (pairAt V c (t.val - 1) (Nat.lt_of_le_of_lt (Nat.sub_le _ _) t.isLt) p)
          (simOf C (rowOf t p) (blkOf t)) (negOf labB (rowOf t p) (blkOf t)) := by
  unfold pairAt
  by_cases h3 : t.val % 4 = 3
  · rw [Lse.outsAt_last V c t h3]
    dsimp only
    rw [runMaxLast_eq, runSumLast_eq, pay2_id]
    exact point_eq_step C labB (ancBlk V c t) (conBlk V c t) (ancLab V c t) (conLab V c t) (rowOf t p) p (blkOf t)
      (fun k => (ancBlk_apply V c t p k).trans (hA _ k)) (fun q k => (conBlk_apply V c t q k).trans (hC _ k))
      ((ancLab_apply V c t p).trans (hLa _)) (fun q => (conLab_apply V c t q).trans (hLc _)) _ _
  · rw [Lse.outsAt_mid V c t h0 h3]
    dsimp only
    rw [runMaxMid_eq, runSumMid_eq, pay2_id]
    exact point_eq_step C labB (ancBlk V c t) (conBlk V c t) (ancLab V c t) (conLab V c t) (rowOf t p) p (blkOf t)
      (fun k => (ancBlk_apply V c t p k).trans (hA _ k)) (fun q k => (conBlk_apply V c t q k).trans (hC _ k))
      ((ancLab_apply V c t p).trans (hLa _)) (fun q => (conLab_apply V c t q).trans (hLc _)) _ _

/-- One more block of the recurrence. -/
theorem run_succ (s w : Fin 4 → Fin 2176 → EReal) (b : ℕ) (hb : b < 4) :
    run s w (b + 1) = step (run s w b) (s ⟨b, hb⟩) (w ⟨b, hb⟩) := by
  show (if h : b < 4 then step (run s w b) (s ⟨b, h⟩) (w ⟨b, h⟩) else run s w b) = _
  rw [dif_pos hb]

include hA hC hLa hLc in
/-- After point n the scratches hold, at row p, the recurrence's pair after n % 4 + 1 blocks of the row. -/
theorem pairAt_eq_run : ∀ (n : ℕ) (hn : n < cfg0.N) (p : Fin 256),
    pairAt V c n hn p = run (simOf C (rowOf ⟨n, hn⟩ p)) (negOf labB (rowOf ⟨n, hn⟩ p)) (n % 4 + 1)
  | 0, hn, p => by
    rw [pairAt_first V c C labB hA hC hLa hLc ⟨0, hn⟩ rfl p]
    exact (run_succ _ _ 0 (by norm_num)).symm
  | n + 1, hn, p => by
    by_cases h0 : (n + 1) % 4 = 0
    · rw [pairAt_first V c C labB hA hC hLa hLc ⟨n + 1, hn⟩ h0 p, h0]
      have hb : blkOf ⟨n + 1, hn⟩ = ⟨0, by norm_num⟩ := Fin.ext h0
      rw [hb]
      exact (run_succ _ _ 0 (by norm_num)).symm
    · have ih := pairAt_eq_run n (Nat.lt_of_succ_lt hn) p
      have hrow : rowOf ⟨n, Nat.lt_of_succ_lt hn⟩ p = rowOf ⟨n + 1, hn⟩ p := Fin.ext (by
        show 256 * (n / 4) + p.val = 256 * ((n + 1) / 4) + p.val
        omega)
      have hmod : (n + 1) % 4 = n % 4 + 1 := by omega
      have hlt : n % 4 + 1 < 4 := by omega
      have hb : blkOf ⟨n + 1, hn⟩ = ⟨n % 4 + 1, hlt⟩ := Fin.ext hmod
      rw [pairAt_next V c C labB hA hC hLa hLc ⟨n + 1, hn⟩ h0 p]
      show step (pairAt V c n _ p) _ _ = _
      rw [ih, hrow, hb, hmod]
      exact (run_succ _ _ (n % 4 + 1) hlt).symm

include hA hC hLa hLc in
/-- What point t writes back into the row-maximum array is its block of maxArr. -/
theorem flushed_max (t : Fin cfg0.N) (hf : (cfg0.win 4).flush t = true) :
    (Lse.dat V c).flushed 4 t = ((cfg0.win 4).blk t).view.read (Elt Ideal) (maxArr C) := by
  have h3 : t.val % 4 = 3 := (flush0_4 t).mp hf
  show (cfg0.win 4).cut (grid0.coords t) ((Lse.dat V c).after 4 t) = _
  rw [Lse.after_max]
  refine funext fun (j : S256x1.Idx) => ?_
  obtain ⟨p, u, rfl⟩ : ∃ (p : Fin 256) (u : Fin 1), j = ix2 p u := ⟨j 0, j 1, eq_ix2 j⟩
  obtain rfl : u = 0 := Subsingleton.elim _ _
  show ((Lse.outsAt V c t.val t.isLt).1.1 : FVec Ideal S256x1 .f32) (ix2 p 0) = maxArr C (((cfg0.win 4).blk t).view.emb (ix2 p 0))
  rw [(outs_last V c t h3 p).1, pairAt_eq_run V c C labB hA hC hLa hLc t.val t.isLt p, h3]
  show (run (simOf C (rowOf ⟨t.val, t.isLt⟩ p)) (negOf labB (rowOf ⟨t.val, t.isLt⟩ p)) 4).1 = _
  rw [run_fst_eq_rowMax]
  unfold maxArr
  have hrow : rowOf ⟨t.val, t.isLt⟩ p = ⟨((((cfg0.win 4).blk t).view.emb (ix2 p 0)) 0).val, ((((cfg0.win 4).blk t).view.emb (ix2 p 0)) 0).isLt⟩ := Fin.ext (by
    obtain ⟨-, -, -, -, -, -, -, -, e40, e41, e50, e51⟩ := idx_facts t
    show 256 * (t.val / 4) + p.val = win0_4.index t (0 : Fin 2) * 256 + 1 * p.val
    rw [e40]; omega)
  rw [hrow]

/-- An index of the array lies in point t's block iff each coordinate is in the block's range. -/
theorem mem_blk_max (t : Fin cfg0.N) (i : S4352x1.Idx) :
    i ∈ ((cfg0.win 4).blk t).view.set ↔ ∀ a : Fin 2, win0_4.index t a * S256x1.size a ≤ (i a).val ∧ (i a).val < win0_4.index t a * S256x1.size a + S256x1.size a := by
  show i ∈ ((View.whole main_v20_0).slice (win0_4.rect t)).set ↔ _
  rw [View.set_slice_whole, Rect.mem_set_unit]
  exact Iff.rfl

/-- Row r of the array is written back by the last column block of its row block. -/
theorem covered_max (i : S4352x1.Idx) :
    ∃ t : Fin cfg0.N, (cfg0.win 4).flush t = true ∧ i ∈ ((cfg0.win 4).blk t).view.set := by
  have hN : cfg0.N = 68 := Gen.N_0
  have hi0 : (i 0).val < 4352 := (i 0).isLt
  have hi1 : (i 1).val < 1 := (i 1).isLt
  have hlt : 4 * ((i 0).val / 256) + 3 < cfg0.N := by omega
  obtain ⟨-, -, -, -, -, -, -, -, e40, e41, e50, e51⟩ := idx_facts ⟨4 * ((i 0).val / 256) + 3, hlt⟩
  refine ⟨⟨4 * ((i 0).val / 256) + 3, hlt⟩, (flush0_4 _).mpr (by show (4 * ((i 0).val / 256) + 3) % 4 = 3; omega), ?_⟩
  rw [mem_blk_max]
  intro a
  match a with
  | ⟨0, _⟩ =>
    show win0_4.index ⟨4 * ((i 0).val / 256) + 3, hlt⟩ (0 : Fin 2) * 256 ≤ (i 0).val ∧ (i 0).val < win0_4.index ⟨4 * ((i 0).val / 256) + 3, hlt⟩ (0 : Fin 2) * 256 + 256
    rw [e40]
    show (4 * ((i 0).val / 256) + 3) / 4 * 256 ≤ (i 0).val ∧ (i 0).val < (4 * ((i 0).val / 256) + 3) / 4 * 256 + 256
    omega
  | ⟨1, _⟩ =>
    show win0_4.index ⟨4 * ((i 0).val / 256) + 3, hlt⟩ (1 : Fin 2) * 1 ≤ (i 1).val ∧ (i 1).val < win0_4.index ⟨4 * ((i 0).val / 256) + 3, hlt⟩ (1 : Fin 2) * 1 + 1
    rw [e41]
    omega

include hA hC hLa hLc hfin in
/-- What point t writes back into the log-sum array is its block of logArr. -/
theorem flushed_logsum (t : Fin cfg0.N) (hf : (cfg0.win 5).flush t = true) :
    (Lse.dat V c).flushed 5 t = ((cfg0.win 5).blk t).view.read (Elt Ideal) (logArr C labB) := by
  have h3 : t.val % 4 = 3 := (flush0_5 t).mp hf
  show (cfg0.win 5).cut (grid0.coords t) ((Lse.dat V c).after 5 t) = _
  rw [Lse.after_logsum]
  refine funext fun (j : S256x1.Idx) => ?_
  obtain ⟨p, u, rfl⟩ : ∃ (p : Fin 256) (u : Fin 1), j = ix2 p u := ⟨j 0, j 1, eq_ix2 j⟩
  obtain rfl : u = 0 := Subsingleton.elim _ _
  show ((Lse.outsAt V c t.val t.isLt).1.2 : FVec Ideal S256x1 .f32) (ix2 p 0) = logArr C labB (((cfg0.win 5).blk t).view.emb (ix2 p 0))
  rw [(outs_last V c t h3 p).2, pairAt_eq_run V c C labB hA hC hLa hLc t.val t.isLt p, h3]
  show Ideal.log (run (simOf C (rowOf ⟨t.val, t.isLt⟩ p)) (negOf labB (rowOf ⟨t.val, t.isLt⟩ p)) 4).2 = _
  rw [run_snd_eq_expSum C labB hfin]
  unfold logArr
  have hrow : rowOf ⟨t.val, t.isLt⟩ p = ⟨((((cfg0.win 5).blk t).view.emb (ix2 p 0)) 0).val, ((((cfg0.win 5).blk t).view.emb (ix2 p 0)) 0).isLt⟩ := Fin.ext (by
    obtain ⟨-, -, -, -, -, -, -, -, e40, e41, e50, e51⟩ := idx_facts t
    show 256 * (t.val / 4) + p.val = win0_5.index t (0 : Fin 2) * 256 + 1 * p.val
    rw [e50]; omega)
  rw [hrow]

/-- An index of the array lies in point t's block iff each coordinate is in the block's range. -/
theorem mem_blk_logsum (t : Fin cfg0.N) (i : S4352x1.Idx) :
    i ∈ ((cfg0.win 5).blk t).view.set ↔ ∀ a : Fin 2, win0_5.index t a * S256x1.size a ≤ (i a).val ∧ (i a).val < win0_5.index t a * S256x1.size a + S256x1.size a := by
  show i ∈ ((View.whole main_v20_1).slice (win0_5.rect t)).set ↔ _
  rw [View.set_slice_whole, Rect.mem_set_unit]
  exact Iff.rfl

/-- Row r of the array is written back by the last column block of its row block. -/
theorem covered_logsum (i : S4352x1.Idx) :
    ∃ t : Fin cfg0.N, (cfg0.win 5).flush t = true ∧ i ∈ ((cfg0.win 5).blk t).view.set := by
  have hN : cfg0.N = 68 := Gen.N_0
  have hi0 : (i 0).val < 4352 := (i 0).isLt
  have hi1 : (i 1).val < 1 := (i 1).isLt
  have hlt : 4 * ((i 0).val / 256) + 3 < cfg0.N := by omega
  obtain ⟨-, -, -, -, -, -, -, -, e40, e41, e50, e51⟩ := idx_facts ⟨4 * ((i 0).val / 256) + 3, hlt⟩
  refine ⟨⟨4 * ((i 0).val / 256) + 3, hlt⟩, (flush0_5 _).mpr (by show (4 * ((i 0).val / 256) + 3) % 4 = 3; omega), ?_⟩
  rw [mem_blk_logsum]
  intro a
  match a with
  | ⟨0, _⟩ =>
    show win0_5.index ⟨4 * ((i 0).val / 256) + 3, hlt⟩ (0 : Fin 2) * 256 ≤ (i 0).val ∧ (i 0).val < win0_5.index ⟨4 * ((i 0).val / 256) + 3, hlt⟩ (0 : Fin 2) * 256 + 256
    rw [e50]
    show (4 * ((i 0).val / 256) + 3) / 4 * 256 ≤ (i 0).val ∧ (i 0).val < (4 * ((i 0).val / 256) + 3) / 4 * 256 + 256
    omega
  | ⟨1, _⟩ =>
    show win0_5.index ⟨4 * ((i 0).val / 256) + 3, hlt⟩ (1 : Fin 2) * 1 ≤ (i 1).val ∧ (i 1).val < win0_5.index ⟨4 * ((i 0).val / 256) + 3, hlt⟩ (1 : Fin 2) * 1 + 1
    rw [e51]
    omega

end Hyp
end Sweep

/-- Row r of the row-maximum output array holds the largest similarity of anchor row r. -/
theorem lse_max (V : (c : Dev nD) → (b : Ref sig .tc) → Buf (Elt Ideal) ((c : Thread nD τ).loc b)) (c : Dev nD)
    (C : Fin 8704 → Fin 128 → EReal) (labB : Fin 4352 → BitVec 32)
    (hA : ∀ (r : Fin 4352) (k : Fin 128), (V c main_v16 : S4352x128.Idx → EReal) (ix2 r k) = C (anchor r) k)
    (hC : ∀ (j : Fin 8704) (k : Fin 128), (V c main_v17 : S8704x128.Idx → EReal) (ix2 j k) = C j k)
    (hLa : ∀ r : Fin 4352, (V c main_v18 : S4352x1.Idx → BitVec 32) (ix2 r 0) = labOf labB (anchor r))
    (hLc : ∀ j : Fin 8704, (V c main_v19 : S1x8704.Idx → BitVec 32) (ix2 0 j) = labOf labB j)
    (hfin : ∀ i k, ∃ x : ℝ, C i k = (x : EReal)) (r : Fin 4352) :
    ((Cert.KernelIdeal.Lse.dat V c).arrAt 4 cfg0.N : S4352x1.Idx → EReal) (ix2 r 0) = rowMax C r :=
  congrFun ((Lse.dat V c).arrAt_eq_of_cover 4 (maxArr C) (flushed_max V c C labB hA hC hLa hLc) covered_max) (ix2 r 0)

/-- Row r of the log-sum output array holds the logarithm of anchor row r's sum, over the contrast rows of another
    label, of exp (similarity - the row's largest similarity). -/
theorem lse_logsum (V : (c : Dev nD) → (b : Ref sig .tc) → Buf (Elt Ideal) ((c : Thread nD τ).loc b)) (c : Dev nD)
    (C : Fin 8704 → Fin 128 → EReal) (labB : Fin 4352 → BitVec 32)
    (hA : ∀ (r : Fin 4352) (k : Fin 128), (V c main_v16 : S4352x128.Idx → EReal) (ix2 r k) = C (anchor r) k)
    (hC : ∀ (j : Fin 8704) (k : Fin 128), (V c main_v17 : S8704x128.Idx → EReal) (ix2 j k) = C j k)
    (hLa : ∀ r : Fin 4352, (V c main_v18 : S4352x1.Idx → BitVec 32) (ix2 r 0) = labOf labB (anchor r))
    (hLc : ∀ j : Fin 8704, (V c main_v19 : S1x8704.Idx → BitVec 32) (ix2 0 j) = labOf labB j)
    (hfin : ∀ i k, ∃ x : ℝ, C i k = (x : EReal)) (r : Fin 4352) :
    ((Cert.KernelIdeal.Lse.dat V c).arrAt 5 cfg0.N : S4352x1.Idx → EReal) (ix2 r 0) = Ideal.log (expSum C labB r) :=
  congrFun ((Lse.dat V c).arrAt_eq_of_cover 5 (logArr C labB) (flushed_logsum V c C labB hA hC hLa hLc hfin) covered_logsum) (ix2 r 0)

end Cert.SupCon

end
-- ==== Proof.Value.Loss.Payload.lean ====
/-
  The loss region's arithmetic, entry by entry. Each value the region's body computes from its loaded
  blocks is read here at one index of its block, over the extended reals: the clamped log-probability
  at (p, q) is the scaled inner product of anchor row p with contrast row q minus the row's maximum and
  log-sum, capped at 0; the positive-pair weight at (p, q) is a three-way choice on the label test, the
  diagonal test and the range test; the two running sums at row p add that row's sum over the 2176
  columns of the block to what the scratch held.
-/
import proofs.«123850_j8598524526701_1_alg».proof.Proof.Gen.KernelIdeal.Skeleton
import proofs.«123850_j8598524526701_1_alg».proof.Proof.Value.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.SupCon.LossRegion

open Cert.KernelIdeal Idealize.ShloMosaic Idealize.ShloMosaic.ValueIdx
open Cert.KernelIdeal.Gen (k1_pay1 k1_pay2 k1_pay3 k1_pay4 k1_pay5 k1_pay6 k1_pay10)

theorem dotAC_lhs_0 (j : S256x2176.Idx) (k : dot_S256x128_S128x2176_S256x2176_1_0_0_1_n_n.contr.Idx) :
    (dot_S256x128_S128x2176_S256x2176_1_0_0_1_n_n.lhsIdx j k 0).val = (j 0).val := by
  unfold DotDims.lhsIdx
  rw [dif_neg (show ¬(0 : Fin S256x128.rank) ∈ dot_S256x128_S128x2176_S256x2176_1_0_0_1_n_n.lhsBatch by decide), dif_pos (show (0 : Fin S256x128.rank) ∈ dot_S256x128_S128x2176_S256x2176_1_0_0_1_n_n.lhsNonContracting by decide)]
  rfl
theorem dotAC_lhs_1 (j : S256x2176.Idx) (k : dot_S256x128_S128x2176_S256x2176_1_0_0_1_n_n.contr.Idx) :
    (dot_S256x128_S128x2176_S256x2176_1_0_0_1_n_n.lhsIdx j k 1).val = (k ⟨0, by decide⟩).val :=
  dot_S256x128_S128x2176_S256x2176_1_0_0_1_n_n.lhsIdx_val_of_single rfl j k
theorem dotAC_rhs_0 (j : S256x2176.Idx) (k : dot_S256x128_S128x2176_S256x2176_1_0_0_1_n_n.contr.Idx) :
    (dot_S256x128_S128x2176_S256x2176_1_0_0_1_n_n.rhsIdx j k 0).val = (k ⟨0, by decide⟩).val :=
  dot_S256x128_S128x2176_S256x2176_1_0_0_1_n_n.rhsIdx_val_of_single rfl j k
theorem dotAC_rhs_1 (j : S256x2176.Idx) (k : dot_S256x128_S128x2176_S256x2176_1_0_0_1_n_n.contr.Idx) :
    (dot_S256x128_S128x2176_S256x2176_1_0_0_1_n_n.rhsIdx j k 1).val = (j 1).val := by
  unfold DotDims.rhsIdx
  rw [dif_neg (show ¬(1 : Fin S128x2176.rank) ∈ dot_S256x128_S128x2176_S256x2176_1_0_0_1_n_n.rhsBatch by decide), dif_pos (show (1 : Fin S128x2176.rank) ∈ dot_S256x128_S128x2176_S256x2176_1_0_0_1_n_n.rhsNonContracting by decide)]
  rfl

/-- The product into the zero accumulator at (p, q): the sum over the 128 features of row p of the left
    operand times column q of the right operand. -/
theorem matmul_at (a : FVec Ideal S256x128 .bf16) (b : FVec Ideal S128x2176 .bf16) (p : Fin 256) (q : Fin 2176) :
    matmul dot_S256x128_S128x2176_S256x2176_1_0_0_1_n_n none a b (constant (F := Ideal) S256x2176 .f32 0x00000000#32) (ix2 p q)
      = ∑ k : Fin 128, a (ix2 p k) * b (ix2 k q) := by
  simp only [matmul]
  rw [Ideal.matmul_constant_zero_apply, ← Equiv.sum_comp (contrEquiv1 dot_S256x128_S128x2176_S256x2176_1_0_0_1_n_n 128 rfl rfl).symm]
  refine Finset.sum_congr rfl fun k _ => ?_
  have hk := contrEquiv1_symm_val dot_S256x128_S128x2176_S256x2176_1_0_0_1_n_n 128 rfl rfl k
  have el : dot_S256x128_S128x2176_S256x2176_1_0_0_1_n_n.lhsIdx (ix2 p q) ((contrEquiv1 dot_S256x128_S128x2176_S256x2176_1_0_0_1_n_n 128 rfl rfl).symm k) = ix2 p k := funext fun d => Fin.ext (by
    match d with
    | ⟨0, _⟩ => exact dotAC_lhs_0 _ _
    | ⟨1, _⟩ => exact (dotAC_lhs_1 _ _).trans hk)
  have er : dot_S256x128_S128x2176_S256x2176_1_0_0_1_n_n.rhsIdx (ix2 p q) ((contrEquiv1 dot_S256x128_S128x2176_S256x2176_1_0_0_1_n_n 128 rfl rfl).symm k) = ix2 k q := funext fun d => Fin.ext (by
    match d with
    | ⟨0, _⟩ => exact (dotAC_rhs_0 _ _).trans hk
    | ⟨1, _⟩ => exact dotAC_rhs_1 _ _)
  rw [el, er]

/-- Entry (k, q) of the transposed contrast block is entry (q, k) of the block. -/
theorem transpose_at {α : Type} (x : S2176x128.Idx → α) (k : Fin 128) (q : Fin 2176) :
    transpose S128x2176 [1, 0] x Gen.transposes_S2176x128_p1_0_S128x2176 (ix2 k q) = x (ix2 q k) :=
  transpose_apply [1, 0] x Gen.transposes_S2176x128_p1_0_S128x2176 (ix2 k q) (ix2 q k) (fun b => match b with
    | ⟨0, _⟩ => rfl
    | ⟨1, _⟩ => rfl)

/-- A [256,1] column spread over the 2176 columns reads its row's entry. -/
theorem spreadCol_at {α : Type} (x : S256x1.Idx → α) (p : Fin 256) (q : Fin 2176) :
    broadcastTo S256x2176 x Gen.broadcasts_S256x1_S256x2176 (ix2 p q) = x (ix2 p 0) :=
  broadcastTo_apply x Gen.broadcasts_S256x1_S256x2176 (ix2 p q) (ix2 p 0) (fun a => match a with
    | ⟨0, _⟩ => rfl
    | ⟨1, _⟩ => rfl)

/-- A [1,2176] row spread over the 256 rows reads its column's entry. -/
theorem spreadRow_at {α : Type} (x : S1x2176.Idx → α) (p : Fin 256) (q : Fin 2176) :
    broadcastTo S256x2176 x Gen.broadcasts_S1x2176_S256x2176 (ix2 p q) = x (ix2 0 q) :=
  broadcastTo_apply x Gen.broadcasts_S1x2176_S256x2176 (ix2 p q) (ix2 0 q) (fun a => match a with
    | ⟨0, _⟩ => rfl
    | ⟨1, _⟩ => rfl)

/-- The named scale is the reciprocal temperature. -/
theorem invTemp_named : Named.named (F := Ideal) Cert.KernelIdeal.κ "inv_temp" (φ := .f32) 0x41649249#32 = invTemp :=
  IdealRules.named_const.ideal_named_scalar _ _ _ _ rfl

/-- A one-bit choice is the `if` on the bit being 1. -/
theorem select_ite {α : Type} (c : BitVec 1) (a b : α) : Scalar.select c a b = if c = 1#1 then a else b := rfl

/-- An integer comparison of two vectors reads the comparison of the entries. -/
theorem cmpi_at {s : Shape} {w : Nat} (pr : CmpIPredicate) (x y : IVec s w) (i : s.Idx) :
    cmpi pr x y i = IntOp.cmpi pr (x i) (y i) := rfl

/-- A length-256 vector recast as a [256,1] column reads its entry. -/
theorem colCast_at {α : Type} (x : S256.Idx → α) (p : Fin 256) :
    shapeCast S256x1 x Gen.shapeCasts_S256_S256x1 (ix2 p 0) = x (ix1 p) :=
  shapeCast_apply x Gen.shapeCasts_S256_S256x1 (ix2 p 0) (ix1 p) (by
    rw [Shape.rowMajor_val_one, Shape.rowMajor_val_two]; simp)

/-- The sum along the 2176 columns, at row p. -/
theorem rowSum_at (x : FVec Ideal S256x2176 .f32) (p : Fin 256) :
    multiReduction (F := Ideal) .add [1] S256 x 0x00000000#32 Gen.reduces_S256x2176_S256 (.inl rfl) rfl (ix1 p)
      = ∑ q : Fin 2176, x (ix2 p q) :=
  (Ideal.multiReduction_add_single x 0x00000000#32 Gen.reduces_S256x2176_S256 (.inl rfl) rfl (ix1 p)).trans
    (Finset.sum_congr rfl fun q _ => congrArg x (funext fun d => match d with
      | ⟨0, _⟩ => rfl
      | ⟨1, _⟩ => rfl))

/-! ## The payloads of the loss region at an index -/

/-- The clamped log-probability block at (p, q): the scaled product of anchor row p with contrast row q,
    minus the row's maximum, minus the row's log-sum, capped above by 0. -/
theorem clampedLogProb_at (a : FVec Ideal S256x128 .bf16) (cb : FVec Ideal S2176x128 .bf16)
    (m l : FVec Ideal S256x1 .f32) (p : Fin 256) (q : Fin 2176) :
    k1_pay6 (F := Ideal) a cb m l (ix2 p q)
      = min 0 (((∑ k : Fin 128, a (ix2 p k) * cb (ix2 q k)) * invTemp - m (ix2 p 0)) - l (ix2 p 0)) := by
  unfold k1_pay6
  simp only [shapeCast_self, minimumf_apply, subf_apply, mulf_apply, broadcast_apply, matmul_at,
    spreadCol_at, invTemp_named, Scalar.ofBits, Ideal.ofBits_def, ofBits_zero]
  simp -index only [transpose_at]

/-- The positive-pair weight block at (p, q), from the two index tests and the two label blocks: equal labels
    give 1 off the diagonal and the range test's 1 or 0 on it; unequal labels give 0. -/
theorem posBlockWeight_at (dg rg : IVec S256x2176 1) (la : IVec S256x1 32) (lc : IVec S1x2176 32)
    (p : Fin 256) (q : Fin 2176) :
    k1_pay1 (F := Ideal) dg rg (Scalar.ofBits .f32 0x00000000#32) (k1_pay10 (F := Ideal)) la lc (ix2 p q)
      = if la (ix2 p 0) = lc (ix2 0 q) then (if dg (ix2 p q) = 1#1 then (if rg (ix2 p q) = 1#1 then 1 else 0) else 1)
        else 0 := by
  unfold k1_pay1 k1_pay10
  simp only [shapeCast_self, select_apply, broadcast_apply, select_ite, cmpi_at, spreadCol_at, spreadRow_at,
    IntOp.cmpi_eq, Scalar.ofBits, Ideal.ofBits_def, ofBits_zero, ofBits_one]

/-- The updated count at row p: what was there plus the row's sum of the weight block. -/
theorem countStep_at (dg rg : IVec S256x2176 1) (z : Ideal .f32) (one : FVec Ideal S256x2176 .f32)
    (la : IVec S256x1 32) (lc : IVec S1x2176 32) (acc : FVec Ideal S256x1 .f32) (p : Fin 256) :
    k1_pay3 (F := Ideal) dg rg z one la lc acc (ix2 p 0)
      = acc (ix2 p 0) + ∑ q : Fin 2176, k1_pay1 (F := Ideal) dg rg z one la lc (ix2 p q) := by
  unfold k1_pay3
  simp only [shapeCast_self, addf_apply, colCast_at]
  simp -index only [rowSum_at]

/-- The updated numerator at row p: what was there plus the row's sum of weight times clamped log-probability. -/
theorem numerStep_at (lp : FVec Ideal S256x2176 .f32) (dg rg : IVec S256x2176 1) (z : Ideal .f32)
    (one : FVec Ideal S256x2176 .f32) (la : IVec S256x1 32) (lc : IVec S1x2176 32) (acc : FVec Ideal S256x1 .f32)
    (p : Fin 256) :
    k1_pay2 (F := Ideal) lp dg rg z one la lc acc (ix2 p 0)
      = acc (ix2 p 0) + ∑ q : Fin 2176, k1_pay1 (F := Ideal) dg rg z one la lc (ix2 p q) * lp (ix2 p q) := by
  unfold k1_pay2
  simp only [shapeCast_self, addf_apply, colCast_at]
  simp -index only [rowSum_at, mulf_apply]

/-- The two resets write 0 everywhere. -/
theorem numerReset_at (i : S256x1.Idx) : k1_pay4 (F := Ideal) i = 0 := by
  unfold k1_pay4
  simp only [shapeCast_self, broadcast_apply, Scalar.ofBits, Ideal.ofBits_def, ofBits_zero]
theorem countReset_at (i : S256x1.Idx) : k1_pay5 (F := Ideal) i = 0 := by
  unfold k1_pay5
  simp only [shapeCast_self, broadcast_apply, Scalar.ofBits, Ideal.ofBits_def, ofBits_zero]

end Cert.SupCon.LossRegion

end
-- ==== Proof.Value.Indices.lean ====
/-
  Region 1 weights a positive pair by two tests on 32-bit words: whether the anchor's global row
  number equals the contrast column's global number, and whether that row number lies in
  [4352, 8192). Row block i0 (of 17) holds the rows 3841 + 256 * i0 + p, p < 256; column block i1
  (of 4) holds the columns 2176 * i1 + q, q < 2176. Every number here is below 2^14, so no word sum
  wraps, and the signed and the unsigned reading of every word agree.
-/
import proofs.«123850_j8598524526701_1_alg».proof.Proof.Gen.KernelIdeal.Skeleton
import Idealize.ShloMosaic.Lib.ValueIdx
import Idealize.ShloMosaic.Lib.Pipeline.Value
import Idealize.ShloMosaic.Lib.StableHlo.Predicate

namespace Cert.SupCon

open Cert.KernelIdeal Cert.KernelIdeal.Gen Idealize.ShloMosaic Idealize.ShloMosaic.ValueIdx
open Idealize.ShloMosaic.StableHlo

/-- The word of a number below 2^32 reads back, unsigned, as that number. -/
theorem toNat_word (n : ℕ) (h : n < 2 ^ 32) : (BitVec.ofNat 32 n).toNat = n := by
  rw [BitVec.toNat_ofNat]; exact Nat.mod_eq_of_lt h

/-- The words of two numbers below 2^32 are equal exactly when the numbers are. -/
theorem word_eq_iff (a b : ℕ) (ha : a < 2 ^ 32) (hb : b < 2 ^ 32) :
    BitVec.ofNat 32 a = BitVec.ofNat 32 b ↔ a = b := by
  constructor
  · intro h
    have e := congrArg BitVec.toNat h
    rwa [toNat_word a ha, toNat_word b hb] at e
  · intro h; rw [h]

/-- The conjunction of two one-bit words is 1 exactly when both are. -/
theorem andi_eq_one_iff (a b : BitVec 1) : IntOp.andi a b = 1#1 ↔ a = 1#1 ∧ b = 1#1 := by
  rcases BitVec.eq_zero_or_eq_one a with rfl | rfl <;>
    rcases BitVec.eq_zero_or_eq_one b with rfl | rfl <;> decide

/-- A one-bit word is 0 exactly when it is not 1. -/
theorem bit_zero_iff (b : BitVec 1) : b = 0#1 ↔ ¬ b = 1#1 := by
  rcases BitVec.eq_zero_or_eq_one b with rfl | rfl <;> decide

/-- There are 17 row blocks and 4 column blocks. -/
theorem rowBlock_lt (i : grid1.Coords) : (i 0).val < 17 := (i 0).isLt
theorem colBlock_lt (i : grid1.Coords) : (i 1).val < 4 := (i 1).isLt

/-- The row-number word at (p, q) is the word of 3841 + 256 * i0 + p: the sum of p's word and the
    block's first row, word addition and multiplication being those of the numbers modulo 2^32
    (so this form needs no bound). -/
theorem rowWord (i : grid1.Coords) (p : Fin 256) (q : Fin 2176) :
    k1_pay7 i (ix2 p q) = BitVec.ofNat 32 (3841 + 256 * (i 0).val + p.val) := by
  have h : k1_pay7 i (ix2 p q)
      = BitVec.ofNat 32 p.val
        + (BitVec.ofNat 32 3841 + BitVec.ofNat 32 (i 0).val * BitVec.ofNat 32 256) := by
    show IntOp.addi (iota .tc S256x2176 32 [0] iota_S256x2176_d0_w32 (ix2 p q)) _ = _
    rw [iota_single_apply]
    rfl
  rw [h, ← BitVec.ofNat_mul, ← BitVec.ofNat_add, ← BitVec.ofNat_add]
  congr 1
  omega

/-- The row number is below 2^14 (at most 3841 + 256 * 16 + 255 = 8192), far below 2^31: its
    word reads the same signed and unsigned. -/
theorem rowNumber_lt (i : grid1.Coords) (p : Fin 256) : 3841 + 256 * (i 0).val + p.val < 2 ^ 14 := by
  have h0 := rowBlock_lt i
  have hp := p.isLt
  omega

/-- The column number is below 2^14 (at most 2176 * 3 + 2175 = 8703). -/
theorem colNumber_lt (i : grid1.Coords) (q : Fin 2176) : 2176 * (i 1).val + q.val < 2 ^ 14 := by
  have h1 := colBlock_lt i
  have hq := q.isLt
  omega

/-- The equality bit is 1 exactly on the diagonal: the anchor's row number is the column's number.
    Both are below 2^14, so the two words are equal exactly when the numbers are. -/
theorem diag_iff (i : grid1.Coords) (p : Fin 256) (q : Fin 2176) :
    (k1_pay8 i (ix2 p q) = 1#1)
      ↔ 3841 + 256 * (i 0).val + p.val = 2176 * (i 1).val + q.val := by
  have h : k1_pay8 i (ix2 p q)
      = IntOp.cmpi .eq (k1_pay7 i (ix2 p q))
          (BitVec.ofNat 32 q.val + BitVec.ofNat 32 (i 1).val * BitVec.ofNat 32 2176) := by
    show IntOp.cmpi .eq (k1_pay7 i (ix2 p q))
      (IntOp.addi (iota .tc S256x2176 32 [1] iota_S256x2176_d1_w32 (ix2 p q)) _) = _
    rw [iota_single_apply]
    rfl
  have hr := rowNumber_lt i p
  have hc := colNumber_lt i q
  rw [h, rowWord, ← BitVec.ofNat_mul, ← BitVec.ofNat_add, Predicate.cmpi_eq_iff,
    word_eq_iff _ _ (by omega) (by omega)]
  omega

/-- The range bit is 1 exactly when the row number lies in [4352, 8192): both comparisons are
    signed, and on words of numbers below 2^31 a signed comparison is the numbers'. -/
theorem range_iff (i : grid1.Coords) (p : Fin 256) (q : Fin 2176) :
    (k1_pay9 i (ix2 p q) = 1#1)
      ↔ (4352 ≤ 3841 + 256 * (i 0).val + p.val ∧ 3841 + 256 * (i 0).val + p.val < 8192) := by
  have h : k1_pay9 i (ix2 p q)
      = IntOp.andi (IntOp.cmpi .sge (k1_pay7 i (ix2 p q)) (BitVec.ofNat 32 4352))
          (IntOp.cmpi .slt (k1_pay7 i (ix2 p q)) (BitVec.ofNat 32 8192)) := rfl
  have hr := rowNumber_lt i p
  have hn : (BitVec.ofNat 32 (3841 + 256 * (i 0).val + p.val)).toNat
      = 3841 + 256 * (i 0).val + p.val := toNat_word _ (by omega)
  rw [h, rowWord, andi_eq_one_iff,
    Predicate.sge_iff_toNat (by rw [hn]; omega) (by decide),
    Predicate.slt_iff_toNat (by rw [hn]; omega) (by decide), hn]
  rfl

/-- Off the diagonal the equality bit is 0. -/
theorem diag_zero_iff (i : grid1.Coords) (p : Fin 256) (q : Fin 2176) :
    (k1_pay8 i (ix2 p q) = 0#1)
      ↔ ¬ (3841 + 256 * (i 0).val + p.val = 2176 * (i 1).val + q.val) :=
  (bit_zero_iff _).trans (not_congr (diag_iff i p q))

/-- Outside [4352, 8192) the range bit is 0. -/
theorem range_zero_iff (i : grid1.Coords) (p : Fin 256) (q : Fin 2176) :
    (k1_pay9 i (ix2 p q) = 0#1)
      ↔ ¬ (4352 ≤ 3841 + 256 * (i 0).val + p.val ∧ 3841 + 256 * (i 0).val + p.val < 8192) :=
  (bit_zero_iff _).trans (not_congr (range_iff i p q))

end Cert.SupCon
-- ==== Proof.Value.Loss.Block.lean ====
/-
  One column block's share of an anchor row's two sums. Row r = 256 * i + p of the 4352 anchors sits in
  row block i at place p; column block b holds the contrast rows 2176 * b + q. Given that the six loaded
  blocks hold what the specification says of row r and of the columns of block b, the weight entry at
  (p, q) is the positive-pair weight of (r, column 2176 * b + q), the clamped entry is the log-probability
  capped at 0, and the two updated scratches at row p add block b's share of the row's numerator and of its
  count. The whole-row sums are the four shares added in order.
-/
import proofs.«123850_j8598524526701_1_alg».proof.Proof.Value.Loss.Payload
import proofs.«123850_j8598524526701_1_alg».proof.Proof.Value.Indices
import proofs.«123850_j8598524526701_1_alg».proof.Proof.Value.Blocks

noncomputable section

namespace Cert.SupCon.LossRegion

open Cert.KernelIdeal Idealize.ShloMosaic Idealize.ShloMosaic.ValueIdx
open Cert.KernelIdeal.Gen (k1_pay1 k1_pay2 k1_pay3 k1_pay4 k1_pay5 k1_pay6 k1_pay8 k1_pay9 k1_pay10)

variable (C : Fin 8704 → Fin 128 → EReal) (labB : Fin 4352 → BitVec 32)

/-- Column block b's share of row r's numerator: the weighted clamped log-probabilities of its 2176 columns
    (nothing beyond the fourth block). -/
def numerShare (r : Fin 4352) (b : ℕ) : EReal :=
  if h : b < 4 then ∑ q : Fin 2176, posWeight labB r (col ⟨b, h⟩ q) * min 0 (logProb C labB r (col ⟨b, h⟩ q)) else 0

/-- Column block b's share of row r's count: the weights of its 2176 columns. -/
def countShare (r : Fin 4352) (b : ℕ) : EReal :=
  if h : b < 4 then ∑ q : Fin 2176, posWeight labB r (col ⟨b, h⟩ q) else 0

/-- A row's numerator is the sum of the four blocks' shares. -/
theorem numer_eq_shares (r : Fin 4352) : numer C labB r = ∑ b ∈ Finset.range 4, numerShare C labB r b := by
  unfold numer
  rw [sum_blocks, Finset.sum_range]
  refine Finset.sum_congr rfl fun b _ => ?_
  unfold numerShare
  rw [dif_pos b.isLt]

/-- A row's count is the sum of the four blocks' shares. -/
theorem count_eq_shares (r : Fin 4352) : count labB r = ∑ b ∈ Finset.range 4, countShare labB r b := by
  unfold count
  rw [sum_blocks, Finset.sum_range]
  refine Finset.sum_congr rfl fun b _ => ?_
  unfold countShare
  rw [dif_pos b.isLt]

section OneBlock

variable (i : grid1.Coords) (r : Fin 4352) (b : Fin 4) (p : Fin 256)
  (hr : r.val = 256 * (i 0).val + p.val) (hb : b.val = (i 1).val)
  (a : FVec Ideal S256x128 .bf16) (cb : FVec Ideal S2176x128 .bf16)
  (la : IVec S256x1 32) (lc : IVec S1x2176 32) (m l : FVec Ideal S256x1 .f32)
  (ha : ∀ k : Fin 128, a (ix2 p k) = C (anchor r) k)
  (hc : ∀ (q : Fin 2176) (k : Fin 128), cb (ix2 q k) = C (col b q) k)
  (hla : la (ix2 p 0) = labOf labB (anchor r))
  (hlc : ∀ q : Fin 2176, lc (ix2 0 q) = labOf labB (col b q))
  (hm : m (ix2 p 0) = rowMax C r)
  (hl : l (ix2 p 0) = Ideal.log (expSum C labB r))

include hr hb hla hlc in
/-- The weight entry at (p, q) is the positive-pair weight of anchor r against column q of block b: the
    diagonal test says the anchor's contrast row is that column, the range test that it lies in [4352, 8192). -/
theorem weight_eq (q : Fin 2176) :
    k1_pay1 (F := Ideal) (k1_pay8 i) (k1_pay9 i) (Scalar.ofBits .f32 0x00000000#32) (k1_pay10 (F := Ideal)) la lc (ix2 p q)
      = posWeight labB r (col b q) := by
  have hd : (k1_pay8 i (ix2 p q) = 1#1) ↔ anchor r = col b q := by
    rw [diag_iff, Fin.ext_iff]
    show _ ↔ 3841 + r.val = b.val * 2176 + q.val
    omega
  have hg : (k1_pay9 i (ix2 p q) = 1#1) ↔ (4352 ≤ (anchor r).val ∧ (anchor r).val < 8192) := by
    rw [range_iff]
    show _ ↔ (4352 ≤ 3841 + r.val ∧ 3841 + r.val < 8192)
    omega
  rw [posBlockWeight_at, hla, hlc q]
  unfold posWeight diagWeight
  simp only [hd, hg]

include ha hc hm hl in
/-- The clamped entry at (p, q) is the log-probability of column q of block b for anchor r, capped at 0. -/
theorem clamped_eq (q : Fin 2176) :
    k1_pay6 (F := Ideal) a cb m l (ix2 p q) = min 0 (logProb C labB r (col b q)) := by
  rw [clampedLogProb_at, hm, hl]
  unfold logProb sim
  simp only [ha, hc]

include hr hb hla hlc ha hc hm hl in
/-- The updated numerator scratch at row p: what it held plus block b's share. -/
theorem numerStep_eq (acc : FVec Ideal S256x1 .f32) :
    k1_pay2 (F := Ideal) (k1_pay6 (F := Ideal) a cb m l) (k1_pay8 i) (k1_pay9 i) (Scalar.ofBits .f32 0x00000000#32)
        (k1_pay10 (F := Ideal)) la lc acc (ix2 p 0)
      = acc (ix2 p 0) + numerShare C labB r b.val := by
  rw [numerStep_at]
  unfold numerShare
  rw [dif_pos b.isLt]
  refine congrArg (acc (ix2 p 0) + ·) (Finset.sum_congr rfl fun q _ => ?_)
  rw [weight_eq labB i r b p hr hb la lc hla hlc q, clamped_eq C labB r b p a cb m l ha hc hm hl q]

include hr hb hla hlc in
/-- The updated count scratch at row p: what it held plus block b's share. -/
theorem countStep_eq (acc : FVec Ideal S256x1 .f32) :
    k1_pay3 (F := Ideal) (k1_pay8 i) (k1_pay9 i) (Scalar.ofBits .f32 0x00000000#32) (k1_pay10 (F := Ideal)) la lc acc (ix2 p 0)
      = acc (ix2 p 0) + countShare labB r b.val := by
  rw [countStep_at]
  unfold countShare
  rw [dif_pos b.isLt]
  refine congrArg (acc (ix2 p 0) + ·) (Finset.sum_congr rfl fun q _ => ?_)
  rw [weight_eq labB i r b p hr hb la lc hla hlc q]

end OneBlock

end Cert.SupCon.LossRegion

end
-- ==== Proof.Value.Loss.Windows.lean ====
/-
  The loss region's windows, read entry by entry. At grid point t = 4 * i + j the six input blocks are
  rows 256 * i .. 256 * i + 255 of the anchor rows, of the anchor labels, of the row maxima and of the
  log-sums, rows 2176 * j .. 2176 * j + 2175 of the contrast rows, and the same columns of the contrast labels.
-/
import proofs.«123850_j8598524526701_1_alg».proof.Proof.KernelIdeal.Loss.Shared
import proofs.«123850_j8598524526701_1_alg».proof.Proof.Value.Spec
import Idealize.ShloMosaic.Lib.ValueIdx
import Idealize.ShloMosaic.Lib.Pipeline.Value

noncomputable section

namespace Cert.SupCon.LossRegion

open Cert.KernelIdeal Idealize.ShloMosaic Idealize.ShloMosaic.TcCoe Idealize.ShloMosaic.ValueIdx Idealize.SL.Sem

variable (V : (c : Dev nD) → (b : Ref sig .tc) → Buf (Elt Ideal) ((c : Thread nD τ).loc b)) (c : Dev nD)

/-- The six input blocks at a grid point, each at its literal type. -/
abbrev anchorBlk (t : Fin cfg1.N) : FVec Ideal S256x128 .bf16 := Cert.KernelIdeal.Loss.iblk V c 0 t
abbrev contrastBlk (t : Fin cfg1.N) : FVec Ideal S2176x128 .bf16 := Cert.KernelIdeal.Loss.iblk V c 1 t
abbrev anchorLabBlk (t : Fin cfg1.N) : IVec S256x1 32 := Cert.KernelIdeal.Loss.iblk V c 2 t
abbrev contrastLabBlk (t : Fin cfg1.N) : IVec S1x2176 32 := Cert.KernelIdeal.Loss.iblk V c 3 t
abbrev maxBlk (t : Fin cfg1.N) : FVec Ideal S256x1 .f32 := Cert.KernelIdeal.Loss.iblk V c 4 t
abbrev lseBlk (t : Fin cfg1.N) : FVec Ideal S256x1 .f32 := Cert.KernelIdeal.Loss.iblk V c 5 t

/-- The six input arrays as the region finds them, each at its literal type. -/
abbrev anchorArr : FVec Ideal S4352x128 .bf16 := V c main_v16
abbrev contrastArr : FVec Ideal S8704x128 .bf16 := V c main_v17
abbrev anchorLabArr : IVec S4352x1 32 := V c main_v18
abbrev contrastLabArr : IVec S1x8704 32 := V c main_v19
abbrev maxArr : FVec Ideal S4352x1 .f32 := V c main_v20_0
abbrev lseArr : FVec Ideal S4352x1 .f32 := V c main_v20_1

/-- The grid has 68 points. -/
theorem points : cfg1.N = 68 := Gen.N_1

/-- The index maps over the grid: the row-indexed windows sit at block t / 4, the column-indexed ones at block
    t % 4, and those are the point's two coordinates. -/
theorem index_facts : ∀ t : Fin cfg1.N,
    win1_0.index t (0 : Fin 2) = t.val / 4 ∧ win1_0.index t (1 : Fin 2) = 0
    ∧ win1_1.index t (0 : Fin 2) = t.val % 4 ∧ win1_1.index t (1 : Fin 2) = 0
    ∧ win1_2.index t (0 : Fin 2) = t.val / 4 ∧ win1_2.index t (1 : Fin 2) = 0
    ∧ win1_3.index t (0 : Fin 2) = 0 ∧ win1_3.index t (1 : Fin 2) = t.val % 4
    ∧ win1_4.index t (0 : Fin 2) = t.val / 4 ∧ win1_4.index t (1 : Fin 2) = 0
    ∧ win1_5.index t (0 : Fin 2) = t.val / 4 ∧ win1_5.index t (1 : Fin 2) = 0
    ∧ win1_6.index t (0 : Fin 2) = t.val / 4 ∧ win1_6.index t (1 : Fin 2) = 0
    ∧ win1_7.index t (0 : Fin 2) = t.val / 4 ∧ win1_7.index t (1 : Fin 2) = 0
    ∧ (grid1.coords t 0).val = t.val / 4 ∧ (grid1.coords t 1).val = t.val % 4 :=
  (by decide +kernel : ∀ t : Fin grid1.N, _)

/-- Entry (p, k) of the anchor block at point t is anchor row 256 * (t / 4) + p, feature k. -/
theorem anchorBlk_at (t : Fin cfg1.N) (p : Fin 256) (k : Fin 128) (h : 256 * (t.val / 4) + p.val < 4352) :
    anchorBlk V c t (ix2 p k) = anchorArr V c (ix2 ⟨256 * (t.val / 4) + p.val, h⟩ k) := by
  show ((cfg1.win 0).blk t).view.read (Elt Ideal) (V c main_v16) (ix2 p k) = _
  rw [View.read_apply]
  show V c main_v16 _ = V c main_v16 _
  congr 1
  funext a
  apply Fin.ext
  obtain ⟨e0, e1, -⟩ := index_facts t
  match a with
  | ⟨0, _⟩ => show win1_0.index t (0 : Fin 2) * 256 + 1 * p.val = 256 * (t.val / 4) + p.val; rw [e0]; omega
  | ⟨1, _⟩ => show win1_0.index t (1 : Fin 2) * 128 + 1 * k.val = k.val; rw [e1]; omega

/-- Entry (q, k) of the contrast block at point t is contrast row 2176 * (t % 4) + q, feature k. -/
theorem contrastBlk_at (t : Fin cfg1.N) (q : Fin 2176) (k : Fin 128) (h : 2176 * (t.val % 4) + q.val < 8704) :
    contrastBlk V c t (ix2 q k) = contrastArr V c (ix2 ⟨2176 * (t.val % 4) + q.val, h⟩ k) := by
  show ((cfg1.win 1).blk t).view.read (Elt Ideal) (V c main_v17) (ix2 q k) = _
  rw [View.read_apply]
  show V c main_v17 _ = V c main_v17 _
  congr 1
  funext a
  apply Fin.ext
  obtain ⟨-, -, e0, e1, -⟩ := index_facts t
  match a with
  | ⟨0, _⟩ => show win1_1.index t (0 : Fin 2) * 2176 + 1 * q.val = 2176 * (t.val % 4) + q.val; rw [e0]; omega
  | ⟨1, _⟩ => show win1_1.index t (1 : Fin 2) * 128 + 1 * k.val = k.val; rw [e1]; omega

/-- Entry p of the anchor-label block at point t is the label of anchor row 256 * (t / 4) + p. -/
theorem anchorLabBlk_at (t : Fin cfg1.N) (p : Fin 256) (h : 256 * (t.val / 4) + p.val < 4352) :
    anchorLabBlk V c t (ix2 p 0) = anchorLabArr V c (ix2 ⟨256 * (t.val / 4) + p.val, h⟩ 0) := by
  show ((cfg1.win 2).blk t).view.read (Elt Ideal) (V c main_v18) (ix2 p 0) = _
  rw [View.read_apply]
  show V c main_v18 _ = V c main_v18 _
  congr 1
  funext a
  apply Fin.ext
  obtain ⟨-, -, -, -, e0, e1, -⟩ := index_facts t
  match a with
  | ⟨0, _⟩ => show win1_2.index t (0 : Fin 2) * 256 + 1 * p.val = 256 * (t.val / 4) + p.val; rw [e0]; omega
  | ⟨1, _⟩ => show win1_2.index t (1 : Fin 2) * 1 + 1 * 0 = 0; rw [e1]

/-- Entry q of the contrast-label block at point t is the label of contrast row 2176 * (t % 4) + q. -/
theorem contrastLabBlk_at (t : Fin cfg1.N) (q : Fin 2176) (h : 2176 * (t.val % 4) + q.val < 8704) :
    contrastLabBlk V c t (ix2 0 q) = contrastLabArr V c (ix2 0 ⟨2176 * (t.val % 4) + q.val, h⟩) := by
  show ((cfg1.win 3).blk t).view.read (Elt Ideal) (V c main_v19) (ix2 0 q) = _
  rw [View.read_apply]
  show V c main_v19 _ = V c main_v19 _
  congr 1
  funext a
  apply Fin.ext
  obtain ⟨-, -, -, -, -, -, e0, e1, -⟩ := index_facts t
  match a with
  | ⟨0, _⟩ => show win1_3.index t (0 : Fin 2) * 1 + 1 * 0 = 0; rw [e0]
  | ⟨1, _⟩ => show win1_3.index t (1 : Fin 2) * 2176 + 1 * q.val = 2176 * (t.val % 4) + q.val; rw [e1]; omega

/-- Entry p of the row-maximum block at point t is the maximum of anchor row 256 * (t / 4) + p. -/
theorem maxBlk_at (t : Fin cfg1.N) (p : Fin 256) (h : 256 * (t.val / 4) + p.val < 4352) :
    maxBlk V c t (ix2 p 0) = maxArr V c (ix2 ⟨256 * (t.val / 4) + p.val, h⟩ 0) := by
  show ((cfg1.win 4).blk t).view.read (Elt Ideal) (V c main_v20_0) (ix2 p 0) = _
  rw [View.read_apply]
  show V c main_v20_0 _ = V c main_v20_0 _
  congr 1
  funext a
  apply Fin.ext
  obtain ⟨-, -, -, -, -, -, -, -, e0, e1, -⟩ := index_facts t
  match a with
  | ⟨0, _⟩ => show win1_4.index t (0 : Fin 2) * 256 + 1 * p.val = 256 * (t.val / 4) + p.val; rw [e0]; omega
  | ⟨1, _⟩ => show win1_4.index t (1 : Fin 2) * 1 + 1 * 0 = 0; rw [e1]

/-- Entry p of the log-sum block at point t is the log-sum of anchor row 256 * (t / 4) + p. -/
theorem lseBlk_at (t : Fin cfg1.N) (p : Fin 256) (h : 256 * (t.val / 4) + p.val < 4352) :
    lseBlk V c t (ix2 p 0) = lseArr V c (ix2 ⟨256 * (t.val / 4) + p.val, h⟩ 0) := by
  show ((cfg1.win 5).blk t).view.read (Elt Ideal) (V c main_v20_1) (ix2 p 0) = _
  rw [View.read_apply]
  show V c main_v20_1 _ = V c main_v20_1 _
  congr 1
  funext a
  apply Fin.ext
  obtain ⟨-, -, -, -, -, -, -, -, -, -, e0, e1, -⟩ := index_facts t
  match a with
  | ⟨0, _⟩ => show win1_5.index t (0 : Fin 2) * 256 + 1 * p.val = 256 * (t.val / 4) + p.val; rw [e0]; omega
  | ⟨1, _⟩ => show win1_5.index t (1 : Fin 2) * 1 + 1 * 0 = 0; rw [e1]

end Cert.SupCon.LossRegion

end
-- ==== Proof.Value.Loss.Pieces.lean ====
/-
  What each control case of the loss region's body leaves behind, as the body's arithmetic of the blocks it
  loaded. At a first-column point each scratch is reset to zero and then updated, so it ends at the update of
  the zero column; at a middle-column point it ends at the update of what the point before left; at a
  last-column point the two output blocks receive the updated scratches.
-/
import proofs.«123850_j8598524526701_1_alg».proof.Proof.KernelIdeal.Loss.Data
import Idealize.ShloMosaic.Lib.Pipeline.Value
import Idealize.ShloMosaic.Lib.Tactic

set_option maxRecDepth 16384

noncomputable section

namespace Cert.SupCon.LossRegion

open Cert.KernelIdeal Cert.KernelIdeal.Gen Cert.KernelIdeal.Loss Idealize.ShloMosaic Idealize.ShloMosaic.TcCoe
open Idealize.ShloMosaic.Tactic Idealize.SL.Sem

variable {F : FTy → Type} [FloatOps F] [Named F]

/-- The zero offset of a whole-buffer access. -/
theorem hz : (![0, 0] : Fin 2 → Nat) = fun _ => 0 := funext fun a => by fin_cases a <;> rfl

/-- After a first-column point the numerator scratch holds the update of the zero column by this block. -/
theorem scrNumerFirst_eq (c : Dev nD) (i : grid1.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : atFirstCol i) (hc1 : ¬atLastCol i)
    (x0 : Vec F S256x128 .bf16) (x1 : Vec F S2176x128 .bf16) (x2 : Vec F S256x1 .i32) (x3 : Vec F S1x2176 .i32) (x4 : Vec F S256x1 .f32) (x5 : Vec F S256x1 .f32) :
    scrNumerFirst c i arg2 harg2 arg3 harg3 arg4 harg4 arg5 harg5 arg6 harg6 arg7 harg7 arg8 harg8 arg9 harg9 arg10 harg10 arg11 harg11 hc0 hc1 x0 x1 x2 x3 x4 x5
      = k1_pay2 (k1_pay6 x0 x1 x4 x5) (k1_pay8 i) (k1_pay9 i) (Scalar.ofBits .f32 0x00000000#32) (k1_pay10 (F := F)) x2 x3 (k1_pay4 (F := F)) := by
  unfold scrNumerFirst
  rw [View.read_writes_eq_canon _ _ _ (scoverFirst0 c i arg2 harg2 arg3 harg3 arg4 harg4 arg5 harg5 arg6 harg6 arg7 harg7 arg8 harg8 arg9 harg9 arg10 harg10 arg11 harg11 hc0 hc1 x0 x1 x2 x3 x4 x5)]
  unfold runFirst
  dsimp only
  sl_unfold_words
  rw [View.canon_cons_unit_zero (S := S256x1) hz]
  simp only [View.readAt_eq_ld, harg2.read_unread, harg3.read_unread, harg4.read_unread, harg5.read_unread,
    harg6.read_unread, harg7.read_unread, harg10.read_unread, harg11.read_unread,
    View.readCov_unit_zero (S := S256x1) _ hz,
    View.ld_unit_zero (S := S256x128) hz, View.ld_unit_zero (S := S2176x128) hz, View.ld_unit_zero (S := S256x1) hz,
    View.ld_unit_zero (S := S1x2176) hz]

/-- After a first-column point the count scratch holds the update of the zero column by this block. -/
theorem scrCountFirst_eq (c : Dev nD) (i : grid1.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : atFirstCol i) (hc1 : ¬atLastCol i)
    (x0 : Vec F S256x128 .bf16) (x1 : Vec F S2176x128 .bf16) (x2 : Vec F S256x1 .i32) (x3 : Vec F S1x2176 .i32) (x4 : Vec F S256x1 .f32) (x5 : Vec F S256x1 .f32) :
    scrCountFirst c i arg2 harg2 arg3 harg3 arg4 harg4 arg5 harg5 arg6 harg6 arg7 harg7 arg8 harg8 arg9 harg9 arg10 harg10 arg11 harg11 hc0 hc1 x0 x1 x2 x3 x4 x5
      = k1_pay3 (k1_pay8 i) (k1_pay9 i) (Scalar.ofBits .f32 0x00000000#32) (k1_pay10 (F := F)) x2 x3 (k1_pay5 (F := F)) := by
  unfold scrCountFirst
  rw [View.read_writes_eq_canon _ _ _ (scoverFirst1 c i arg2 harg2 arg3 harg3 arg4 harg4 arg5 harg5 arg6 harg6 arg7 harg7 arg8 harg8 arg9 harg9 arg10 harg10 arg11 harg11 hc0 hc1 x0 x1 x2 x3 x4 x5)]
  unfold runFirst
  dsimp only
  sl_unfold_words
  rw [View.canon_cons_unit_zero (S := S256x1) hz]
  simp only [View.readAt_eq_ld, harg2.read_unread, harg3.read_unread, harg4.read_unread, harg5.read_unread,
    harg6.read_unread, harg7.read_unread, harg10.read_unread, harg11.read_unread,
    View.readCov_unit_zero (S := S256x1) _ hz,
    View.ld_unit_zero (S := S256x128) hz, View.ld_unit_zero (S := S2176x128) hz, View.ld_unit_zero (S := S256x1) hz,
    View.ld_unit_zero (S := S1x2176) hz]

/-- After a middle-column point the numerator scratch holds the update of what it held by this block. -/
theorem scrNumerMid_eq (c : Dev nD) (i : grid1.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬atFirstCol i) (hc1 : ¬atLastCol i)
    (x0 : Vec F S256x128 .bf16) (x1 : Vec F S2176x128 .bf16) (x2 : Vec F S256x1 .i32) (x3 : Vec F S1x2176 .i32) (x4 : Vec F S256x1 .f32) (x5 : Vec F S256x1 .f32) (xs0 : Vec F S256x1 .f32) (xs1 : Vec F S256x1 .f32) :
    scrNumerMid c i arg2 harg2 arg3 harg3 arg4 harg4 arg5 harg5 arg6 harg6 arg7 harg7 arg8 harg8 arg9 harg9 arg10 harg10 arg11 harg11 hc0 hc1 x0 x1 x2 x3 x4 x5 xs0 xs1
      = k1_pay2 (k1_pay6 x0 x1 x4 x5) (k1_pay8 i) (k1_pay9 i) (Scalar.ofBits .f32 0x00000000#32) (k1_pay10 (F := F)) x2 x3 xs0 := by
  unfold scrNumerMid
  rw [View.read_writes_eq_canon _ _ _ (scoverMid0 c i arg2 harg2 arg3 harg3 arg4 harg4 arg5 harg5 arg6 harg6 arg7 harg7 arg8 harg8 arg9 harg9 arg10 harg10 arg11 harg11 hc0 hc1 x0 x1 x2 x3 x4 x5 xs0 xs1)]
  unfold runMid
  dsimp only
  sl_unfold_words
  rw [View.canon_unit_zero (S := S256x1) hz]
  simp only [View.readAt_eq_ld, harg2.read_unread, harg3.read_unread, harg4.read_unread, harg5.read_unread,
    harg6.read_unread, harg7.read_unread, harg10.read_unread, harg11.read_unread,
    View.readCov_unit_zero (S := S256x1) _ hz,
    View.ld_unit_zero (S := S256x128) hz, View.ld_unit_zero (S := S2176x128) hz, View.ld_unit_zero (S := S256x1) hz,
    View.ld_unit_zero (S := S1x2176) hz]

/-- After a middle-column point the count scratch holds the update of what it held by this block. -/
theorem scrCountMid_eq (c : Dev nD) (i : grid1.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬atFirstCol i) (hc1 : ¬atLastCol i)
    (x0 : Vec F S256x128 .bf16) (x1 : Vec F S2176x128 .bf16) (x2 : Vec F S256x1 .i32) (x3 : Vec F S1x2176 .i32) (x4 : Vec F S256x1 .f32) (x5 : Vec F S256x1 .f32) (xs0 : Vec F S256x1 .f32) (xs1 : Vec F S256x1 .f32) :
    scrCountMid c i arg2 harg2 arg3 harg3 arg4 harg4 arg5 harg5 arg6 harg6 arg7 harg7 arg8 harg8 arg9 harg9 arg10 harg10 arg11 harg11 hc0 hc1 x0 x1 x2 x3 x4 x5 xs0 xs1
      = k1_pay3 (k1_pay8 i) (k1_pay9 i) (Scalar.ofBits .f32 0x00000000#32) (k1_pay10 (F := F)) x2 x3 xs1 := by
  unfold scrCountMid
  rw [View.read_writes_eq_canon _ _ _ (scoverMid1 c i arg2 harg2 arg3 harg3 arg4 harg4 arg5 harg5 arg6 harg6 arg7 harg7 arg8 harg8 arg9 harg9 arg10 harg10 arg11 harg11 hc0 hc1 x0 x1 x2 x3 x4 x5 xs0 xs1)]
  unfold runMid
  dsimp only
  sl_unfold_words
  rw [View.canon_unit_zero (S := S256x1) hz]
  simp only [View.readAt_eq_ld, harg2.read_unread, harg3.read_unread, harg4.read_unread, harg5.read_unread,
    harg6.read_unread, harg7.read_unread, harg10.read_unread, harg11.read_unread,
    View.readCov_unit_zero (S := S256x1) _ hz,
    View.ld_unit_zero (S := S256x128) hz, View.ld_unit_zero (S := S2176x128) hz, View.ld_unit_zero (S := S256x1) hz,
    View.ld_unit_zero (S := S1x2176) hz]

/-- At a last-column point the numerator output block receives the update of the numerator scratch by this block. -/
theorem outNumerLast_eq (c : Dev nD) (i : grid1.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬atFirstCol i) (hc1 : atLastCol i)
    (x0 : Vec F S256x128 .bf16) (x1 : Vec F S2176x128 .bf16) (x2 : Vec F S256x1 .i32) (x3 : Vec F S1x2176 .i32) (x4 : Vec F S256x1 .f32) (x5 : Vec F S256x1 .f32) (xs0 : Vec F S256x1 .f32) (xs1 : Vec F S256x1 .f32) :
    outNumerLast c i arg2 harg2 arg3 harg3 arg4 harg4 arg5 harg5 arg6 harg6 arg7 harg7 arg8 harg8 arg9 harg9 arg10 harg10 arg11 harg11 hc0 hc1 x0 x1 x2 x3 x4 x5 xs0 xs1
      = k1_pay2 (k1_pay6 x0 x1 x4 x5) (k1_pay8 i) (k1_pay9 i) (Scalar.ofBits .f32 0x00000000#32) (k1_pay10 (F := F)) x2 x3 xs0 := by
  unfold outNumerLast
  rw [View.read_writes_eq_canon _ _ _ (coverLast6 c i arg2 harg2 arg3 harg3 arg4 harg4 arg5 harg5 arg6 harg6 arg7 harg7 arg8 harg8 arg9 harg9 arg10 harg10 arg11 harg11 hc0 hc1 x0 x1 x2 x3 x4 x5 xs0 xs1)]
  unfold runLast
  dsimp only
  sl_unfold_words
  rw [View.canon_unit_zero (S := S256x1) hz]
  simp only [View.readAt_eq_ld, harg2.read_unread, harg3.read_unread, harg4.read_unread, harg5.read_unread,
    harg6.read_unread, harg7.read_unread, harg10.read_unread, harg11.read_unread,
    View.readCov_unit_zero (S := S256x1) _ hz,
    View.ld_unit_zero (S := S256x128) hz, View.ld_unit_zero (S := S2176x128) hz, View.ld_unit_zero (S := S256x1) hz,
    View.ld_unit_zero (S := S1x2176) hz]

/-- At a last-column point the count output block receives the update of the count scratch by this block. -/
theorem outCountLast_eq (c : Dev nD) (i : grid1.Coords) (arg2 : Memref sig .tc .vmem S256x128 .bf16) (harg2 : arg2.IsWhole) (arg3 : Memref sig .tc .vmem S2176x128 .bf16) (harg3 : arg3.IsWhole) (arg4 : Memref sig .tc .vmem S256x1 .i32) (harg4 : arg4.IsWhole) (arg5 : Memref sig .tc .vmem S1x2176 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬atFirstCol i) (hc1 : atLastCol i)
    (x0 : Vec F S256x128 .bf16) (x1 : Vec F S2176x128 .bf16) (x2 : Vec F S256x1 .i32) (x3 : Vec F S1x2176 .i32) (x4 : Vec F S256x1 .f32) (x5 : Vec F S256x1 .f32) (xs0 : Vec F S256x1 .f32) (xs1 : Vec F S256x1 .f32) :
    outCountLast c i arg2 harg2 arg3 harg3 arg4 harg4 arg5 harg5 arg6 harg6 arg7 harg7 arg8 harg8 arg9 harg9 arg10 harg10 arg11 harg11 hc0 hc1 x0 x1 x2 x3 x4 x5 xs0 xs1
      = k1_pay3 (k1_pay8 i) (k1_pay9 i) (Scalar.ofBits .f32 0x00000000#32) (k1_pay10 (F := F)) x2 x3 xs1 := by
  unfold outCountLast
  rw [View.read_writes_eq_canon _ _ _ (coverLast7 c i arg2 harg2 arg3 harg3 arg4 harg4 arg5 harg5 arg6 harg6 arg7 harg7 arg8 harg8 arg9 harg9 arg10 harg10 arg11 harg11 hc0 hc1 x0 x1 x2 x3 x4 x5 xs0 xs1)]
  unfold runLast
  dsimp only
  sl_unfold_words
  rw [View.canon_unit_zero (S := S256x1) hz]
  simp only [View.readAt_eq_ld, harg2.read_unread, harg3.read_unread, harg4.read_unread, harg5.read_unread,
    harg6.read_unread, harg7.read_unread, harg10.read_unread, harg11.read_unread,
    View.readCov_unit_zero (S := S256x1) _ hz,
    View.ld_unit_zero (S := S256x128) hz, View.ld_unit_zero (S := S2176x128) hz, View.ld_unit_zero (S := S256x1) hz,
    View.ld_unit_zero (S := S1x2176) hz]

end Cert.SupCon.LossRegion

end
-- ==== Proof.Value.Loss.Points.lean ====
/-
  The loss region's grid sweeps, for each of the 17 blocks of 256 anchor rows, the 4 blocks of 2176 contrast
  columns in order; two scratch columns carry each row's running numerator and running count from one column
  block to the next: reset to zero at the first block, each block's share added, and written to the output
  blocks at the fourth. So after column block j the scratches hold the sum of the shares of blocks 0..j, and the
  fourth block's write-back holds the whole row's sums.
-/
import proofs.«123850_j8598524526701_1_alg».proof.Proof.Value.Spec
import proofs.«123850_j8598524526701_1_alg».proof.Proof.KernelIdeal.Loss.Data
import proofs.«123850_j8598524526701_1_alg».proof.Proof.Value.Loss.Block
import proofs.«123850_j8598524526701_1_alg».proof.Proof.Value.Loss.Windows
import proofs.«123850_j8598524526701_1_alg».proof.Proof.Value.Loss.Pieces
import Idealize.ShloMosaic.Lib.ValueIdx

set_option maxRecDepth 16384

noncomputable section

namespace Cert.SupCon.LossRegion

open Cert.KernelIdeal Idealize.ShloMosaic Idealize.ShloMosaic.TcCoe Idealize.ShloMosaic.ValueIdx Idealize.SL.Sem
open Cert.KernelIdeal.Loss
open Cert.KernelIdeal.Gen (k1_pay1 k1_pay2 k1_pay3 k1_pay4 k1_pay5 k1_pay6 k1_pay8 k1_pay9 k1_pay10)

variable (V : (c : Dev nD) → (b : Ref sig .tc) → Buf (Elt Ideal) ((c : Thread nD τ).loc b)) (c : Dev nD)
  (C : Fin 8704 → Fin 128 → EReal) (labB : Fin 4352 → BitVec 32)

section Region

variable
  (hA : ∀ (r : Fin 4352) (k : Fin 128), (V c main_v16 : S4352x128.Idx → EReal) (ix2 r k) = C (anchor r) k)
  (hC : ∀ (j : Fin 8704) (k : Fin 128), (V c main_v17 : S8704x128.Idx → EReal) (ix2 j k) = C j k)
  (hLa : ∀ r : Fin 4352, (V c main_v18 : S4352x1.Idx → BitVec 32) (ix2 r 0) = labOf labB (anchor r))
  (hLc : ∀ j : Fin 8704, (V c main_v19 : S1x8704.Idx → BitVec 32) (ix2 0 j) = labOf labB j)
  (hM : ∀ r : Fin 4352, (V c main_v20_0 : S4352x1.Idx → EReal) (ix2 r 0) = rowMax C r)
  (hL : ∀ r : Fin 4352, (V c main_v20_1 : S4352x1.Idx → EReal) (ix2 r 0) = Ideal.log (expSum C labB r))

/-! ## One grid point's two updates, at a row -/

include hA hC hLa hLc hM hL in
/-- At point t the numerator update at row p adds the share of column block t % 4 for anchor row
    256 * (t / 4) + p: the six blocks hold what the specification says of that row and of that block's columns. -/
theorem numerStep_point (t : Fin cfg1.N) (p : Fin 256) (hr : 256 * (t.val / 4) + p.val < 4352)
    (acc : FVec Ideal S256x1 .f32) :
    k1_pay2 (F := Ideal) (k1_pay6 (F := Ideal) (anchorBlk V c t) (contrastBlk V c t) (maxBlk V c t) (lseBlk V c t))
        (k1_pay8 (grid1.coords t)) (k1_pay9 (grid1.coords t)) (Scalar.ofBits .f32 0x00000000#32) (k1_pay10 (F := Ideal))
        (anchorLabBlk V c t) (contrastLabBlk V c t) acc (ix2 p 0)
      = acc (ix2 p 0) + numerShare C labB ⟨256 * (t.val / 4) + p.val, hr⟩ (t.val % 4) := by
  have hb4 : t.val % 4 < 4 := Nat.mod_lt _ (by norm_num)
  obtain ⟨-, -, -, -, -, -, -, -, -, -, -, -, -, -, -, -, g0, g1⟩ := index_facts t
  exact numerStep_eq C labB (grid1.coords t) ⟨256 * (t.val / 4) + p.val, hr⟩ ⟨t.val % 4, hb4⟩ p
    (by rw [g0]) (by rw [g1]) (anchorBlk V c t) (contrastBlk V c t) (anchorLabBlk V c t) (contrastLabBlk V c t)
    (maxBlk V c t) (lseBlk V c t)
    (fun k => (anchorBlk_at V c t p k hr).trans (hA _ k))
    (fun q k => by
      have hq : 2176 * (t.val % 4) + q.val < 8704 := by have := q.isLt; omega
      rw [contrastBlk_at V c t q k hq]
      refine (hC _ k).trans (congrArg (C · k) (Fin.ext ?_))
      show 2176 * (t.val % 4) + q.val = t.val % 4 * 2176 + q.val
      omega)
    ((anchorLabBlk_at V c t p hr).trans (hLa _))
    (fun q => by
      have hq : 2176 * (t.val % 4) + q.val < 8704 := by have := q.isLt; omega
      rw [contrastLabBlk_at V c t q hq]
      refine (hLc _).trans (congrArg (labOf labB) (Fin.ext ?_))
      show 2176 * (t.val % 4) + q.val = t.val % 4 * 2176 + q.val
      omega)
    ((maxBlk_at V c t p hr).trans (hM _))
    ((lseBlk_at V c t p hr).trans (hL _))
    acc

include hLa hLc in
/-- At point t the count update at row p adds the share of column block t % 4 for anchor row 256 * (t / 4) + p. -/
theorem countStep_point (t : Fin cfg1.N) (p : Fin 256) (hr : 256 * (t.val / 4) + p.val < 4352)
    (acc : FVec Ideal S256x1 .f32) :
    k1_pay3 (F := Ideal) (k1_pay8 (grid1.coords t)) (k1_pay9 (grid1.coords t)) (Scalar.ofBits .f32 0x00000000#32)
        (k1_pay10 (F := Ideal)) (anchorLabBlk V c t) (contrastLabBlk V c t) acc (ix2 p 0)
      = acc (ix2 p 0) + countShare labB ⟨256 * (t.val / 4) + p.val, hr⟩ (t.val % 4) := by
  have hb4 : t.val % 4 < 4 := Nat.mod_lt _ (by norm_num)
  obtain ⟨-, -, -, -, -, -, -, -, -, -, -, -, -, -, -, -, g0, g1⟩ := index_facts t
  exact countStep_eq labB (grid1.coords t) ⟨256 * (t.val / 4) + p.val, hr⟩ ⟨t.val % 4, hb4⟩ p
    (by rw [g0]) (by rw [g1]) (anchorLabBlk V c t) (contrastLabBlk V c t)
    ((anchorLabBlk_at V c t p hr).trans (hLa _))
    (fun q => by
      have hq : 2176 * (t.val % 4) + q.val < 8704 := by have := q.isLt; omega
      rw [contrastLabBlk_at V c t q hq]
      refine (hLc _).trans (congrArg (labOf labB) (Fin.ext ?_))
      show 2176 * (t.val % 4) + q.val = t.val % 4 * 2176 + q.val
      omega)
    acc

/-! ## The three control cases, at a row -/

include hA hC hLa hLc hM hL in
/-- After a first-column point the scratches hold the first block's shares. -/
theorem first_point (t : Fin cfg1.N) (h0 : t.val % 4 = 0) (p : Fin 256) (hr : 256 * (t.val / 4) + p.val < 4352) :
    ((outsAt V c t.val t.isLt).2.1 : FVec Ideal S256x1 .f32) (ix2 p 0)
        = numerShare C labB ⟨256 * (t.val / 4) + p.val, hr⟩ 0
    ∧ ((outsAt V c t.val t.isLt).2.2 : FVec Ideal S256x1 .f32) (ix2 p 0)
        = countShare labB ⟨256 * (t.val / 4) + p.val, hr⟩ 0 := by
  have hc0 : atFirstCol (grid1.coords t) := (atFirstCol_iff t).mpr h0
  have hc1 : ¬atLastCol (grid1.coords t) := fun h => by have := (atLastCol_iff t).mp h; omega
  rw [outsAt_first V c t h0]
  dsimp only
  constructor
  · refine (congrFun (scrNumerFirst_eq (F := Ideal) c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) hc0 hc1 (iblk V c 0 t) (iblk V c 1 t) (iblk V c 2 t) (iblk V c 3 t) (iblk V c 4 t) (iblk V c 5 t)) (ix2 p 0)).trans ?_
    refine (numerStep_point V c C labB hA hC hLa hLc hM hL t p hr (k1_pay4 (F := Ideal))).trans ?_
    rw [numerReset_at, zero_add, h0]
  · refine (congrFun (scrCountFirst_eq (F := Ideal) c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) hc0 hc1 (iblk V c 0 t) (iblk V c 1 t) (iblk V c 2 t) (iblk V c 3 t) (iblk V c 4 t) (iblk V c 5 t)) (ix2 p 0)).trans ?_
    refine (countStep_point V c labB hLa hLc t p hr (k1_pay5 (F := Ideal))).trans ?_
    rw [countReset_at, zero_add, h0]

include hA hC hLa hLc hM hL in
/-- After a middle-column point the scratches hold what the point before left plus this block's shares. -/
theorem mid_point (t : Fin cfg1.N) (h0 : ¬t.val % 4 = 0) (h3 : ¬t.val % 4 = 3) (p : Fin 256)
    (hr : 256 * (t.val / 4) + p.val < 4352) :
    ((outsAt V c t.val t.isLt).2.1 : FVec Ideal S256x1 .f32) (ix2 p 0)
        = ((outsAt V c (t.val - 1) (Nat.lt_of_le_of_lt (Nat.sub_le _ _) t.isLt)).2.1 : FVec Ideal S256x1 .f32) (ix2 p 0)
          + numerShare C labB ⟨256 * (t.val / 4) + p.val, hr⟩ (t.val % 4)
    ∧ ((outsAt V c t.val t.isLt).2.2 : FVec Ideal S256x1 .f32) (ix2 p 0)
        = ((outsAt V c (t.val - 1) (Nat.lt_of_le_of_lt (Nat.sub_le _ _) t.isLt)).2.2 : FVec Ideal S256x1 .f32) (ix2 p 0)
          + countShare labB ⟨256 * (t.val / 4) + p.val, hr⟩ (t.val % 4) := by
  have hc0 : ¬atFirstCol (grid1.coords t) := fun h => h0 ((atFirstCol_iff t).mp h)
  have hc1 : ¬atLastCol (grid1.coords t) := fun h => h3 ((atLastCol_iff t).mp h)
  rw [outsAt_mid V c t h0 h3]
  dsimp only
  constructor
  · refine (congrFun (scrNumerMid_eq (F := Ideal) c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) hc0 hc1 (iblk V c 0 t) (iblk V c 1 t) (iblk V c 2 t) (iblk V c 3 t) (iblk V c 4 t) (iblk V c 5 t) (outsAt V c (t.val - 1) (Nat.lt_of_le_of_lt (Nat.sub_le _ _) t.isLt)).2.1 (outsAt V c (t.val - 1) (Nat.lt_of_le_of_lt (Nat.sub_le _ _) t.isLt)).2.2) (ix2 p 0)).trans ?_
    exact numerStep_point V c C labB hA hC hLa hLc hM hL t p hr (outsAt V c (t.val - 1) (Nat.lt_of_le_of_lt (Nat.sub_le _ _) t.isLt)).2.1
  · refine (congrFun (scrCountMid_eq (F := Ideal) c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) hc0 hc1 (iblk V c 0 t) (iblk V c 1 t) (iblk V c 2 t) (iblk V c 3 t) (iblk V c 4 t) (iblk V c 5 t) (outsAt V c (t.val - 1) (Nat.lt_of_le_of_lt (Nat.sub_le _ _) t.isLt)).2.1 (outsAt V c (t.val - 1) (Nat.lt_of_le_of_lt (Nat.sub_le _ _) t.isLt)).2.2) (ix2 p 0)).trans ?_
    exact countStep_point V c labB hLa hLc t p hr (outsAt V c (t.val - 1) (Nat.lt_of_le_of_lt (Nat.sub_le _ _) t.isLt)).2.2

include hA hC hLa hLc hM hL in
/-- At a last-column point the output blocks receive what the point before left plus this block's shares. -/
theorem last_point (t : Fin cfg1.N) (h3 : t.val % 4 = 3) (p : Fin 256) (hr : 256 * (t.val / 4) + p.val < 4352) :
    ((outsAt V c t.val t.isLt).1.1 : FVec Ideal S256x1 .f32) (ix2 p 0)
        = ((outsAt V c (t.val - 1) (Nat.lt_of_le_of_lt (Nat.sub_le _ _) t.isLt)).2.1 : FVec Ideal S256x1 .f32) (ix2 p 0)
          + numerShare C labB ⟨256 * (t.val / 4) + p.val, hr⟩ (t.val % 4)
    ∧ ((outsAt V c t.val t.isLt).1.2 : FVec Ideal S256x1 .f32) (ix2 p 0)
        = ((outsAt V c (t.val - 1) (Nat.lt_of_le_of_lt (Nat.sub_le _ _) t.isLt)).2.2 : FVec Ideal S256x1 .f32) (ix2 p 0)
          + countShare labB ⟨256 * (t.val / 4) + p.val, hr⟩ (t.val % 4) := by
  have hc0 : ¬atFirstCol (grid1.coords t) := fun h => by have := (atFirstCol_iff t).mp h; omega
  have hc1 : atLastCol (grid1.coords t) := (atLastCol_iff t).mpr h3
  rw [outsAt_last V c t h3]
  dsimp only
  constructor
  · refine (congrFun (outNumerLast_eq (F := Ideal) c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) hc0 hc1 (iblk V c 0 t) (iblk V c 1 t) (iblk V c 2 t) (iblk V c 3 t) (iblk V c 4 t) (iblk V c 5 t) (outsAt V c (t.val - 1) (Nat.lt_of_le_of_lt (Nat.sub_le _ _) t.isLt)).2.1 (outsAt V c (t.val - 1) (Nat.lt_of_le_of_lt (Nat.sub_le _ _) t.isLt)).2.2) (ix2 p 0)).trans ?_
    exact numerStep_point V c C labB hA hC hLa hLc hM hL t p hr (outsAt V c (t.val - 1) (Nat.lt_of_le_of_lt (Nat.sub_le _ _) t.isLt)).2.1
  · refine (congrFun (outCountLast_eq (F := Ideal) c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) hc0 hc1 (iblk V c 0 t) (iblk V c 1 t) (iblk V c 2 t) (iblk V c 3 t) (iblk V c 4 t) (iblk V c 5 t) (outsAt V c (t.val - 1) (Nat.lt_of_le_of_lt (Nat.sub_le _ _) t.isLt)).2.1 (outsAt V c (t.val - 1) (Nat.lt_of_le_of_lt (Nat.sub_le _ _) t.isLt)).2.2) (ix2 p 0)).trans ?_
    exact countStep_point V c labB hLa hLc t p hr (outsAt V c (t.val - 1) (Nat.lt_of_le_of_lt (Nat.sub_le _ _) t.isLt)).2.2

/-! ## The running sums across a row block's four points -/

include hA hC hLa hLc hM hL in
/-- After point n (not a last-column point) the scratches at row p hold the shares of column blocks 0 .. n % 4 of
    anchor row 256 * (n / 4) + p, added in order. -/
theorem scratch_sums : ∀ (n : ℕ) (h : n < cfg1.N), n % 4 ≠ 3 → ∀ (p : Fin 256) (hr : 256 * (n / 4) + p.val < 4352),
    ((outsAt V c n h).2.1 : FVec Ideal S256x1 .f32) (ix2 p 0)
        = ∑ b ∈ Finset.range (n % 4 + 1), numerShare C labB ⟨256 * (n / 4) + p.val, hr⟩ b
    ∧ ((outsAt V c n h).2.2 : FVec Ideal S256x1 .f32) (ix2 p 0)
        = ∑ b ∈ Finset.range (n % 4 + 1), countShare labB ⟨256 * (n / 4) + p.val, hr⟩ b := by
  intro n
  induction n with
  | zero =>
    intro h _ p hr
    obtain ⟨e1, e2⟩ := first_point V c C labB hA hC hLa hLc hM hL ⟨0, h⟩ rfl p hr
    dsimp only at e1 e2
    refine ⟨e1.trans ?_, e2.trans ?_⟩
    · exact (Finset.sum_range_one _).symm
    · exact (Finset.sum_range_one _).symm
  | succ n ih =>
    intro h hn3 p hr
    by_cases h0 : (n + 1) % 4 = 0
    · obtain ⟨e1, e2⟩ := first_point V c C labB hA hC hLa hLc hM hL ⟨n + 1, h⟩ h0 p hr
      dsimp only at e1 e2
      refine ⟨e1.trans ?_, e2.trans ?_⟩
      · rw [h0]; exact (Finset.sum_range_one _).symm
      · rw [h0]; exact (Finset.sum_range_one _).symm
    · obtain ⟨e1, e2⟩ := mid_point V c C labB hA hC hLa hLc hM hL ⟨n + 1, h⟩ h0 hn3 p hr
      dsimp only at e1 e2
      have hn : n % 4 ≠ 3 := by omega
      have hmod : (n + 1) % 4 = n % 4 + 1 := by omega
      have hr' : 256 * (n / 4) + p.val < 4352 := by
        have : n / 4 = (n + 1) / 4 := by omega
        rw [this]; exact hr
      have hrow : (⟨256 * (n / 4) + p.val, hr'⟩ : Fin 4352) = ⟨256 * ((n + 1) / 4) + p.val, hr⟩ :=
        Fin.ext (by show 256 * (n / 4) + p.val = 256 * ((n + 1) / 4) + p.val; omega)
      obtain ⟨i1, i2⟩ := ih (Nat.lt_of_succ_lt h) hn p hr'
      rw [hrow] at i1 i2
      refine ⟨e1.trans ?_, e2.trans ?_⟩
      · show ((outsAt V c n _).2.1 : FVec Ideal S256x1 .f32) (ix2 p 0) + _ = _
        rw [i1, hmod]
        exact (Finset.sum_range_succ _ _).symm
      · show ((outsAt V c n _).2.2 : FVec Ideal S256x1 .f32) (ix2 p 0) + _ = _
        rw [i2, hmod]
        exact (Finset.sum_range_succ _ _).symm

include hA hC hLa hLc hM hL in
/-- At a last-column point the output blocks at row p receive the whole numerator and count of anchor row
    256 * (t / 4) + p: the first three blocks' shares carried by the scratches, plus the fourth's. -/
theorem last_sums (t : Fin cfg1.N) (h3 : t.val % 4 = 3) (p : Fin 256) (hr : 256 * (t.val / 4) + p.val < 4352) :
    ((outsAt V c t.val t.isLt).1.1 : FVec Ideal S256x1 .f32) (ix2 p 0) = numer C labB ⟨256 * (t.val / 4) + p.val, hr⟩
    ∧ ((outsAt V c t.val t.isLt).1.2 : FVec Ideal S256x1 .f32) (ix2 p 0) = count labB ⟨256 * (t.val / 4) + p.val, hr⟩ := by
  obtain ⟨e1, e2⟩ := last_point V c C labB hA hC hLa hLc hM hL t h3 p hr
  have ht := t.isLt
  have hlt : t.val - 1 < cfg1.N := by omega
  have hn3 : (t.val - 1) % 4 ≠ 3 := by omega
  have hmod : (t.val - 1) % 4 + 1 = 3 := by omega
  have hr' : 256 * ((t.val - 1) / 4) + p.val < 4352 := by
    have : (t.val - 1) / 4 = t.val / 4 := by omega
    rw [this]; exact hr
  have hrow : (⟨256 * ((t.val - 1) / 4) + p.val, hr'⟩ : Fin 4352) = ⟨256 * (t.val / 4) + p.val, hr⟩ :=
    Fin.ext (by show 256 * ((t.val - 1) / 4) + p.val = 256 * (t.val / 4) + p.val; omega)
  obtain ⟨i1, i2⟩ := scratch_sums V c C labB hA hC hLa hLc hM hL (t.val - 1) hlt hn3 p hr'
  rw [hrow, hmod] at i1 i2
  refine ⟨e1.trans ?_, e2.trans ?_⟩
  · rw [i1, h3, numer_eq_shares]
    exact (Finset.sum_range_succ _ 3).symm
  · rw [i2, h3, count_eq_shares]
    exact (Finset.sum_range_succ _ 3).symm

end Region

end Cert.SupCon.LossRegion

end
-- ==== Proof.Value.Loss.lean ====
/-
  What the loss region leaves in its two output arrays: at anchor row r the numerator array holds the row's
  weighted sum of clamped log-probabilities and the count array the row's sum of positive-pair weights. Each
  block of 256 rows is written back once, at the fourth column block of its row block, with the whole rows' sums;
  the 17 write-backs tile the 4352 rows.
-/
import proofs.«123850_j8598524526701_1_alg».proof.Proof.Value.Spec
import proofs.«123850_j8598524526701_1_alg».proof.Proof.KernelIdeal.Loss.Data
import proofs.«123850_j8598524526701_1_alg».proof.Proof.Value.Loss.Points
import Idealize.ShloMosaic.Lib.ValueIdx
import Idealize.ShloMosaic.Lib.Pipeline.Value

set_option maxRecDepth 16384

noncomputable section

namespace Cert.SupCon.LossRegion

open Cert.KernelIdeal Idealize.ShloMosaic Idealize.ShloMosaic.TcCoe Idealize.ShloMosaic.ValueIdx Idealize.SL.Sem
open Cert.KernelIdeal.Loss

variable (V : (c : Dev nD) → (b : Ref sig .tc) → Buf (Elt Ideal) ((c : Thread nD τ).loc b)) (c : Dev nD)
  (C : Fin 8704 → Fin 128 → EReal) (labB : Fin 4352 → BitVec 32)

/-- The numerator array the region should leave: row i holds anchor row i's numerator. -/
def numerArr : S4352x1.Idx → EReal := fun i => numer C labB ⟨(i 0).val, idx2_lt0 i⟩
/-- The count array the region should leave: row i holds anchor row i's count. -/
def countArr : S4352x1.Idx → EReal := fun i => count labB ⟨(i 0).val, idx2_lt0 i⟩

section Region

variable
  (hA : ∀ (r : Fin 4352) (k : Fin 128), (V c main_v16 : S4352x128.Idx → EReal) (ix2 r k) = C (anchor r) k)
  (hC : ∀ (j : Fin 8704) (k : Fin 128), (V c main_v17 : S8704x128.Idx → EReal) (ix2 j k) = C j k)
  (hLa : ∀ r : Fin 4352, (V c main_v18 : S4352x1.Idx → BitVec 32) (ix2 r 0) = labOf labB (anchor r))
  (hLc : ∀ j : Fin 8704, (V c main_v19 : S1x8704.Idx → BitVec 32) (ix2 0 j) = labOf labB j)
  (hM : ∀ r : Fin 4352, (V c main_v20_0 : S4352x1.Idx → EReal) (ix2 r 0) = rowMax C r)
  (hL : ∀ r : Fin 4352, (V c main_v20_1 : S4352x1.Idx → EReal) (ix2 r 0) = Ideal.log (expSum C labB r))

include hA hC hLa hLc hM hL in
/-- What a last-column point writes back into the numer array is that point's block of the numers. -/
theorem numer_flushed (t : Fin cfg1.N) (hf : (cfg1.win 6).flush t = true) :
    (dat V c).flushed 6 t = ((cfg1.win 6).blk t).view.read (Elt Ideal) (numerArr C labB) := by
  have h3 : t.val % 4 = 3 := (Gen.flush1_6 t).mp hf
  show (cfg1.win 6).cut (grid1.coords t) ((dat V c).after 6 t) = _
  rw [after_numer]
  funext y
  obtain ⟨p, z, rfl⟩ : ∃ (p : Fin 256) (z : Fin 1), y = ix2 p z := ⟨y 0, y 1, eq_ix2 y⟩
  obtain rfl : z = 0 := Subsingleton.elim _ _
  rw [View.read_apply]
  have hr : 256 * (t.val / 4) + p.val < 4352 := by have := t.isLt; have := points; omega
  refine (last_sums V c C labB hA hC hLa hLc hM hL t h3 p hr).1.trans ?_
  show numer C labB _ = numer C labB _
  congr 1
  apply Fin.ext
  obtain ⟨-, -, -, -, -, -, -, -, -, -, -, -, e0, -⟩ := index_facts t
  show 256 * (t.val / 4) + p.val = win1_6.index t (0 : Fin 2) * 256 + 1 * p.val
  rw [e0]; omega

include hA hC hLa hLc hM hL in
/-- What a last-column point writes back into the count array is that point's block of the counts. -/
theorem count_flushed (t : Fin cfg1.N) (hf : (cfg1.win 7).flush t = true) :
    (dat V c).flushed 7 t = ((cfg1.win 7).blk t).view.read (Elt Ideal) (countArr labB) := by
  have h3 : t.val % 4 = 3 := (Gen.flush1_7 t).mp hf
  show (cfg1.win 7).cut (grid1.coords t) ((dat V c).after 7 t) = _
  rw [after_count]
  funext y
  obtain ⟨p, z, rfl⟩ : ∃ (p : Fin 256) (z : Fin 1), y = ix2 p z := ⟨y 0, y 1, eq_ix2 y⟩
  obtain rfl : z = 0 := Subsingleton.elim _ _
  rw [View.read_apply]
  have hr : 256 * (t.val / 4) + p.val < 4352 := by have := t.isLt; have := points; omega
  refine (last_sums V c C labB hA hC hLa hLc hM hL t h3 p hr).2.trans ?_
  show count labB _ = count labB _
  congr 1
  apply Fin.ext
  obtain ⟨-, -, -, -, -, -, -, -, -, -, -, -, -, -, e0, -⟩ := index_facts t
  show 256 * (t.val / 4) + p.val = win1_7.index t (0 : Fin 2) * 256 + 1 * p.val
  rw [e0]; omega

end Region

/-- An index of the numer array lies in point t's block when each coordinate lies in the block's range. -/
theorem mem_numerBlk (t : Fin cfg1.N) (i : S4352x1.Idx) :
    i ∈ ((cfg1.win 6).blk t).view.set ↔ ∀ a : Fin 2, win1_6.index t a * S256x1.size a ≤ (i a).val ∧ (i a).val < win1_6.index t a * S256x1.size a + S256x1.size a := by
  show i ∈ ((View.whole main_v21_0).slice (win1_6.rect t)).set ↔ _
  rw [View.set_slice_whole, Rect.mem_set_unit]
  exact Iff.rfl

/-- Row i of the numer array is written back by the last-column point of row block i / 256. -/
theorem numer_cover (i : S4352x1.Idx) :
    ∃ t : Fin cfg1.N, (cfg1.win 6).flush t = true ∧ i ∈ ((cfg1.win 6).blk t).view.set := by
  have hi0 : (i 0).val < 4352 := idx2_lt0 i
  have hi1 : (i 1).val < 1 := idx2_lt1 i
  have hN := points
  have hlt : 4 * ((i 0).val / 256) + 3 < cfg1.N := by rw [hN]; omega
  refine ⟨⟨4 * ((i 0).val / 256) + 3, hlt⟩, (Gen.flush1_6 _).mpr (by show (4 * ((i 0).val / 256) + 3) % 4 = 3; omega), ?_⟩
  rw [mem_numerBlk]
  obtain ⟨-, -, -, -, -, -, -, -, -, -, -, -, e0, e1, -⟩ := index_facts ⟨4 * ((i 0).val / 256) + 3, hlt⟩
  intro a
  match a with
  | ⟨0, _⟩ =>
    show win1_6.index ⟨4 * ((i 0).val / 256) + 3, hlt⟩ (0 : Fin 2) * 256 ≤ (i 0).val ∧ (i 0).val < win1_6.index ⟨4 * ((i 0).val / 256) + 3, hlt⟩ (0 : Fin 2) * 256 + 256
    rw [e0]
    show (4 * ((i 0).val / 256) + 3) / 4 * 256 ≤ (i 0).val ∧ (i 0).val < (4 * ((i 0).val / 256) + 3) / 4 * 256 + 256
    omega
  | ⟨1, _⟩ =>
    show win1_6.index ⟨4 * ((i 0).val / 256) + 3, hlt⟩ (1 : Fin 2) * 1 ≤ (i 1).val ∧ (i 1).val < win1_6.index ⟨4 * ((i 0).val / 256) + 3, hlt⟩ (1 : Fin 2) * 1 + 1
    rw [e1]
    omega

/-- An index of the count array lies in point t's block when each coordinate lies in the block's range. -/
theorem mem_countBlk (t : Fin cfg1.N) (i : S4352x1.Idx) :
    i ∈ ((cfg1.win 7).blk t).view.set ↔ ∀ a : Fin 2, win1_7.index t a * S256x1.size a ≤ (i a).val ∧ (i a).val < win1_7.index t a * S256x1.size a + S256x1.size a := by
  show i ∈ ((View.whole main_v21_1).slice (win1_7.rect t)).set ↔ _
  rw [View.set_slice_whole, Rect.mem_set_unit]
  exact Iff.rfl

/-- Row i of the count array is written back by the last-column point of row block i / 256. -/
theorem count_cover (i : S4352x1.Idx) :
    ∃ t : Fin cfg1.N, (cfg1.win 7).flush t = true ∧ i ∈ ((cfg1.win 7).blk t).view.set := by
  have hi0 : (i 0).val < 4352 := idx2_lt0 i
  have hi1 : (i 1).val < 1 := idx2_lt1 i
  have hN := points
  have hlt : 4 * ((i 0).val / 256) + 3 < cfg1.N := by rw [hN]; omega
  refine ⟨⟨4 * ((i 0).val / 256) + 3, hlt⟩, (Gen.flush1_7 _).mpr (by show (4 * ((i 0).val / 256) + 3) % 4 = 3; omega), ?_⟩
  rw [mem_countBlk]
  obtain ⟨-, -, -, -, -, -, -, -, -, -, -, -, -, -, e0, e1, -⟩ := index_facts ⟨4 * ((i 0).val / 256) + 3, hlt⟩
  intro a
  match a with
  | ⟨0, _⟩ =>
    show win1_7.index ⟨4 * ((i 0).val / 256) + 3, hlt⟩ (0 : Fin 2) * 256 ≤ (i 0).val ∧ (i 0).val < win1_7.index ⟨4 * ((i 0).val / 256) + 3, hlt⟩ (0 : Fin 2) * 256 + 256
    rw [e0]
    show (4 * ((i 0).val / 256) + 3) / 4 * 256 ≤ (i 0).val ∧ (i 0).val < (4 * ((i 0).val / 256) + 3) / 4 * 256 + 256
    omega
  | ⟨1, _⟩ =>
    show win1_7.index ⟨4 * ((i 0).val / 256) + 3, hlt⟩ (1 : Fin 2) * 1 ≤ (i 1).val ∧ (i 1).val < win1_7.index ⟨4 * ((i 0).val / 256) + 3, hlt⟩ (1 : Fin 2) * 1 + 1
    rw [e1]
    omega

end Cert.SupCon.LossRegion

namespace Cert.SupCon

open Cert.KernelIdeal Idealize.ShloMosaic Idealize.ShloMosaic.TcCoe Idealize.ShloMosaic.ValueIdx Idealize.SL.Sem

variable (V : (c : Dev nD) → (b : Ref sig .tc) → Buf (Elt Ideal) ((c : Thread nD τ).loc b)) (c : Dev nD)
  (C : Fin 8704 → Fin 128 → EReal) (labB : Fin 4352 → BitVec 32)

/-- After the loss region, row r of the numerator array holds anchor row r's numerator. -/
theorem loss_numer
    (hA : ∀ (r : Fin 4352) (k : Fin 128), (V c main_v16 : S4352x128.Idx → EReal) (ix2 r k) = C (anchor r) k)
    (hC : ∀ (j : Fin 8704) (k : Fin 128), (V c main_v17 : S8704x128.Idx → EReal) (ix2 j k) = C j k)
    (hLa : ∀ r : Fin 4352, (V c main_v18 : S4352x1.Idx → BitVec 32) (ix2 r 0) = labOf labB (anchor r))
    (hLc : ∀ j : Fin 8704, (V c main_v19 : S1x8704.Idx → BitVec 32) (ix2 0 j) = labOf labB j)
    (hM : ∀ r : Fin 4352, (V c main_v20_0 : S4352x1.Idx → EReal) (ix2 r 0) = rowMax C r)
    (hL : ∀ r : Fin 4352, (V c main_v20_1 : S4352x1.Idx → EReal) (ix2 r 0) = Ideal.log (expSum C labB r))
    (r : Fin 4352) :
    ((Cert.KernelIdeal.Loss.dat V c).arrAt 6 cfg1.N : S4352x1.Idx → EReal) (ix2 r 0) = numer C labB r := by
  have e := (Cert.KernelIdeal.Loss.dat V c).arrAt_eq_of_cover 6 (LossRegion.numerArr C labB)
    (fun t hf => LossRegion.numer_flushed V c C labB hA hC hLa hLc hM hL t hf) LossRegion.numer_cover
  exact congrFun e (ix2 r 0)

/-- After the loss region, row r of the count array holds anchor row r's count. -/
theorem loss_count
    (hA : ∀ (r : Fin 4352) (k : Fin 128), (V c main_v16 : S4352x128.Idx → EReal) (ix2 r k) = C (anchor r) k)
    (hC : ∀ (j : Fin 8704) (k : Fin 128), (V c main_v17 : S8704x128.Idx → EReal) (ix2 j k) = C j k)
    (hLa : ∀ r : Fin 4352, (V c main_v18 : S4352x1.Idx → BitVec 32) (ix2 r 0) = labOf labB (anchor r))
    (hLc : ∀ j : Fin 8704, (V c main_v19 : S1x8704.Idx → BitVec 32) (ix2 0 j) = labOf labB j)
    (hM : ∀ r : Fin 4352, (V c main_v20_0 : S4352x1.Idx → EReal) (ix2 r 0) = rowMax C r)
    (hL : ∀ r : Fin 4352, (V c main_v20_1 : S4352x1.Idx → EReal) (ix2 r 0) = Ideal.log (expSum C labB r))
    (r : Fin 4352) :
    ((Cert.KernelIdeal.Loss.dat V c).arrAt 7 cfg1.N : S4352x1.Idx → EReal) (ix2 r 0) = count labB r := by
  have e := (Cert.KernelIdeal.Loss.dat V c).arrAt_eq_of_cover 7 (LossRegion.countArr labB)
    (fun t hf => LossRegion.count_flushed V c C labB hA hC hLa hLc hM hL t hf) LossRegion.count_cover
  exact congrFun e (ix2 r 0)

end Cert.SupCon

end
-- ==== Proof.Value.Tail.lean ====
/-
  After the two kernel regions the program finishes on the host: the numerator array is divided
  entry by entry by the count array (both 4352 by 1), the quotients are laid out as a vector of
  4352, each is multiplied by the word of -1, the products are summed from the word of 0, and the
  sum is divided by the word of 4352. Read at its one index, that is the mean over the anchors of
  minus numerator over count, with the three words left as the words they are.
-/
import proofs.«123850_j8598524526701_1_alg».proof.Proof.Value.Spec
import proofs.«123850_j8598524526701_1_alg».proof.Proof.Gen.KernelIdeal.Regions
import Idealize.ShloMosaic.Lib.StableHlo.Run
import Idealize.ShloMosaic.PureOps.Ideal.Laws
import Idealize.ShloMosaic.Lib.ValueIdx
import Idealize.ShloMosaic.Lib.ValueIdxRank1
import Idealize.ShloMosaic.Lib.ValueLayout
import Idealize.ShloMosaic.Lib.Pipeline.Value

namespace Cert.SupCon

open Cert.KernelIdeal Cert.KernelIdeal.Gen Idealize.ShloMosaic Idealize.ShloMosaic.ValueIdx

/-- the nine host operations as one function of the numerator and count arrays: quotient, the
    4352 by 1 array laid out as a vector, times the splat of the word of -1, the sum from the word
    of 0, divided by the word of 4352 -/
noncomputable def tailFn (N Cn : FVec Ideal S4352x1 .f32) : FVec Ideal S_ .f32 :=
  Host.divf (F := Ideal)
    (Host.reduceAdd (F := Ideal)
      (mulf (broadcastInDim S4352 ![] bcast_S_S4352 (constant (F := Ideal) S_ .f32 0xBF800000#32))
        (shapeCast S4352 (Host.divf (F := Ideal) N Cn) shapeCasts_S4352x1_S4352))
      (constant (F := Ideal) S_ .f32 0x00000000#32) reducesTo_S4352_S_d0 h_S_)
    (constant (F := Ideal) S_ .f32 0x45880000#32)

/-- What the result buffer holds after the host tail is tailFn of what the second region left in
    the numerator and count buffers. -/
theorem V4_result (m : (ℓ : Loc nD τ sig) → Buf (Elt Ideal) ℓ) (outs : Gen.Outs (F := Ideal)) (c : Dev nD) :
    Gen.V4 m outs c (Proc.devRef .tc main_v27)
      = tailFn (Gen.V3 m outs c (Proc.devRef .tc main_v21_0)) (Gen.V3 m outs c (Proc.devRef .tc main_v21_1)) := by
  show StableHlo.after hostOps2 _ (Proc.devRef .tc main_v27) = _
  after_results
  rfl

/-- An a by 1 array laid out as a vector of a reads, at r, the array at (r, 0): both places have
    row-major number r. -/
theorem shapeCast_a1_a_apply {α : Type} {a : ℕ} (x : (⟨2, ![a, 1]⟩ : Shape).Idx → α)
    (h : (⟨2, ![a, 1]⟩ : Shape).ShapeCasts ⟨1, ![a]⟩) (r : Fin a) :
    shapeCast ⟨1, ![a]⟩ x h (ix1 r) = x (ix2 r (0 : Fin 1)) :=
  shapeCast_apply x h _ _ (by
    rw [Shape.rowMajor_val_two, Shape.rowMajor_val_one]
    show r.val * 1 + 0 = r.val
    omega)

/-- The tail read at its one index: the word of 0 plus the sum over the anchors of the word of -1
    times numerator over count, divided by the word of 4352. -/
theorem tailFn_apply (N Cn : FVec Ideal S4352x1 .f32) (numerF countF : Fin 4352 → EReal)
    (hN : ∀ r : Fin 4352, N (ix2 r 0) = numerF r) (hC : ∀ r : Fin 4352, Cn (ix2 r 0) = countF r)
    (i : S_.Idx) :
    tailFn N Cn i
      = Ideal.div (Ideal.ofBits .f32 0x00000000#32
          + ∑ r : Fin 4352, Ideal.ofBits .f32 0xBF800000#32 * Ideal.div (numerF r) (countF r))
        (Ideal.ofBits .f32 0x45880000#32) := by
  -- the products, as one vector of 4352
  let P : S4352.Idx → EReal :=
    mulf (broadcastInDim S4352 ![] bcast_S_S4352 (constant (F := Ideal) S_ .f32 0xBF800000#32))
      (shapeCast S4352 (Host.divf (F := Ideal) N Cn) shapeCasts_S4352x1_S4352)
  -- entry r of the products: the splat ignores the place, the quotient sits at (r, 0)
  have hP : ∀ r : Fin 4352,
      P (ix1 r) = Ideal.ofBits .f32 0xBF800000#32 * Ideal.div (numerF r) (countF r) := by
    intro r
    show Ideal.ofBits .f32 0xBF800000#32
        * shapeCast S4352 (Host.divf (F := Ideal) N Cn) shapeCasts_S4352x1_S4352 (ix1 r) = _
    rw [shapeCast_a1_a_apply]
    show _ * Ideal.div (N (ix2 r 0)) (Cn (ix2 r 0)) = _
    rw [hN, hC]
  have e : tailFn N Cn i
      = Ideal.div (Ideal.hostReduceAdd reducesTo_S4352_S_d0 P (Ideal.ofBits .f32 0x00000000#32) i)
          (Ideal.ofBits .f32 0x45880000#32) := rfl
  rw [e, Ideal.hostReduceAdd_total reducesTo_S4352_S_d0 (fun b => absurd b.isLt (Nat.not_lt_zero _)),
    ← Equiv.sum_comp (idxEquiv1 (n := 4352)).symm P]
  congr 2
  exact Finset.sum_congr rfl fun r _ => hP r

end Cert.SupCon
-- ==== Proof.Value.Kernel.lean ====
/-
  The idealized kernel program's result, put together: the host prefix builds the contrast rows and
  labels, the first region leaves each anchor row's largest similarity and the logarithm of its sum
  of exponentials, the second region leaves each anchor's numerator and count, and the host tail
  averages minus numerator over count. Each stage's contents are read at an index and handed to the
  next; the run's final memory then holds the specification's loss in the result buffer and the
  launch contents in the five argument buffers.
-/
import proofs.«123850_j8598524526701_1_alg».proof.Proof.KernelIdeal.Whole
import proofs.«123850_j8598524526701_1_alg».proof.Proof.Value.Prefix
import proofs.«123850_j8598524526701_1_alg».proof.Proof.Value.Lse
import proofs.«123850_j8598524526701_1_alg».proof.Proof.Value.Loss
import proofs.«123850_j8598524526701_1_alg».proof.Proof.Value.Tail

noncomputable section

namespace Cert.SupCon

open Cert.KernelIdeal Cert.KernelIdeal.Gen Cert.KernelIdeal.Whole
open Idealize.ShloMosaic Idealize.ShloMosaic.TcCoe Idealize.ShloMosaic.ValueIdx Idealize.SL.Sem

variable (m : (ℓ : Loc nD τ sig) → Buf (Elt Ideal) ℓ) (c : Dev nD)

/-- The 8704 contrast rows, read off the launch contents of core c. -/
abbrev rowsOf : Fin 8704 → Fin 128 → EReal :=
  contrastFn (m ((c.tc : Thread nD τ).loc main_arg0)) (m ((c.tc : Thread nD τ).loc main_arg2))
    (m ((c.tc : Thread nD τ).loc main_arg3))

/-- The 4352 labels of one view, read off the launch contents of core c. -/
abbrev labelsOf : Fin 4352 → BitVec 32 :=
  labBFn (m ((c.tc : Thread nD τ).loc main_arg1)) (m ((c.tc : Thread nD τ).loc main_arg4))

/-- Under the precondition every entry of the contrast rows is a real number. -/
theorem rows_finite (hpre : Cert.Pre_KernelIdeal m) :
    ∀ i k, ∃ x : ℝ, rowsOf m c i k = (x : EReal) := by
  obtain ⟨h0, h2, h3⟩ := finite_of_pre m c hpre
  exact contrast_finite _ _ _ h0 h2 h3

/-! ## What the first region finds -/

theorem first_anchorRows (r : Fin 4352) (k : Fin 128) :
    (E1 m c main_v16 : S4352x128.Idx → EReal) (ix2 r k) = rowsOf m c (anchor r) k :=
  V1_anchorRows m c r k

theorem first_contrastRows (j : Fin 8704) (k : Fin 128) :
    (E1 m c main_v17 : S8704x128.Idx → EReal) (ix2 j k) = rowsOf m c j k :=
  V1_contrastRows m c j k

theorem first_anchorLabels (r : Fin 4352) :
    (E1 m c main_v18 : S4352x1.Idx → BitVec 32) (ix2 r 0) = labOf (labelsOf m c) (anchor r) :=
  V1_anchorLabels m c r

theorem first_contrastLabels (j : Fin 8704) :
    (E1 m c main_v19 : S1x8704.Idx → BitVec 32) (ix2 0 j) = labOf (labelsOf m c) j :=
  V1_contrastLabels m c j

/-! ## What the second region finds in the four input arrays: what the first region found -/

theorem second_v16 : E2 m c main_v16 = E1 m c main_v16 := E2_in m c 0 rfl
theorem second_v17 : E2 m c main_v17 = E1 m c main_v17 := E2_in m c 1 rfl
theorem second_v18 : E2 m c main_v18 = E1 m c main_v18 := E2_in m c 2 rfl
theorem second_v19 : E2 m c main_v19 = E1 m c main_v19 := E2_in m c 3 rfl

theorem second_anchorRows (r : Fin 4352) (k : Fin 128) :
    (E2 m c main_v16 : S4352x128.Idx → EReal) (ix2 r k) = rowsOf m c (anchor r) k :=
  (congrFun (second_v16 m c) (ix2 r k)).trans (first_anchorRows m c r k)

theorem second_contrastRows (j : Fin 8704) (k : Fin 128) :
    (E2 m c main_v17 : S8704x128.Idx → EReal) (ix2 j k) = rowsOf m c j k :=
  (congrFun (second_v17 m c) (ix2 j k)).trans (first_contrastRows m c j k)

theorem second_anchorLabels (r : Fin 4352) :
    (E2 m c main_v18 : S4352x1.Idx → BitVec 32) (ix2 r 0) = labOf (labelsOf m c) (anchor r) :=
  (congrFun (second_v18 m c) (ix2 r 0)).trans (first_anchorLabels m c r)

theorem second_contrastLabels (j : Fin 8704) :
    (E2 m c main_v19 : S1x8704.Idx → BitVec 32) (ix2 0 j) = labOf (labelsOf m c) j :=
  (congrFun (second_v19 m c) (ix2 0 j)).trans (first_contrastLabels m c j)

/-- The run, given what the result buffer holds after the host tail. -/
theorem run_of_result (ρ : Dev nD → PrngReg)
    (hres : ∀ c : Dev nD, Gen.V4 m (outs m) c (Proc.devRef .tc main_v27)
      = fun _ => loss (rowsOf m c) (labelsOf m c)) :
    θ_run (defs (F := Ideal)) (onTc (τ := τ) (main (F := Ideal))) ⟨m, fun _ => 0, ρ⟩ (fun r => ∀ c : Dev nD,
      r.2.mem ((c.tc : Thread nD τ).loc main_v27) = (fun _ => loss (rowsOf m c) (labelsOf m c))
      ∧ r.2.mem ((c.tc : Thread nD τ).loc main_v27) = (fun _ => loss (rowsOf m c) (labelsOf m c))
      ∧ r.2.mem ((c.tc : Thread nD τ).loc main_v27) = (fun _ => loss (rowsOf m c) (labelsOf m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run (defs (F := Ideal)) _ _).mono (fun r h c => ?_) (run_all m ρ)
  have h27 := (h c (Proc.devRef .tc main_v27)
    (Finset.mem_filter.mpr ⟨StableHlo.devRef_mem_tcRefs main_v27, by decide⟩)).trans (hres c)
  exact ⟨h27, h27, h27,
    (h c (Proc.devRef .tc main_arg0) (Finset.mem_filter.mpr ⟨StableHlo.devRef_mem_tcRefs main_arg0, by decide⟩)).trans (V4_main_arg0 m (outs m) c),
    (h c (Proc.devRef .tc main_arg1) (Finset.mem_filter.mpr ⟨StableHlo.devRef_mem_tcRefs main_arg1, by decide⟩)).trans (V4_main_arg1 m (outs m) c),
    (h c (Proc.devRef .tc main_arg2) (Finset.mem_filter.mpr ⟨StableHlo.devRef_mem_tcRefs main_arg2, by decide⟩)).trans (V4_main_arg2 m (outs m) c),
    (h c (Proc.devRef .tc main_arg3) (Finset.mem_filter.mpr ⟨StableHlo.devRef_mem_tcRefs main_arg3, by decide⟩)).trans (V4_main_arg3 m (outs m) c),
    (h c (Proc.devRef .tc main_arg4) (Finset.mem_filter.mpr ⟨StableHlo.devRef_mem_tcRefs main_arg4, by decide⟩)).trans (V4_main_arg4 m (outs m) c)⟩

/-! ## What the first region leaves in its two output arrays -/

/-- The second region finds the row maxima in the first output array of the first region. -/
theorem second_rowMax (hpre : Cert.Pre_KernelIdeal m) (r : Fin 4352) :
    (E2 m c main_v20_0 : S4352x1.Idx → EReal) (ix2 r 0) = rowMax (rowsOf m c) r :=
  (congrFun (W2_arr m c 4) (ix2 r 0)).trans
    (lse_max (E1 m) c (rowsOf m c) (labelsOf m c) (first_anchorRows m c) (first_contrastRows m c)
      (first_anchorLabels m c) (first_contrastLabels m c) (rows_finite m c hpre) r)

/-- The second region finds the logarithms of the rows' sums in the second output array of the first
    region. -/
theorem second_logSum (hpre : Cert.Pre_KernelIdeal m) (r : Fin 4352) :
    (E2 m c main_v20_1 : S4352x1.Idx → EReal) (ix2 r 0)
      = Ideal.log (expSum (rowsOf m c) (labelsOf m c) r) :=
  (congrFun (W2_arr m c 5) (ix2 r 0)).trans
    (lse_logsum (E1 m) c (rowsOf m c) (labelsOf m c) (first_anchorRows m c) (first_contrastRows m c)
      (first_anchorLabels m c) (first_contrastLabels m c) (rows_finite m c hpre) r)

/-! ## What the second region leaves in its two output arrays -/

/-- After the second region the numerator array holds, at anchor r, the specification's numerator. -/
theorem third_numer (hpre : Cert.Pre_KernelIdeal m) (r : Fin 4352) :
    (Gen.V3 m (outs m) c (Proc.devRef .tc main_v21_0) : S4352x1.Idx → EReal) (ix2 r 0)
      = numer (rowsOf m c) (labelsOf m c) r := by
  rw [V3_eq m c]
  exact (congrFun (W3_arr m c 6) (ix2 r 0)).trans
    (loss_numer (E2 m) c (rowsOf m c) (labelsOf m c) (second_anchorRows m c) (second_contrastRows m c)
      (second_anchorLabels m c) (second_contrastLabels m c) (second_rowMax m c hpre)
      (second_logSum m c hpre) r)

/-- After the second region the count array holds, at anchor r, the specification's count. -/
theorem third_count (hpre : Cert.Pre_KernelIdeal m) (r : Fin 4352) :
    (Gen.V3 m (outs m) c (Proc.devRef .tc main_v21_1) : S4352x1.Idx → EReal) (ix2 r 0)
      = count (labelsOf m c) r := by
  rw [V3_eq m c]
  exact (congrFun (W3_arr m c 7) (ix2 r 0)).trans
    (loss_count (E2 m) c (rowsOf m c) (labelsOf m c) (second_anchorRows m c) (second_contrastRows m c)
      (second_anchorLabels m c) (second_contrastLabels m c) (second_rowMax m c hpre)
      (second_logSum m c hpre) r)

/-! ## The result -/

/-- After the host tail the result buffer holds the specification's loss at its one index. -/
theorem result_loss (hpre : Cert.Pre_KernelIdeal m) :
    Gen.V4 m (outs m) c (Proc.devRef .tc main_v27)
      = fun _ => loss (rowsOf m c) (labelsOf m c) := by
  rw [V4_result m (outs m) c]
  funext i
  exact tailFn_apply _ _ (numer (rowsOf m c) (labelsOf m c)) (count (labelsOf m c))
    (third_numer m c hpre) (third_count m c hpre) i

/-- The kernel program's run: on every core the result buffer ends holding the specification's loss
    of the contrast rows and labels built from the launch contents, and each argument buffer ends
    holding what it held at launch. -/
theorem kernel_run (ρ : Dev nD → PrngReg) (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v27) = (fun _ => loss (rowsOf m c) (labelsOf m c))
      ∧ r.2.mem ((c.tc : Thread nD τ).loc main_v27) = (fun _ => loss (rowsOf m c) (labelsOf m c))
      ∧ r.2.mem ((c.tc : Thread nD τ).loc main_v27) = (fun _ => loss (rowsOf m c) (labelsOf m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_of_result m ρ fun c => result_loss m c hpre

end Cert.SupCon

end
-- ==== Proof.Value.Reference.Stages.lean ====
/-
  Five stages of the reference that no single operand element determines, each read at an index over arrays that
  are variables: a concatenation whose second piece is empty, a constant block followed by another, two columns
  laid side by side, an overwriting scatter onto the diagonal, and a row maximum taken from minus infinity.
-/
import proofs.«123850_j8598524526701_1_alg».proof.ReferenceIdeal
import proofs.«123850_j8598524526701_1_alg».proof.Proof.LibScatterRead
import Idealize.ShloMosaic.Lib.Pipeline.Value
import Idealize.ShloMosaic.Lib.ValueIdx
import Idealize.ShloMosaic.PureOps.Ideal.Laws
import Idealize.ShloMosaic.PureOps.Reduce

noncomputable section

namespace Cert.ReferenceIdeal.RefValue

open Cert.ReferenceIdeal Idealize.ShloMosaic Idealize.ShloMosaic.ValueIdx

/-- A concatenation along the rows whose second piece has no rows is its first piece. -/
theorem concat_noRows {α : Type} (a : S4352x8704.Idx → α) (b : S0x8704.Idx → α)
    (h : Shape.Concatenates [S4352x8704, S0x8704] S4352x8704 0) :
    concatenate S4352x8704 0 [⟨S4352x8704, a⟩, ⟨S0x8704, b⟩] h = a := by
  funext j
  exact concatenate_pair_apply_left 0 a b h j rfl j (fun _ => rfl)

/-- 3840 entries of one value followed by 512 entries of another. -/
theorem concat_const_const {α : Type} (a : S3840.Idx → α) (b : S512.Idx → α) (A B : α)
    (ha : ∀ i, a i = A) (hb : ∀ i, b i = B)
    (h : Shape.Concatenates [S3840, S512] S4352 0) (p : Fin 4352) :
    concatenate S4352 0 [⟨S3840, a⟩, ⟨S512, b⟩] h (ix1 p) = if p.val < 3840 then A else B := by
  by_cases hp : p.val < 3840
  · rw [if_pos hp, ← ha (ix1 (⟨p.val, hp⟩ : Fin 3840))]
    exact concatenate_pair_apply_left 0 a b h (ix1 p) rfl (ix1 (⟨p.val, hp⟩ : Fin 3840))
      (fun c => match c with | ⟨0, _⟩ => rfl)
  · rw [if_neg hp, ← hb (ix1 (⟨p.val - 3840, by have := p.isLt; omega⟩ : Fin 512))]
    refine concatenate_pair_apply_right 0 a b h (ix1 p) rfl rfl
      (ix1 (⟨p.val - 3840, by have := p.isLt; omega⟩ : Fin 512)) (fun c hc => ?_) ?_
    · match c with
      | ⟨0, _⟩ => exact absurd rfl hc
    · show p.val - 3840 + 3840 = p.val
      omega

/-- Two columns laid side by side: column 0 is the first, column 1 the second. -/
theorem concat_twoCols {α : Type} (a b : S8704x1.Idx → α)
    (h : Shape.Concatenates [S8704x1, S8704x1] S8704x2 1) (e : Fin 8704) :
    concatenate S8704x2 1 [⟨S8704x1, a⟩, ⟨S8704x1, b⟩] h (ix2 e (0 : Fin 2)) = a (ix2 e (0 : Fin 1))
    ∧ concatenate S8704x2 1 [⟨S8704x1, a⟩, ⟨S8704x1, b⟩] h (ix2 e (1 : Fin 2)) = b (ix2 e (0 : Fin 1)) := by
  constructor
  · exact concatenate_pair_apply_left 1 a b h (ix2 e (0 : Fin 2)) rfl (ix2 e (0 : Fin 1))
      (fun c => match c with | ⟨0, _⟩ => rfl | ⟨1, _⟩ => rfl)
  · refine concatenate_pair_apply_right 1 a b h (ix2 e (1 : Fin 2)) rfl rfl (ix2 e (0 : Fin 1)) (fun c hc => ?_) ?_
    · match c with
      | ⟨0, _⟩ => rfl
      | ⟨1, _⟩ => exact absurd rfl hc
    · rfl

/-- A row number below 8704 as a 32-bit word reads back, signed, as itself. -/
theorem toInt_ofNat_row (e : ℕ) (he : e < 8704) : (BitVec.ofNat 32 e).toInt = (e : ℤ) := by
  have hm : e % 2 ^ 32 = e := Nat.mod_eq_of_lt (by omega)
  rw [BitVec.toInt_eq_toNat_of_lt (by rw [BitVec.toNat_ofNat, hm]; omega), BitVec.toNat_ofNat, hm]

/-- An overwriting scatter whose update e lands on entry (e, e): the diagonal is replaced, every other entry kept. -/
theorem scatter_diagonal {α : Type} (d : ScatterDims S8704x8704 S8704x2 S8704)
    (h1 : d.updateWindowDims = []) (h2 : d.insertedWindowDims = [0, 1]) (h3 : d.scatterDimsToOperandDims = [0, 1])
    (h4 : d.indexVectorDim = 1)
    (x : S8704x8704.Idx → α) (idx : IVec S8704x2 32) (upd : S8704.Idx → α)
    (hidx0 : ∀ e : Fin 8704, idx (ix2 e (0 : Fin 2)) = BitVec.ofNat 32 e.val)
    (hidx1 : ∀ e : Fin 8704, idx (ix2 e (1 : Fin 2)) = BitVec.ofNat 32 e.val)
    (g j : Fin 8704) :
    Host.scatter d (fun _ b => b) x idx upd (ix2 g j) = if g = j then upd (ix1 g) else x (ix2 g j) := by
  have key : ∀ (e p q : Fin 8704), d.resultIdx? (ix1 e) idx = some (ix2 p q) ↔ e = p ∧ e = q := by
    intro e p q
    rw [ScatterRead.resultIdx?_mat d h1 h2 h3 h4 idx e p q, hidx0, hidx1, toInt_ofNat_row _ e.isLt]
    constructor
    · rintro ⟨hp, hq⟩
      exact ⟨Fin.ext (by exact_mod_cast hp), Fin.ext (by exact_mod_cast hq)⟩
    · rintro ⟨rfl, rfl⟩
      exact ⟨rfl, rfl⟩
  by_cases hgj : g = j
  · subst hgj
    rw [if_pos rfl]
    refine ScatterRead.scatter_set_hit d x idx upd (ix2 g g) (ix1 g) ((key g g g).2 ⟨rfl, rfl⟩) ?_
    intro j' hj'
    obtain ⟨e, rfl⟩ : ∃ e : Fin 8704, j' = ix1 e := ⟨j' 0, eq_ix1 j'⟩
    rw [((key e g g).1 hj').1]
  · rw [if_neg hgj]
    refine ScatterRead.scatter_set_miss d x idx upd (ix2 g j) ?_
    intro j' hj'
    obtain ⟨e, rfl⟩ : ∃ e : Fin 8704, j' = ix1 e := ⟨j' 0, eq_ix1 j'⟩
    obtain ⟨hp, hq⟩ := (key e g j).1 hj'
    exact hgj (hp.symm.trans hq)

/-- The reduced row index with column k put back is (i, k). -/
theorem lift_row (h : S8704x8704.Reduces [1] S8704) (i : Fin 8704) (k : Fin (S8704x8704.size 1)) :
    h.lift (ix1 i) k = ix2 i (⟨k.val, k.isLt⟩ : Fin 8704) := by
  funext c; apply Fin.ext
  match c with
  | ⟨0, _⟩ => rfl
  | ⟨1, _⟩ => rfl

/-- From the bottom element, the fold of the maximum over a finite family is its supremum. -/
theorem fold_max_bot {n : ℕ} (f : Fin n → EReal) : (Finset.univ : Finset (Fin n)).fold max ⊥ f = Finset.univ.sup f := rfl

/-- A row maximum taken from minus infinity is the supremum of the row. -/
theorem rowMax_apply (y : FVec Ideal S8704x8704 .f32) (init : FVec Ideal S_ .f32) (hinit : ∀ i, init i = ⊥)
    (h' : S8704x8704.ReducesTo [1] S8704) (hu : 0 < S_.numel) (i : Fin 8704) :
    Host.reduce FloatOps.maximumf y init h' hu (ix1 i) = Finset.univ.sup fun j : Fin 8704 => y (ix2 i j) := by
  have h : S8704x8704.Reduces [1] S8704 := by decide
  rw [Host.reduce_eq_fold_single FloatOps.maximumf y init h' h hu, hinit]
  have e : (y ∘ h.lift (ix1 i)) = fun k : Fin 8704 => y (ix2 i k) := by
    funext k
    exact congrArg y (lift_row h i k)
  exact (congrArg (fun f => (Finset.univ : Finset (Fin 8704)).fold max ⊥ f) e).trans (fold_max_bot _)

end Cert.ReferenceIdeal.RefValue

end
-- ==== Proof.Value.Reference.Rows.lean ====
/-
  The float side of the reference before the row cuts: its contrast rows are the shared prefix's, entry
  (i, j) of the scaled product of the contrast rows with their transpose is the similarity of rows i and j, the row
  maximum is the supremum of a row's similarities, and the shifted similarities are their difference.
-/
import proofs.«123850_j8598524526701_1_alg».proof.Proof.Reference.GenStages
import proofs.«123850_j8598524526701_1_alg».proof.Proof.Value.Spec
import proofs.«123850_j8598524526701_1_alg».proof.Proof.Value.Prefix
import proofs.«123850_j8598524526701_1_alg».proof.Proof.Value.Reference.Stages

noncomputable section

namespace Cert.ReferenceIdeal.RefValue

open Cert.ReferenceIdeal Cert.ReferenceIdeal.Gen Cert.ReferenceIdeal.ReadP Idealize.ShloMosaic Idealize.ShloMosaic.ValueIdx
open Idealize.ShloMosaic.StableHlo Cert.SupCon

/-! ## The shared prefix and the similarities -/

/-- The reference's contrast rows are the shared prefix's. -/
theorem contrastRows_eq (x0 : FVec Ideal S256x2x128 .f32) (x2 x3 : FVec Ideal S4096x128 .f32) :
    val_main_v18 (F := Ideal) x0 x2 x3 = contrastArr x0 x2 x3 := rfl

/-- Term k of entry (i, j) of the product reads the left factor at (i, k). -/
theorem lidx_sim (i j : Fin 8704) (k : Fin 128) : lidx_main_v20 (ix2 i j) k = ix2 i k :=
  funext fun a => Fin.ext (by match a with | ⟨0, _⟩ => rfl | ⟨1, _⟩ => rfl)

/-- Term k of entry (i, j) of the product reads the transposed right factor at (k, j), which is the contrast rows at (j, k). -/
theorem ridx_sim (i j : Fin 8704) (k : Fin 128) : idx_main_v19 (ridx_main_v20 (ix2 i j) k) = ix2 j k :=
  funext fun a => Fin.ext (by match a with | ⟨0, _⟩ => rfl | ⟨1, _⟩ => rfl)

/-- Entry (i, j) of the scaled product of the contrast rows with their transpose is the similarity of rows i and j. -/
theorem sim_apply (x0 : FVec Ideal S256x2x128 .f32) (x2 x3 : FVec Ideal S4096x128 .f32) (i j : Fin 8704) :
    val_main_v22 (F := Ideal) x0 x2 x3 (ix2 i j) = sim (contrastFn x0 x2 x3) i j := by
  rw [val_main_v22_apply, val_main_v20_apply, val_main_v21_apply, val_main_cst_apply, Ideal.hostDivf_def, Ideal.ofBits_def]
  refine (div_temp _).trans (congrArg (· * invTemp) (Finset.sum_congr rfl fun k _ => ?_))
  rw [val_main_v19_apply, contrastRows_eq, lidx_sim, ridx_sim]
  rfl

/-- The row maximum of row i is the supremum of its similarities. -/
theorem rowMax_eq (x0 : FVec Ideal S256x2x128 .f32) (x2 x3 : FVec Ideal S4096x128 .f32) (i : Fin 8704) :
    val_main_v23 (F := Ideal) x0 x2 x3 (ix1 i)
      = Finset.univ.sup fun j : Fin 8704 => sim (contrastFn x0 x2 x3) i j := by
  unfold val_main_v23
  refine (rowMax_apply (val_main_v22 (F := Ideal) x0 x2 x3) (val_main_cst_2 (F := Ideal))
    (fun i => (val_main_cst_2_apply i).trans ofBits_negInf) _ _ i).trans ?_
  exact congrArg (Finset.univ.sup) (funext fun j => sim_apply x0 x2 x3 i j)

/-- The row maximum broadcast back over the columns reads row g's maximum at every entry of row g. -/
theorem idx_rowMax (g j : Fin 8704) : idx_main_v24 (idx_main_v25 (ix2 g j)) = ix1 g :=
  funext fun a => Fin.ext (by match a with | ⟨0, _⟩ => rfl)

/-- Entry (g, j) of the shifted similarities: the similarity less the row's supremum. -/
theorem logits_apply (x0 : FVec Ideal S256x2x128 .f32) (x2 x3 : FVec Ideal S4096x128 .f32) (g j : Fin 8704) :
    val_main_v26 (F := Ideal) x0 x2 x3 (ix2 g j)
      = sim (contrastFn x0 x2 x3) g j - Finset.univ.sup fun j' : Fin 8704 => sim (contrastFn x0 x2 x3) g j' := by
  rw [val_main_v26_apply, val_main_v25_apply, val_main_v24_apply, idx_rowMax, Ideal.subf_def, sim_apply, rowMax_eq]

end Cert.ReferenceIdeal.RefValue

end
-- ==== Proof.Value.Reference.Masks.lean ====
/-
  The two masks of the reference before the row cuts. The label mask at (g, j) compares the labels of rows g and j,
  each the label of its row modulo 4352 in one view. The diagonal mask is 1 everywhere but on the diagonal, where
  row g carries 1 on the first 3840 rows of its view and 0 on the last 512; the scatter that writes it lands update
  e on entry (e, e), its index words being the row numbers, none of which is negative. From the two: the squared
  (mask − 1), which is 1 exactly where the labels differ, and the product of the masks.
-/
import proofs.«123850_j8598524526701_1_alg».proof.Proof.Reference.GenStages
import proofs.«123850_j8598524526701_1_alg».proof.Proof.Value.Spec
import proofs.«123850_j8598524526701_1_alg».proof.Proof.Value.Prefix
import proofs.«123850_j8598524526701_1_alg».proof.Proof.Value.Reference.Stages
import Idealize.ShloMosaic.Lib.StableHlo.Predicate

noncomputable section

namespace Cert.ReferenceIdeal.RefValue

open Cert.ReferenceIdeal Cert.ReferenceIdeal.Gen Cert.ReferenceIdeal.ReadP Idealize.ShloMosaic Idealize.ShloMosaic.ValueIdx
open Idealize.ShloMosaic.StableHlo Cert.SupCon

/-- The reference's labels of one view are the shared prefix's. -/
theorem labels_eq (x1 : IVec S256 32) (x4 : IVec S4096 32) :
    val_main_v9 (F := Ideal) x1 x4 = labBArr x1 x4 := rfl

/-! ## The label mask, tiled over the two views -/

/-- Entry (g, j) of the 8704 × 8704 tiling is entry (g / 4352, g mod 4352, j / 4352, j mod 4352) of the 2 × 4352 × 2 × 4352 array. -/
theorem idx_tile (g j : Fin 8704) :
    idx_main_v29 (ix2 g j)
      = ix4 (⟨g.val / 4352, by have := g.isLt; omega⟩ : Fin 2) (⟨g.val % 4352, Nat.mod_lt _ (by norm_num)⟩ : Fin 4352)
          (⟨j.val / 4352, by have := j.isLt; omega⟩ : Fin 2) (⟨j.val % 4352, Nat.mod_lt _ (by norm_num)⟩ : Fin 4352) := by
  have hg := g.isLt
  have hj := j.isLt
  funext a; apply Fin.ext
  match a with
  | ⟨0, _⟩ => show (g.val * 8704 + j.val) / 37879808 = g.val / 4352; omega
  | ⟨1, _⟩ => show (g.val * 8704 + j.val) / 8704 % 4352 = g.val % 4352; omega
  | ⟨2, _⟩ => show (g.val * 8704 + j.val) / 4352 % 2 = j.val / 4352; omega
  | ⟨3, _⟩ => show (g.val * 8704 + j.val) % 4352 = j.val % 4352; omega

/-- Every tile is the one 4352 × 4352 mask: entry (a, p, b, q) reads the mask at (p, q). -/
theorem idx_untile (a b : Fin 2) (p q : Fin 4352) :
    idx_main_v27 (idx_main_v28 (ix4 a p b q)) = ix2 p q := by
  have hp := p.isLt
  have hq := q.isLt
  funext c; apply Fin.ext
  match c with
  | ⟨0, _⟩ => show (((0 * 4352 + p.val) * 1 + 0) * 4352 + q.val) / 4352 = p.val; omega
  | ⟨1, _⟩ => show (((0 * 4352 + p.val) * 1 + 0) * 4352 + q.val) % 4352 = q.val; omega

/-- The label column broadcast along the rows reads label p at (p, q). -/
theorem idx_rowLabel (p q : Fin 4352) : idx_main_v10 (idx_main_v12 (ix2 p q)) = ix1 p :=
  funext fun a => Fin.ext (by match a with | ⟨0, _⟩ => rfl)

/-- The label row broadcast along the columns reads label q at (p, q). -/
theorem idx_colLabel (p q : Fin 4352) : idx_main_v11 (idx_main_v13 (ix2 p q)) = ix1 q :=
  funext fun a => Fin.ext (by match a with | ⟨0, _⟩ => rfl)

/-- The one-bit word 1 converts to the number 1, the word 0 to 0. -/
theorem uitofp_bit_one : FloatOps.uitofp (F := Ideal) .f32 (1#1 : BitVec 1) = (1 : EReal) := by
  show (((1#1 : BitVec 1).toNat : ℝ) : EReal) = 1
  norm_num
theorem uitofp_bit_zero : FloatOps.uitofp (F := Ideal) .f32 (0#1 : BitVec 1) = (0 : EReal) := by
  show (((0#1 : BitVec 1).toNat : ℝ) : EReal) = 0
  norm_num

/-- Entry (g, j) of the tiled mask is 1 when rows g and j carry the same label and 0 otherwise. -/
theorem mask_apply (x1 : IVec S256 32) (x4 : IVec S4096 32) (g j : Fin 8704) :
    val_main_v29 (F := Ideal) x1 x4 (ix2 g j)
      = if labOf (labBFn x1 x4) g = labOf (labBFn x1 x4) j then (1 : EReal) else 0 := by
  rw [val_main_v29_apply, idx_tile, val_main_v28_apply, val_main_v27_apply, idx_untile, val_main_v15_apply,
    val_main_v14_apply, val_main_v12_apply, val_main_v10_apply, idx_rowLabel, val_main_v13_apply, val_main_v11_apply,
    idx_colLabel, labels_eq]
  show FloatOps.uitofp (F := Ideal) .f32 (IntOp.cmpi .eq (labOf (labBFn x1 x4) g) (labOf (labBFn x1 x4) j)) = _
  by_cases h : labOf (labBFn x1 x4) g = labOf (labBFn x1 x4) j
  · rw [if_pos h, Predicate.cmpi_eq_iff.2 h, uitofp_bit_one]
  · rw [if_neg h, eq_zero_of_ne_one (fun e => h (Predicate.cmpi_eq_iff.1 e)), uitofp_bit_zero]

/-! ## The diagonal mask -/

/-- The diagonal values, tiled over the two views: row g reads entry g mod 4352 of one view's values. -/
theorem idx_diag (g : Fin 8704) :
    idx_main_v33 (idx_main_v34 (idx_main_v35 (ix1 g))) = ix1 (⟨g.val % 4352, Nat.mod_lt _ (by norm_num)⟩ : Fin 4352) := by
  funext a; apply Fin.ext
  match a with
  | ⟨0, _⟩ => show 0 * 4352 + g.val % 4352 = g.val % 4352; omega

/-- The diagonal value of row g: 1 on the first 3840 rows of its view, 0 on the last 512. -/
theorem diag_apply (g : Fin 8704) :
    val_main_v35 (F := Ideal) (ix1 g) = if g.val % 4352 < 3840 then (1 : EReal) else 0 := by
  rw [val_main_v35_apply, val_main_v34_apply, val_main_v33_apply, idx_diag]
  unfold val_main_v32
  exact concat_const_const _ _ 1 0
    (fun i => (val_main_v30_apply i).trans ((val_main_cst_3_apply _).trans ofBits_one))
    (fun i => (val_main_v31_apply i).trans ((val_main_cst_4_apply _).trans ofBits_zero)) _ _

/-- A row number below 8704 is not negative as a signed 32-bit word. -/
theorem not_slt_zero (n : ℕ) (hn : n < 8704) : IntOp.cmpi .slt (BitVec.ofNat 32 n) 0#32 ≠ 1#1 := by
  intro h
  have hm : n % 2 ^ 32 = n := Nat.mod_eq_of_lt (by omega)
  have := (Predicate.slt_iff_toNat (a := BitVec.ofNat 32 n) (b := 0#32)
    (by rw [BitVec.toNat_ofNat, hm]; omega) (by decide)).1 h
  exact absurd this (Nat.not_lt_zero _)

/-- The wrapped row numbers are the row numbers: no row number is negative. -/
theorem rowWord_apply (e : Fin 8704) : val_main_v42 (F := Ideal) (ix1 e) = BitVec.ofNat 32 e.val := by
  rw [val_main_v42_apply, val_main_v39_apply, val_main_v36_apply, val_main_v38_apply, val_main_c_6_apply]
  exact if_neg (not_slt_zero _ e.isLt)

/-- The same for the second copy of the wrapped row numbers. -/
theorem colWord_apply (e : Fin 8704) : val_main_v47 (F := Ideal) (ix1 e) = BitVec.ofNat 32 e.val := by
  rw [val_main_v47_apply, val_main_v44_apply, val_main_v36_apply, val_main_v43_apply, val_main_c_8_apply]
  exact if_neg (not_slt_zero _ e.isLt)

/-- Column 0 of the index pairs reads the row word of e at (e, 0). -/
theorem idx_word (e : Fin 8704) : idx_main_v48 (ix2 e (0 : Fin 1)) = ix1 e :=
  funext fun a => Fin.ext (by match a with | ⟨0, _⟩ => rfl)
/-- Column 1 of the index pairs reads the column word of e at (e, 0). -/
theorem idx_word' (e : Fin 8704) : idx_main_v49 (ix2 e (0 : Fin 1)) = ix1 e :=
  funext fun a => Fin.ext (by match a with | ⟨0, _⟩ => rfl)

/-- The index pairs of the diagonal scatter: update e lands on (e, e). -/
theorem pairs_apply (e : Fin 8704) :
    val_main_v50 (F := Ideal) (ix2 e (0 : Fin 2)) = BitVec.ofNat 32 e.val
    ∧ val_main_v50 (F := Ideal) (ix2 e (1 : Fin 2)) = BitVec.ofNat 32 e.val := by
  unfold val_main_v50
  obtain ⟨h0, h1⟩ := concat_twoCols (val_main_v48 (F := Ideal)) (val_main_v49 (F := Ideal))
    concatenates_S8704x1_S8704x1_S8704x2_d1 e
  refine ⟨h0.trans ?_, h1.trans ?_⟩
  · rw [val_main_v48_apply, idx_word, rowWord_apply]
  · rw [val_main_v49_apply, idx_word', colWord_apply]

/-- Entry (g, j) of the diagonal mask: the diagonal value of g on the diagonal, 1 off it. -/
theorem selfMask_apply (g j : Fin 8704) :
    val_main_v51 (F := Ideal) (ix2 g j)
      = if g = j then (if g.val % 4352 < 3840 then (1 : EReal) else 0) else 1 := by
  unfold val_main_v51
  rw [scatter_diagonal scatter_S8704x8704_S8704x2_S8704_n_01_01_1 rfl rfl rfl rfl _ _ _
    (fun e => (pairs_apply e).1) (fun e => (pairs_apply e).2) g j, diag_apply,
    val_main_v37_apply, val_main_cst_5_apply, Ideal.ofBits_def, ofBits_one]

/-! ## The two weights -/

/-- (1 − 1)² is 0 on the extended reals. -/
theorem sq_one_sub_one : ((1 : EReal) - 1) * ((1 : EReal) - 1) = 0 := by
  have h : ((1 : EReal) - 1) = ((0 : ℝ) : EReal) := by
    rw [← EReal.coe_one, ← EReal.coe_sub]; norm_num
  rw [h]; simp

/-- (0 − 1)² is 1 on the extended reals. -/
theorem sq_zero_sub_one : ((0 : EReal) - 1) * ((0 : EReal) - 1) = 1 := by
  have h : ((0 : EReal) - 1) = ((-1 : ℝ) : EReal) := by
    rw [← EReal.coe_zero, ← EReal.coe_one, ← EReal.coe_sub]; norm_num
  rw [h, ← EReal.coe_mul]; norm_num

/-- Entry (g, j) of the squared (mask − 1): 0 when the labels agree, 1 when they differ. -/
theorem negMask_apply (x1 : IVec S256 32) (x4 : IVec S4096 32) (g j : Fin 8704) :
    val_main_v54 (F := Ideal) x1 x4 (ix2 g j)
      = if labOf (labBFn x1 x4) g = labOf (labBFn x1 x4) j then (0 : EReal) else 1 := by
  rw [val_main_v54_apply, val_main_v53_apply, val_main_v52_apply, val_main_cst_10_apply, mask_apply,
    Ideal.mulf_def, Ideal.subf_def, Ideal.ofBits_def, ofBits_one]
  by_cases h : labOf (labBFn x1 x4) g = labOf (labBFn x1 x4) j
  · rw [if_pos h, if_pos h]; exact sq_one_sub_one
  · rw [if_neg h, if_neg h]; exact sq_zero_sub_one

/-- Entry (g, j) of the label mask times the diagonal mask. -/
theorem posMask_apply (x1 : IVec S256 32) (x4 : IVec S4096 32) (g j : Fin 8704) :
    val_main_v55 (F := Ideal) x1 x4 (ix2 g j)
      = if labOf (labBFn x1 x4) g = labOf (labBFn x1 x4) j
          then (if g = j then (if g.val % 4352 < 3840 then (1 : EReal) else 0) else 1) else 0 := by
  rw [val_main_v55_apply, mask_apply, selfMask_apply, Ideal.mulf_def]
  by_cases h : labOf (labBFn x1 x4) g = labOf (labBFn x1 x4) j
  · rw [if_pos h, if_pos h, one_mul]
  · rw [if_neg h, if_neg h, zero_mul]

end Cert.ReferenceIdeal.RefValue

end
-- ==== Proof.Value.Reference.lean ====
/-
  THE REFERENCE COMPUTES THE SPECIFICATION. After the three row cuts (row r of a cut is row 3841 + r), the product of
  the masks is the specification's weight of a positive, the squared (mask − 1) its weight of a negative, and the
  shifted similarities are those of anchor r; the sums over a row, the logarithm, the clipped log-probabilities, the
  quotient and the mean then read, stage by stage, as the specification writes them. No finiteness is used: every
  identity on the way holds on all extended reals.
-/
import proofs.«123850_j8598524526701_1_alg».proof.Proof.Reference.GenStages
import proofs.«123850_j8598524526701_1_alg».proof.Proof.Value.Spec
import proofs.«123850_j8598524526701_1_alg».proof.Proof.Value.Prefix
import proofs.«123850_j8598524526701_1_alg».proof.Proof.LibScatterRead
import proofs.«123850_j8598524526701_1_alg».proof.Proof.Value.Reference.Rows
import proofs.«123850_j8598524526701_1_alg».proof.Proof.Value.Reference.Masks

noncomputable section

namespace Cert.ReferenceIdeal.RefValue

open Cert.ReferenceIdeal Cert.ReferenceIdeal.Gen Cert.ReferenceIdeal.ReadP Idealize.ShloMosaic Idealize.ShloMosaic.ValueIdx
open Idealize.ShloMosaic.StableHlo Idealize.ShloMosaic.TcCoe Idealize.SL.Sem Cert.SupCon

/-- On the anchor rows 3841 ≤ g ≤ 8192 the reference's diagonal value is the specification's. -/
theorem diag_anchor (r : Fin 4352) :
    (if (anchor r).val % 4352 < 3840 then (1 : EReal) else 0) = diagWeight (anchor r) := by
  unfold diagWeight
  have hr := r.isLt
  show (if (3841 + r.val) % 4352 < 3840 then (1 : EReal) else 0)
    = if 4352 ≤ 3841 + r.val ∧ 3841 + r.val < 8192 then 1 else 0
  by_cases h : 4352 ≤ 3841 + r.val ∧ 3841 + r.val < 8192
  · rw [if_pos h, if_pos (by omega)]
  · rw [if_neg h, if_neg (by omega)]

/-! ## The three row cuts: row r of a cut is row 3841 + r -/

/-- Row r of the cut of the product of the masks is its row 3841 + r. -/
theorem idx_cutPos (r : Fin 4352) (j : Fin 8704) : idx_main_v56 (idx_main_v57 (ix2 r j)) = ix2 (anchor r) j :=
  funext fun a => Fin.ext (by match a with | ⟨0, _⟩ => rfl | ⟨1, _⟩ => rfl)
/-- Row r of the cut of the shifted similarities is their row 3841 + r. -/
theorem idx_cutLogits (r : Fin 4352) (j : Fin 8704) : idx_main_v60 (idx_main_v61 (ix2 r j)) = ix2 (anchor r) j :=
  funext fun a => Fin.ext (by match a with | ⟨0, _⟩ => rfl | ⟨1, _⟩ => rfl)
/-- Row r of the cut of the squared (mask − 1) is its row 3841 + r. -/
theorem idx_cutNeg (r : Fin 4352) (j : Fin 8704) : idx_main_v64 (idx_main_v65 (ix2 r j)) = ix2 (anchor r) j :=
  funext fun a => Fin.ext (by match a with | ⟨0, _⟩ => rfl | ⟨1, _⟩ => rfl)

/-- Row r of the cut product of the masks is the specification's weight of a positive of anchor r. -/
theorem posWeight_apply (x1 : IVec S256 32) (x4 : IVec S4096 32) (r : Fin 4352) (j : Fin 8704) :
    val_main_v59 (F := Ideal) x1 x4 (ix2 r j) = posWeight (labBFn x1 x4) r j := by
  unfold val_main_v59
  rw [concat_noRows, val_main_v57_apply, val_main_v56_apply, idx_cutPos, posMask_apply, diag_anchor]
  rfl

/-- Row r of the cut squared (mask − 1) is the specification's weight of a negative of anchor r. -/
theorem negWeight_apply (x1 : IVec S256 32) (x4 : IVec S4096 32) (r : Fin 4352) (j : Fin 8704) :
    val_main_v67 (F := Ideal) x1 x4 (ix2 r j) = negWeight (labBFn x1 x4) r j := by
  unfold val_main_v67
  rw [concat_noRows, val_main_v65_apply, val_main_v64_apply, idx_cutNeg, negMask_apply]
  rfl

/-- Row r of the cut shifted similarities: anchor r's similarity less anchor r's row maximum. -/
theorem shifted_apply (x0 : FVec Ideal S256x2x128 .f32) (x2 x3 : FVec Ideal S4096x128 .f32) (r : Fin 4352) (j : Fin 8704) :
    val_main_v63 (F := Ideal) x0 x2 x3 (ix2 r j)
      = sim (contrastFn x0 x2 x3) (anchor r) j - rowMax (contrastFn x0 x2 x3) r := by
  unfold val_main_v63
  rw [concat_noRows, val_main_v61_apply, val_main_v60_apply, idx_cutLogits, logits_apply]
  rfl

/-! ## The sums over a row, the logarithm and the mean -/

/-- Term k of a sum over row r reads entry (r, k). -/
theorem idx_expRow (r : Fin 4352) (k : Fin 8704) : idx_main_v70 (ix1 r) k = ix2 r k :=
  funext fun a => Fin.ext (by match a with | ⟨0, _⟩ => rfl | ⟨1, _⟩ => rfl)
/-- Term k of a sum over row r reads entry (r, k). -/
theorem idx_numerRow (r : Fin 4352) (k : Fin 8704) : idx_main_v78 (ix1 r) k = ix2 r k :=
  funext fun a => Fin.ext (by match a with | ⟨0, _⟩ => rfl | ⟨1, _⟩ => rfl)
/-- Term k of a sum over row r reads entry (r, k). -/
theorem idx_countRow (r : Fin 4352) (k : Fin 8704) : idx_main_v79 (ix1 r) k = ix2 r k :=
  funext fun a => Fin.ext (by match a with | ⟨0, _⟩ => rfl | ⟨1, _⟩ => rfl)
/-- The logarithm of a row's sum broadcast back over the columns reads row r's at every entry of row r. -/
theorem idx_logRow (r : Fin 4352) (j : Fin 8704) : idx_main_v71 (idx_main_v73 (ix2 r j)) = ix1 r :=
  funext fun a => Fin.ext (by match a with | ⟨0, _⟩ => rfl)

section
variable (x0 : FVec Ideal S256x2x128 .f32) (x1 : IVec S256 32) (x2 x3 : FVec Ideal S4096x128 .f32) (x4 : IVec S4096 32)

/-- The sum over row r of the exponentials weighted by the negatives. -/
theorem expSum_apply (r : Fin 4352) :
    val_main_v70 (F := Ideal) x0 x1 x2 x3 x4 (ix1 r) = expSum (contrastFn x0 x2 x3) (labBFn x1 x4) r := by
  rw [val_main_v70_apply, val_main_cst_11_apply, Ideal.ofBits_def, ofBits_zero, zero_add]
  unfold expSum
  refine Finset.sum_congr rfl fun k _ => ?_
  rw [idx_expRow, val_main_v69_apply, val_main_v68_apply, shifted_apply, negWeight_apply, Ideal.mulf_def,
    Ideal.hostUnary_exp_def]

/-- The shifted similarity less the logarithm of that sum. -/
theorem logProb_apply (r : Fin 4352) (j : Fin 8704) :
    val_main_v74 (F := Ideal) x0 x1 x2 x3 x4 (ix2 r j) = logProb (contrastFn x0 x2 x3) (labBFn x1 x4) r j := by
  rw [val_main_v74_apply, shifted_apply, val_main_v73_apply, val_main_v72_apply, val_main_v71_apply, idx_logRow,
    expSum_apply, Ideal.subf_def, Ideal.hostUnary_log_def]
  rfl

/-- The sum over row r of the positives' weights times the log-probabilities clipped at 0. -/
theorem numer_apply (r : Fin 4352) :
    val_main_v78 (F := Ideal) x0 x1 x2 x3 x4 (ix1 r) = numer (contrastFn x0 x2 x3) (labBFn x1 x4) r := by
  rw [val_main_v78_apply, val_main_cst_13_apply, Ideal.ofBits_def, ofBits_zero, zero_add]
  unfold numer
  refine Finset.sum_congr rfl fun k _ => ?_
  rw [idx_numerRow, val_main_v77_apply, posWeight_apply, val_main_v76_apply, val_main_v75_apply, val_main_cst_12_apply,
    logProb_apply, Ideal.mulf_def, Ideal.minimumf_def, Ideal.ofBits_def, ofBits_zero]

/-- The sum over row r of the positives' weights. -/
theorem count_apply (r : Fin 4352) :
    val_main_v79 (F := Ideal) x1 x4 (ix1 r) = Cert.SupCon.count (labBFn x1 x4) r := by
  rw [val_main_v79_apply, val_main_cst_14_apply, Ideal.ofBits_def, ofBits_zero, zero_add]
  unfold Cert.SupCon.count
  refine Finset.sum_congr rfl fun k _ => ?_
  rw [idx_countRow, posWeight_apply]

/-- The reference's one result element is the specification's loss. -/
theorem loss_apply (i : S_.Idx) :
    val_main_v84 (F := Ideal) x0 x1 x2 x3 x4 i = loss (contrastFn x0 x2 x3) (labBFn x1 x4) := by
  rw [val_main_v84_apply, val_main_v83_apply, val_main_cst_16_apply, val_main_cst_17_apply, Ideal.hostDivf_def,
    Ideal.ofBits_def, Ideal.ofBits_def]
  unfold loss
  refine congrArg (fun s => Ideal.div (Ideal.ofBits .f32 0x00000000#32 + s) (Ideal.ofBits .f32 0x45880000#32)) ?_
  refine Fintype.sum_equiv ScatterRead.idxEquiv1 _ _ fun j => ?_
  obtain ⟨r, rfl⟩ : ∃ r : Fin 4352, j = ix1 r := ⟨j 0, eq_ix1 j⟩
  rw [val_main_v82_apply, val_main_v81_apply, val_main_cst_15_apply, val_main_v80_apply, numer_apply, count_apply,
    Ideal.mulf_def, Ideal.hostDivf_def, Ideal.ofBits_def]
  rfl

end

/-- The reference's last stage, of the launch contents of its five argument buffers, is everywhere the specification's
    loss of the shared prefix of those five arguments. -/
theorem result_eq (m : (ℓ : Loc Cert.ReferenceIdeal.nD Cert.ReferenceIdeal.τ Cert.ReferenceIdeal.sig) → Buf (Elt Ideal) ℓ)
    (c : Dev Cert.ReferenceIdeal.nD) :
    val_main_v84 (F := Ideal) (m ((c.tc : Thread _ _).loc Cert.ReferenceIdeal.main_arg0))
        (m ((c.tc : Thread _ _).loc Cert.ReferenceIdeal.main_arg1)) (m ((c.tc : Thread _ _).loc Cert.ReferenceIdeal.main_arg2))
        (m ((c.tc : Thread _ _).loc Cert.ReferenceIdeal.main_arg3)) (m ((c.tc : Thread _ _).loc Cert.ReferenceIdeal.main_arg4))
      = fun _ => Cert.SupCon.loss
          (Cert.SupCon.contrastFn (m ((c.tc : Thread _ _).loc Cert.ReferenceIdeal.main_arg0))
            (m ((c.tc : Thread _ _).loc Cert.ReferenceIdeal.main_arg2))
            (m ((c.tc : Thread _ _).loc Cert.ReferenceIdeal.main_arg3)))
          (Cert.SupCon.labBFn (m ((c.tc : Thread _ _).loc Cert.ReferenceIdeal.main_arg1))
            (m ((c.tc : Thread _ _).loc Cert.ReferenceIdeal.main_arg4))) :=
  funext fun i => loss_apply _ _ _ _ _ i

end Cert.ReferenceIdeal.RefValue

end
-- ==== Proof.lean ====
/-
  The certificate: the supervised-contrastive loss with a feature queue, computed by two tiled kernels
  (a first sweep for each anchor row's maximum and masked log-sum-exp over all 8704 contrast rows, a
  second sweep for the positive-pair sums), against the reference that builds the whole 8704 x 8704
  similarity matrix and slices it.

  Both programs build the same 8704 contrast rows and the same labels from the five inputs, and at
  the ideal instance both compute one function of those (Value/Spec.lean): the kernels reach it block
  by block — the running maximum and the rescaled running sum over the four column blocks are the
  whole-row maximum and sum because the entries are finite reals, which is where the precondition is
  used —, the reference reaches it entry by entry. The one constant on which the two sides differ is
  the temperature: the kernels multiply by a folded reciprocal where the reference divides by the
  32-bit float nearest to 0.07; read as the exact reciprocal of that float, which is what the two
  named-constant statements below assert of it, the two agree on every extended real.

  The frames of the two kernel programs are one text, generic in the float family: each region's
  body is run once per control case (first, middle and last column block), the two scratch buffers a
  kernel carries between grid points are tracked point by point, and the two regions are joined over
  the host operations around them.
-/
import proofs.«123850_j8598524526701_1_alg».proof.Defs
import proofs.«123850_j8598524526701_1_alg».proof.Proof.Gen.Kernel
import proofs.«123850_j8598524526701_1_alg».proof.Proof.Gen.KernelIdeal
import proofs.«123850_j8598524526701_1_alg».proof.Proof.Gen.ReferenceIdeal
import proofs.«123850_j8598524526701_1_alg».proof.Proof.Gen.Pre_finite_inputs
import proofs.«123850_j8598524526701_1_alg».proof.Proof.Kernel.Whole
import proofs.«123850_j8598524526701_1_alg».proof.Proof.KernelIdeal.Whole
import proofs.«123850_j8598524526701_1_alg».proof.Proof.Reference.Staged
import proofs.«123850_j8598524526701_1_alg».proof.Proof.Value.Kernel
import proofs.«123850_j8598524526701_1_alg».proof.Proof.Value.Reference
import Idealize.ShloMosaic.Adequacy
import Idealize.ShloMosaic.Init

noncomputable section

namespace Cert.Proof

open Idealize.ShloMosaic Idealize.ShloMosaic.TcCoe Idealize.SL.Sem

/-- The word-level kernel program runs to the end and leaves its arguments as launched. -/
theorem frame_kernel : Cert.frame_Kernel (hKernel := Cert.Kernel.Gen.facts) (hPre_finite_inputs := Cert.Pre_finite_inputs.Gen.facts) :=
  fun m ρ _ => Cert.Kernel.Whole.frame (F := Bits) m ρ

/-- So does the idealized one. -/
theorem frame_kernelIdeal : Cert.frame_KernelIdeal (hKernelIdeal := Cert.KernelIdeal.Gen.facts) (hPre_finite_inputs := Cert.Pre_finite_inputs.Gen.facts) :=
  fun m ρ _ => Cert.KernelIdeal.Whole.frame (F := Ideal) m ρ

/-- The reference is host operations only: its run, with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2)
    (Cert.ReferenceIdeal.Staged.run_staged (F := Ideal) m ρ)

/-- The reciprocal temperature in each of the two kernels is named the exact reciprocal of the
    32-bit float nearest to 0.07. -/
theorem preserves : Cert.preserves_Kernel_KernelIdeal :=
  ⟨IdealRules.named_const.statement Cert.KernelIdeal.κ "inv_temp" .f32 0x41649249#32 ((134217728 / 9395241 : ℝ) : EReal) rfl,
   IdealRules.named_const.statement Cert.KernelIdeal.κ "inv_temp" .f32 0x41649249#32 ((134217728 / 9395241 : ℝ) : EReal) rfl⟩

/-- From memories agreeing on the five inputs both programs end with the loss of the specification
    at the contrast rows and labels built from those inputs. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, _, _, Cert.SupCon.kernel_run m ρ hpre, ?_⟩
  refine (θ_run Cert.ReferenceIdeal.defs _ _).mono (fun _ h c => ?_) (Cert.ReferenceIdeal.Staged.run_staged (F := Ideal) m' ρ')
  obtain ⟨h0, h1, h2, hargs⟩ := h c
  -- the reference's last stage is the loss at ITS arguments, which are the kernel program's
  have hres := (Cert.ReferenceIdeal.RefValue.result_eq m' c).trans
    (show _ = (fun _ => Cert.SupCon.loss (Cert.SupCon.rowsOf m c) (Cert.SupCon.labelsOf m c)) by
      rw [(hagree c).1, (hagree c).2.1, (hagree c).2.2.1, (hagree c).2.2.2.1, (hagree c).2.2.2.2])
  exact ⟨h0.trans hres, h1.trans hres, h2.trans hres, hargs⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
